-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg15 : FVec F S1 .f32) (main_v48 : IVec S_ 1) (main_v49 : FVec F S16x1 .f32) (main_v50 : FVec F S16x1 .f32) : IVec S_ 1 :=
  let main_v51 : IVec S16x1 1 := cmpf .olt main_v49 main_v50
  let main_c_19 : IVec S_ 1 := constantI S_ 1 1#1
  let main_v52 : IVec S_ 1 := (fun x v => Host.reduce IntOp.andi x v reducesTo_S16x1_S_d0_1 h_S_) main_v51 main_c_19
  let main_v53 : IVec S_ 1 := andi main_v48 main_v52
  let main_v54 : FVec F S1 .f32 := Host.absf main_arg15
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg11 : FVec F S32 .f32) (main_arg12 : FVec F S32x16 .f32) (main_arg13 : FVec F S16 .f32) (main_arg14 : FVec F S16x1 .f32) (main_arg15 : FVec F S1 .f32) (main_v33 : IVec S_ 1) : IVec S_ 1 :=
  let main_v34 : FVec F S32 .f32 := Host.absf main_arg11
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg12
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg13
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x1 .f32 := Host.absf main_arg14
  let main_cst_18 : FVec F S_ .f32 := constant S_ .f32 0x7F800000#32
  let main_v50 : FVec F S16x1 .f32 := broadcastInDim S16x1 ![] bcast_S_S16x1 main_cst_18
  fn_part3 (F := F) main_arg15 main_v48 main_v49 main_v50

def fn_part1 {F : FTy → Type} [FloatOps F] (main_arg8 : FVec F S128x64 .f32) (main_arg9 : FVec F S64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg8
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg10
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg11 main_arg12 main_arg13 main_arg14 main_arg15 main_v33

def fn {F : FTy → Type} [FloatOps F] (main_arg0 : FVec F S100000x32 .f32) (main_arg1 : IVec S2x1600000 32) (main_arg2 : IVec S100000 32) (main_arg3 : FVec F S100000x32 .f32) (main_arg4 : IVec S2x1600000 32) (main_arg5 : IVec S100000 32) (main_arg6 : FVec F S32x64 .f32) (main_arg7 : FVec F S64 .f32) (main_arg8 : FVec F S128x64 .f32) (main_arg9 : FVec F S64 .f32) (main_arg10 : FVec F S64x32 .f32) (main_arg11 : FVec F S32 .f32) (main_arg12 : FVec F S32x16 .f32) (main_arg13 : FVec F S16 .f32) (main_arg14 : FVec F S16x1 .f32) (main_arg15 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x64 .f32 := Host.absf main_arg6
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_arg12 main_arg13 main_arg14 main_arg15 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1600000x1 : Shape := ⟨2, ![1600000, 1]⟩
abbrev S1600000x64 : Shape := ⟨2, ![1600000, 64]⟩
abbrev S1x64 : Shape := ⟨2, ![1, 64]⟩
abbrev S2x1024x64 : Shape := ⟨3, ![2, 1024, 64]⟩
abbrev S2x1024x1 : Shape := ⟨3, ![2, 1024, 1]⟩
abbrev S2000x64 : Shape := ⟨2, ![2000, 64]⟩
abbrev S2000x1 : Shape := ⟨2, ![2000, 1]⟩
abbrev S1x1024x64 : Shape := ⟨3, ![1, 1024, 64]⟩
abbrev S1x1024x1 : Shape := ⟨3, ![1, 1024, 1]⟩
abbrev S1024x64 : Shape := ⟨2, ![1024, 64]⟩
abbrev S1024x1 : Shape := ⟨2, ![1024, 1]⟩
abbrev S2000x1024 : Shape := ⟨2, ![2000, 1024]⟩
abbrev S1024x128 : Shape := ⟨2, ![1024, 128]⟩
abbrev S1x32 : Shape := ⟨2, ![1, 32]⟩
abbrev S1x16 : Shape := ⟨2, ![1, 16]⟩
abbrev S1x1 : Shape := ⟨2, ![1, 1]⟩
abbrev S1024x32 : Shape := ⟨2, ![1024, 32]⟩
abbrev S1024x16 : Shape := ⟨2, ![1024, 16]⟩

abbrev nBuf : Space → Nat
  | .hbm => 142
  | .vmem => 50
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S100000x32, .f32⟩
  | 4 => ⟨S2x1600000, .i32⟩
  | 5 => ⟨S100000, .i32⟩
  | 6 => ⟨S32x64, .f32⟩
  | 7 => ⟨S64, .f32⟩
  | 8 => ⟨S128x64, .f32⟩
  | 9 => ⟨S64, .f32⟩
  | 10 => ⟨S64x32, .f32⟩
  | 11 => ⟨S32, .f32⟩
  | 12 => ⟨S32x16, .f32⟩
  | 13 => ⟨S16, .f32⟩
  | 14 => ⟨S16x1, .f32⟩
  | 15 => ⟨S1, .f32⟩
  | 16 => ⟨S1x1600000, .i32⟩
  | 17 => ⟨S1600000, .i32⟩
  | 18 => ⟨S100000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S100000x1, .f32⟩
  | 38 => ⟨S100000x64, .bf16⟩
  | 39 => ⟨S1x1600000, .i32⟩
  | 40 => ⟨S1600000, .i32⟩
  | 41 => ⟨S1x1600000, .i32⟩
  | 42 => ⟨S1600000, .i32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x64, .bf16⟩
  | 52 => ⟨S1600000x64, .f32⟩
  | 53 => ⟨S_, .f32⟩
  | 54 => ⟨S100000x64, .f32⟩
  | 55 => ⟨S1600000x1, .i32⟩
  | 56 => ⟨S100000x64, .f32⟩
  | 57 => ⟨S100000x1, .i32⟩
  | 58 => ⟨S1x64, .f32⟩
  | 59 => ⟨S2x1024x64, .f32⟩
  | 60 => ⟨S2x1024x1, .f32⟩
  | 61 => ⟨S1x1024x64, .f32⟩
  | 62 => ⟨S1024x64, .f32⟩
  | 63 => ⟨S1x1024x64, .f32⟩
  | 64 => ⟨S1024x64, .f32⟩
  | 65 => ⟨S1024x64, .f32⟩
  | 66 => ⟨S1x1024x1, .f32⟩
  | 67 => ⟨S1024x1, .f32⟩
  | 68 => ⟨S1x1024x1, .f32⟩
  | 69 => ⟨S1024x1, .f32⟩
  | 70 => ⟨S1024x1, .f32⟩
  | 71 => ⟨S_, .f32⟩
  | 72 => ⟨S1024x1, .f32⟩
  | 73 => ⟨S1024x1, .f32⟩
  | 74 => ⟨S1024x64, .f32⟩
  | 75 => ⟨S1024x64, .f32⟩
  | 76 => ⟨S1x1600000, .i32⟩
  | 77 => ⟨S1600000, .i32⟩
  | 78 => ⟨S100000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S_, .f32⟩
  | 90 => ⟨S100000, .f32⟩
  | 91 => ⟨S100000, .f32⟩
  | 92 => ⟨S100000, .f32⟩
  | 93 => ⟨S_, .f32⟩
  | 94 => ⟨S_, .f32⟩
  | 95 => ⟨S100000, .f32⟩
  | 96 => ⟨S100000, .f32⟩
  | 97 => ⟨S100000x1, .f32⟩
  | 98 => ⟨S100000x64, .bf16⟩
  | 99 => ⟨S1x1600000, .i32⟩
  | 100 => ⟨S1600000, .i32⟩
  | 101 => ⟨S1x1600000, .i32⟩
  | 102 => ⟨S1600000, .i32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .bf16⟩
  | 112 => ⟨S1600000x64, .f32⟩
  | 113 => ⟨S_, .f32⟩
  | 114 => ⟨S100000x64, .f32⟩
  | 115 => ⟨S1600000x1, .i32⟩
  | 116 => ⟨S100000x64, .f32⟩
  | 117 => ⟨S100000x1, .i32⟩
  | 118 => ⟨S1x64, .f32⟩
  | 119 => ⟨S2x1024x64, .f32⟩
  | 120 => ⟨S2x1024x1, .f32⟩
  | 121 => ⟨S1x1024x64, .f32⟩
  | 122 => ⟨S1024x64, .f32⟩
  | 123 => ⟨S1x1024x64, .f32⟩
  | 124 => ⟨S1024x64, .f32⟩
  | 125 => ⟨S1024x64, .f32⟩
  | 126 => ⟨S1x1024x1, .f32⟩
  | 127 => ⟨S1024x1, .f32⟩
  | _ => ⟨S100000x32, .f32⟩

abbrev hbmTy0_1 (i : Nat) : BufTy := match i % 128 with
  | 0 => ⟨S1x1024x1, .f32⟩
  | 1 => ⟨S1024x1, .f32⟩
  | 2 => ⟨S1024x1, .f32⟩
  | 3 => ⟨S_, .f32⟩
  | 4 => ⟨S1024x1, .f32⟩
  | 5 => ⟨S1024x1, .f32⟩
  | 6 => ⟨S1024x64, .f32⟩
  | 7 => ⟨S1024x64, .f32⟩
  | 8 => ⟨S1024x128, .f32⟩
  | 9 => ⟨S1x64, .f32⟩
  | 10 => ⟨S1x32, .f32⟩
  | 11 => ⟨S1x16, .f32⟩
  | 12 => ⟨S1x1, .f32⟩
  | 13 => ⟨S1024x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S2000x64, .f32⟩
  | .local _ .vmem, ⟨8, _⟩ => ⟨S2000x64, .f32⟩
  | .local _ .vmem, ⟨9, _⟩ => ⟨S2000x64, .bf16⟩
  | .local _ .vmem, ⟨10, _⟩ => ⟨S2000x64, .bf16⟩
  | .local _ .vmem, ⟨11, _⟩ => ⟨S2000x1, .f32⟩
  | .local _ .vmem, ⟨12, _⟩ => ⟨S2000x1, .f32⟩
  | .local _ .vmem, ⟨13, _⟩ => ⟨S2000x1, .i32⟩
  | .local _ .vmem, ⟨14, _⟩ => ⟨S2000x1, .i32⟩
  | .local _ .vmem, ⟨15, _⟩ => ⟨S1x64, .f32⟩
  | .local _ .vmem, ⟨16, _⟩ => ⟨S1x1024x64, .f32⟩
  | .local _ .vmem, ⟨17, _⟩ => ⟨S1x1024x64, .f32⟩
  | .local _ .vmem, ⟨18, _⟩ => ⟨S1x1024x1, .f32⟩
  | .local _ .vmem, ⟨19, _⟩ => ⟨S1x1024x1, .f32⟩
  | .local _ .vmem, ⟨20, _⟩ => ⟨S5000x32, .f32⟩
  | .local _ .vmem, ⟨21, _⟩ => ⟨S5000x32, .f32⟩
  | .local _ .vmem, ⟨22, _⟩ => ⟨S32x64, .f32⟩
  | .local _ .vmem, ⟨23, _⟩ => ⟨S5000x1, .f32⟩
  | .local _ .vmem, ⟨24, _⟩ => ⟨S5000x1, .f32⟩
  | .local _ .vmem, ⟨25, _⟩ => ⟨S5000x64, .bf16⟩
  | .local _ .vmem, ⟨26, _⟩ => ⟨S5000x64, .bf16⟩
  | .local _ .vmem, ⟨27, _⟩ => ⟨S2000x64, .f32⟩
  | .local _ .vmem, ⟨28, _⟩ => ⟨S2000x64, .f32⟩
  | .local _ .vmem, ⟨29, _⟩ => ⟨S2000x64, .bf16⟩
  | .local _ .vmem, ⟨30, _⟩ => ⟨S2000x64, .bf16⟩
  | .local _ .vmem, ⟨31, _⟩ => ⟨S2000x1, .f32⟩
  | .local _ .vmem, ⟨32, _⟩ => ⟨S2000x1, .f32⟩
  | .local _ .vmem, ⟨33, _⟩ => ⟨S2000x1, .i32⟩
  | .local _ .vmem, ⟨34, _⟩ => ⟨S2000x1, .i32⟩
  | .local _ .vmem, ⟨35, _⟩ => ⟨S1x64, .f32⟩
  | .local _ .vmem, ⟨36, _⟩ => ⟨S1x1024x64, .f32⟩
  | .local _ .vmem, ⟨37, _⟩ => ⟨S1x1024x64, .f32⟩
  | .local _ .vmem, ⟨38, _⟩ => ⟨S1x1024x1, .f32⟩
  | .local _ .vmem, ⟨39, _⟩ => ⟨S1x1024x1, .f32⟩
  | .local _ .vmem, ⟨40, _⟩ => ⟨S1024x128, .f32⟩
  | .local _ .vmem, ⟨41, _⟩ => ⟨S128x64, .f32⟩
  | .local _ .vmem, ⟨42, _⟩ => ⟨S1x64, .f32⟩
  | .local _ .vmem, ⟨43, _⟩ => ⟨S64x32, .f32⟩
  | .local _ .vmem, ⟨44, _⟩ => ⟨S1x32, .f32⟩
  | .local _ .vmem, ⟨45, _⟩ => ⟨S32x16, .f32⟩
  | .local _ .vmem, ⟨46, _⟩ => ⟨S1x16, .f32⟩
  | .local _ .vmem, ⟨47, _⟩ => ⟨S16x1, .f32⟩
  | .local _ .vmem, ⟨48, _⟩ => ⟨S1x1, .f32⟩
  | .local _ .vmem, ⟨49, _⟩ => ⟨S1024x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33_0 : Ref sig .tc := ⟨.hbm, 59, rfl⟩
abbrev main_v33_1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_6 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_11 : Ref sig .tc := ⟨.hbm, 93, rfl⟩
abbrev main_call1_v0 : Ref sig .tc := ⟨.hbm, 94, rfl⟩
abbrev main_call1_v1 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_12 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81_0 : Ref sig .tc := ⟨.hbm, 119, rfl⟩
abbrev main_v81_1 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_15 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc3_sem4_0 : DmaSem sig := 35
abbrev cc3_sem5_0 : DmaSem sig := 36
abbrev cc3_sem5_1 : DmaSem sig := 37
abbrev cc3_sem6_0 : DmaSem sig := 38
abbrev cc3_sem6_1 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 25], ![false, false]⟩

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 25], ![false, false]⟩

def cc3_transform_0 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x1024x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1x1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1024x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x16 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x16 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S16x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1024x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

class Facts₀ : Prop where
  slices_S2x1600000_S1x1600000_1_0 : S2x1600000.Slices ![1, 0] S1x1600000
  shapeCasts_S1x1600000_S1600000 : S1x1600000.ShapeCasts S1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  slices_S2x1600000_S1x1600000_0_0 : S2x1600000.Slices ![0, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  iota_S2000x1024_d1_w32 : S2000x1024.Iotas .tc 32 [1]
  broadcasts_S2000x1_S2000x1024 : S2000x1.Broadcasts S2000x1024
  natLt_1_32 : 1 < 32
  slices_S2x1024x64_S1x1024x64_0_0_0 : S2x1024x64.Slices ![0, 0, 0] S1x1024x64
  slices_S2x1024x64_S1x1024x64_1_0_0 : S2x1024x64.Slices ![1, 0, 0] S1x1024x64
  slices_S2x1024x1_S1x1024x1_0_0_0 : S2x1024x1.Slices ![0, 0, 0] S1x1024x1
  slices_S2x1024x1_S1x1024x1_1_0_0 : S2x1024x1.Slices ![1, 0, 0] S1x1024x1
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  concatenates_S1024x64_S1024x64_S1024x128_d1 : Shape.Concatenates [S1024x64, S1024x64] S1024x128 1
  shapeCasts_S32_S1x32 : S32.ShapeCasts S1x32
  shapeCasts_S16_S1x16 : S16.ShapeCasts S1x16
  shapeCasts_S1_S1x1 : S1.ShapeCasts S1x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  broadcasts_S1x64_S1024x64 : S1x64.Broadcasts S1024x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S1700000x1_S1700000_n_0_0_1_wf : ScatterDims.WF S100000 S1700000x1 S1700000 [] [0] [0] 1
  dot_S5000x32_S32x64_S5000x64_1_0_0_1_n_n_wf : DotDims.WF S5000x32 S32x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x1024_S2000x64_S1024x64_0_0_1_1_n_n_wf : DotDims.WF S2000x1024 S2000x64 S1024x64 [0] [0] [1] [1] [] []
  dot_S2000x1024_S2000x1_S1024x1_0_0_1_1_n_n_wf : DotDims.WF S2000x1024 S2000x1 S1024x1 [0] [0] [1] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x1_S1024x1_1_0_0_1_n_n_wf : DotDims.WF S1024x16 S16x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .bf16 = 32 ∨ (Rect.block (s := S100000x64) S2000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S100000x1.size a
  hwx1_3 : ∀ i : grid1.Coords, EltTy.bits .i32 = 32 ∨ (Rect.block (s := S100000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x64.size a ≤ S2x1024x64.size a
  hwx1_5 : ∀ i : grid1.Coords, EltTy.bits .f32 = 32 ∨ (Rect.block (s := S2x1024x64) S1x1024x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x1.size a ≤ S2x1024x1.size a
  hwx1_6 : ∀ i : grid1.Coords, EltTy.bits .f32 = 32 ∨ (Rect.block (s := S2x1024x1) S1x1024x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .bf16 = 32 ∨ (Rect.block (s := S100000x64) S5000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .bf16 = 32 ∨ (Rect.block (s := S100000x64) S2000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x64.size a ≤ S2x1024x64.size a
  hwx3_5 : ∀ i : grid3.Coords, EltTy.bits .f32 = 32 ∨ (Rect.block (s := S2x1024x64) S1x1024x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1024x1.size a ≤ S2x1024x1.size a
  hwx3_6 : ∀ i : grid3.Coords, EltTy.bits .f32 = 32 ∨ (Rect.block (s := S2x1024x1) S1x1024x1.size (cc3_transform_6 i) (hinb3_6 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S1024x128.size a
  hwx4_0 : ∀ i : grid4.Coords, EltTy.bits .f32 = 32 ∨ (Rect.block (s := S1024x128) S1024x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x32.size a ≤ S1x32.size a
  hwx4_4 : ∀ i : grid4.Coords, EltTy.bits .f32 = 32 ∨ (Rect.block (s := S1x32) S1x32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x16.size a ≤ S32x16.size a
  hwx4_5 : ∀ i : grid4.Coords, EltTy.bits .f32 = 32 ∨ (Rect.block (s := S32x16) S32x16.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x16.size a ≤ S1x16.size a
  hwx4_6 : ∀ i : grid4.Coords, EltTy.bits .f32 = 32 ∨ (Rect.block (s := S1x16) S1x16.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S16x1.size a ≤ S16x1.size a
  hwx4_7 : ∀ i : grid4.Coords, EltTy.bits .f32 = 32 ∨ (Rect.block (s := S16x1) S16x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1024x1.size a ≤ S1024x1.size a
  hwx4_9 : ∀ i : grid4.Coords, EltTy.bits .f32 = 32 ∨ (Rect.block (s := S1024x1) S1024x1.size (cc4_transform_9 i) (hinb4_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def dot_S2000x1024_S2000x1_S1024x1_0_0_1_1_n_n : DotDims S2000x1024 S2000x1 S1024x1 where
  lhsContracting := [0]
  rhsContracting := [0]
  lhsNonContracting := [1]
  rhsNonContracting := [1]
  lhsBatch := []
  rhsBatch := []
  wf := dot_S2000x1024_S2000x1_S1024x1_0_0_1_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33_0) S1x1024x64.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33_1) S1x1024x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v63) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v78) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v79) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81_0) S1x1024x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v81_1) S1x1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v96) S1024x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S1x32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S32x16.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v99) S1x16.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg14) S16x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v100) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v101) S1024x1.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S128x64 : Shape := ⟨2, ![128, 64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x128 : Shape := ⟨2, ![1024, 128]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1x1 : Shape := ⟨2, ![1, 1]⟩

abbrev nBuf : Space → Nat
  | .hbm => 214
  | .vmem => 0
  | .smem => 0
  | _ => 0

abbrev hbmTy0_0 (i : Nat) : BufTy := match i % 128 with
  | 0 => ⟨S100000x32, .f32⟩
  | 1 => ⟨S2x1600000, .i32⟩
  | 2 => ⟨S100000, .i32⟩
  | 3 => ⟨S100000x32, .f32⟩
  | 4 => ⟨S2x1600000, .i32⟩
  | 5 => ⟨S100000, .i32⟩
  | 6 => ⟨S32x64, .f32⟩
  | 7 => ⟨S64, .f32⟩
  | 8 => ⟨S128x64, .f32⟩
  | 9 => ⟨S64, .f32⟩
  | 10 => ⟨S64x32, .f32⟩
  | 11 => ⟨S32, .f32⟩
  | 12 => ⟨S32x16, .f32⟩
  | 13 => ⟨S16, .f32⟩
  | 14 => ⟨S16x1, .f32⟩
  | 15 => ⟨S1, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x1, .f32⟩
  | 70 => ⟨S1700000x64, .f32⟩
  | 71 => ⟨S1700000x64, .f32⟩
  | 72 => ⟨S_, .f32⟩
  | 73 => ⟨S100000x64, .f32⟩
  | 74 => ⟨S1700000x1, .i32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S_, .f32⟩
  | 83 => ⟨S1024x64, .f32⟩
  | 84 => ⟨S100000x1, .i32⟩
  | 85 => ⟨S1024x64, .f32⟩
  | 86 => ⟨S_, .f32⟩
  | 87 => ⟨S100000, .f32⟩
  | 88 => ⟨S_, .f32⟩
  | 89 => ⟨S1024, .f32⟩
  | 90 => ⟨S100000x1, .i32⟩
  | 91 => ⟨S1024, .f32⟩
  | 92 => ⟨S_, .f32⟩
  | 93 => ⟨S1024, .f32⟩
  | 94 => ⟨S1024, .f32⟩
  | 95 => ⟨S1024x1, .f32⟩
  | 96 => ⟨S1024x64, .f32⟩
  | 97 => ⟨S1024x64, .f32⟩
  | 98 => ⟨S100000, .i32⟩
  | 99 => ⟨S1x1600000, .i32⟩
  | 100 => ⟨S1600000, .i32⟩
  | 101 => ⟨S1700000, .i32⟩
  | 102 => ⟨S1x1600000, .i32⟩
  | 103 => ⟨S1600000, .i32⟩
  | 104 => ⟨S1700000, .i32⟩
  | 105 => ⟨S_, .f32⟩
  | 106 => ⟨S1700000, .f32⟩
  | 107 => ⟨S_, .f32⟩
  | 108 => ⟨S100000, .f32⟩
  | 109 => ⟨S1700000x1, .i32⟩
  | 110 => ⟨S100000, .f32⟩
  | 111 => ⟨S_, .f32⟩
  | 112 => ⟨S100000, .f32⟩
  | 113 => ⟨S100000, .i1⟩
  | 114 => ⟨S_, .f32⟩
  | 115 => ⟨S100000, .f32⟩
  | 116 => ⟨S100000, .f32⟩
  | 117 => ⟨S100000, .f32⟩
  | 118 => ⟨S_, .f32⟩
  | 119 => ⟨S_, .f32⟩
  | 120 => ⟨S100000, .f32⟩
  | 121 => ⟨S100000, .f32⟩
  | 122 => ⟨S_, .i32⟩
  | 123 => ⟨S1700000, .i32⟩
  | 124 => ⟨S1700000, .i1⟩
  | 125 => ⟨S_, .i32⟩
  | 126 => ⟨S1700000, .i32⟩
  | 127 => ⟨S1700000, .i32⟩
  | _ => ⟨S100000x32, .f32⟩

abbrev hbmTy0_1 (i : Nat) : BufTy := match i % 128 with
  | 0 => ⟨S1700000, .i32⟩
  | 1 => ⟨S1700000x1, .i32⟩
  | 2 => ⟨S1700000, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000, .f32⟩
  | 12 => ⟨S1700000, .f32⟩
  | 13 => ⟨S100000x64, .f32⟩
  | 14 => ⟨S_, .i32⟩
  | 15 => ⟨S1700000, .i32⟩
  | 16 => ⟨S1700000, .i1⟩
  | 17 => ⟨S_, .i32⟩
  | 18 => ⟨S1700000, .i32⟩
  | 19 => ⟨S1700000, .i32⟩
  | 20 => ⟨S1700000, .i32⟩
  | 21 => ⟨S1700000x1, .i32⟩
  | 22 => ⟨S1700000x64, .f32⟩
  | 23 => ⟨S1700000x1, .f32⟩
  | 24 => ⟨S1700000x64, .f32⟩
  | 25 => ⟨S1700000x64, .f32⟩
  | 26 => ⟨S_, .f32⟩
  | 27 => ⟨S100000x64, .f32⟩
  | 28 => ⟨S1700000x1, .i32⟩
  | 29 => ⟨S100000x64, .f32⟩
  | 30 => ⟨S1x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S1024x64, .f32⟩
  | 38 => ⟨S100000x1, .i32⟩
  | 39 => ⟨S1024x64, .f32⟩
  | 40 => ⟨S_, .f32⟩
  | 41 => ⟨S100000, .f32⟩
  | 42 => ⟨S_, .f32⟩
  | 43 => ⟨S1024, .f32⟩
  | 44 => ⟨S100000x1, .i32⟩
  | 45 => ⟨S1024, .f32⟩
  | 46 => ⟨S_, .f32⟩
  | 47 => ⟨S1024, .f32⟩
  | 48 => ⟨S1024, .f32⟩
  | 49 => ⟨S1024x1, .f32⟩
  | 50 => ⟨S1024x64, .f32⟩
  | 51 => ⟨S1024x64, .f32⟩
  | 52 => ⟨S1024x128, .f32⟩
  | 53 => ⟨S1024x64, .f32⟩
  | 54 => ⟨S1x64, .f32⟩
  | 55 => ⟨S1024x64, .f32⟩
  | 56 => ⟨S1024x64, .f32⟩
  | 57 => ⟨S_, .f32⟩
  | 58 => ⟨S1024x64, .f32⟩
  | 59 => ⟨S1024x64, .f32⟩
  | 60 => ⟨S1024x32, .f32⟩
  | 61 => ⟨S1x32, .f32⟩
  | 62 => ⟨S1024x32, .f32⟩
  | 63 => ⟨S1024x32, .f32⟩
  | 64 => ⟨S_, .f32⟩
  | 65 => ⟨S1024x32, .f32⟩
  | 66 => ⟨S1024x32, .f32⟩
  | 67 => ⟨S1024x16, .f32⟩
  | 68 => ⟨S1x16, .f32⟩
  | 69 => ⟨S1024x16, .f32⟩
  | 70 => ⟨S1024x16, .f32⟩
  | 71 => ⟨S_, .f32⟩
  | 72 => ⟨S1024x16, .f32⟩
  | 73 => ⟨S1024x16, .f32⟩
  | 74 => ⟨S1024x1, .f32⟩
  | 75 => ⟨S1x1, .f32⟩
  | 76 => ⟨S1024x1, .f32⟩
  | 77 => ⟨S1024x1, .f32⟩
  | 78 => ⟨S1024x1, .f32⟩
  | 79 => ⟨S1024x1, .f32⟩
  | 80 => ⟨S_, .f32⟩
  | 81 => ⟨S1024x1, .f32⟩
  | 82 => ⟨S1024x1, .f32⟩
  | 83 => ⟨S_, .f32⟩
  | 84 => ⟨S1024x1, .f32⟩
  | 85 => ⟨S1024x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call1_cst : Ref sig .tc := ⟨.hbm, 79, rfl⟩
abbrev main_call1_v0 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_cst_12 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_13 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_14 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_16 : Ref sig .tc := ⟨.hbm, 111, rfl⟩
abbrev main_v73 : Ref sig .tc := ⟨.hbm, 112, rfl⟩
abbrev main_v74 : Ref sig .tc := ⟨.hbm, 113, rfl⟩
abbrev main_cst_17 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_18 : Ref sig .tc := ⟨.hbm, 118, rfl⟩
abbrev main_call2_v0 : Ref sig .tc := ⟨.hbm, 119, rfl⟩
abbrev main_call2_v1 : Ref sig .tc := ⟨.hbm, 120, rfl⟩
abbrev main_v78 : Ref sig .tc := ⟨.hbm, 121, rfl⟩
abbrev main_c_19 : Ref sig .tc := ⟨.hbm, 122, rfl⟩
abbrev main_v79 : Ref sig .tc := ⟨.hbm, 123, rfl⟩
abbrev main_v80 : Ref sig .tc := ⟨.hbm, 124, rfl⟩
abbrev main_c_20 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_c_21 : Ref sig .tc := ⟨.hbm, 131, rfl⟩
abbrev main_v86 : Ref sig .tc := ⟨.hbm, 132, rfl⟩
abbrev main_v87 : Ref sig .tc := ⟨.hbm, 133, rfl⟩
abbrev main_c_22 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_c_23 : Ref sig .tc := ⟨.hbm, 142, rfl⟩
abbrev main_v95 : Ref sig .tc := ⟨.hbm, 143, rfl⟩
abbrev main_v96 : Ref sig .tc := ⟨.hbm, 144, rfl⟩
abbrev main_c_24 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_call3_cst : Ref sig .tc := ⟨.hbm, 161, rfl⟩
abbrev main_call3_v0 : Ref sig .tc := ⟨.hbm, 162, rfl⟩
abbrev main_v111 : Ref sig .tc := ⟨.hbm, 163, rfl⟩
abbrev main_cst_26 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_27 : Ref sig .tc := ⟨.hbm, 168, rfl⟩
abbrev main_v115 : Ref sig .tc := ⟨.hbm, 169, rfl⟩
abbrev main_cst_28 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_cst_29 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_call4_cst : Ref sig .tc := ⟨.hbm, 185, rfl⟩
abbrev main_call4_v0 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_call5_cst : Ref sig .tc := ⟨.hbm, 192, rfl⟩
abbrev main_call5_v0 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_call6_cst : Ref sig .tc := ⟨.hbm, 199, rfl⟩
abbrev main_call6_v0 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_cst_30 : Ref sig .tc := ⟨.hbm, 208, rfl⟩
abbrev main_v146 : Ref sig .tc := ⟨.hbm, 209, rfl⟩
abbrev main_v147 : Ref sig .tc := ⟨.hbm, 210, rfl⟩
abbrev main_cst_31 : Ref sig .tc := ⟨.hbm, 211, rfl⟩
abbrev main_v148 : Ref sig .tc := ⟨.hbm, 212, rfl⟩
abbrev main_v149 : Ref sig .tc := ⟨.hbm, 213, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x128_d1 : Shape.Concatenates [S1024x64, S1024x64] S1024x128 1
  bcast_S1x64_S1024x64_0_1 : S1x64.BroadcastsInDim S1024x64 (![0, 1] : Fin 2 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  bcast_S_S1024x1 : S_.BroadcastsInDim S1024x1 (![] : Fin 0 → Fin S1024x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x1_S1024x1_1_0_0_1_n_n_wf : DotDims.WF S1024x16 S16x1 S1024x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x1_S1024x1_1_0_0_1_n_n : DotDims S1024x16 S16x1 S1024x1 where
  lhsContracting := [1]
  rhsContracting := [0]
  lhsNonContracting := [0]
  rhsNonContracting := [1]
  lhsBatch := []
  rhsBatch := []
  wf := dot_S1024x16_S16x1_S1024x1_1_0_0_1_n_n_wf

class Facts : Prop extends Facts₀ where

variable [Facts]
-- ==== Proof.Spec.lean ====
/-
  The mathematics both programs compute, index by index, over the extended reals.

  A graph of 100000 nodes and 1600000 directed edges; node features x [100000, 32]; one dense layer W [32, 64] with
  bias b [64]; a graph id per node in [0, 1024).  With h = x · W, and d_i the inverse square root of node i's in-degree
  counted with a self-loop, a graph convolution sends node i to

      out_i = (∑ over the edges e into i and the self-loop of i) h_src(e) · (d_src(e) · d_i)  + b,

  followed by max(·, 0) and the mean over each graph's nodes.  One program forms that sum over the 1700000 edges and
  self-loops at once, with the weight d_src · d_dst on every term.  The other scales the rows first, h'_i = h_i · d_i, sums
  h'_src(e) over the 1600000 edges into i, adds the self-loop's h'_i, and multiplies by d_i once: the same number when
  every entry is real, by distributivity.  It then pools with a 0/1 matrix product in two halves of 50000 nodes and adds
  the halves, where the first program adds each node's row into its graph's row.  The definitions below state each of
  these quantities as a finite sum over explicit index types; nothing here mentions a program.
-/
import Idealize.ShloMosaic.PureOps.Ideal
import Idealize.ShloMosaic.Lib.ValueIdx

open scoped BigOperators

noncomputable section

namespace Cert.Spec

open Idealize.ShloMosaic Idealize.ShloMosaic.ValueIdx

/-! ## Index words -/

/-- An index word below zero is taken from the end: w + 100000 when w < 0 as a signed word, else w. -/
def wrapW (w : BitVec 32) : BitVec 32 := Scalar.select (IntOp.cmpi .slt w 0#32) (IntOp.addi w 100000#32) w

/-- The row a lookup reads for the start word w: w read signed, clamped into [0, 99999]. -/
def rowOf (w : BitVec 32) : Fin 100000 := ⟨min w.toInt.toNat 99999, by omega⟩

/-- A column of 1600000 edge words followed by the 100000 node numbers: position e' < 1600000 is edge e',
    position 1600000 + j is the word j (the self-loop of node j). -/
def loopW (col : Fin 1600000 → BitVec 32) (e' : Fin 1700000) : BitVec 32 :=
  if h : e'.val < 1600000 then col ⟨e'.val, h⟩ else BitVec.ofNat 32 (e'.val - 1600000)

/-- Row 0 of the edge table: the source words. -/
def srcW (ei : (⟨2, ![2, 1600000]⟩ : Shape).Idx → BitVec 32) (e : Fin 1600000) : BitVec 32 := ei (ix2 (0 : Fin 2) e)

/-- Row 1 of the edge table: the destination words. -/
def dstW (ei : (⟨2, ![2, 1600000]⟩ : Shape).Idx → BitVec 32) (e : Fin 1600000) : BitVec 32 := ei (ix2 (1 : Fin 2) e)

/-! ## The dense layer -/

/-- Entry (i, o) of x · W. -/
def hmat (x : (⟨2, ![100000, 32]⟩ : Shape).Idx → EReal) (W : (⟨2, ![32, 64]⟩ : Shape).Idx → EReal)
    (i : Fin 100000) (o : Fin 64) : EReal :=
  ∑ k : Fin 32, x (ix2 i k) * W (ix2 k o)

/-- x · W with row i scaled by the column entry dcol (i, 0). -/
def feat (x : (⟨2, ![100000, 32]⟩ : Shape).Idx → EReal) (W : (⟨2, ![32, 64]⟩ : Shape).Idx → EReal)
    (dcol : (⟨2, ![100000, 1]⟩ : Shape).Idx → EReal) : (⟨2, ![100000, 64]⟩ : Shape).Idx → EReal :=
  fun j => hmat x W (j 0) (j 1) * dcol (ix2 (j 0) (0 : Fin 1))

/-! ## Summing scaled rows over the edges -/

/-- Entry (i, o) of the sum, from the start value z, of row rowOf (wrapW src_e) of hp over the edges e whose
    destination word reads exactly i. -/
def aggK (z : EReal) (sW dW : Fin 1600000 → BitVec 32) (hp : (⟨2, ![100000, 64]⟩ : Shape).Idx → EReal) :
    (⟨2, ![100000, 64]⟩ : Shape).Idx → EReal :=
  fun j => z + ∑ e : Fin 1600000, if (dW e).toInt = (((j 0).val : Nat) : Int) then hp (ix2 (rowOf (wrapW (sW e))) (j 1)) else 0

/-- The convolution's entry (i, o) formed over edges and self-loops at once: the start value z plus, over the 1700000
    positions whose destination word reads exactly i, h at the source row times the two inverse root degrees, plus b. -/
def outR (z : EReal) (sW dW : Fin 1600000 → BitVec 32) (h : Fin 100000 → Fin 64 → EReal) (d : Fin 100000 → EReal)
    (b : Fin 64 → EReal) (i : Fin 100000) (o : Fin 64) : EReal :=
  (z + ∑ e' : Fin 1700000, if (loopW dW e').toInt = ((i.val : Nat) : Int)
      then h (rowOf (wrapW (loopW sW e'))) o * (d (rowOf (wrapW (loopW sW e'))) * d (rowOf (wrapW (loopW dW e')))) else 0) + b o

/-! ## Pooling by a 0/1 matrix, in two halves -/

/-- The 0/1 entry: 1 where the graph id word is the column number. -/
def oh (w : BitVec 32) (g : Fin 1024) : EReal := if w = BitVec.ofNat 32 g.val then 1 else 0

/-- Node r of half c. -/
def nodeRow (c : Fin 2) (r : Fin 50000) : Fin 100000 := ⟨c.val * 50000 + r.val, by omega⟩

/-- The activated entry (i, o): the edge sum plus the node's own scaled row, scaled once more, plus the bias, cut at zero. -/
def act (agg hp : (⟨2, ![100000, 64]⟩ : Shape).Idx → EReal) (dcol : (⟨2, ![100000, 1]⟩ : Shape).Idx → EReal)
    (b : (⟨2, ![1, 64]⟩ : Shape).Idx → EReal) (i : Fin 100000) (o : Fin 64) : EReal :=
  max ((agg (ix2 i o) + hp (ix2 i o)) * dcol (ix2 i (0 : Fin 1)) + b (ix2 (0 : Fin 1) o)) 0

/-- Per half c: the 0/1 matrix times the activated rows, entry (g, o). -/
def poolSums (agg hp : (⟨2, ![100000, 64]⟩ : Shape).Idx → EReal) (dcol : (⟨2, ![100000, 1]⟩ : Shape).Idx → EReal)
    (bt : (⟨2, ![100000, 1]⟩ : Shape).Idx → BitVec 32) (b : (⟨2, ![1, 64]⟩ : Shape).Idx → EReal) :
    (⟨3, ![2, 1024, 64]⟩ : Shape).Idx → EReal :=
  fun j => ∑ r : Fin 50000, oh (bt (ix2 (nodeRow (j 0) r) (0 : Fin 1))) (j 1) * act agg hp dcol b (nodeRow (j 0) r) (j 2)

/-- Per half c: the 0/1 matrix times a column of ones, entry (g, 0): the number of the half's nodes in graph g. -/
def poolCounts (bt : (⟨2, ![100000, 1]⟩ : Shape).Idx → BitVec 32) : (⟨3, ![2, 1024, 1]⟩ : Shape).Idx → EReal :=
  fun j => ∑ r : Fin 50000, oh (bt (ix2 (nodeRow (j 0) r) (0 : Fin 1))) (j 1) * 1

/-- The two halves added, and the sums divided by the counts cut below at `one`. -/
def pooledK (one : EReal) (sums : (⟨3, ![2, 1024, 64]⟩ : Shape).Idx → EReal) (cnts : (⟨3, ![2, 1024, 1]⟩ : Shape).Idx → EReal) :
    (⟨2, ![1024, 64]⟩ : Shape).Idx → EReal :=
  fun j => Ideal.div (sums (ix3 (0 : Fin 2) (j 0) (j 1)) + sums (ix3 (1 : Fin 2) (j 0) (j 1)))
    (max (cnts (ix3 (0 : Fin 2) (j 0) (0 : Fin 1)) + cnts (ix3 (1 : Fin 2) (j 0) (0 : Fin 1))) one)

/-- Pooling by adding each node's row y_i into the row its graph id word reads, from the start value z, and dividing
    by the count of such nodes cut below at `one`. -/
def pooledR (z one : EReal) (bt : Fin 100000 → BitVec 32) (y : Fin 100000 → Fin 64 → EReal) (g : Fin 1024) (o : Fin 64) : EReal :=
  Ideal.div (z + ∑ i : Fin 100000, if (bt i).toInt = ((g.val : Nat) : Int) then y i o else 0)
    (max (z + ∑ i : Fin 100000, if (bt i).toInt = ((g.val : Nat) : Int) then one else 0) one)

/-! ## The classifier -/

/-- One dense layer on 1024 rows: entry (r, c) of h · W plus the bias row's entry c. -/
def dense {K n : Nat} (h : (⟨2, ![1024, K]⟩ : Shape).Idx → EReal) (W : (⟨2, ![K, n]⟩ : Shape).Idx → EReal)
    (b : (⟨2, ![1, n]⟩ : Shape).Idx → EReal) : (⟨2, ![1024, n]⟩ : Shape).Idx → EReal :=
  fun j => (∑ k : Fin K, h (ix2 (j 0) k) * W (ix2 k (j 1))) + b (ix2 (0 : Fin 1) (j 1))

/-- Cut at zero, entry by entry. -/
def relu {s : Shape} (y : s.Idx → EReal) : s.Idx → EReal := fun j => max (y j) 0

/-- Four dense layers, cut at zero between them, and the logistic function at the end. -/
def mlp (h : (⟨2, ![1024, 128]⟩ : Shape).Idx → EReal)
    (W1 : (⟨2, ![128, 64]⟩ : Shape).Idx → EReal) (b1 : (⟨2, ![1, 64]⟩ : Shape).Idx → EReal)
    (W2 : (⟨2, ![64, 32]⟩ : Shape).Idx → EReal) (b2 : (⟨2, ![1, 32]⟩ : Shape).Idx → EReal)
    (W3 : (⟨2, ![32, 16]⟩ : Shape).Idx → EReal) (b3 : (⟨2, ![1, 16]⟩ : Shape).Idx → EReal)
    (W4 : (⟨2, ![16, 1]⟩ : Shape).Idx → EReal) (b4 : (⟨2, ![1, 1]⟩ : Shape).Idx → EReal) :
    (⟨2, ![1024, 1]⟩ : Shape).Idx → EReal :=
  fun j => Ideal.logistic (dense (relu (dense (relu (dense (relu (dense h W1 b1)) W2 b2)) W3 b3)) W4 b4 j)

/-- Two [1024, 64] tables side by side: columns 0..63 from the first, 64..127 from the second. -/
def sideBySide (p q : (⟨2, ![1024, 64]⟩ : Shape).Idx → EReal) : (⟨2, ![1024, 128]⟩ : Shape).Idx → EReal :=
  fun j => if h : (j 1).val < 64 then p (ix2 (j 0) (⟨(j 1).val, h⟩ : Fin 64))
    else q (ix2 (j 0) (⟨(j 1).val - 64, by have h2 : (j 1).val < 128 := (j 1).isLt; omega⟩ : Fin 64))

/-! ## A graph's pooled table, the two ways -/

/-- A vector as a one-column table. -/
def col {α : Type} {n : Nat} (v : (⟨1, ![n]⟩ : Shape).Idx → α) : (⟨2, ![n, 1]⟩ : Shape).Idx → α := fun j => v (ix1 (j 0))

/-- A vector as a one-row table. -/
def row {α : Type} {n : Nat} (v : (⟨1, ![n]⟩ : Shape).Idx → α) : (⟨2, ![1, n]⟩ : Shape).Idx → α := fun j => v (ix1 (j 1))

/-- Rows scaled first, edges summed, self-loop added, scaled once more, pooled in two halves by the 0/1 matrix.
    `dvec` is the vector of inverse root degrees, `z` the start value of the edge sum, `one` the floor of the count. -/
def poolOfK (z one : EReal) (x : (⟨2, ![100000, 32]⟩ : Shape).Idx → EReal) (ei : (⟨2, ![2, 1600000]⟩ : Shape).Idx → BitVec 32)
    (dvec : (⟨1, ![100000]⟩ : Shape).Idx → EReal) (bt : (⟨1, ![100000]⟩ : Shape).Idx → BitVec 32)
    (W : (⟨2, ![32, 64]⟩ : Shape).Idx → EReal) (b : (⟨1, ![64]⟩ : Shape).Idx → EReal) : (⟨2, ![1024, 64]⟩ : Shape).Idx → EReal :=
  pooledK one
    (poolSums (aggK z (srcW ei) (dstW ei) (feat x W (col dvec))) (feat x W (col dvec)) (col dvec) (col bt) (row b))
    (poolCounts (col bt))

/-- Edges and self-loops summed at once with both inverse root degrees on every term, bias, cut at zero, each node's
    row added into its graph's row, divided by the count. -/
def poolOfR (z one : EReal) (x : (⟨2, ![100000, 32]⟩ : Shape).Idx → EReal) (ei : (⟨2, ![2, 1600000]⟩ : Shape).Idx → BitVec 32)
    (dvec : (⟨1, ![100000]⟩ : Shape).Idx → EReal) (bt : (⟨1, ![100000]⟩ : Shape).Idx → BitVec 32)
    (W : (⟨2, ![32, 64]⟩ : Shape).Idx → EReal) (b : (⟨1, ![64]⟩ : Shape).Idx → EReal) : (⟨2, ![1024, 64]⟩ : Shape).Idx → EReal :=
  fun j => pooledR z one (fun i => bt (ix1 i))
    (fun i o => max (outR z (srcW ei) (dstW ei) (hmat x W) (fun i => dvec (ix1 i)) (fun o => b (ix1 o)) i o) 0) (j 0) (j 1)

/-- The inverse root degree from a degree: the inverse square root of the degree cut below at `c` where the degree
    is positive, else `zr`. Spelt with the comparison word and the selection, as the programs spell it. -/
def dinvOf (zr c : EReal) (deg : EReal) : EReal :=
  Scalar.select (Ideal.cmp .ogt deg zr) (Ideal.rsqrt (max deg c)) zr

end Cert.Spec

end
-- ==== Proof.LibRowTile.lean ====
/-
  A row tile of a matrix product is the product of the row tile.

  For a plain two-dimensional contraction (left operand [rows, K] contracted on its second axis, right operand
  [K, n] on its first, no batch axes) the result element at (r, c) is the sum over k of lhs (r, k) * rhs (k, c).
  So if a tile [m, K] of a taller left operand [M, K] holds, on its row r, the taller operand's row i, then the
  tile's product at (r, c) and the whole product at (i, c) are the same sum. The two contractions are given by
  their own dimension records, whose contraction index types differ; both sums are re-indexed over Fin K.
-/
import Idealize.ShloMosaic.PureOps.Ideal.Laws
import Idealize.ShloMosaic.Lib.ValueIdx

open scoped BigOperators

namespace Cert.Lib

open Idealize.ShloMosaic Idealize.ShloMosaic.ValueIdx

/-- A coordinate of an index depends on the axis only through the axis's number. -/
theorem idx_val_congr {s : Shape} (j : s.Idx) {p q : Nat} (hp : p < s.rank) (hq : q < s.rank) (h : p = q) :
    (j ⟨p, hp⟩).val = (j ⟨q, hq⟩).val := by subst h; rfl

section Axes

variable {sl sr so : Shape} (d : DotDims sl sr so)

/-- With no batch axes and one free axis a on the left, the left operand's index on a is the result index's
    first coordinate. -/
theorem lhsIdx_val_of_free {a : Fin sl.rank} (hb : d.lhsBatch = []) (hn : d.lhsNonContracting = [a])
    (j : so.Idx) (k : d.contr.Idx) (h0 : 0 < so.rank) : (d.lhsIdx j k a).val = (j ⟨0, h0⟩).val := by
  have hnb : a ∉ d.lhsBatch := by rw [hb]; simp
  have hmem : a ∈ d.lhsNonContracting := by rw [hn]; simp
  unfold DotDims.lhsIdx
  rw [dif_neg hnb, dif_pos hmem]
  simp only [Fin.val_cast]
  exact idx_val_congr j _ _ (by simp [hb, hn])

/-- With no batch axes, one free axis on the left and one free axis a on the right, the right operand's index on
    a is the result index's second coordinate. -/
theorem rhsIdx_val_of_free {a : Fin sr.rank} {al : Fin sl.rank} (hlb : d.lhsBatch = []) (hln : d.lhsNonContracting = [al])
    (hb : d.rhsBatch = []) (hn : d.rhsNonContracting = [a])
    (j : so.Idx) (k : d.contr.Idx) (h1 : 1 < so.rank) : (d.rhsIdx j k a).val = (j ⟨1, h1⟩).val := by
  have hnb : a ∉ d.rhsBatch := by rw [hb]; simp
  have hmem : a ∈ d.rhsNonContracting := by rw [hn]; simp
  unfold DotDims.rhsIdx
  rw [dif_neg hnb, dif_pos hmem]
  simp only [Fin.val_cast]
  exact idx_val_congr j _ _ (by simp [hlb, hln, hn])

end Axes

/-- The dimension numbers of a plain product [rows, K] · [K, n]: contract the left operand's second axis with the
    right operand's first; the free axes are the left's first and the right's second; no batch axes. -/
structure IsPlain {a K n : Nat} (d : DotDims ⟨2, ![a, K]⟩ ⟨2, ![K, n]⟩ ⟨2, ![a, n]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []
  rank : d.contr.rank = 1
  size : d.contr.size ⟨0, by omega⟩ = K

section Plain

variable {a K n : Nat} {d : DotDims ⟨2, ![a, K]⟩ ⟨2, ![K, n]⟩ ⟨2, ![a, n]⟩}

/-- The left operand is read at (row of the result, k). -/
theorem IsPlain.lhsIdx_eq (h : IsPlain d) (j : (⟨2, ![a, n]⟩ : Shape).Idx) (k : Fin K) :
    d.lhsIdx j ((contrEquiv1 d K h.rank h.size).symm k) = ix2 (j 0) k := by
  funext ax; apply Fin.ext
  match ax with
  | ⟨0, _⟩ => exact lhsIdx_val_of_free d (a := (0 : Fin 2)) h.lb h.ln j _ Nat.zero_lt_two
  | ⟨1, _⟩ =>
    exact (d.lhsIdx_val_of_single (cl := (1 : Fin 2)) h.lc j _).trans (contrEquiv1_symm_val d K h.rank h.size k)

/-- The right operand is read at (k, column of the result). -/
theorem IsPlain.rhsIdx_eq (h : IsPlain d) (j : (⟨2, ![a, n]⟩ : Shape).Idx) (k : Fin K) :
    d.rhsIdx j ((contrEquiv1 d K h.rank h.size).symm k) = ix2 k (j 1) := by
  funext ax; apply Fin.ext
  match ax with
  | ⟨0, _⟩ =>
    exact (d.rhsIdx_val_of_single (cr := (0 : Fin 2)) h.rc j _).trans (contrEquiv1_symm_val d K h.rank h.size k)
  | ⟨1, _⟩ => exact rhsIdx_val_of_free d (a := (1 : Fin 2)) (al := (0 : Fin 2)) h.lb h.ln h.rb h.rn j _ Nat.one_lt_two

/-- A plain product's contraction sum, over the contracted coordinate itself. -/
theorem IsPlain.sum_eq (h : IsPlain d) (l : (⟨2, ![a, K]⟩ : Shape).Idx → EReal) (r : (⟨2, ![K, n]⟩ : Shape).Idx → EReal)
    (j : (⟨2, ![a, n]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K h.rank h.size).symm]
  exact Finset.sum_congr rfl fun k _ => congrArg₂ (· * ·) (congrArg l (h.lhsIdx_eq j k)) (congrArg r (h.rhsIdx_eq j k))

end Plain

/-- A ROW TILE OF A PRODUCT IS THE PRODUCT OF THE ROW TILE: if row (y 0) of the tile lt is row (i 0) of the whole
    left operand l, and y, i name the same column, the two contraction sums are equal. -/
theorem sum_rowTile {m M K n : Nat}
    {dT : DotDims ⟨2, ![m, K]⟩ ⟨2, ![K, n]⟩ ⟨2, ![m, n]⟩} {dW : DotDims ⟨2, ![M, K]⟩ ⟨2, ![K, n]⟩ ⟨2, ![M, n]⟩}
    (hT : IsPlain dT) (hW : IsPlain dW)
    (lt : (⟨2, ![m, K]⟩ : Shape).Idx → EReal) (l : (⟨2, ![M, K]⟩ : Shape).Idx → EReal) (r : (⟨2, ![K, n]⟩ : Shape).Idx → EReal)
    (y : (⟨2, ![m, n]⟩ : Shape).Idx) (i : (⟨2, ![M, n]⟩ : Shape).Idx)
    (hrow : ∀ k : Fin K, lt (ix2 (y 0) k) = l (ix2 (i 0) k)) (hcol : y 1 = i 1) :
    ∑ k : dT.contr.Idx, lt (dT.lhsIdx y k) * r (dT.rhsIdx y k) = ∑ k : dW.contr.Idx, l (dW.lhsIdx i k) * r (dW.rhsIdx i k) := by
  rw [hT.sum_eq lt r y, hW.sum_eq l r i]
  exact Finset.sum_congr rfl fun k _ => by rw [hrow k, hcol]

end Cert.Lib
-- ==== Proof.LibLayoutColumn.lean ====
/-
  Layout operations on a column, read at an index: the forms a "sum the rows, keep the axis" computation meets.

  A vector of length `a` viewed as an `[a, 1]` column, a column broadcast across `b` lanes, a column placed under a
  leading unit axis, an array with two leading unit axes flattened, and the all-unit shapes a reduction to one element
  passes through.  Each reads the operand at the index with the same row-major position (a cast) or at the index with
  the unit axes at zero (a broadcast).  Last, a sum over the indices of a `[1, a, 1]` array is the sum over its one
  free coordinate.  Every statement holds at any extents.
-/
import Idealize.ShloMosaic.Lib.ValueIdx
import Idealize.ShloMosaic.Lib.Pipeline.Value

noncomputable section

open scoped BigOperators

namespace Idealize.ShloMosaic.ValueIdx

open Idealize.ShloMosaic

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to an `[a, 1]` column reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to `[1, a, 1]` reads, at `(u, p, w)`, the operand at `(p, 0)`. -/
theorem shapeCast_a1_1a1_apply {a : ℕ} (x : (⟨2, ![a, 1]⟩ : Shape).Idx → α)
    (h : (⟨2, ![a, 1]⟩ : Shape).ShapeCasts ⟨3, ![1, a, 1]⟩) (u : Fin 1) (p : Fin a) (w : Fin 1) :
    shapeCast ⟨3, ![1, a, 1]⟩ x h (ix3 u p w) = x (ix2 p (0 : Fin 1)) :=
  shapeCast_apply x h _ _ (by
    have hu : u.val = 0 := by omega
    have hw : w.val = 0 := by omega
    rw [Shape.rowMajor_val_three, Shape.rowMajor_val_two]
    show p.val * 1 + 0 = (u.val * a + p.val) * 1 + w.val
    rw [hu, hw, Nat.zero_mul, Nat.zero_add])

/-- A one-element array cast to `[1, 1, 1]` reads its one element. -/
theorem shapeCast_1_111_apply (x : (⟨1, ![1]⟩ : Shape).Idx → α)
    (h : (⟨1, ![1]⟩ : Shape).ShapeCasts ⟨3, ![1, 1, 1]⟩) (u v w : Fin 1) :
    shapeCast ⟨3, ![1, 1, 1]⟩ x h (ix3 u v w) = x (ix1 (0 : Fin 1)) :=
  shapeCast_apply x h _ _ (by
    have hu : u.val = 0 := by omega
    have hv : v.val = 0 := by omega
    have hw : w.val = 0 := by omega
    rw [Shape.rowMajor_val_three, Shape.rowMajor_val_one]
    show 0 = (u.val * 1 + v.val) * 1 + w.val
    rw [hu, hv, hw])

/-- A `[1, 1]` array cast to `[1, 1, 1]` reads its one element. -/
theorem shapeCast_11_111_apply (x : (⟨2, ![1, 1]⟩ : Shape).Idx → α)
    (h : (⟨2, ![1, 1]⟩ : Shape).ShapeCasts ⟨3, ![1, 1, 1]⟩) (u v w : Fin 1) :
    shapeCast ⟨3, ![1, 1, 1]⟩ x h (ix3 u v w) = x (ix2 (0 : Fin 1) (0 : Fin 1)) :=
  shapeCast_apply x h _ _ (by
    have hu : u.val = 0 := by omega
    have hv : v.val = 0 := by omega
    have hw : w.val = 0 := by omega
    rw [Shape.rowMajor_val_three, Shape.rowMajor_val_two]
    show 0 * 1 + 0 = (u.val * 1 + v.val) * 1 + w.val
    rw [hu, hv, hw])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1]` array broadcast to `[1, 1, b]` reads its one element in every lane. -/
theorem broadcastTo_111_11b_apply {b : ℕ} (v : (⟨3, ![1, 1, 1]⟩ : Shape).Idx → α)
    (h : (⟨3, ![1, 1, 1]⟩ : Shape).Broadcasts ⟨3, ![1, 1, b]⟩) (u w : Fin 1) (l : Fin b) :
    broadcastTo ⟨3, ![1, 1, b]⟩ v h (ix3 u w l) = v (ix3 (0 : Fin 1) (0 : Fin 1) (0 : Fin 1)) := by
  refine broadcastTo_apply v h (ix3 u w l) (ix3 (0 : Fin 1) (0 : Fin 1) (0 : Fin 1)) fun ax => ?_
  match ax with
  | ⟨0, _⟩ => rfl
  | ⟨1, _⟩ => rfl
  | ⟨2, _⟩ => rfl

/-- The indices of a `[1, a, 1]` array are its one free coordinate … -/
def idxEquiv1a1 {a : ℕ} : (⟨3, ![1, a, 1]⟩ : Shape).Idx ≃ Fin a where
  toFun i := i 1
  invFun p := ix3 (0 : Fin 1) p (0 : Fin 1)
  left_inv i := by
    funext ax
    match ax with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over them is the sum over that coordinate. -/
theorem sum_idx_1a1 {M : Type*} [AddCommMonoid M] {a : ℕ} (f : (⟨3, ![1, a, 1]⟩ : Shape).Idx → M) :
    ∑ i, f i = ∑ p : Fin a, f (ix3 (0 : Fin 1) p (0 : Fin 1)) := by
  rw [← Equiv.sum_comp (idxEquiv1a1 (a := a)).symm f]
  rfl

end Idealize.ShloMosaic.ValueIdx

end
-- ==== Proof.FeatA.lean ====
/-
  The first graph's dense layer, as the tiled program leaves it in its result array.

  The program walks the 100000 rows of x in 20 tiles of 5000.  At tile t it multiplies the tile [5000, 32] by the whole
  W [32, 64], scales row r of the product by the tile's entry of the inverse root degree column, and writes the
  [5000, 64] block back at rows 5000·t … 5000·t + 4999.  A row tile of a matrix product is the product of the row tile,
  so entry (i, o) of the array after the last write-back is (∑ₖ x(i,k) · W(k,o)) · dcol(i,0): `Cert.Spec.feat`.
-/
import proofs.«408358_j51376398795254_3_alg».proof.Proof.Gen.KernelIdeal.Frame
import proofs.«408358_j51376398795254_3_alg».proof.Proof.Spec
import proofs.«408358_j51376398795254_3_alg».proof.Proof.LibRowTile
import proofs.«408358_j51376398795254_3_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.FeatA

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-! ## The tile's arithmetic at one entry -/

/-- The tile product's dimension numbers are those of a plain product [5000, 32] · [32, 64]. -/
theorem plainDot : Cert.Lib.IsPlain dot_S5000x32_S32x64_S5000x64_1_0_0_1_n_n :=
  ⟨rfl, rfl, rfl, rfl, rfl, rfl, rfl, rfl⟩

/-- Entry (p, q) of what the body stores: row p of the x tile times column q of W, scaled by the column tile's row p.
    The format changes are the identity on extended reals and the accumulator starts at zero. -/
theorem pay_apply (x0 : Vec Ideal S5000x32 .f32) (x1 : Vec Ideal S32x64 .f32) (x2 : Vec Ideal S5000x1 .f32)
    (p : Fin 5000) (q : Fin 64) :
    k0_pay1 (F := Ideal) x0 x1 x2 (ix2 p q) = (∑ k : Fin 32, x0 (ix2 p k) * x1 (ix2 k q)) * x2 (ix2 p (0 : Fin 1)) := by
  unfold k0_pay1
  rw [truncf_apply, mulf_apply]
  simp only [matmul]
  rw [Ideal.matmul_constant_zero_apply, plainDot.sum_eq, shapeCast_self, broadcastTo_a1_ab_apply]
  rfl

/-! ## What one point writes back -/

/-- The zero offsets of a whole-buffer access, as the constant function. -/
theorem hz : (![0, 0] : Fin 2 → Nat) = fun _ => 0 := funext fun a => by fin_cases a <;> rfl

/-- The printed index maps, decided over the 20 points: the x tile, the column tile and the result tile all sit at
    block row t, block column 0; W is taken whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A row tile of a product is the product of the row tile, entry by entry: if row p of the x tile is row i of x, the
    W tile is W, and row p of the column tile is row i of the column, then entry (p, q) of what the body stores is
    entry (i, q) of the scaled product. -/
theorem tile_entry (X : (⟨2, ![100000, 32]⟩ : Shape).Idx → EReal) (W : (⟨2, ![32, 64]⟩ : Shape).Idx → EReal)
    (D : (⟨2, ![100000, 1]⟩ : Shape).Idx → EReal)
    (x0 : Vec Ideal S5000x32 .f32) (x1 : Vec Ideal S32x64 .f32) (x2 : Vec Ideal S5000x1 .f32)
    (i : Fin 100000) (p : Fin 5000) (q : Fin 64)
    (h0 : ∀ k : Fin 32, x0 (ix2 p k) = X (ix2 i k)) (h1 : ∀ k : Fin 32, x1 (ix2 k q) = W (ix2 k q))
    (h2 : x2 (ix2 p (0 : Fin 1)) = D (ix2 i (0 : Fin 1))) :
    k0_pay1 (F := Ideal) x0 x1 x2 (ix2 p q) = Cert.Spec.feat X W D (ix2 i q) := by
  rw [pay_apply, h2]
  show _ = (∑ k : Fin 32, X (ix2 i k) * W (ix2 k q)) * D (ix2 i (0 : Fin 1))
  simp only [h0, h1]

/-- The array row that row p of tile t is: 5000 · t + p. -/
def rowAt (t : Fin cfg0.N) (p : Fin 5000) : Fin 100000 :=
  ⟨t.val * 5000 + p.val, by have ht : t.val < 20 := t.isLt.trans_eq N_0; have hp := p.isLt; omega⟩

/-- Entry (p, k) of the x tile at point t sits at (5000 · t + p, k) of x. -/
theorem emb_x (t : Fin cfg0.N) (p : Fin 5000) (k : Fin 32) :
    ((cfg0.win 0).blk t).view.emb (ix2 p k) = ix2 (rowAt t p) k := by
  obtain ⟨e0, e1, -⟩ := idx_facts t
  funext a; apply Fin.ext
  match a with
  | ⟨0, _⟩ => show win0_0.index t (0 : Fin 2) * 5000 + 1 * p.val = t.val * 5000 + p.val; omega
  | ⟨1, _⟩ => show win0_0.index t (1 : Fin 2) * 32 + 1 * k.val = k.val; omega

/-- The W tile at every point is W. -/
theorem emb_w (t : Fin cfg0.N) (k : Fin 32) (q : Fin 64) :
    ((cfg0.win 1).blk t).view.emb (ix2 k q) = ix2 k q := by
  obtain ⟨-, -, e2, e3, -⟩ := idx_facts t
  funext a; apply Fin.ext
  match a with
  | ⟨0, _⟩ => show win0_1.index t (0 : Fin 2) * 32 + 1 * k.val = k.val; omega
  | ⟨1, _⟩ => show win0_1.index t (1 : Fin 2) * 64 + 1 * q.val = q.val; omega

/-- Entry (p, 0) of the column tile at point t sits at (5000 · t + p, 0) of the column. -/
theorem emb_d (t : Fin cfg0.N) (p : Fin 5000) (u : Fin 1) :
    ((cfg0.win 2).blk t).view.emb (ix2 p u) = ix2 (rowAt t p) u := by
  obtain ⟨-, -, -, -, e4, e5, -⟩ := idx_facts t
  funext a; apply Fin.ext
  match a with
  | ⟨0, _⟩ => show win0_2.index t (0 : Fin 2) * 5000 + 1 * p.val = t.val * 5000 + p.val; omega
  | ⟨1, _⟩ => show win0_2.index t (1 : Fin 2) * 1 + 1 * u.val = u.val; omega

/-- Entry (p, q) of the result tile at point t sits at (5000 · t + p, q) of the result. -/
theorem emb_out (t : Fin cfg0.N) (p : Fin 5000) (q : Fin 64) :
    ((cfg0.win 3).blk t).view.emb (ix2 p q) = ix2 (rowAt t p) q := by
  obtain ⟨-, -, -, -, -, -, e6, e7⟩ := idx_facts t
  funext a; apply Fin.ext
  match a with
  | ⟨0, _⟩ => show win0_3.index t (0 : Fin 2) * 5000 + 1 * p.val = t.val * 5000 + p.val; omega
  | ⟨1, _⟩ => show win0_3.index t (1 : Fin 2) * 64 + 1 * q.val = q.val; omega

/-- What point t writes back is block t of the scaled product of the region's input arrays. -/
theorem flushed_eq (c : Dev nD) (t : Fin cfg0.N) :
    (dat0 (F := Ideal) V c).flushed 3 t
      = ((cfg0.win 3).blk t).view.read (Elt Ideal) (Cert.Spec.feat (V c main_arg0) (V c main_arg6) (V c main_v14)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S5000x1) hz]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
    = Cert.Spec.feat (V c main_arg0) (V c main_arg6) (V c main_v14) (((cfg0.win 3).blk t).view.emb (ix2 p q))
  rw [emb_out]
  exact tile_entry _ _ _ (iblk0 V c 0 t) (iblk0 V c 1 t) (iblk0 V c 2 t) (rowAt t p) p q
    (fun k => congrArg (V c main_arg0) (emb_x t p k))
    (fun k => congrArg (V c main_arg6) (emb_w t k q))
    (congrArg (V c main_v14) (emb_d t p 0))

/-! ## The 20 write-backs tile the array -/

/-- An index of the result array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v15).slice (win0_3.rect t)).set ↔ _
  rw [View.set_slice_whole, Rect.mem_set_unit]
  exact Iff.rfl

/-- Row r of the result array is written back by point r / 5000, and every point writes back. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 5000 < cfg0.N := by show _ < grid0.N; rw [N_0]; omega
  obtain ⟨-, -, -, -, -, -, e6, e7⟩ := idx_facts ⟨(i 0).val / 5000, hN⟩
  have e6' : win0_3.index ⟨(i 0).val / 5000, hN⟩ (0 : Fin 2) = (i 0).val / 5000 := e6
  refine ⟨⟨(i 0).val / 5000, hN⟩, flush0_3 _, ?_⟩
  rw [mem_blk]
  intro a
  match a with
  | ⟨0, _⟩ =>
    show win0_3.index ⟨(i 0).val / 5000, hN⟩ (0 : Fin 2) * 5000 ≤ (i 0).val
      ∧ (i 0).val < win0_3.index ⟨(i 0).val / 5000, hN⟩ (0 : Fin 2) * 5000 + 5000
    omega
  | ⟨1, _⟩ =>
    show win0_3.index ⟨(i 0).val / 5000, hN⟩ (1 : Fin 2) * 64 ≤ (i 1).val
      ∧ (i 1).val < win0_3.index ⟨(i 0).val / 5000, hN⟩ (1 : Fin 2) * 64 + 64
    omega

/-- After the region's 20 points its result array holds x · W with row i scaled by dcol (i, 0). -/
theorem feat0_final (c : Dev nD) :
    (dat0 (F := Ideal) V c).arrAt 3 cfg0.N = Cert.Spec.feat (V c main_arg0) (V c main_arg6) (V c main_v14) :=
  (dat0 (F := Ideal) V c).arrAt_eq_of_cover 3 _ (fun t _ => flushed_eq V c t) cover

end Cert.KernelIdeal.FeatA

end
-- ==== Proof.FeatB.lean ====
/-
  The second graph's dense layer, as the tiled program leaves it in its result array.

  The program walks the 100000 rows of x in 20 tiles of 5000.  At tile t it multiplies the tile [5000, 32] by the whole
  W [32, 64], scales row r of the product by the tile's entry of the inverse root degree column, and writes the
  [5000, 64] block back at rows 5000·t … 5000·t + 4999.  A row tile of a matrix product is the product of the row tile,
  so entry (i, o) of the array after the last write-back is (∑ₖ x(i,k) · W(k,o)) · dcol(i,0): `Cert.Spec.feat`.
-/
import proofs.«408358_j51376398795254_3_alg».proof.Proof.Gen.KernelIdeal.Frame
import proofs.«408358_j51376398795254_3_alg».proof.Proof.Spec
import proofs.«408358_j51376398795254_3_alg».proof.Proof.LibRowTile
import proofs.«408358_j51376398795254_3_alg».proof.Proof.LibLayoutColumn
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.FeatB

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-! ## The tile's arithmetic at one entry -/

/-- The tile product's dimension numbers are those of a plain product [5000, 32] · [32, 64]. -/
theorem plainDot : Cert.Lib.IsPlain dot_S5000x32_S32x64_S5000x64_1_0_0_1_n_n :=
  ⟨rfl, rfl, rfl, rfl, rfl, rfl, rfl, rfl⟩

/-- Entry (p, q) of what the body stores: row p of the x tile times column q of W, scaled by the column tile's row p.
    The format changes are the identity on extended reals and the accumulator starts at zero. -/
theorem pay_apply (x0 : Vec Ideal S5000x32 .f32) (x1 : Vec Ideal S32x64 .f32) (x2 : Vec Ideal S5000x1 .f32)
    (p : Fin 5000) (q : Fin 64) :
    k2_pay1 (F := Ideal) x0 x1 x2 (ix2 p q) = (∑ k : Fin 32, x0 (ix2 p k) * x1 (ix2 k q)) * x2 (ix2 p (0 : Fin 1)) := by
  unfold k2_pay1
  rw [truncf_apply, mulf_apply]
  simp only [matmul]
  rw [Ideal.matmul_constant_zero_apply, plainDot.sum_eq, shapeCast_self, broadcastTo_a1_ab_apply]
  rfl

/-! ## What one point writes back -/

/-- The zero offsets of a whole-buffer access, as the constant function. -/
theorem hz : (![0, 0] : Fin 2 → Nat) = fun _ => 0 := funext fun a => by fin_cases a <;> rfl

/-- The printed index maps, decided over the 20 points: the x tile, the column tile and the result tile all sit at
    block row t, block column 0; W is taken whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- A row tile of a product is the product of the row tile, entry by entry: if row p of the x tile is row i of x, the
    W tile is W, and row p of the column tile is row i of the column, then entry (p, q) of what the body stores is
    entry (i, q) of the scaled product. -/
theorem tile_entry (X : (⟨2, ![100000, 32]⟩ : Shape).Idx → EReal) (W : (⟨2, ![32, 64]⟩ : Shape).Idx → EReal)
    (D : (⟨2, ![100000, 1]⟩ : Shape).Idx → EReal)
    (x0 : Vec Ideal S5000x32 .f32) (x1 : Vec Ideal S32x64 .f32) (x2 : Vec Ideal S5000x1 .f32)
    (i : Fin 100000) (p : Fin 5000) (q : Fin 64)
    (h0 : ∀ k : Fin 32, x0 (ix2 p k) = X (ix2 i k)) (h1 : ∀ k : Fin 32, x1 (ix2 k q) = W (ix2 k q))
    (h2 : x2 (ix2 p (0 : Fin 1)) = D (ix2 i (0 : Fin 1))) :
    k2_pay1 (F := Ideal) x0 x1 x2 (ix2 p q) = Cert.Spec.feat X W D (ix2 i q) := by
  rw [pay_apply, h2]
  show _ = (∑ k : Fin 32, X (ix2 i k) * W (ix2 k q)) * D (ix2 i (0 : Fin 1))
  simp only [h0, h1]

/-- The array row that row p of tile t is: 5000 · t + p. -/
def rowAt (t : Fin cfg2.N) (p : Fin 5000) : Fin 100000 :=
  ⟨t.val * 5000 + p.val, by have ht : t.val < 20 := t.isLt.trans_eq N_2; have hp := p.isLt; omega⟩

/-- Entry (p, k) of the x tile at point t sits at (5000 · t + p, k) of x. -/
theorem emb_x (t : Fin cfg2.N) (p : Fin 5000) (k : Fin 32) :
    ((cfg2.win 0).blk t).view.emb (ix2 p k) = ix2 (rowAt t p) k := by
  obtain ⟨e0, e1, -⟩ := idx_facts t
  funext a; apply Fin.ext
  match a with
  | ⟨0, _⟩ => show win2_0.index t (0 : Fin 2) * 5000 + 1 * p.val = t.val * 5000 + p.val; omega
  | ⟨1, _⟩ => show win2_0.index t (1 : Fin 2) * 32 + 1 * k.val = k.val; omega

/-- The W tile at every point is W. -/
theorem emb_w (t : Fin cfg2.N) (k : Fin 32) (q : Fin 64) :
    ((cfg2.win 1).blk t).view.emb (ix2 k q) = ix2 k q := by
  obtain ⟨-, -, e2, e3, -⟩ := idx_facts t
  funext a; apply Fin.ext
  match a with
  | ⟨0, _⟩ => show win2_1.index t (0 : Fin 2) * 32 + 1 * k.val = k.val; omega
  | ⟨1, _⟩ => show win2_1.index t (1 : Fin 2) * 64 + 1 * q.val = q.val; omega

/-- Entry (p, 0) of the column tile at point t sits at (5000 · t + p, 0) of the column. -/
theorem emb_d (t : Fin cfg2.N) (p : Fin 5000) (u : Fin 1) :
    ((cfg2.win 2).blk t).view.emb (ix2 p u) = ix2 (rowAt t p) u := by
  obtain ⟨-, -, -, -, e4, e5, -⟩ := idx_facts t
  funext a; apply Fin.ext
  match a with
  | ⟨0, _⟩ => show win2_2.index t (0 : Fin 2) * 5000 + 1 * p.val = t.val * 5000 + p.val; omega
  | ⟨1, _⟩ => show win2_2.index t (1 : Fin 2) * 1 + 1 * u.val = u.val; omega

/-- Entry (p, q) of the result tile at point t sits at (5000 · t + p, q) of the result. -/
theorem emb_out (t : Fin cfg2.N) (p : Fin 5000) (q : Fin 64) :
    ((cfg2.win 3).blk t).view.emb (ix2 p q) = ix2 (rowAt t p) q := by
  obtain ⟨-, -, -, -, -, -, e6, e7⟩ := idx_facts t
  funext a; apply Fin.ext
  match a with
  | ⟨0, _⟩ => show win2_3.index t (0 : Fin 2) * 5000 + 1 * p.val = t.val * 5000 + p.val; omega
  | ⟨1, _⟩ => show win2_3.index t (1 : Fin 2) * 64 + 1 * q.val = q.val; omega

/-- What point t writes back is block t of the scaled product of the region's input arrays. -/
theorem flushed_eq (c : Dev nD) (t : Fin cfg2.N) :
    (dat2 (F := Ideal) V c).flushed 3 t
      = ((cfg2.win 3).blk t).view.read (Elt Ideal) (Cert.Spec.feat (V c main_arg3) (V c main_arg6) (V c main_v62)) := by
  show (cfg2.win 3).cut (grid2.coords t) ((dat2 V c).after 3 t) = _
  rw [after2_3]
  unfold out2_3
  rw [View.canon_unit_zero hz]
  simp only [View.ld_unit_zero (S := S5000x32) hz, View.ld_unit_zero (S := S32x64) hz, View.ld_unit_zero (S := S5000x1) hz]
  funext j
  obtain ⟨p, q, rfl⟩ : ∃ (p : Fin 5000) (q : Fin 64), j = ix2 p q := ⟨j 0, j 1, eq_ix2 j⟩
  show k2_pay1 (F := Ideal) (iblk2 V c 0 t) (iblk2 V c 1 t) (iblk2 V c 2 t) (ix2 p q)
    = Cert.Spec.feat (V c main_arg3) (V c main_arg6) (V c main_v62) (((cfg2.win 3).blk t).view.emb (ix2 p q))
  rw [emb_out]
  exact tile_entry _ _ _ (iblk2 V c 0 t) (iblk2 V c 1 t) (iblk2 V c 2 t) (rowAt t p) p q
    (fun k => congrArg (V c main_arg3) (emb_x t p k))
    (fun k => congrArg (V c main_arg6) (emb_w t k q))
    (congrArg (V c main_v62) (emb_d t p 0))

/-! ## The 20 write-backs tile the array -/

/-- An index of the result array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v63).slice (win2_3.rect t)).set ↔ _
  rw [View.set_slice_whole, Rect.mem_set_unit]
  exact Iff.rfl

/-- Row r of the result array is written back by point r / 5000, and every point writes back. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : (i 0).val / 5000 < cfg2.N := by show _ < grid2.N; rw [N_2]; omega
  obtain ⟨-, -, -, -, -, -, e6, e7⟩ := idx_facts ⟨(i 0).val / 5000, hN⟩
  have e6' : win2_3.index ⟨(i 0).val / 5000, hN⟩ (0 : Fin 2) = (i 0).val / 5000 := e6
  refine ⟨⟨(i 0).val / 5000, hN⟩, flush2_3 _, ?_⟩
  rw [mem_blk]
  intro a
  match a with
  | ⟨0, _⟩ =>
    show win2_3.index ⟨(i 0).val / 5000, hN⟩ (0 : Fin 2) * 5000 ≤ (i 0).val
      ∧ (i 0).val < win2_3.index ⟨(i 0).val / 5000, hN⟩ (0 : Fin 2) * 5000 + 5000
    omega
  | ⟨1, _⟩ =>
    show win2_3.index ⟨(i 0).val / 5000, hN⟩ (1 : Fin 2) * 64 ≤ (i 1).val
      ∧ (i 1).val < win2_3.index ⟨(i 0).val / 5000, hN⟩ (1 : Fin 2) * 64 + 64
    omega

/-- After the region's 20 points its result array holds x · W with row i scaled by dcol (i, 0). -/
theorem feat2_final (c : Dev nD) :
    (dat2 (F := Ideal) V c).arrAt 3 cfg2.N = Cert.Spec.feat (V c main_arg3) (V c main_arg6) (V c main_v62) :=
  (dat2 (F := Ideal) V c).arrAt_eq_of_cover 3 _ (fun t _ => flushed_eq V c t) cover

end Cert.KernelIdeal.FeatB

end
-- ==== Proof.LibPropagate.lean ====
/-
  Two finite contractions in either order, over the extended reals.

  Let H be a family indexed by N × E, d and Y families over N and ide a family over E, all with real entries.  Contracting H with
  the scaled family Y·d over N, scaling by ide, contracting with H over E and scaling by d gives, at i,

      (∑ e, H i e * ((∑ j, H j e * (Y j * d j)) * ide e)) * d i,

  and forming the kernel G i j = ∑ e, ((d i * H i e) * ide e) * (d j * H j e) first and then contracting it with Y gives

      ∑ j, G i j * Y j.

  The two are one number: distribute the outer factors into the inner sum, exchange the two finite sums, and compare the
  summands as products of the same six reals.  Distributivity of * over + fails at the infinities of the extended reals, so
  every entry is asked to be a real number; the identity is then the image of the identity over ℝ under the coercion, which
  commutes with *, + and finite sums.

  The file also regroups a sum of a·b terms into a blocks of b terms.
-/
import Mathlib.Data.EReal.Operations
import Mathlib.Algebra.BigOperators.Ring.Finset
import Mathlib.Algebra.BigOperators.Fin
import Mathlib.Logic.Equiv.Fin.Basic
import Mathlib.Tactic.Ring

open scoped BigOperators

namespace Cert.Lib.Propagate

/-! ### Real entries are closed under +, * and finite sums -/

/-- The sum of two extended reals that are real numbers is a real number. -/
theorem add_real {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The product of two extended reals that are real numbers is a real number. -/
theorem mul_real {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The coercion from ℝ commutes with a finite sum: by induction on the index set, one term at a time. -/
theorem coe_finsetSum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a finite set of extended reals that are all real numbers is a real number. -/
theorem finsetSum_real {ι : Type} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_finsetSum]; exact Finset.sum_congr rfl fun i _ => hg i⟩

/-- A sum over a finite type of extended reals that are all real numbers is a real number. -/
theorem sum_real {ι : Type} [Fintype ι] (f : ι → EReal) (hf : ∀ i, ∃ r : ℝ, f i = (r : EReal)) :
    ∃ r : ℝ, ∑ i, f i = (r : EReal) :=
  finsetSum_real Finset.univ f hf

/-! ### The two orders of contraction -/

section Propagate

variable {N E : Type} [Fintype N] [Fintype E]

/-- Over ℝ: scaling and contracting over N first and over E second equals contracting the kernel
    `∑ e, ((d i * H i e) * ide e) * (d j * H j e)` with `Y`.  Both sides are the double sum over (j, e) of the product
    of the six factors `d i, H i e, ide e, d j, H j e, Y j`. -/
theorem propagate_eq_real (h : N → E → ℝ) (δ : N → ℝ) (ε : E → ℝ) (y : N → ℝ) (i : N) :
    (∑ e, h i e * ((∑ j, h j e * (y j * δ j)) * ε e)) * δ i
      = ∑ j, (∑ e, ((δ i * h i e) * ε e) * (δ j * h j e)) * y j := by
  have hl : (∑ e, h i e * ((∑ j, h j e * (y j * δ j)) * ε e)) * δ i
      = ∑ e, ∑ j, δ i * h i e * ε e * (δ j * h j e) * y j := by
    rw [Finset.sum_mul]
    refine Finset.sum_congr rfl fun e _ => ?_
    rw [Finset.sum_mul, Finset.mul_sum, Finset.sum_mul]
    refine Finset.sum_congr rfl fun j _ => ?_
    ring
  have hr : (∑ j, (∑ e, ((δ i * h i e) * ε e) * (δ j * h j e)) * y j)
      = ∑ j, ∑ e, δ i * h i e * ε e * (δ j * h j e) * y j :=
    Finset.sum_congr rfl fun j _ => Finset.sum_mul _ _ _
  rw [hl, hr, Finset.sum_comm]

/-- Over the extended reals, with every entry a real number: the contraction over N first and E second, scaled by `ide`
    between and by `d` at both ends, equals the kernel `∑ e, ((d i * H i e) * ide e) * (d j * H j e)` contracted with `Y`.
    The real witnesses are chosen, the coercion is moved outside both sides, and the identity over ℝ closes it. -/
theorem propagate_eq (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    (∑ e, H i e * ((∑ j, H j e * (Y j * d j)) * ide e)) * d i
      = ∑ j, (∑ e, ((d i * H i e) * ide e) * (d j * H j e)) * Y j := by
  choose h hh using hH
  choose δ hδ using hd
  choose ε hε using hide
  choose y hy using hY
  have hl : (∑ e, H i e * ((∑ j, H j e * (Y j * d j)) * ide e)) * d i
      = (((∑ e, h i e * ((∑ j, h j e * (y j * δ j)) * ε e)) * δ i : ℝ) : EReal) := by
    simp only [hh, hδ, hε, hy, EReal.coe_mul, coe_finsetSum]
  have hr : (∑ j, (∑ e, ((d i * H i e) * ide e) * (d j * H j e)) * Y j)
      = ((∑ j, (∑ e, ((δ i * h i e) * ε e) * (δ j * h j e)) * y j : ℝ) : EReal) := by
    simp only [hh, hδ, hε, hy, EReal.coe_mul, coe_finsetSum]
  rw [hl, hr, propagate_eq_real]

/-- With every entry a real number, the propagated value is a real number: it is built from the entries by products and
    finite sums only. -/
theorem propagate_real (H : N → E → EReal) (d : N → EReal) (ide : E → EReal) (Y : N → EReal)
    (hH : ∀ i e, ∃ r : ℝ, H i e = (r : EReal)) (hd : ∀ i, ∃ r : ℝ, d i = (r : EReal))
    (hide : ∀ e, ∃ r : ℝ, ide e = (r : EReal)) (hY : ∀ j, ∃ r : ℝ, Y j = (r : EReal)) (i : N) :
    ∃ r : ℝ, (∑ e, H i e * ((∑ j, H j e * (Y j * d j)) * ide e)) * d i = (r : EReal) :=
  mul_real
    (sum_real _ fun e =>
      mul_real (hH i e) (mul_real (sum_real _ fun j => mul_real (hH j e) (mul_real (hY j) (hd j))) (hide e)))
    (hd i)

end Propagate

/-! ### A sum of a·b terms as a blocks of b -/

/-- Regrouping: the sum of `g` over the first `a * b` naturals is the sum over `a` consecutive blocks of `b` terms, block
    `t` holding the arguments `t * b + r` for `r < b`.  The pairs (t, r) and the naturals below `a * b` correspond by
    `(t, r) ↦ r + b * t`. -/
theorem sum_blocks {M : Type} [AddCommMonoid M] (a b : ℕ) (g : ℕ → M) :
    ∑ t : Fin a, ∑ r : Fin b, g (t.val * b + r.val) = ∑ j : Fin (a * b), g j.val := by
  rw [← Fintype.sum_prod_type', ← (finProdFinEquiv (m := a) (n := b)).sum_comp]
  refine Fintype.sum_congr _ _ fun p => ?_
  rw [finProdFinEquiv_apply_val, Nat.add_comm, Nat.mul_comm]

/-- The regrouping at 10000 = 25 · 400: 25 blocks of 400 consecutive terms. -/
theorem sum_blocks_25_400 {M : Type} [AddCommMonoid M] (g : ℕ → M) :
    (∑ t : Fin 25, ∑ r : Fin 400, g (t.val * 400 + r.val)) = ∑ j : Fin 10000, g j.val :=
  sum_blocks 25 400 g

end Cert.Lib.Propagate
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.PoolA.lean ====
/-
  The first graph's pooling region: what its two result arrays hold after its 50 points.

  The grid is 2 halves × 25 steps; point t = 25·c + s handles the 2000 nodes 50000·c + 2000·s … + 1999.  Both result
  blocks (sums [1, 1024, 64] and counts [1, 1024, 1]) keep their block index (c, 0, 0) over a half's 25 steps: step 0
  stores zeros, every step adds the 0/1 matrix [2000, 1024]ᵀ times the activated rows [2000, 64] (resp. a column of
  ones), and the block is written back after step 24.  So slab c of the sums array is the sum over the half's 25 · 2000
  = 50000 nodes of (0/1 entry) · (activated entry): `Cert.Spec.poolSums`, and of the counts array the sum of the 0/1
  entries: `Cert.Spec.poolCounts`.
-/
import proofs.«408358_j51376398795254_3_alg».proof.Proof.Gen.KernelIdeal.Frame
import proofs.«408358_j51376398795254_3_alg».proof.Proof.Spec
import proofs.«408358_j51376398795254_3_alg».proof.Proof.LibPropagate
import proofs.«408358_j51376398795254_3_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.PoolA

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-! ## What each control case leaves in each result block, as a function of the loaded blocks -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The word 1.0 the count's column is filled with. -/
abbrev oneW : F .bf16 := Scalar.ofBits .bf16 0x3F80#16

/-- A step that does not reset: the sums block becomes the update of what it held. -/
theorem sums_B (c : Dev nD) (i : grid1.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : ¬cond1_0 i)
    (x0 : Vec F S2000x64 .f32) (x1 : Vec F S2000x64 .bf16) (x2 : Vec F S2000x1 .f32) (x3 : Vec F S2000x1 .i32) (x4 : Vec F S1x64 .f32) (xo5 : Vec F S1x1024x64 .f32) (xo6 : Vec F S1x1024x1 .f32) :
    out1_B_5 c i a2 h2 a3 h3 a4 h4 a5 h5 a6 h6 a7 h7 a8 h8 hc x0 x1 x2 x3 x4 xo5 xo6 = k1_pay5 x0 x1 x2 x4 x3 xo5 := by
  unfold out1_B_5
  rw [View.read_writes_eq_canon _ _ _ (cover1_B_5 c i a2 h2 a3 h3 a4 h4 a5 h5 a6 h6 a7 h7 a8 h8 hc x0 x1 x2 x3 x4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A step that does not reset: the counts block becomes the update of what it held. -/
theorem counts_B (c : Dev nD) (i : grid1.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : ¬cond1_0 i)
    (x0 : Vec F S2000x64 .f32) (x1 : Vec F S2000x64 .bf16) (x2 : Vec F S2000x1 .f32) (x3 : Vec F S2000x1 .i32) (x4 : Vec F S1x64 .f32) (xo5 : Vec F S1x1024x64 .f32) (xo6 : Vec F S1x1024x1 .f32) :
    out1_B_6 c i a2 h2 a3 h3 a4 h4 a5 h5 a6 h6 a7 h7 a8 h8 hc x0 x1 x2 x3 x4 xo5 xo6 = k1_pay1 (k1_pay4 x3) oneW xo6 := by
  unfold out1_B_6
  rw [View.read_writes_eq_canon _ _ _ (cover1_B_6 c i a2 h2 a3 h3 a4 h4 a5 h5 a6 h6 a7 h7 a8 h8 hc x0 x1 x2 x3 x4 xo5 xo6)]
  unfold kernelRun1_B
  dsimp only
  sl_unfold_words
  rw [View.canon_unit_zero hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A resetting step: zeros are stored first and read back, so the sums block becomes the update of the zero block. -/
theorem sums_A (c : Dev nD) (i : grid1.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : cond1_0 i)
    (x0 : Vec F S2000x64 .f32) (x1 : Vec F S2000x64 .bf16) (x2 : Vec F S2000x1 .f32) (x3 : Vec F S2000x1 .i32) (x4 : Vec F S1x64 .f32) :
    out1_A_5 c i a2 h2 a3 h3 a4 h4 a5 h5 a6 h6 a7 h7 a8 h8 hc x0 x1 x2 x3 x4 = k1_pay5 x0 x1 x2 x4 x3 (k1_pay2 (F := F)) := by
  unfold out1_A_5
  rw [View.read_writes_eq_canon _ _ _ (cover1_A_5 c i a2 h2 a3 h3 a4 h4 a5 h5 a6 h6 a7 h7 a8 h8 hc x0 x1 x2 x3 x4)]
  unfold kernelRun1_A
  dsimp only
  sl_unfold_words
  rw [View.canon_cons_unit_zero (S := S1x1024x64) hz3, View.readCov_unit_zero (S := S1x1024x64) _ hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A resetting step: the counts block becomes the update of the zero block. -/
theorem counts_A (c : Dev nD) (i : grid1.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : cond1_0 i)
    (x0 : Vec F S2000x64 .f32) (x1 : Vec F S2000x64 .bf16) (x2 : Vec F S2000x1 .f32) (x3 : Vec F S2000x1 .i32) (x4 : Vec F S1x64 .f32) :
    out1_A_6 c i a2 h2 a3 h3 a4 h4 a5 h5 a6 h6 a7 h7 a8 h8 hc x0 x1 x2 x3 x4 = k1_pay1 (k1_pay4 x3) oneW (k1_pay3 (F := F)) := by
  unfold out1_A_6
  rw [View.read_writes_eq_canon _ _ _ (cover1_A_6 c i a2 h2 a3 h3 a4 h4 a5 h5 a6 h6 a7 h7 a8 h8 hc x0 x1 x2 x3 x4)]
  unfold kernelRun1_A
  dsimp only
  sl_unfold_words
  rw [View.canon_cons_unit_zero (S := S1x1024x1) hz3, View.readCov_unit_zero (S := S1x1024x1) _ hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

end Pieces

/-! ## The payloads at an index, over the extended reals -/

section Payloads

/-- A column [a, 1] broadcast to [a, b] reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The equality bit of two words, widened and read as a signed integer, is 1 where they are equal and 0 elsewhere. -/
theorem sitofp_eqBit (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    have e : (IntOp.cmpi .eq a a).setWidth 32 = 1#32 := by simp [IntOp.cmpi]
    rw [if_pos rfl, e]
    norm_num
  · have hb : (a == b) = false := beq_eq_false_iff_ne.mpr h
    have e : (IntOp.cmpi .eq a b).setWidth 32 = 0#32 := by
      show BitVec.setWidth 32 (BitVec.ofBool (a == b)) = 0#32
      rw [hb]; rfl
    rw [if_neg h, e]
    norm_num

/-- The 0/1 matrix at (r, g): 1 where node r's graph id word is the column number g. -/
theorem onehot_apply (bt : Vec Ideal S2000x1 .i32) (r : Fin 2000) (g : Fin 1024) :
    (k1_pay4 (F := Ideal) bt) (ix2 r g) = Cert.Spec.oh (bt (ix2 r (0 : Fin 1))) g := by
  unfold k1_pay4
  have hA : broadcastTo S2000x1024 (shapeCast S2000x1 bt shapeCasts_S2000x1_S2000x1) broadcasts_S2000x1_S2000x1024 (ix2 r g)
      = bt (ix2 r (0 : Fin 1)) := by
    rw [shapeCast_self]; exact broadcastTo_a1_ab_apply bt broadcasts_S2000x1_S2000x1024 r g
  have hB : iota .tc S2000x1024 32 [1] iota_S2000x1024_d1_w32 (ix2 r g) = BitVec.ofNat 32 g.val :=
    iota_single_apply .tc S2000x1024 32 1 iota_S2000x1024_d1_w32 (ix2 r g)
  show FloatOps.sitofp (F := Ideal) .f32 ((IntOp.cmpi .eq
      (broadcastTo S2000x1024 (shapeCast S2000x1 bt shapeCasts_S2000x1_S2000x1) broadcasts_S2000x1_S2000x1024 (ix2 r g))
      (iota .tc S2000x1024 32 [1] iota_S2000x1024_d1_w32 (ix2 r g))).setWidth 32) = _
  rw [hA, hB]
  exact sitofp_eqBit _ _

/-- The two contractions of the update: the 0/1 matrix [2000, 1024] against the activated rows [2000, 64], and against
    a column [2000, 1]; each contracts the node axis (axis 0) of both operands. -/
abbrev dotSums : DotDims S2000x1024 S2000x64 S1024x64 := dot_S2000x1024_S2000x64_S1024x64_0_0_1_1_n_n
abbrev dotCounts : DotDims S2000x1024 S2000x1 S1024x1 := dot_S2000x1024_S2000x1_S1024x1_0_0_1_1_n_n

/-- At result entry (g, o) and node k the 0/1 matrix is read at (k, g) … -/
theorem dotSums_lhs (g : Fin 1024) (o : Fin 64) (k : Fin 2000) :
    dotSums.lhsIdx (ix2 g o) ((contrEquiv1 dotSums 2000 rfl rfl).symm k) = ix2 k g := by
  funext ax; apply Fin.ext
  match ax with
  | ⟨0, _⟩ =>
    exact (dotSums.lhsIdx_val_of_single (cl := (0 : Fin 2)) rfl (ix2 g o) _).trans (contrEquiv1_symm_val dotSums 2000 rfl rfl k)
  | ⟨1, _⟩ => rfl

/-- … and the activated rows at (k, o). -/
theorem dotSums_rhs (g : Fin 1024) (o : Fin 64) (k : Fin 2000) :
    dotSums.rhsIdx (ix2 g o) ((contrEquiv1 dotSums 2000 rfl rfl).symm k) = ix2 k o := by
  funext ax; apply Fin.ext
  match ax with
  | ⟨0, _⟩ =>
    exact (dotSums.rhsIdx_val_of_single (cr := (0 : Fin 2)) rfl (ix2 g o) _).trans (contrEquiv1_symm_val dotSums 2000 rfl rfl k)
  | ⟨1, _⟩ => rfl

/-- The same for the product with a column: the 0/1 matrix at (k, g) … -/
theorem dotCounts_lhs (g : Fin 1024) (o : Fin 1) (k : Fin 2000) :
    dotCounts.lhsIdx (ix2 g o) ((contrEquiv1 dotCounts 2000 rfl rfl).symm k) = ix2 k g := by
  funext ax; apply Fin.ext
  match ax with
  | ⟨0, _⟩ =>
    exact (dotCounts.lhsIdx_val_of_single (cl := (0 : Fin 2)) rfl (ix2 g o) _).trans (contrEquiv1_symm_val dotCounts 2000 rfl rfl k)
  | ⟨1, _⟩ => rfl

/-- … and the column at (k, o). -/
theorem dotCounts_rhs (g : Fin 1024) (o : Fin 1) (k : Fin 2000) :
    dotCounts.rhsIdx (ix2 g o) ((contrEquiv1 dotCounts 2000 rfl rfl).symm k) = ix2 k o := by
  funext ax; apply Fin.ext
  match ax with
  | ⟨0, _⟩ =>
    exact (dotCounts.rhsIdx_val_of_single (cr := (0 : Fin 2)) rfl (ix2 g o) _).trans (contrEquiv1_symm_val dotCounts 2000 rfl rfl k)
  | ⟨1, _⟩ => rfl

/-- The activated rows of a block, as the update spells them: the two feature blocks added, scaled by the column,
    the bias row added, cut at zero. -/
def actVec {F : FTy → Type} [FloatOps F] (x0 : Vec F S2000x64 .f32) (x1 : Vec F S2000x64 .bf16) (x2 : Vec F S2000x1 .f32)
    (x4 : Vec F S1x64 .f32) : FVec F S2000x64 .bf16 :=
  truncf .bf16 (maximumf (addf (mulf (addf (shapeCast S2000x64 x0 shapeCasts_S2000x64_S2000x64)
      (extf .f32 (shapeCast S2000x64 x1 shapeCasts_S2000x64_S2000x64) bitsLt_bf16_f32))
      (broadcastTo S2000x64 (shapeCast S2000x1 x2 shapeCasts_S2000x1_S2000x1) broadcasts_S2000x1_S2000x64))
      (broadcastTo S2000x64 (shapeCast S1x64 x4 shapeCasts_S1x64_S1x64) broadcasts_S1x64_S2000x64))
      (broadcast S2000x64 (Scalar.ofBits .f32 0x00000000#32))) bitsLt_bf16_f32

/-- The sums update is the block it held plus the 0/1 matrix contracted with the activated rows. -/
theorem sumsUpdate_eq {F : FTy → Type} [FloatOps F] (x0 : Vec F S2000x64 .f32) (x1 : Vec F S2000x64 .bf16) (x2 : Vec F S2000x1 .f32)
    (x4 : Vec F S1x64 .f32) (x3 : Vec F S2000x1 .i32) (acc : Vec F S1x1024x64 .f32) :
    k1_pay5 x0 x1 x2 x4 x3 acc
      = shapeCast S1x1024x64 (addf (shapeCast S1024x64 acc shapeCasts_S1x1024x64_S1024x64)
          (matmul dotSums none (k1_pay4 x3) (actVec x0 x1 x2 x4) (constant S1024x64 .f32 0x00000000#32)))
          shapeCasts_S1024x64_S1x1024x64 := rfl

/-- The activated entry (r, o) of a block over the extended reals. -/
def actBlk (x0 : S2000x64.Idx → EReal) (x1 : S2000x64.Idx → EReal) (x2 : S2000x1.Idx → EReal) (x4 : S1x64.Idx → EReal)
    (r : Fin 2000) (o : Fin 64) : EReal :=
  max ((x0 (ix2 r o) + x1 (ix2 r o)) * x2 (ix2 r (0 : Fin 1)) + x4 (ix2 (0 : Fin 1) o)) 0

theorem actVec_apply (x0 : Vec Ideal S2000x64 .f32) (x1 : Vec Ideal S2000x64 .bf16) (x2 : Vec Ideal S2000x1 .f32)
    (x4 : Vec Ideal S1x64 .f32) (r : Fin 2000) (o : Fin 64) :
    actVec (F := Ideal) x0 x1 x2 x4 (ix2 r o) = actBlk x0 x1 x2 x4 r o := by
  unfold actVec actBlk
  rw [shapeCast_self, shapeCast_self, shapeCast_self, shapeCast_self]
  show max ((x0 (ix2 r o) + x1 (ix2 r o)) * broadcastTo S2000x64 x2 broadcasts_S2000x1_S2000x64 (ix2 r o)
      + broadcastTo S2000x64 x4 broadcasts_S1x64_S2000x64 (ix2 r o)) (Ideal.ofBits .f32 0x00000000#32) = _
  rw [broadcastTo_a1_ab_apply, broadcastTo_1b_ab_apply, Ideal.ofBits_zero_f32]

/-- The sums update at (0, g, o): what the block held there plus, over the block's 2000 nodes, the 0/1 entry times
    the activated entry. -/
theorem sumsUpdate_apply (x0 : Vec Ideal S2000x64 .f32) (x1 : Vec Ideal S2000x64 .bf16) (x2 : Vec Ideal S2000x1 .f32)
    (x4 : Vec Ideal S1x64 .f32) (x3 : Vec Ideal S2000x1 .i32) (acc : Vec Ideal S1x1024x64 .f32) (g : Fin 1024) (o : Fin 64) :
    (k1_pay5 (F := Ideal) x0 x1 x2 x4 x3 acc) (ix3 (0 : Fin 1) g o)
      = acc (ix3 (0 : Fin 1) g o)
        + ∑ r : Fin 2000, Cert.Spec.oh (x3 (ix2 r (0 : Fin 1))) g * actBlk x0 x1 x2 x4 r o := by
  rw [sumsUpdate_eq]
  refine (shapeCast_ab_1ab_apply _ shapeCasts_S1024x64_S1x1024x64 (0 : Fin 1) g o).trans ?_
  show shapeCast S1024x64 acc shapeCasts_S1x1024x64_S1024x64 (ix2 g o)
      + matmul dotSums none (k1_pay4 (F := Ideal) x3) (actVec (F := Ideal) x0 x1 x2 x4) (constant S1024x64 .f32 0x00000000#32) (ix2 g o) = _
  refine congrArg₂ (· + ·) (shapeCast_1ab_ab_apply acc shapeCasts_S1x1024x64_S1024x64 g o) ?_
  refine (Ideal.matmul_constant_zero_apply dotSums none (k1_pay4 (F := Ideal) x3) (actVec (F := Ideal) x0 x1 x2 x4) (ix2 g o)).trans ?_
  refine (Equiv.sum_comp (contrEquiv1 dotSums 2000 rfl rfl).symm _).symm.trans ?_
  refine Finset.sum_congr rfl fun r _ => ?_
  refine congrArg₂ (· * ·) ?_ ?_
  · exact (congrArg (k1_pay4 (F := Ideal) x3) (dotSums_lhs g o r)).trans (onehot_apply x3 r g)
  · exact (congrArg (actVec (F := Ideal) x0 x1 x2 x4) (dotSums_rhs g o r)).trans (actVec_apply x0 x1 x2 x4 r o)

/-- The counts update is the block it held plus the 0/1 matrix contracted with a column filled with one word. -/
theorem countsUpdate_eq {F : FTy → Type} [FloatOps F] (m : FVec F S2000x1024 .bf16) (w : F .bf16) (acc : Vec F S1x1024x1 .f32) :
    k1_pay1 m w acc
      = shapeCast S1x1024x1 (addf (shapeCast S1024x1 acc shapeCasts_S1x1024x1_S1024x1)
          (matmul dotCounts none m (broadcast S2000x1 w) (constant S1024x1 .f32 0x00000000#32)))
          shapeCasts_S1024x1_S1x1024x1 := rfl

/-- The counts update at (0, g, 0): what the block held there plus, over the block's 2000 nodes, the 0/1 entry
    (times the word 1.0 of the column, which is 1). -/
theorem countsUpdate_apply (x3 : Vec Ideal S2000x1 .i32) (acc : Vec Ideal S1x1024x1 .f32) (g : Fin 1024) (q : Fin 1) :
    (k1_pay1 (F := Ideal) (k1_pay4 (F := Ideal) x3) (oneW (F := Ideal)) acc) (ix3 (0 : Fin 1) g q)
      = acc (ix3 (0 : Fin 1) g q) + ∑ r : Fin 2000, Cert.Spec.oh (x3 (ix2 r (0 : Fin 1))) g * 1 := by
  rw [countsUpdate_eq]
  refine (shapeCast_ab_1ab_apply _ shapeCasts_S1024x1_S1x1024x1 (0 : Fin 1) g q).trans ?_
  show shapeCast S1024x1 acc shapeCasts_S1x1024x1_S1024x1 (ix2 g q)
      + matmul dotCounts none (k1_pay4 (F := Ideal) x3) (broadcast S2000x1 (oneW (F := Ideal))) (constant S1024x1 .f32 0x00000000#32) (ix2 g q) = _
  refine congrArg₂ (· + ·) (shapeCast_1ab_ab_apply acc shapeCasts_S1x1024x1_S1024x1 g q) ?_
  refine (Ideal.matmul_constant_zero_apply dotCounts none (k1_pay4 (F := Ideal) x3) (broadcast S2000x1 (oneW (F := Ideal))) (ix2 g q)).trans ?_
  refine (Equiv.sum_comp (contrEquiv1 dotCounts 2000 rfl rfl).symm _).symm.trans ?_
  refine Finset.sum_congr rfl fun r _ => ?_
  refine congrArg₂ (· * ·) ?_ ?_
  · exact (congrArg (k1_pay4 (F := Ideal) x3) (dotCounts_lhs g q r)).trans (onehot_apply x3 r g)
  · show Ideal.ofBits .bf16 0x3F80#16 = 1
    exact Ideal.ofBits_one_bf16

/-- The block a reset stores in the sums: zero everywhere. -/
theorem sumsZero_apply (u : Fin 1) (g : Fin 1024) (o : Fin 64) : (k1_pay2 (F := Ideal)) (ix3 u g o) = 0 := by
  unfold k1_pay2
  refine (shapeCast_ab_1ab_apply _ shapeCasts_S1024x64_S1x1024x64 u g o).trans ?_
  show Ideal.ofBits .f32 0x00000000#32 = 0
  exact Ideal.ofBits_zero_f32

/-- The block a reset stores in the counts: zero everywhere. -/
theorem countsZero_apply (u : Fin 1) (g : Fin 1024) (q : Fin 1) : (k1_pay3 (F := Ideal)) (ix3 u g q) = 0 := by
  unfold k1_pay3
  refine (shapeCast_ab_1ab_apply _ shapeCasts_S1024x1_S1x1024x1 u g q).trans ?_
  show Ideal.ofBits .f32 0x00000000#32 = 0
  exact Ideal.ofBits_zero_f32

end Payloads

/-! ## The input blocks, read off the arrays -/

section Blocks

/-- The five input blocks of point t, each at its literal type. -/
abbrev aggBlk (c : Dev nD) (t : Fin cfg1.N) : Vec Ideal S2000x64 .f32 := iblk1 V c 0 t
abbrev hpBlk (c : Dev nD) (t : Fin cfg1.N) : Vec Ideal S2000x64 .bf16 := iblk1 V c 1 t
abbrev dcolBlk (c : Dev nD) (t : Fin cfg1.N) : Vec Ideal S2000x1 .f32 := iblk1 V c 2 t
abbrev btBlk (c : Dev nD) (t : Fin cfg1.N) : Vec Ideal S2000x1 .i32 := iblk1 V c 3 t
abbrev biasBlk (c : Dev nD) (t : Fin cfg1.N) : Vec Ideal S1x64 .f32 := iblk1 V c 4 t

/-- The row blocks' index is the point's number (2 halves of 25 steps, in order) on a single column block; the
    bias row is one block. -/
theorem rowIndex : ∀ t : Fin cfg1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0) :=
  (by decide +kernel : ∀ t : Fin grid1.N,
    (win1_0.index t 0 = t.val ∧ win1_0.index t 1 = 0) ∧ (win1_1.index t 0 = t.val ∧ win1_1.index t 1 = 0)
    ∧ (win1_2.index t 0 = t.val ∧ win1_2.index t 1 = 0) ∧ (win1_3.index t 0 = t.val ∧ win1_3.index t 1 = 0)
    ∧ (win1_4.index t 0 = 0 ∧ win1_4.index t 1 = 0))

theorem aggBlk_apply (c : Dev nD) (t : Fin cfg1.N) (r : Fin 2000) (o : Fin 64) (k : S100000x64.Idx)
    (hk0 : (k 0).val = 2000 * t.val + r.val) (hk1 : (k 1).val = o.val) :
    aggBlk V c t (ix2 r o) = (V c main_v30 : S100000x64.Idx → EReal) k := by
  have hi := (rowIndex t).1
  show iblk1 V c 0 t (ix2 r o) = _
  unfold iblk1
  rw [View.read_apply]
  show V c main_v30 _ = V c main_v30 _
  congr 1
  funext a
  apply Fin.ext
  match a with
  | ⟨0, _⟩ => show win1_0.index t 0 * 2000 + 1 * r.val = (k 0).val; rw [hi.1, hk0]; omega
  | ⟨1, _⟩ => show win1_0.index t 1 * 64 + 1 * o.val = (k 1).val; rw [hi.2, hk1]; omega

theorem hpBlk_apply (c : Dev nD) (t : Fin cfg1.N) (r : Fin 2000) (o : Fin 64) (k : S100000x64.Idx)
    (hk0 : (k 0).val = 2000 * t.val + r.val) (hk1 : (k 1).val = o.val) :
    hpBlk V c t (ix2 r o) = (V c main_v15 : S100000x64.Idx → EReal) k := by
  have hi := (rowIndex t).2.1
  show iblk1 V c 1 t (ix2 r o) = _
  unfold iblk1
  rw [View.read_apply]
  show V c main_v15 _ = V c main_v15 _
  congr 1
  funext a
  apply Fin.ext
  match a with
  | ⟨0, _⟩ => show win1_1.index t 0 * 2000 + 1 * r.val = (k 0).val; rw [hi.1, hk0]; omega
  | ⟨1, _⟩ => show win1_1.index t 1 * 64 + 1 * o.val = (k 1).val; rw [hi.2, hk1]; omega

theorem dcolBlk_apply (c : Dev nD) (t : Fin cfg1.N) (r : Fin 2000) (o : Fin 1) (k : S100000x1.Idx)
    (hk0 : (k 0).val = 2000 * t.val + r.val) (hk1 : (k 1).val = o.val) :
    dcolBlk V c t (ix2 r o) = (V c main_v14 : S100000x1.Idx → EReal) k := by
  have hi := (rowIndex t).2.2.1
  show iblk1 V c 2 t (ix2 r o) = _
  unfold iblk1
  rw [View.read_apply]
  show V c main_v14 _ = V c main_v14 _
  congr 1
  funext a
  apply Fin.ext
  match a with
  | ⟨0, _⟩ => show win1_2.index t 0 * 2000 + 1 * r.val = (k 0).val; rw [hi.1, hk0]; omega
  | ⟨1, _⟩ => show win1_2.index t 1 * 1 + 1 * o.val = (k 1).val; rw [hi.2, hk1]; omega

theorem btBlk_apply (c : Dev nD) (t : Fin cfg1.N) (r : Fin 2000) (o : Fin 1) (k : S100000x1.Idx)
    (hk0 : (k 0).val = 2000 * t.val + r.val) (hk1 : (k 1).val = o.val) :
    btBlk V c t (ix2 r o) = (V c main_v31 : S100000x1.Idx → BitVec 32) k := by
  have hi := (rowIndex t).2.2.2.1
  show iblk1 V c 3 t (ix2 r o) = _
  unfold iblk1
  rw [View.read_apply]
  show V c main_v31 _ = V c main_v31 _
  congr 1
  funext a
  apply Fin.ext
  match a with
  | ⟨0, _⟩ => show win1_3.index t 0 * 2000 + 1 * r.val = (k 0).val; rw [hi.1, hk0]; omega
  | ⟨1, _⟩ => show win1_3.index t 1 * 1 + 1 * o.val = (k 1).val; rw [hi.2, hk1]; omega

theorem biasBlk_apply (c : Dev nD) (t : Fin cfg1.N) (u : Fin 1) (o : Fin 64) :
    biasBlk V c t (ix2 u o) = (V c main_v32 : S1x64.Idx → EReal) (ix2 (0 : Fin 1) o) := by
  have hi := (rowIndex t).2.2.2.2
  show iblk1 V c 4 t (ix2 u o) = _
  unfold iblk1
  rw [View.read_apply]
  show V c main_v32 _ = V c main_v32 _
  congr 1
  funext a
  apply Fin.ext
  match a with
  | ⟨0, _⟩ => show win1_4.index t 0 * 1 + 1 * u.val = 0; rw [hi.1]; omega
  | ⟨1, _⟩ => show win1_4.index t 1 * 64 + 1 * o.val = o.val; rw [hi.2]; omega

end Blocks

/-! ## The sums block after each point -/

section Sums

/-- Node n's term of the sums at (g, o): the 0/1 entry times the activated entry (0 past the last node, so that it
    is a function of every natural). -/
def sumsTerm (c : Dev nD) (g : Fin 1024) (o : Fin 64) (n : ℕ) : EReal :=
  if h : n < 100000 then
    Cert.Spec.oh ((V c main_v31 : S100000x1.Idx → BitVec 32) (ix2 (⟨n, h⟩ : Fin 100000) (0 : Fin 1))) g
      * Cert.Spec.act (V c main_v30) (V c main_v15) (V c main_v14) (V c main_v32) (⟨n, h⟩ : Fin 100000) o
  else 0

/-- What point n adds to the sums block at an index: its 2000 nodes' terms. -/
def sumsAdd (c : Dev nD) (n : ℕ) (i : S1x1024x64.Idx) : EReal :=
  ∑ r : Fin 2000, sumsTerm V c (i 1) (i 2) (2000 * n + r.val)

/-- A point's block sum, over the blocks, is its nodes' terms, over the arrays. -/
theorem sumsBlock_eq (c : Dev nD) (t : Fin cfg1.N) (g : Fin 1024) (o : Fin 64) :
    ∑ r : Fin 2000, Cert.Spec.oh (btBlk V c t (ix2 r (0 : Fin 1))) g
        * actBlk (aggBlk V c t) (hpBlk V c t) (dcolBlk V c t) (biasBlk V c t) r o
      = ∑ r : Fin 2000, sumsTerm V c g o (2000 * t.val + r.val) := by
  have hN : cfg1.N = 50 := N_1
  refine Finset.sum_congr rfl fun r _ => ?_
  have hlt : 2000 * t.val + r.val < 100000 := by have := t.isLt; have := r.isLt; omega
  unfold sumsTerm
  rw [dif_pos hlt]
  unfold actBlk Cert.Spec.act
  rw [btBlk_apply V c t r (0 : Fin 1) (ix2 (⟨2000 * t.val + r.val, hlt⟩ : Fin 100000) (0 : Fin 1)) rfl rfl,
    aggBlk_apply V c t r o (ix2 (⟨2000 * t.val + r.val, hlt⟩ : Fin 100000) o) rfl rfl,
    hpBlk_apply V c t r o (ix2 (⟨2000 * t.val + r.val, hlt⟩ : Fin 100000) o) rfl rfl,
    dcolBlk_apply V c t r (0 : Fin 1) (ix2 (⟨2000 * t.val + r.val, hlt⟩ : Fin 100000) (0 : Fin 1)) rfl rfl,
    biasBlk_apply V c t (0 : Fin 1) o]

/-- The sums block a resetting point leaves, and the one a later point makes of what the point before left. -/
def sumsReset (c : Dev nD) (n : ℕ) (h : n < cfg1.N) : Vec Ideal S1x1024x64 .f32 :=
  k1_pay5 (F := Ideal) (aggBlk V c ⟨n, h⟩) (hpBlk V c ⟨n, h⟩) (dcolBlk V c ⟨n, h⟩) (biasBlk V c ⟨n, h⟩) (btBlk V c ⟨n, h⟩) (k1_pay2 (F := Ideal))
def sumsStep (c : Dev nD) (n : ℕ) (h : n < cfg1.N) (acc : Vec Ideal S1x1024x64 .f32) : Vec Ideal S1x1024x64 .f32 :=
  k1_pay5 (F := Ideal) (aggBlk V c ⟨n, h⟩) (hpBlk V c ⟨n, h⟩) (dcolBlk V c ⟨n, h⟩) (biasBlk V c ⟨n, h⟩) (btBlk V c ⟨n, h⟩) acc

theorem sumsStep_apply (c : Dev nD) (n : ℕ) (h : n < cfg1.N) (acc : Vec Ideal S1x1024x64 .f32) (i : S1x1024x64.Idx) :
    sumsStep V c n h acc i = acc i + sumsAdd V c n i := by
  obtain ⟨u, g, o, rfl⟩ : ∃ (u : Fin 1) (g : Fin 1024) (o : Fin 64), i = ix3 u g o := ⟨i 0, i 1, i 2, eq_ix3 i⟩
  obtain rfl : u = 0 := Subsingleton.elim _ _
  unfold sumsStep
  refine (sumsUpdate_apply (aggBlk V c ⟨n, h⟩) (hpBlk V c ⟨n, h⟩) (dcolBlk V c ⟨n, h⟩) (biasBlk V c ⟨n, h⟩) (btBlk V c ⟨n, h⟩) acc g o).trans ?_
  exact congrArg (acc (ix3 (0 : Fin 1) g o) + ·) (sumsBlock_eq V c ⟨n, h⟩ g o)

theorem sumsReset_apply (c : Dev nD) (n : ℕ) (h : n < cfg1.N) (i : S1x1024x64.Idx) :
    sumsReset V c n h i = 0 + sumsAdd V c n i := by
  obtain ⟨u, g, o, rfl⟩ : ∃ (u : Fin 1) (g : Fin 1024) (o : Fin 64), i = ix3 u g o := ⟨i 0, i 1, i 2, eq_ix3 i⟩
  obtain rfl : u = 0 := Subsingleton.elim _ _
  unfold sumsReset
  refine (sumsUpdate_apply (aggBlk V c ⟨n, h⟩) (hpBlk V c ⟨n, h⟩) (dcolBlk V c ⟨n, h⟩) (biasBlk V c ⟨n, h⟩) (btBlk V c ⟨n, h⟩) (k1_pay2 (F := Ideal)) g o).trans ?_
  exact congrArg₂ (· + ·) (sumsZero_apply (0 : Fin 1) g o) (sumsBlock_eq V c ⟨n, h⟩ g o)

/-- At the points ≡ 0 (mod 25) the sums block is the reset's. -/
theorem sums_reset_eq (c : Dev nD) (n : ℕ) (h : n < cfg1.N) (hm : n % 25 = 0) :
    (outsAt1 V c n h).1 = sumsReset V c n h := by
  rw [outsAt1_A V c ⟨n, h⟩ hm]
  dsimp only
  exact sums_A (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr hm) (iblk1 V c 0 ⟨n, h⟩) (iblk1 V c 1 ⟨n, h⟩) (iblk1 V c 2 ⟨n, h⟩) (iblk1 V c 3 ⟨n, h⟩) (iblk1 V c 4 ⟨n, h⟩)

/-- At every other point it is the step of what the point before left. -/
theorem sums_step_eq (c : Dev nD) (n : ℕ) (h : n + 1 < cfg1.N) (hm : ¬(n + 1) % 25 = 0) :
    (outsAt1 V c (n + 1) h).1 = sumsStep V c (n + 1) h (outsAt1 V c n (Nat.lt_of_succ_lt h)).1 := by
  rw [outsAt1_B V c ⟨n + 1, h⟩ hm]
  dsimp only
  exact sums_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hm ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
    (outsAt1 V c n (Nat.lt_of_succ_lt h)).1 (outsAt1 V c n (Nat.lt_of_succ_lt h)).2

/-- After the last step of half q the sums block holds, at (0, g, o), the sum of the half's 50000 nodes' terms. -/
theorem sums_last (c : Dev nD) (q : ℕ) (h : 25 * q + 24 < cfg1.N) (g : Fin 1024) (o : Fin 64) :
    (outsAt1 V c (25 * q + 24) h).1 (ix3 (0 : Fin 1) g o) = ∑ e : Fin 50000, sumsTerm V c g o (50000 * q + e.val) := by
  have eFold := Pipeline.eq_accAt (fun n h => (outsAt1 V c n h).1) 25 (sumsReset V c) (sumsStep V c)
    (sums_reset_eq V c) (sums_step_eq V c) q 24 (by omega) h
  have eSum := Pipeline.accAt_add_apply (sumsReset V c) (sumsStep V c) (fun _ => (0 : EReal)) (sumsAdd V c) (25 * q) 24
    (fun h i => sumsReset_apply V c (25 * q) h i) (fun n h acc i _ _ => sumsStep_apply V c n h acc i) 24 (le_refl 24) h
    (ix3 (0 : Fin 1) g o)
  refine (congrFun eFold (ix3 (0 : Fin 1) g o)).trans (eSum.trans ?_)
  rw [zero_add]
  refine (Finset.sum_congr rfl fun s _ => ?_).trans
    (Cert.Lib.sum_fin_tiles 2000 25 (fun e => sumsTerm V c g o (50000 * q + e)))
  show ∑ r : Fin 2000, sumsTerm V c g o (2000 * (25 * q + s) + r.val) = _
  exact Finset.sum_congr rfl fun r _ => congrArg (sumsTerm V c g o) (by omega)

end Sums

/-! ## The counts block after each point -/

section Counts

/-- Node n's term of the counts at g: the 0/1 entry (0 past the last node). -/
def countsTerm (c : Dev nD) (g : Fin 1024) (n : ℕ) : EReal :=
  if h : n < 100000 then
    Cert.Spec.oh ((V c main_v31 : S100000x1.Idx → BitVec 32) (ix2 (⟨n, h⟩ : Fin 100000) (0 : Fin 1))) g * 1
  else 0

/-- What point n adds to the counts block at an index: its 2000 nodes' terms. -/
def countsAdd (c : Dev nD) (n : ℕ) (i : S1x1024x1.Idx) : EReal :=
  ∑ r : Fin 2000, countsTerm V c (i 1) (2000 * n + r.val)

theorem countsBlock_eq (c : Dev nD) (t : Fin cfg1.N) (g : Fin 1024) :
    ∑ r : Fin 2000, Cert.Spec.oh (btBlk V c t (ix2 r (0 : Fin 1))) g * 1
      = ∑ r : Fin 2000, countsTerm V c g (2000 * t.val + r.val) := by
  have hN : cfg1.N = 50 := N_1
  refine Finset.sum_congr rfl fun r _ => ?_
  have hlt : 2000 * t.val + r.val < 100000 := by have := t.isLt; have := r.isLt; omega
  unfold countsTerm
  rw [dif_pos hlt, btBlk_apply V c t r (0 : Fin 1) (ix2 (⟨2000 * t.val + r.val, hlt⟩ : Fin 100000) (0 : Fin 1)) rfl rfl]

/-- The counts block a resetting point leaves, and the one a later point makes of what the point before left. -/
def countsReset (c : Dev nD) (n : ℕ) (h : n < cfg1.N) : Vec Ideal S1x1024x1 .f32 :=
  k1_pay1 (F := Ideal) (k1_pay4 (F := Ideal) (btBlk V c ⟨n, h⟩)) (oneW (F := Ideal)) (k1_pay3 (F := Ideal))
def countsStep (c : Dev nD) (n : ℕ) (h : n < cfg1.N) (acc : Vec Ideal S1x1024x1 .f32) : Vec Ideal S1x1024x1 .f32 :=
  k1_pay1 (F := Ideal) (k1_pay4 (F := Ideal) (btBlk V c ⟨n, h⟩)) (oneW (F := Ideal)) acc

theorem countsStep_apply (c : Dev nD) (n : ℕ) (h : n < cfg1.N) (acc : Vec Ideal S1x1024x1 .f32) (i : S1x1024x1.Idx) :
    countsStep V c n h acc i = acc i + countsAdd V c n i := by
  obtain ⟨u, g, q, rfl⟩ : ∃ (u : Fin 1) (g : Fin 1024) (q : Fin 1), i = ix3 u g q := ⟨i 0, i 1, i 2, eq_ix3 i⟩
  obtain rfl : u = 0 := Subsingleton.elim _ _
  unfold countsStep
  refine (countsUpdate_apply (btBlk V c ⟨n, h⟩) acc g q).trans ?_
  exact congrArg (acc (ix3 (0 : Fin 1) g q) + ·) (countsBlock_eq V c ⟨n, h⟩ g)

theorem countsReset_apply (c : Dev nD) (n : ℕ) (h : n < cfg1.N) (i : S1x1024x1.Idx) :
    countsReset V c n h i = 0 + countsAdd V c n i := by
  obtain ⟨u, g, q, rfl⟩ : ∃ (u : Fin 1) (g : Fin 1024) (q : Fin 1), i = ix3 u g q := ⟨i 0, i 1, i 2, eq_ix3 i⟩
  obtain rfl : u = 0 := Subsingleton.elim _ _
  unfold countsReset
  refine (countsUpdate_apply (btBlk V c ⟨n, h⟩) (k1_pay3 (F := Ideal)) g q).trans ?_
  exact congrArg₂ (· + ·) (countsZero_apply (0 : Fin 1) g q) (countsBlock_eq V c ⟨n, h⟩ g)

/-- At the points ≡ 0 (mod 25) the counts block is the reset's. -/
theorem counts_reset_eq (c : Dev nD) (n : ℕ) (h : n < cfg1.N) (hm : n % 25 = 0) :
    (outsAt1 V c n h).2 = countsReset V c n h := by
  rw [outsAt1_A V c ⟨n, h⟩ hm]
  dsimp only
  exact counts_A (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) ((hcond1_0 ⟨n, h⟩).mpr hm) (iblk1 V c 0 ⟨n, h⟩) (iblk1 V c 1 ⟨n, h⟩) (iblk1 V c 2 ⟨n, h⟩) (iblk1 V c 3 ⟨n, h⟩) (iblk1 V c 4 ⟨n, h⟩)

/-- At every other point it is the step of what the point before left. -/
theorem counts_step_eq (c : Dev nD) (n : ℕ) (h : n + 1 < cfg1.N) (hm : ¬(n + 1) % 25 = 0) :
    (outsAt1 V c (n + 1) h).2 = countsStep V c (n + 1) h (outsAt1 V c n (Nat.lt_of_succ_lt h)).2 := by
  rw [outsAt1_B V c ⟨n + 1, h⟩ hm]
  dsimp only
  exact counts_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hm ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩)
    (outsAt1 V c n (Nat.lt_of_succ_lt h)).1 (outsAt1 V c n (Nat.lt_of_succ_lt h)).2

/-- After the last step of half q the counts block holds, at (0, g, 0), the sum of the half's 50000 nodes' terms. -/
theorem counts_last (c : Dev nD) (q : ℕ) (h : 25 * q + 24 < cfg1.N) (g : Fin 1024) (z : Fin 1) :
    (outsAt1 V c (25 * q + 24) h).2 (ix3 (0 : Fin 1) g z) = ∑ e : Fin 50000, countsTerm V c g (50000 * q + e.val) := by
  have eFold := Pipeline.eq_accAt (fun n h => (outsAt1 V c n h).2) 25 (countsReset V c) (countsStep V c)
    (counts_reset_eq V c) (counts_step_eq V c) q 24 (by omega) h
  have eSum := Pipeline.accAt_add_apply (countsReset V c) (countsStep V c) (fun _ => (0 : EReal)) (countsAdd V c) (25 * q) 24
    (fun h i => countsReset_apply V c (25 * q) h i) (fun n h acc i _ _ => countsStep_apply V c n h acc i) 24 (le_refl 24) h
    (ix3 (0 : Fin 1) g z)
  refine (congrFun eFold (ix3 (0 : Fin 1) g z)).trans (eSum.trans ?_)
  rw [zero_add]
  refine (Finset.sum_congr rfl fun s _ => ?_).trans
    (Cert.Lib.sum_fin_tiles 2000 25 (fun e => countsTerm V c g (50000 * q + e)))
  show ∑ r : Fin 2000, countsTerm V c g (2000 * (25 * q + s) + r.val) = _
  exact Finset.sum_congr rfl fun r _ => congrArg (countsTerm V c g) (by omega)

end Counts

/-! ## The result arrays after the region -/

section Final

/-- The two result windows' block at point t is slab t / 25 of its array: the index, and the block's extents. -/
theorem slabIndex : ∀ t : Fin cfg1.N,
    ((win1_5.index t 0 * win1_5.size 0 = t.val / 25 ∧ win1_5.xsize (grid1.coords t) 0 = 1)
      ∧ (win1_5.index t 1 * win1_5.size 1 = 0 ∧ win1_5.xsize (grid1.coords t) 1 = 1024)
      ∧ (win1_5.index t 2 * win1_5.size 2 = 0 ∧ win1_5.xsize (grid1.coords t) 2 = 64))
    ∧ ((win1_6.index t 0 * win1_6.size 0 = t.val / 25 ∧ win1_6.xsize (grid1.coords t) 0 = 1)
      ∧ (win1_6.index t 1 * win1_6.size 1 = 0 ∧ win1_6.xsize (grid1.coords t) 1 = 1024)
      ∧ (win1_6.index t 2 * win1_6.size 2 = 0 ∧ win1_6.xsize (grid1.coords t) 2 = 1)) :=
  (by decide +kernel : ∀ t : Fin grid1.N,
    ((win1_5.index t 0 * win1_5.size 0 = t.val / 25 ∧ win1_5.xsize (grid1.coords t) 0 = 1)
      ∧ (win1_5.index t 1 * win1_5.size 1 = 0 ∧ win1_5.xsize (grid1.coords t) 1 = 1024)
      ∧ (win1_5.index t 2 * win1_5.size 2 = 0 ∧ win1_5.xsize (grid1.coords t) 2 = 64))
    ∧ ((win1_6.index t 0 * win1_6.size 0 = t.val / 25 ∧ win1_6.xsize (grid1.coords t) 0 = 1)
      ∧ (win1_6.index t 1 * win1_6.size 1 = 0 ∧ win1_6.xsize (grid1.coords t) 1 = 1024)
      ∧ (win1_6.index t 2 * win1_6.size 2 = 0 ∧ win1_6.xsize (grid1.coords t) 2 = 1)))

/-- Node 50000·q + e is node e of half q: its sums term is the specification's. -/
theorem sumsTerm_node (c : Dev nD) (g : Fin 1024) (o : Fin 64) (q : Fin 2) (e : Fin 50000) :
    sumsTerm V c g o (50000 * q.val + e.val)
      = Cert.Spec.oh ((V c main_v31 : S100000x1.Idx → BitVec 32) (ix2 (Cert.Spec.nodeRow q e) (0 : Fin 1))) g
        * Cert.Spec.act (V c main_v30) (V c main_v15) (V c main_v14) (V c main_v32) (Cert.Spec.nodeRow q e) o := by
  have hlt : 50000 * q.val + e.val < 100000 := by have := q.isLt; have := e.isLt; omega
  have hrow : (⟨50000 * q.val + e.val, hlt⟩ : Fin 100000) = Cert.Spec.nodeRow q e :=
    Fin.ext (by show 50000 * q.val + e.val = q.val * 50000 + e.val; omega)
  unfold sumsTerm
  rw [dif_pos hlt, hrow]

/-- The same for the counts term. -/
theorem countsTerm_node (c : Dev nD) (g : Fin 1024) (q : Fin 2) (e : Fin 50000) :
    countsTerm V c g (50000 * q.val + e.val)
      = Cert.Spec.oh ((V c main_v31 : S100000x1.Idx → BitVec 32) (ix2 (Cert.Spec.nodeRow q e) (0 : Fin 1))) g * 1 := by
  have hlt : 50000 * q.val + e.val < 100000 := by have := q.isLt; have := e.isLt; omega
  have hrow : (⟨50000 * q.val + e.val, hlt⟩ : Fin 100000) = Cert.Spec.nodeRow q e :=
    Fin.ext (by show 50000 * q.val + e.val = q.val * 50000 + e.val; omega)
  unfold countsTerm
  rw [dif_pos hlt, hrow]

/-- What a write-back of the sums writes is the point's slab of the per-half product. -/
theorem sums_flushed (c : Dev nD) (t : Fin cfg1.N) (hf : (cfg1.win 5).flush t = true) :
    (dat1 (F := Ideal) V c).flushed 5 t = ((cfg1.win 5).blk t).view.read (Elt Ideal)
      (Cert.Spec.poolSums (V c main_v30) (V c main_v15) (V c main_v14) (V c main_v31) (V c main_v32)) := by
  have hN : cfg1.N = 50 := N_1
  have hi := (slabIndex t).1
  have h24 := (flush1_5 t).mp hf
  obtain ⟨tv, ht⟩ := t
  obtain ⟨q, rfl⟩ : ∃ q, tv = 25 * q + 24 := ⟨tv / 25, by dsimp only at h24; omega⟩
  have hq : q < 2 := by omega
  show (cfg1.win 5).cut (grid1.coords ⟨25 * q + 24, ht⟩) ((dat1 (F := Ideal) V c).after 5 ⟨25 * q + 24, ht⟩) = _
  rw [after1_5]
  generalize hG : Cert.Spec.poolSums (V c main_v30) (V c main_v15) (V c main_v14) (V c main_v31) (V c main_v32) = G
  funext y
  obtain ⟨u, g, o, rfl⟩ : ∃ (u : Fin 1) (g : Fin 1024) (o : Fin 64), y = ix3 u g o := ⟨y 0, y 1, y 2, eq_ix3 y⟩
  obtain rfl : u = 0 := Subsingleton.elim _ _
  rw [View.read_apply]
  have hemb : ((cfg1.win 5).blk ⟨25 * q + 24, ht⟩).view.emb (ix3 (0 : Fin 1) g o) = (ix3 (⟨q, hq⟩ : Fin 2) g o : S2x1024x64.Idx) := by
    funext a
    apply Fin.ext
    match a with
    | ⟨0, _⟩ => show win1_5.index ⟨25 * q + 24, ht⟩ 0 * win1_5.size 0 + 1 * 0 = q; rw [hi.1.1]; dsimp only; omega
    | ⟨1, _⟩ => show win1_5.index ⟨25 * q + 24, ht⟩ 1 * win1_5.size 1 + 1 * g.val = g.val; rw [hi.2.1.1]; omega
    | ⟨2, _⟩ => show win1_5.index ⟨25 * q + 24, ht⟩ 2 * win1_5.size 2 + 1 * o.val = o.val; rw [hi.2.2.1]; omega
  show (outsAt1 V c (25 * q + 24) ht).1 (ix3 (0 : Fin 1) g o)
    = G (((cfg1.win 5).blk ⟨25 * q + 24, ht⟩).view.emb (ix3 (0 : Fin 1) g o))
  rw [hemb, sums_last V c q ht g o, ← hG]
  unfold Cert.Spec.poolSums
  exact Finset.sum_congr rfl fun e _ => sumsTerm_node V c g o ⟨q, hq⟩ e

/-- What a write-back of the counts writes is the point's slab of the per-half count. -/
theorem counts_flushed (c : Dev nD) (t : Fin cfg1.N) (hf : (cfg1.win 6).flush t = true) :
    (dat1 (F := Ideal) V c).flushed 6 t = ((cfg1.win 6).blk t).view.read (Elt Ideal)
      (Cert.Spec.poolCounts (V c main_v31)) := by
  have hN : cfg1.N = 50 := N_1
  have hi := (slabIndex t).2
  have h24 := (flush1_6 t).mp hf
  obtain ⟨tv, ht⟩ := t
  obtain ⟨q, rfl⟩ : ∃ q, tv = 25 * q + 24 := ⟨tv / 25, by dsimp only at h24; omega⟩
  have hq : q < 2 := by omega
  show (cfg1.win 6).cut (grid1.coords ⟨25 * q + 24, ht⟩) ((dat1 (F := Ideal) V c).after 6 ⟨25 * q + 24, ht⟩) = _
  rw [after1_6]
  generalize hG : Cert.Spec.poolCounts (V c main_v31) = G
  funext y
  obtain ⟨u, g, z, rfl⟩ : ∃ (u : Fin 1) (g : Fin 1024) (z : Fin 1), y = ix3 u g z := ⟨y 0, y 1, y 2, eq_ix3 y⟩
  obtain rfl : u = 0 := Subsingleton.elim _ _
  rw [View.read_apply]
  have hemb : ((cfg1.win 6).blk ⟨25 * q + 24, ht⟩).view.emb (ix3 (0 : Fin 1) g z) = (ix3 (⟨q, hq⟩ : Fin 2) g z : S2x1024x1.Idx) := by
    funext a
    apply Fin.ext
    match a with
    | ⟨0, _⟩ => show win1_6.index ⟨25 * q + 24, ht⟩ 0 * win1_6.size 0 + 1 * 0 = q; rw [hi.1.1]; dsimp only; omega
    | ⟨1, _⟩ => show win1_6.index ⟨25 * q + 24, ht⟩ 1 * win1_6.size 1 + 1 * g.val = g.val; rw [hi.2.1.1]; omega
    | ⟨2, _⟩ => show win1_6.index ⟨25 * q + 24, ht⟩ 2 * win1_6.size 2 + 1 * z.val = z.val; rw [hi.2.2.1]; omega
  show (outsAt1 V c (25 * q + 24) ht).2 (ix3 (0 : Fin 1) g z)
    = G (((cfg1.win 6).blk ⟨25 * q + 24, ht⟩).view.emb (ix3 (0 : Fin 1) g z))
  rw [hemb, counts_last V c q ht g z, ← hG]
  unfold Cert.Spec.poolCounts
  exact Finset.sum_congr rfl fun e _ => countsTerm_node V c g ⟨q, hq⟩ e

/-- Slab q of the sums array is the block written back at point 25·q + 24. -/
theorem sums_cover (i : S2x1024x64.Idx) :
    ∃ t : Fin cfg1.N, (cfg1.win 5).flush t = true ∧ i ∈ ((cfg1.win 5).blk t).view.set := by
  have hN : cfg1.N = 50 := N_1
  have h0 : (i 0 : Nat) < 2 := (i 0).isLt
  have h1 : (i 1 : Nat) < 1024 := (i 1).isLt
  have h2 : (i 2 : Nat) < 64 := (i 2).isLt
  have ht : 25 * (i 0 : Nat) + 24 < cfg1.N := by omega
  have hi := (slabIndex ⟨25 * (i 0 : Nat) + 24, ht⟩).1
  refine ⟨⟨25 * (i 0 : Nat) + 24, ht⟩, (flush1_5 _).mpr (by dsimp only; omega), ?_⟩
  show i ∈ ((View.whole main_v33_0).slice (win1_5.rect ⟨25 * (i 0 : Nat) + 24, ht⟩)).set
  rw [View.set_slice_whole, Rect.mem_set_unit]
  intro a
  match a with
  | ⟨0, _⟩ =>
    show win1_5.index ⟨25 * (i 0 : Nat) + 24, ht⟩ 0 * win1_5.size 0 ≤ (i 0 : Nat) ∧ (i 0 : Nat) < win1_5.index ⟨25 * (i 0 : Nat) + 24, ht⟩ 0 * win1_5.size 0 + win1_5.xsize (grid1.coords ⟨25 * (i 0 : Nat) + 24, ht⟩) 0
    rw [hi.1.1, hi.1.2]; dsimp only; omega
  | ⟨1, _⟩ =>
    show win1_5.index ⟨25 * (i 0 : Nat) + 24, ht⟩ 1 * win1_5.size 1 ≤ (i 1 : Nat) ∧ (i 1 : Nat) < win1_5.index ⟨25 * (i 0 : Nat) + 24, ht⟩ 1 * win1_5.size 1 + win1_5.xsize (grid1.coords ⟨25 * (i 0 : Nat) + 24, ht⟩) 1
    rw [hi.2.1.1, hi.2.1.2]; omega
  | ⟨2, _⟩ =>
    show win1_5.index ⟨25 * (i 0 : Nat) + 24, ht⟩ 2 * win1_5.size 2 ≤ (i 2 : Nat) ∧ (i 2 : Nat) < win1_5.index ⟨25 * (i 0 : Nat) + 24, ht⟩ 2 * win1_5.size 2 + win1_5.xsize (grid1.coords ⟨25 * (i 0 : Nat) + 24, ht⟩) 2
    rw [hi.2.2.1, hi.2.2.2]; omega

/-- Slab q of the counts array is the block written back at point 25·q + 24. -/
theorem counts_cover (i : S2x1024x1.Idx) :
    ∃ t : Fin cfg1.N, (cfg1.win 6).flush t = true ∧ i ∈ ((cfg1.win 6).blk t).view.set := by
  have hN : cfg1.N = 50 := N_1
  have h0 : (i 0 : Nat) < 2 := (i 0).isLt
  have h1 : (i 1 : Nat) < 1024 := (i 1).isLt
  have h2 : (i 2 : Nat) < 1 := (i 2).isLt
  have ht : 25 * (i 0 : Nat) + 24 < cfg1.N := by omega
  have hi := (slabIndex ⟨25 * (i 0 : Nat) + 24, ht⟩).2
  refine ⟨⟨25 * (i 0 : Nat) + 24, ht⟩, (flush1_6 _).mpr (by dsimp only; omega), ?_⟩
  show i ∈ ((View.whole main_v33_1).slice (win1_6.rect ⟨25 * (i 0 : Nat) + 24, ht⟩)).set
  rw [View.set_slice_whole, Rect.mem_set_unit]
  intro a
  match a with
  | ⟨0, _⟩ =>
    show win1_6.index ⟨25 * (i 0 : Nat) + 24, ht⟩ 0 * win1_6.size 0 ≤ (i 0 : Nat) ∧ (i 0 : Nat) < win1_6.index ⟨25 * (i 0 : Nat) + 24, ht⟩ 0 * win1_6.size 0 + win1_6.xsize (grid1.coords ⟨25 * (i 0 : Nat) + 24, ht⟩) 0
    rw [hi.1.1, hi.1.2]; dsimp only; omega
  | ⟨1, _⟩ =>
    show win1_6.index ⟨25 * (i 0 : Nat) + 24, ht⟩ 1 * win1_6.size 1 ≤ (i 1 : Nat) ∧ (i 1 : Nat) < win1_6.index ⟨25 * (i 0 : Nat) + 24, ht⟩ 1 * win1_6.size 1 + win1_6.xsize (grid1.coords ⟨25 * (i 0 : Nat) + 24, ht⟩) 1
    rw [hi.2.1.1, hi.2.1.2]; omega
  | ⟨2, _⟩ =>
    show win1_6.index ⟨25 * (i 0 : Nat) + 24, ht⟩ 2 * win1_6.size 2 ≤ (i 2 : Nat) ∧ (i 2 : Nat) < win1_6.index ⟨25 * (i 0 : Nat) + 24, ht⟩ 2 * win1_6.size 2 + win1_6.xsize (grid1.coords ⟨25 * (i 0 : Nat) + 24, ht⟩) 2
    rw [hi.2.2.1, hi.2.2.2]; omega

end Final

/-- The sums array after the region: per half, the 0/1 matrix times the activated rows. -/
theorem pool1_sums_final (c : Dev nD) :
    (dat1 (F := Ideal) V c).arrAt 5 cfg1.N
      = Cert.Spec.poolSums (V c main_v30) (V c main_v15) (V c main_v14) (V c main_v31) (V c main_v32) :=
  (dat1 (F := Ideal) V c).arrAt_eq_of_cover 5
    (Cert.Spec.poolSums (V c main_v30) (V c main_v15) (V c main_v14) (V c main_v31) (V c main_v32))
    (sums_flushed V c) sums_cover

/-- The counts array after the region: per half, the 0/1 matrix times a column of ones. -/
theorem pool1_counts_final (c : Dev nD) :
    (dat1 (F := Ideal) V c).arrAt 6 cfg1.N = Cert.Spec.poolCounts (V c main_v31) :=
  (dat1 (F := Ideal) V c).arrAt_eq_of_cover 6 (Cert.Spec.poolCounts (V c main_v31)) (counts_flushed V c) counts_cover

end Cert.KernelIdeal.PoolA

end
-- ==== Proof.PoolB.lean ====
/-
  The second graph's pooling region: what its two result arrays hold after its 50 points.

  The grid is 2 halves × 25 steps; point t = 25·c + s handles the 2000 nodes 50000·c + 2000·s … + 1999.  Both result
  blocks (sums [1, 1024, 64] and counts [1, 1024, 1]) keep their block index (c, 0, 0) over a half's 25 steps: step 0
  stores zeros, every step adds the 0/1 matrix [2000, 1024]ᵀ times the activated rows [2000, 64] (resp. a column of
  ones), and the block is written back after step 24.  So slab c of the sums array is the sum over the half's 25 · 2000
  = 50000 nodes of (0/1 entry) · (activated entry): `Cert.Spec.poolSums`, and of the counts array the sum of the 0/1
  entries: `Cert.Spec.poolCounts`.
-/
import proofs.«408358_j51376398795254_3_alg».proof.Proof.Gen.KernelIdeal.Frame
import proofs.«408358_j51376398795254_3_alg».proof.Proof.Spec
import proofs.«408358_j51376398795254_3_alg».proof.Proof.LibPropagate
import proofs.«408358_j51376398795254_3_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.PoolB

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-! ## What each control case leaves in each result block, as a function of the loaded blocks -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The word 1.0 the count's column is filled with. -/
abbrev oneW : F .bf16 := Scalar.ofBits .bf16 0x3F80#16

/-- A step that does not reset: the sums block becomes the update of what it held. -/
theorem sums_B (c : Dev nD) (i : grid3.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : ¬cond3_0 i)
    (x0 : Vec F S2000x64 .f32) (x1 : Vec F S2000x64 .bf16) (x2 : Vec F S2000x1 .f32) (x3 : Vec F S2000x1 .i32) (x4 : Vec F S1x64 .f32) (xo5 : Vec F S1x1024x64 .f32) (xo6 : Vec F S1x1024x1 .f32) :
    out3_B_5 c i a2 h2 a3 h3 a4 h4 a5 h5 a6 h6 a7 h7 a8 h8 hc x0 x1 x2 x3 x4 xo5 xo6 = k3_pay5 x0 x1 x2 x4 x3 xo5 := by
  unfold out3_B_5
  rw [View.read_writes_eq_canon _ _ _ (cover3_B_5 c i a2 h2 a3 h3 a4 h4 a5 h5 a6 h6 a7 h7 a8 h8 hc x0 x1 x2 x3 x4 xo5 xo6)]
  unfold kernelRun3_B
  dsimp only
  sl_unfold_words
  rw [View.canon_unit_zero hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A step that does not reset: the counts block becomes the update of what it held. -/
theorem counts_B (c : Dev nD) (i : grid3.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : ¬cond3_0 i)
    (x0 : Vec F S2000x64 .f32) (x1 : Vec F S2000x64 .bf16) (x2 : Vec F S2000x1 .f32) (x3 : Vec F S2000x1 .i32) (x4 : Vec F S1x64 .f32) (xo5 : Vec F S1x1024x64 .f32) (xo6 : Vec F S1x1024x1 .f32) :
    out3_B_6 c i a2 h2 a3 h3 a4 h4 a5 h5 a6 h6 a7 h7 a8 h8 hc x0 x1 x2 x3 x4 xo5 xo6 = k3_pay1 (k3_pay4 x3) oneW xo6 := by
  unfold out3_B_6
  rw [View.read_writes_eq_canon _ _ _ (cover3_B_6 c i a2 h2 a3 h3 a4 h4 a5 h5 a6 h6 a7 h7 a8 h8 hc x0 x1 x2 x3 x4 xo5 xo6)]
  unfold kernelRun3_B
  dsimp only
  sl_unfold_words
  rw [View.canon_unit_zero hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A resetting step: zeros are stored first and read back, so the sums block becomes the update of the zero block. -/
theorem sums_A (c : Dev nD) (i : grid3.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : cond3_0 i)
    (x0 : Vec F S2000x64 .f32) (x1 : Vec F S2000x64 .bf16) (x2 : Vec F S2000x1 .f32) (x3 : Vec F S2000x1 .i32) (x4 : Vec F S1x64 .f32) :
    out3_A_5 c i a2 h2 a3 h3 a4 h4 a5 h5 a6 h6 a7 h7 a8 h8 hc x0 x1 x2 x3 x4 = k3_pay5 x0 x1 x2 x4 x3 (k3_pay2 (F := F)) := by
  unfold out3_A_5
  rw [View.read_writes_eq_canon _ _ _ (cover3_A_5 c i a2 h2 a3 h3 a4 h4 a5 h5 a6 h6 a7 h7 a8 h8 hc x0 x1 x2 x3 x4)]
  unfold kernelRun3_A
  dsimp only
  sl_unfold_words
  rw [View.canon_cons_unit_zero (S := S1x1024x64) hz3, View.readCov_unit_zero (S := S1x1024x64) _ hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

/-- A resetting step: the counts block becomes the update of the zero block. -/
theorem counts_A (c : Dev nD) (i : grid3.Coords) (a2 : Memref sig .tc .vmem S2000x64 .f32) (h2 : a2.IsWhole)
    (a3 : Memref sig .tc .vmem S2000x64 .bf16) (h3 : a3.IsWhole) (a4 : Memref sig .tc .vmem S2000x1 .f32) (h4 : a4.IsWhole)
    (a5 : Memref sig .tc .vmem S2000x1 .i32) (h5 : a5.IsWhole) (a6 : Memref sig .tc .vmem S1x64 .f32) (h6 : a6.IsWhole)
    (a7 : Memref sig .tc .vmem S1x1024x64 .f32) (h7 : a7.IsWhole) (a8 : Memref sig .tc .vmem S1x1024x1 .f32) (h8 : a8.IsWhole) (hc : cond3_0 i)
    (x0 : Vec F S2000x64 .f32) (x1 : Vec F S2000x64 .bf16) (x2 : Vec F S2000x1 .f32) (x3 : Vec F S2000x1 .i32) (x4 : Vec F S1x64 .f32) :
    out3_A_6 c i a2 h2 a3 h3 a4 h4 a5 h5 a6 h6 a7 h7 a8 h8 hc x0 x1 x2 x3 x4 = k3_pay1 (k3_pay4 x3) oneW (k3_pay3 (F := F)) := by
  unfold out3_A_6
  rw [View.read_writes_eq_canon _ _ _ (cover3_A_6 c i a2 h2 a3 h3 a4 h4 a5 h5 a6 h6 a7 h7 a8 h8 hc x0 x1 x2 x3 x4)]
  unfold kernelRun3_A
  dsimp only
  sl_unfold_words
  rw [View.canon_cons_unit_zero (S := S1x1024x1) hz3, View.readCov_unit_zero (S := S1x1024x1) _ hz3]
  simp only [View.readAt_eq_ld, h2.read_unread, h3.read_unread, h4.read_unread, h5.read_unread, h6.read_unread, h7.read_unread,
    h8.read_unread, View.ld_unit_zero (S := S2000x64) hz2, View.ld_unit_zero (S := S2000x1) hz2, View.ld_unit_zero (S := S1x64) hz2,
    View.ld_unit_zero (S := S1x1024x64) hz3, View.ld_unit_zero (S := S1x1024x1) hz3]

end Pieces

/-! ## The payloads at an index, over the extended reals -/

section Payloads

/-- A column [a, 1] broadcast to [a, b] reads, at (p, q), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The equality bit of two words, widened and read as a signed integer, is 1 where they are equal and 0 elsewhere. -/
theorem sitofp_eqBit (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    have e : (IntOp.cmpi .eq a a).setWidth 32 = 1#32 := by simp [IntOp.cmpi]
    rw [if_pos rfl, e]
    norm_num
  · have hb : (a == b) = false := beq_eq_false_iff_ne.mpr h
    have e : (IntOp.cmpi .eq a b).setWidth 32 = 0#32 := by
      show BitVec.setWidth 32 (BitVec.ofBool (a == b)) = 0#32
      rw [hb]; rfl
    rw [if_neg h, e]
    norm_num

/-- The 0/1 matrix at (r, g): 1 where node r's graph id word is the column number g. -/
theorem onehot_apply (bt : Vec Ideal S2000x1 .i32) (r : Fin 2000) (g : Fin 1024) :
    (k3_pay4 (F := Ideal) bt) (ix2 r g) = Cert.Spec.oh (bt (ix2 r (0 : Fin 1))) g := by
  unfold k3_pay4
  have hA : broadcastTo S2000x1024 (shapeCast S2000x1 bt shapeCasts_S2000x1_S2000x1) broadcasts_S2000x1_S2000x1024 (ix2 r g)
      = bt (ix2 r (0 : Fin 1)) := by
    rw [shapeCast_self]; exact broadcastTo_a1_ab_apply bt broadcasts_S2000x1_S2000x1024 r g
  have hB : iota .tc S2000x1024 32 [1] iota_S2000x1024_d1_w32 (ix2 r g) = BitVec.ofNat 32 g.val :=
    iota_single_apply .tc S2000x1024 32 1 iota_S2000x1024_d1_w32 (ix2 r g)
  show FloatOps.sitofp (F := Ideal) .f32 ((IntOp.cmpi .eq
      (broadcastTo S2000x1024 (shapeCast S2000x1 bt shapeCasts_S2000x1_S2000x1) broadcasts_S2000x1_S2000x1024 (ix2 r g))
      (iota .tc S2000x1024 32 [1] iota_S2000x1024_d1_w32 (ix2 r g))).setWidth 32) = _
  rw [hA, hB]
  exact sitofp_eqBit _ _

/-- The two contractions of the update: the 0/1 matrix [2000, 1024] against the activated rows [2000, 64], and against
    a column [2000, 1]; each contracts the node axis (axis 0) of both operands. -/
abbrev dotSums : DotDims S2000x1024 S2000x64 S1024x64 := dot_S2000x1024_S2000x64_S1024x64_0_0_1_1_n_n
abbrev dotCounts : DotDims S2000x1024 S2000x1 S1024x1 := dot_S2000x1024_S2000x1_S1024x1_0_0_1_1_n_n

/-- At result entry (g, o) and node k the 0/1 matrix is read at (k, g) … -/
theorem dotSums_lhs (g : Fin 1024) (o : Fin 64) (k : Fin 2000) :
    dotSums.lhsIdx (ix2 g o) ((contrEquiv1 dotSums 2000 rfl rfl).symm k) = ix2 k g := by
  funext ax; apply Fin.ext
  match ax with
  | ⟨0, _⟩ =>
    exact (dotSums.lhsIdx_val_of_single (cl := (0 : Fin 2)) rfl (ix2 g o) _).trans (contrEquiv1_symm_val dotSums 2000 rfl rfl k)
  | ⟨1, _⟩ => rfl

/-- … and the activated rows at (k, o). -/
theorem dotSums_rhs (g : Fin 1024) (o : Fin 64) (k : Fin 2000) :
    dotSums.rhsIdx (ix2 g o) ((contrEquiv1 dotSums 2000 rfl rfl).symm k) = ix2 k o := by
  funext ax; apply Fin.ext
  match ax with
  | ⟨0, _⟩ =>
    exact (dotSums.rhsIdx_val_of_single (cr := (0 : Fin 2)) rfl (ix2 g o) _).trans (contrEquiv1_symm_val dotSums 2000 rfl rfl k)
  | ⟨1, _⟩ => rfl

/-- The same for the product with a column: the 0/1 matrix at (k, g) … -/
theorem dotCounts_lhs (g : Fin 1024) (o : Fin 1) (k : Fin 2000) :
    dotCounts.lhsIdx (ix2 g o) ((contrEquiv1 dotCounts 2000 rfl rfl).symm k) = ix2 k g := by
  funext ax; apply Fin.ext
  match ax with
  | ⟨0, _⟩ =>
    exact (dotCounts.lhsIdx_val_of_single (cl := (0 : Fin 2)) rfl (ix2 g o) _).trans (contrEquiv1_symm_val dotCounts 2000 rfl rfl k)
  | ⟨1, _⟩ => rfl

/-- … and the column at (k, o). -/
theorem dotCounts_rhs (g : Fin 1024) (o : Fin 1) (k : Fin 2000) :
    dotCounts.rhsIdx (ix2 g o) ((contrEquiv1 dotCounts 2000 rfl rfl).symm k) = ix2 k o := by
  funext ax; apply Fin.ext
  match ax with
  | ⟨0, _⟩ =>
    exact (dotCounts.rhsIdx_val_of_single (cr := (0 : Fin 2)) rfl (ix2 g o) _).trans (contrEquiv1_symm_val dotCounts 2000 rfl rfl k)
  | ⟨1, _⟩ => rfl

/-- The activated rows of a block, as the update spells them: the two feature blocks added, scaled by the column,
    the bias row added, cut at zero. -/
def actVec {F : FTy → Type} [FloatOps F] (x0 : Vec F S2000x64 .f32) (x1 : Vec F S2000x64 .bf16) (x2 : Vec F S2000x1 .f32)
    (x4 : Vec F S1x64 .f32) : FVec F S2000x64 .bf16 :=
  truncf .bf16 (maximumf (addf (mulf (addf (shapeCast S2000x64 x0 shapeCasts_S2000x64_S2000x64)
      (extf .f32 (shapeCast S2000x64 x1 shapeCasts_S2000x64_S2000x64) bitsLt_bf16_f32))
      (broadcastTo S2000x64 (shapeCast S2000x1 x2 shapeCasts_S2000x1_S2000x1) broadcasts_S2000x1_S2000x64))
      (broadcastTo S2000x64 (shapeCast S1x64 x4 shapeCasts_S1x64_S1x64) broadcasts_S1x64_S2000x64))
      (broadcast S2000x64 (Scalar.ofBits .f32 0x00000000#32))) bitsLt_bf16_f32

/-- The sums update is the block it held plus the 0/1 matrix contracted with the activated rows. -/
theorem sumsUpdate_eq {F : FTy → Type} [FloatOps F] (x0 : Vec F S2000x64 .f32) (x1 : Vec F S2000x64 .bf16) (x2 : Vec F S2000x1 .f32)
    (x4 : Vec F S1x64 .f32) (x3 : Vec F S2000x1 .i32) (acc : Vec F S1x1024x64 .f32) :
    k3_pay5 x0 x1 x2 x4 x3 acc
      = shapeCast S1x1024x64 (addf (shapeCast S1024x64 acc shapeCasts_S1x1024x64_S1024x64)
          (matmul dotSums none (k3_pay4 x3) (actVec x0 x1 x2 x4) (constant S1024x64 .f32 0x00000000#32)))
          shapeCasts_S1024x64_S1x1024x64 := rfl

/-- The activated entry (r, o) of a block over the extended reals. -/
def actBlk (x0 : S2000x64.Idx → EReal) (x1 : S2000x64.Idx → EReal) (x2 : S2000x1.Idx → EReal) (x4 : S1x64.Idx → EReal)
    (r : Fin 2000) (o : Fin 64) : EReal :=
  max ((x0 (ix2 r o) + x1 (ix2 r o)) * x2 (ix2 r (0 : Fin 1)) + x4 (ix2 (0 : Fin 1) o)) 0

theorem actVec_apply (x0 : Vec Ideal S2000x64 .f32) (x1 : Vec Ideal S2000x64 .bf16) (x2 : Vec Ideal S2000x1 .f32)
    (x4 : Vec Ideal S1x64 .f32) (r : Fin 2000) (o : Fin 64) :
    actVec (F := Ideal) x0 x1 x2 x4 (ix2 r o) = actBlk x0 x1 x2 x4 r o := by
  unfold actVec actBlk
  rw [shapeCast_self, shapeCast_self, shapeCast_self, shapeCast_self]
  show max ((x0 (ix2 r o) + x1 (ix2 r o)) * broadcastTo S2000x64 x2 broadcasts_S2000x1_S2000x64 (ix2 r o)
      + broadcastTo S2000x64 x4 broadcasts_S1x64_S2000x64 (ix2 r o)) (Ideal.ofBits .f32 0x00000000#32) = _
  rw [broadcastTo_a1_ab_apply, broadcastTo_1b_ab_apply, Ideal.ofBits_zero_f32]

/-- The sums update at (0, g, o): what the block held there plus, over the block's 2000 nodes, the 0/1 entry times
    the activated entry. -/
theorem sumsUpdate_apply (x0 : Vec Ideal S2000x64 .f32) (x1 : Vec Ideal S2000x64 .bf16) (x2 : Vec Ideal S2000x1 .f32)
    (x4 : Vec Ideal S1x64 .f32) (x3 : Vec Ideal S2000x1 .i32) (acc : Vec Ideal S1x1024x64 .f32) (g : Fin 1024) (o : Fin 64) :
    (k3_pay5 (F := Ideal) x0 x1 x2 x4 x3 acc) (ix3 (0 : Fin 1) g o)
      = acc (ix3 (0 : Fin 1) g o)
        + ∑ r : Fin 2000, Cert.Spec.oh (x3 (ix2 r (0 : Fin 1))) g * actBlk x0 x1 x2 x4 r o := by
  rw [sumsUpdate_eq]
  refine (shapeCast_ab_1ab_apply _ shapeCasts_S1024x64_S1x1024x64 (0 : Fin 1) g o).trans ?_
  show shapeCast S1024x64 acc shapeCasts_S1x1024x64_S1024x64 (ix2 g o)
      + matmul dotSums none (k3_pay4 (F := Ideal) x3) (actVec (F := Ideal) x0 x1 x2 x4) (constant S1024x64 .f32 0x00000000#32) (ix2 g o) = _
  refine congrArg₂ (· + ·) (shapeCast_1ab_ab_apply acc shapeCasts_S1x1024x64_S1024x64 g o) ?_
  refine (Ideal.matmul_constant_zero_apply dotSums none (k3_pay4 (F := Ideal) x3) (actVec (F := Ideal) x0 x1 x2 x4) (ix2 g o)).trans ?_
  refine (Equiv.sum_comp (contrEquiv1 dotSums 2000 rfl rfl).symm _).symm.trans ?_
  refine Finset.sum_congr rfl fun r _ => ?_
  refine congrArg₂ (· * ·) ?_ ?_
  · exact (congrArg (k3_pay4 (F := Ideal) x3) (dotSums_lhs g o r)).trans (onehot_apply x3 r g)
  · exact (congrArg (actVec (F := Ideal) x0 x1 x2 x4) (dotSums_rhs g o r)).trans (actVec_apply x0 x1 x2 x4 r o)

/-- The counts update is the block it held plus the 0/1 matrix contracted with a column filled with one word. -/
theorem countsUpdate_eq {F : FTy → Type} [FloatOps F] (m : FVec F S2000x1024 .bf16) (w : F .bf16) (acc : Vec F S1x1024x1 .f32) :
    k3_pay1 m w acc
      = shapeCast S1x1024x1 (addf (shapeCast S1024x1 acc shapeCasts_S1x1024x1_S1024x1)
          (matmul dotCounts none m (broadcast S2000x1 w) (constant S1024x1 .f32 0x00000000#32)))
          shapeCasts_S1024x1_S1x1024x1 := rfl

/-- The counts update at (0, g, 0): what the block held there plus, over the block's 2000 nodes, the 0/1 entry
    (times the word 1.0 of the column, which is 1). -/
theorem countsUpdate_apply (x3 : Vec Ideal S2000x1 .i32) (acc : Vec Ideal S1x1024x1 .f32) (g : Fin 1024) (q : Fin 1) :
    (k3_pay1 (F := Ideal) (k3_pay4 (F := Ideal) x3) (oneW (F := Ideal)) acc) (ix3 (0 : Fin 1) g q)
      = acc (ix3 (0 : Fin 1) g q) + ∑ r : Fin 2000, Cert.Spec.oh (x3 (ix2 r (0 : Fin 1))) g * 1 := by
  rw [countsUpdate_eq]
  refine (shapeCast_ab_1ab_apply _ shapeCasts_S1024x1_S1x1024x1 (0 : Fin 1) g q).trans ?_
  show shapeCast S1024x1 acc shapeCasts_S1x1024x1_S1024x1 (ix2 g q)
      + matmul dotCounts none (k3_pay4 (F := Ideal) x3) (broadcast S2000x1 (oneW (F := Ideal))) (constant S1024x1 .f32 0x00000000#32) (ix2 g q) = _
  refine congrArg₂ (· + ·) (shapeCast_1ab_ab_apply acc shapeCasts_S1x1024x1_S1024x1 g q) ?_
  refine (Ideal.matmul_constant_zero_apply dotCounts none (k3_pay4 (F := Ideal) x3) (broadcast S2000x1 (oneW (F := Ideal))) (ix2 g q)).trans ?_
  refine (Equiv.sum_comp (contrEquiv1 dotCounts 2000 rfl rfl).symm _).symm.trans ?_
  refine Finset.sum_congr rfl fun r _ => ?_
  refine congrArg₂ (· * ·) ?_ ?_
  · exact (congrArg (k3_pay4 (F := Ideal) x3) (dotCounts_lhs g q r)).trans (onehot_apply x3 r g)
  · show Ideal.ofBits .bf16 0x3F80#16 = 1
    exact Ideal.ofBits_one_bf16

/-- The block a reset stores in the sums: zero everywhere. -/
theorem sumsZero_apply (u : Fin 1) (g : Fin 1024) (o : Fin 64) : (k3_pay2 (F := Ideal)) (ix3 u g o) = 0 := by
  unfold k3_pay2
  refine (shapeCast_ab_1ab_apply _ shapeCasts_S1024x64_S1x1024x64 u g o).trans ?_
  show Ideal.ofBits .f32 0x00000000#32 = 0
  exact Ideal.ofBits_zero_f32

/-- The block a reset stores in the counts: zero everywhere. -/
theorem countsZero_apply (u : Fin 1) (g : Fin 1024) (q : Fin 1) : (k3_pay3 (F := Ideal)) (ix3 u g q) = 0 := by
  unfold k3_pay3
  refine (shapeCast_ab_1ab_apply _ shapeCasts_S1024x1_S1x1024x1 u g q).trans ?_
  show Ideal.ofBits .f32 0x00000000#32 = 0
  exact Ideal.ofBits_zero_f32

end Payloads

/-! ## The input blocks, read off the arrays -/

section Blocks

/-- The five input blocks of point t, each at its literal type. -/
abbrev aggBlk (c : Dev nD) (t : Fin cfg3.N) : Vec Ideal S2000x64 .f32 := iblk3 V c 0 t
abbrev hpBlk (c : Dev nD) (t : Fin cfg3.N) : Vec Ideal S2000x64 .bf16 := iblk3 V c 1 t
abbrev dcolBlk (c : Dev nD) (t : Fin cfg3.N) : Vec Ideal S2000x1 .f32 := iblk3 V c 2 t
abbrev btBlk (c : Dev nD) (t : Fin cfg3.N) : Vec Ideal S2000x1 .i32 := iblk3 V c 3 t
abbrev biasBlk (c : Dev nD) (t : Fin cfg3.N) : Vec Ideal S1x64 .f32 := iblk3 V c 4 t

/-- The row blocks' index is the point's number (2 halves of 25 steps, in order) on a single column block; the
    bias row is one block. -/
theorem rowIndex : ∀ t : Fin cfg3.N,
    (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = t.val ∧ win3_3.index t 1 = 0)
    ∧ (win3_4.index t 0 = 0 ∧ win3_4.index t 1 = 0) :=
  (by decide +kernel : ∀ t : Fin grid3.N,
    (win3_0.index t 0 = t.val ∧ win3_0.index t 1 = 0) ∧ (win3_1.index t 0 = t.val ∧ win3_1.index t 1 = 0)
    ∧ (win3_2.index t 0 = t.val ∧ win3_2.index t 1 = 0) ∧ (win3_3.index t 0 = t.val ∧ win3_3.index t 1 = 0)
    ∧ (win3_4.index t 0 = 0 ∧ win3_4.index t 1 = 0))

theorem aggBlk_apply (c : Dev nD) (t : Fin cfg3.N) (r : Fin 2000) (o : Fin 64) (k : S100000x64.Idx)
    (hk0 : (k 0).val = 2000 * t.val + r.val) (hk1 : (k 1).val = o.val) :
    aggBlk V c t (ix2 r o) = (V c main_v78 : S100000x64.Idx → EReal) k := by
  have hi := (rowIndex t).1
  show iblk3 V c 0 t (ix2 r o) = _
  unfold iblk3
  rw [View.read_apply]
  show V c main_v78 _ = V c main_v78 _
  congr 1
  funext a
  apply Fin.ext
  match a with
  | ⟨0, _⟩ => show win3_0.index t 0 * 2000 + 1 * r.val = (k 0).val; rw [hi.1, hk0]; omega
  | ⟨1, _⟩ => show win3_0.index t 1 * 64 + 1 * o.val = (k 1).val; rw [hi.2, hk1]; omega

theorem hpBlk_apply (c : Dev nD) (t : Fin cfg3.N) (r : Fin 2000) (o : Fin 64) (k : S100000x64.Idx)
    (hk0 : (k 0).val = 2000 * t.val + r.val) (hk1 : (k 1).val = o.val) :
    hpBlk V c t (ix2 r o) = (V c main_v63 : S100000x64.Idx → EReal) k := by
  have hi := (rowIndex t).2.1
  show iblk3 V c 1 t (ix2 r o) = _
  unfold iblk3
  rw [View.read_apply]
  show V c main_v63 _ = V c main_v63 _
  congr 1
  funext a
  apply Fin.ext
  match a with
  | ⟨0, _⟩ => show win3_1.index t 0 * 2000 + 1 * r.val = (k 0).val; rw [hi.1, hk0]; omega
  | ⟨1, _⟩ => show win3_1.index t 1 * 64 + 1 * o.val = (k 1).val; rw [hi.2, hk1]; omega

theorem dcolBlk_apply (c : Dev nD) (t : Fin cfg3.N) (r : Fin 2000) (o : Fin 1) (k : S100000x1.Idx)
    (hk0 : (k 0).val = 2000 * t.val + r.val) (hk1 : (k 1).val = o.val) :
    dcolBlk V c t (ix2 r o) = (V c main_v62 : S100000x1.Idx → EReal) k := by
  have hi := (rowIndex t).2.2.1
  show iblk3 V c 2 t (ix2 r o) = _
  unfold iblk3
  rw [View.read_apply]
  show V c main_v62 _ = V c main_v62 _
  congr 1
  funext a
  apply Fin.ext
  match a with
  | ⟨0, _⟩ => show win3_2.index t 0 * 2000 + 1 * r.val = (k 0).val; rw [hi.1, hk0]; omega
  | ⟨1, _⟩ => show win3_2.index t 1 * 1 + 1 * o.val = (k 1).val; rw [hi.2, hk1]; omega

theorem btBlk_apply (c : Dev nD) (t : Fin cfg3.N) (r : Fin 2000) (o : Fin 1) (k : S100000x1.Idx)
    (hk0 : (k 0).val = 2000 * t.val + r.val) (hk1 : (k 1).val = o.val) :
    btBlk V c t (ix2 r o) = (V c main_v79 : S100000x1.Idx → BitVec 32) k := by
  have hi := (rowIndex t).2.2.2.1
  show iblk3 V c 3 t (ix2 r o) = _
  unfold iblk3
  rw [View.read_apply]
  show V c main_v79 _ = V c main_v79 _
  congr 1
  funext a
  apply Fin.ext
  match a with
  | ⟨0, _⟩ => show win3_3.index t 0 * 2000 + 1 * r.val = (k 0).val; rw [hi.1, hk0]; omega
  | ⟨1, _⟩ => show win3_3.index t 1 * 1 + 1 * o.val = (k 1).val; rw [hi.2, hk1]; omega

theorem biasBlk_apply (c : Dev nD) (t : Fin cfg3.N) (u : Fin 1) (o : Fin 64) :
    biasBlk V c t (ix2 u o) = (V c main_v80 : S1x64.Idx → EReal) (ix2 (0 : Fin 1) o) := by
  have hi := (rowIndex t).2.2.2.2
  show iblk3 V c 4 t (ix2 u o) = _
  unfold iblk3
  rw [View.read_apply]
  show V c main_v80 _ = V c main_v80 _
  congr 1
  funext a
  apply Fin.ext
  match a with
  | ⟨0, _⟩ => show win3_4.index t 0 * 1 + 1 * u.val = 0; rw [hi.1]; omega
  | ⟨1, _⟩ => show win3_4.index t 1 * 64 + 1 * o.val = o.val; rw [hi.2]; omega

end Blocks

/-! ## The sums block after each point -/

section Sums

/-- Node n's term of the sums at (g, o): the 0/1 entry times the activated entry (0 past the last node, so that it
    is a function of every natural). -/
def sumsTerm (c : Dev nD) (g : Fin 1024) (o : Fin 64) (n : ℕ) : EReal :=
  if h : n < 100000 then
    Cert.Spec.oh ((V c main_v79 : S100000x1.Idx → BitVec 32) (ix2 (⟨n, h⟩ : Fin 100000) (0 : Fin 1))) g
      * Cert.Spec.act (V c main_v78) (V c main_v63) (V c main_v62) (V c main_v80) (⟨n, h⟩ : Fin 100000) o
  else 0

/-- What point n adds to the sums block at an index: its 2000 nodes' terms. -/
def sumsAdd (c : Dev nD) (n : ℕ) (i : S1x1024x64.Idx) : EReal :=
  ∑ r : Fin 2000, sumsTerm V c (i 1) (i 2) (2000 * n + r.val)

/-- A point's block sum, over the blocks, is its nodes' terms, over the arrays. -/
theorem sumsBlock_eq (c : Dev nD) (t : Fin cfg3.N) (g : Fin 1024) (o : Fin 64) :
    ∑ r : Fin 2000, Cert.Spec.oh (btBlk V c t (ix2 r (0 : Fin 1))) g
        * actBlk (aggBlk V c t) (hpBlk V c t) (dcolBlk V c t) (biasBlk V c t) r o
      = ∑ r : Fin 2000, sumsTerm V c g o (2000 * t.val + r.val) := by
  have hN : cfg3.N = 50 := N_3
  refine Finset.sum_congr rfl fun r _ => ?_
  have hlt : 2000 * t.val + r.val < 100000 := by have := t.isLt; have := r.isLt; omega
  unfold sumsTerm
  rw [dif_pos hlt]
  unfold actBlk Cert.Spec.act
  rw [btBlk_apply V c t r (0 : Fin 1) (ix2 (⟨2000 * t.val + r.val, hlt⟩ : Fin 100000) (0 : Fin 1)) rfl rfl,
    aggBlk_apply V c t r o (ix2 (⟨2000 * t.val + r.val, hlt⟩ : Fin 100000) o) rfl rfl,
    hpBlk_apply V c t r o (ix2 (⟨2000 * t.val + r.val, hlt⟩ : Fin 100000) o) rfl rfl,
    dcolBlk_apply V c t r (0 : Fin 1) (ix2 (⟨2000 * t.val + r.val, hlt⟩ : Fin 100000) (0 : Fin 1)) rfl rfl,
    biasBlk_apply V c t (0 : Fin 1) o]

/-- The sums block a resetting point leaves, and the one a later point makes of what the point before left. -/
def sumsReset (c : Dev nD) (n : ℕ) (h : n < cfg3.N) : Vec Ideal S1x1024x64 .f32 :=
  k3_pay5 (F := Ideal) (aggBlk V c ⟨n, h⟩) (hpBlk V c ⟨n, h⟩) (dcolBlk V c ⟨n, h⟩) (biasBlk V c ⟨n, h⟩) (btBlk V c ⟨n, h⟩) (k3_pay2 (F := Ideal))
def sumsStep (c : Dev nD) (n : ℕ) (h : n < cfg3.N) (acc : Vec Ideal S1x1024x64 .f32) : Vec Ideal S1x1024x64 .f32 :=
  k3_pay5 (F := Ideal) (aggBlk V c ⟨n, h⟩) (hpBlk V c ⟨n, h⟩) (dcolBlk V c ⟨n, h⟩) (biasBlk V c ⟨n, h⟩) (btBlk V c ⟨n, h⟩) acc

theorem sumsStep_apply (c : Dev nD) (n : ℕ) (h : n < cfg3.N) (acc : Vec Ideal S1x1024x64 .f32) (i : S1x1024x64.Idx) :
    sumsStep V c n h acc i = acc i + sumsAdd V c n i := by
  obtain ⟨u, g, o, rfl⟩ : ∃ (u : Fin 1) (g : Fin 1024) (o : Fin 64), i = ix3 u g o := ⟨i 0, i 1, i 2, eq_ix3 i⟩
  obtain rfl : u = 0 := Subsingleton.elim _ _
  unfold sumsStep
  refine (sumsUpdate_apply (aggBlk V c ⟨n, h⟩) (hpBlk V c ⟨n, h⟩) (dcolBlk V c ⟨n, h⟩) (biasBlk V c ⟨n, h⟩) (btBlk V c ⟨n, h⟩) acc g o).trans ?_
  exact congrArg (acc (ix3 (0 : Fin 1) g o) + ·) (sumsBlock_eq V c ⟨n, h⟩ g o)

theorem sumsReset_apply (c : Dev nD) (n : ℕ) (h : n < cfg3.N) (i : S1x1024x64.Idx) :
    sumsReset V c n h i = 0 + sumsAdd V c n i := by
  obtain ⟨u, g, o, rfl⟩ : ∃ (u : Fin 1) (g : Fin 1024) (o : Fin 64), i = ix3 u g o := ⟨i 0, i 1, i 2, eq_ix3 i⟩
  obtain rfl : u = 0 := Subsingleton.elim _ _
  unfold sumsReset
  refine (sumsUpdate_apply (aggBlk V c ⟨n, h⟩) (hpBlk V c ⟨n, h⟩) (dcolBlk V c ⟨n, h⟩) (biasBlk V c ⟨n, h⟩) (btBlk V c ⟨n, h⟩) (k3_pay2 (F := Ideal)) g o).trans ?_
  exact congrArg₂ (· + ·) (sumsZero_apply (0 : Fin 1) g o) (sumsBlock_eq V c ⟨n, h⟩ g o)

/-- At the points ≡ 0 (mod 25) the sums block is the reset's. -/
theorem sums_reset_eq (c : Dev nD) (n : ℕ) (h : n < cfg3.N) (hm : n % 25 = 0) :
    (outsAt3 V c n h).1 = sumsReset V c n h := by
  rw [outsAt3_A V c ⟨n, h⟩ hm]
  dsimp only
  exact sums_A (F := Ideal) c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) ((hcond3_0 ⟨n, h⟩).mpr hm) (iblk3 V c 0 ⟨n, h⟩) (iblk3 V c 1 ⟨n, h⟩) (iblk3 V c 2 ⟨n, h⟩) (iblk3 V c 3 ⟨n, h⟩) (iblk3 V c 4 ⟨n, h⟩)

/-- At every other point it is the step of what the point before left. -/
theorem sums_step_eq (c : Dev nD) (n : ℕ) (h : n + 1 < cfg3.N) (hm : ¬(n + 1) % 25 = 0) :
    (outsAt3 V c (n + 1) h).1 = sumsStep V c (n + 1) h (outsAt3 V c n (Nat.lt_of_succ_lt h)).1 := by
  rw [outsAt3_B V c ⟨n + 1, h⟩ hm]
  dsimp only
  exact sums_B (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (fun hh => hm ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩)
    (outsAt3 V c n (Nat.lt_of_succ_lt h)).1 (outsAt3 V c n (Nat.lt_of_succ_lt h)).2

/-- After the last step of half q the sums block holds, at (0, g, o), the sum of the half's 50000 nodes' terms. -/
theorem sums_last (c : Dev nD) (q : ℕ) (h : 25 * q + 24 < cfg3.N) (g : Fin 1024) (o : Fin 64) :
    (outsAt3 V c (25 * q + 24) h).1 (ix3 (0 : Fin 1) g o) = ∑ e : Fin 50000, sumsTerm V c g o (50000 * q + e.val) := by
  have eFold := Pipeline.eq_accAt (fun n h => (outsAt3 V c n h).1) 25 (sumsReset V c) (sumsStep V c)
    (sums_reset_eq V c) (sums_step_eq V c) q 24 (by omega) h
  have eSum := Pipeline.accAt_add_apply (sumsReset V c) (sumsStep V c) (fun _ => (0 : EReal)) (sumsAdd V c) (25 * q) 24
    (fun h i => sumsReset_apply V c (25 * q) h i) (fun n h acc i _ _ => sumsStep_apply V c n h acc i) 24 (le_refl 24) h
    (ix3 (0 : Fin 1) g o)
  refine (congrFun eFold (ix3 (0 : Fin 1) g o)).trans (eSum.trans ?_)
  rw [zero_add]
  refine (Finset.sum_congr rfl fun s _ => ?_).trans
    (Cert.Lib.sum_fin_tiles 2000 25 (fun e => sumsTerm V c g o (50000 * q + e)))
  show ∑ r : Fin 2000, sumsTerm V c g o (2000 * (25 * q + s) + r.val) = _
  exact Finset.sum_congr rfl fun r _ => congrArg (sumsTerm V c g o) (by omega)

end Sums

/-! ## The counts block after each point -/

section Counts

/-- Node n's term of the counts at g: the 0/1 entry (0 past the last node). -/
def countsTerm (c : Dev nD) (g : Fin 1024) (n : ℕ) : EReal :=
  if h : n < 100000 then
    Cert.Spec.oh ((V c main_v79 : S100000x1.Idx → BitVec 32) (ix2 (⟨n, h⟩ : Fin 100000) (0 : Fin 1))) g * 1
  else 0

/-- What point n adds to the counts block at an index: its 2000 nodes' terms. -/
def countsAdd (c : Dev nD) (n : ℕ) (i : S1x1024x1.Idx) : EReal :=
  ∑ r : Fin 2000, countsTerm V c (i 1) (2000 * n + r.val)

theorem countsBlock_eq (c : Dev nD) (t : Fin cfg3.N) (g : Fin 1024) :
    ∑ r : Fin 2000, Cert.Spec.oh (btBlk V c t (ix2 r (0 : Fin 1))) g * 1
      = ∑ r : Fin 2000, countsTerm V c g (2000 * t.val + r.val) := by
  have hN : cfg3.N = 50 := N_3
  refine Finset.sum_congr rfl fun r _ => ?_
  have hlt : 2000 * t.val + r.val < 100000 := by have := t.isLt; have := r.isLt; omega
  unfold countsTerm
  rw [dif_pos hlt, btBlk_apply V c t r (0 : Fin 1) (ix2 (⟨2000 * t.val + r.val, hlt⟩ : Fin 100000) (0 : Fin 1)) rfl rfl]

/-- The counts block a resetting point leaves, and the one a later point makes of what the point before left. -/
def countsReset (c : Dev nD) (n : ℕ) (h : n < cfg3.N) : Vec Ideal S1x1024x1 .f32 :=
  k3_pay1 (F := Ideal) (k3_pay4 (F := Ideal) (btBlk V c ⟨n, h⟩)) (oneW (F := Ideal)) (k3_pay3 (F := Ideal))
def countsStep (c : Dev nD) (n : ℕ) (h : n < cfg3.N) (acc : Vec Ideal S1x1024x1 .f32) : Vec Ideal S1x1024x1 .f32 :=
  k3_pay1 (F := Ideal) (k3_pay4 (F := Ideal) (btBlk V c ⟨n, h⟩)) (oneW (F := Ideal)) acc

theorem countsStep_apply (c : Dev nD) (n : ℕ) (h : n < cfg3.N) (acc : Vec Ideal S1x1024x1 .f32) (i : S1x1024x1.Idx) :
    countsStep V c n h acc i = acc i + countsAdd V c n i := by
  obtain ⟨u, g, q, rfl⟩ : ∃ (u : Fin 1) (g : Fin 1024) (q : Fin 1), i = ix3 u g q := ⟨i 0, i 1, i 2, eq_ix3 i⟩
  obtain rfl : u = 0 := Subsingleton.elim _ _
  unfold countsStep
  refine (countsUpdate_apply (btBlk V c ⟨n, h⟩) acc g q).trans ?_
  exact congrArg (acc (ix3 (0 : Fin 1) g q) + ·) (countsBlock_eq V c ⟨n, h⟩ g)

theorem countsReset_apply (c : Dev nD) (n : ℕ) (h : n < cfg3.N) (i : S1x1024x1.Idx) :
    countsReset V c n h i = 0 + countsAdd V c n i := by
  obtain ⟨u, g, q, rfl⟩ : ∃ (u : Fin 1) (g : Fin 1024) (q : Fin 1), i = ix3 u g q := ⟨i 0, i 1, i 2, eq_ix3 i⟩
  obtain rfl : u = 0 := Subsingleton.elim _ _
  unfold countsReset
  refine (countsUpdate_apply (btBlk V c ⟨n, h⟩) (k3_pay3 (F := Ideal)) g q).trans ?_
  exact congrArg₂ (· + ·) (countsZero_apply (0 : Fin 1) g q) (countsBlock_eq V c ⟨n, h⟩ g)

/-- At the points ≡ 0 (mod 25) the counts block is the reset's. -/
theorem counts_reset_eq (c : Dev nD) (n : ℕ) (h : n < cfg3.N) (hm : n % 25 = 0) :
    (outsAt3 V c n h).2 = countsReset V c n h := by
  rw [outsAt3_A V c ⟨n, h⟩ hm]
  dsimp only
  exact counts_A (F := Ideal) c (grid3.coords ⟨n, h⟩) (ms3_0 ⟨n, h⟩) (hs3_0 ⟨n, h⟩) (ms3_1 ⟨n, h⟩) (hs3_1 ⟨n, h⟩) (ms3_2 ⟨n, h⟩) (hs3_2 ⟨n, h⟩) (ms3_3 ⟨n, h⟩) (hs3_3 ⟨n, h⟩) (ms3_4 ⟨n, h⟩) (hs3_4 ⟨n, h⟩) (ms3_5 ⟨n, h⟩) (hs3_5 ⟨n, h⟩) (ms3_6 ⟨n, h⟩) (hs3_6 ⟨n, h⟩) ((hcond3_0 ⟨n, h⟩).mpr hm) (iblk3 V c 0 ⟨n, h⟩) (iblk3 V c 1 ⟨n, h⟩) (iblk3 V c 2 ⟨n, h⟩) (iblk3 V c 3 ⟨n, h⟩) (iblk3 V c 4 ⟨n, h⟩)

/-- At every other point it is the step of what the point before left. -/
theorem counts_step_eq (c : Dev nD) (n : ℕ) (h : n + 1 < cfg3.N) (hm : ¬(n + 1) % 25 = 0) :
    (outsAt3 V c (n + 1) h).2 = countsStep V c (n + 1) h (outsAt3 V c n (Nat.lt_of_succ_lt h)).2 := by
  rw [outsAt3_B V c ⟨n + 1, h⟩ hm]
  dsimp only
  exact counts_B (F := Ideal) c (grid3.coords ⟨n + 1, h⟩) (ms3_0 ⟨n + 1, h⟩) (hs3_0 ⟨n + 1, h⟩) (ms3_1 ⟨n + 1, h⟩) (hs3_1 ⟨n + 1, h⟩) (ms3_2 ⟨n + 1, h⟩) (hs3_2 ⟨n + 1, h⟩) (ms3_3 ⟨n + 1, h⟩) (hs3_3 ⟨n + 1, h⟩) (ms3_4 ⟨n + 1, h⟩) (hs3_4 ⟨n + 1, h⟩) (ms3_5 ⟨n + 1, h⟩) (hs3_5 ⟨n + 1, h⟩) (ms3_6 ⟨n + 1, h⟩) (hs3_6 ⟨n + 1, h⟩) (fun hh => hm ((hcond3_0 ⟨n + 1, h⟩).mp hh)) (iblk3 V c 0 ⟨n + 1, h⟩) (iblk3 V c 1 ⟨n + 1, h⟩) (iblk3 V c 2 ⟨n + 1, h⟩) (iblk3 V c 3 ⟨n + 1, h⟩) (iblk3 V c 4 ⟨n + 1, h⟩)
    (outsAt3 V c n (Nat.lt_of_succ_lt h)).1 (outsAt3 V c n (Nat.lt_of_succ_lt h)).2

/-- After the last step of half q the counts block holds, at (0, g, 0), the sum of the half's 50000 nodes' terms. -/
theorem counts_last (c : Dev nD) (q : ℕ) (h : 25 * q + 24 < cfg3.N) (g : Fin 1024) (z : Fin 1) :
    (outsAt3 V c (25 * q + 24) h).2 (ix3 (0 : Fin 1) g z) = ∑ e : Fin 50000, countsTerm V c g (50000 * q + e.val) := by
  have eFold := Pipeline.eq_accAt (fun n h => (outsAt3 V c n h).2) 25 (countsReset V c) (countsStep V c)
    (counts_reset_eq V c) (counts_step_eq V c) q 24 (by omega) h
  have eSum := Pipeline.accAt_add_apply (countsReset V c) (countsStep V c) (fun _ => (0 : EReal)) (countsAdd V c) (25 * q) 24
    (fun h i => countsReset_apply V c (25 * q) h i) (fun n h acc i _ _ => countsStep_apply V c n h acc i) 24 (le_refl 24) h
    (ix3 (0 : Fin 1) g z)
  refine (congrFun eFold (ix3 (0 : Fin 1) g z)).trans (eSum.trans ?_)
  rw [zero_add]
  refine (Finset.sum_congr rfl fun s _ => ?_).trans
    (Cert.Lib.sum_fin_tiles 2000 25 (fun e => countsTerm V c g (50000 * q + e)))
  show ∑ r : Fin 2000, countsTerm V c g (2000 * (25 * q + s) + r.val) = _
  exact Finset.sum_congr rfl fun r _ => congrArg (countsTerm V c g) (by omega)

end Counts

/-! ## The result arrays after the region -/

section Final

/-- The two result windows' block at point t is slab t / 25 of its array: the index, and the block's extents. -/
theorem slabIndex : ∀ t : Fin cfg3.N,
    ((win3_5.index t 0 * win3_5.size 0 = t.val / 25 ∧ win3_5.xsize (grid3.coords t) 0 = 1)
      ∧ (win3_5.index t 1 * win3_5.size 1 = 0 ∧ win3_5.xsize (grid3.coords t) 1 = 1024)
      ∧ (win3_5.index t 2 * win3_5.size 2 = 0 ∧ win3_5.xsize (grid3.coords t) 2 = 64))
    ∧ ((win3_6.index t 0 * win3_6.size 0 = t.val / 25 ∧ win3_6.xsize (grid3.coords t) 0 = 1)
      ∧ (win3_6.index t 1 * win3_6.size 1 = 0 ∧ win3_6.xsize (grid3.coords t) 1 = 1024)
      ∧ (win3_6.index t 2 * win3_6.size 2 = 0 ∧ win3_6.xsize (grid3.coords t) 2 = 1)) :=
  (by decide +kernel : ∀ t : Fin grid3.N,
    ((win3_5.index t 0 * win3_5.size 0 = t.val / 25 ∧ win3_5.xsize (grid3.coords t) 0 = 1)
      ∧ (win3_5.index t 1 * win3_5.size 1 = 0 ∧ win3_5.xsize (grid3.coords t) 1 = 1024)
      ∧ (win3_5.index t 2 * win3_5.size 2 = 0 ∧ win3_5.xsize (grid3.coords t) 2 = 64))
    ∧ ((win3_6.index t 0 * win3_6.size 0 = t.val / 25 ∧ win3_6.xsize (grid3.coords t) 0 = 1)
      ∧ (win3_6.index t 1 * win3_6.size 1 = 0 ∧ win3_6.xsize (grid3.coords t) 1 = 1024)
      ∧ (win3_6.index t 2 * win3_6.size 2 = 0 ∧ win3_6.xsize (grid3.coords t) 2 = 1)))

/-- Node 50000·q + e is node e of half q: its sums term is the specification's. -/
theorem sumsTerm_node (c : Dev nD) (g : Fin 1024) (o : Fin 64) (q : Fin 2) (e : Fin 50000) :
    sumsTerm V c g o (50000 * q.val + e.val)
      = Cert.Spec.oh ((V c main_v79 : S100000x1.Idx → BitVec 32) (ix2 (Cert.Spec.nodeRow q e) (0 : Fin 1))) g
        * Cert.Spec.act (V c main_v78) (V c main_v63) (V c main_v62) (V c main_v80) (Cert.Spec.nodeRow q e) o := by
  have hlt : 50000 * q.val + e.val < 100000 := by have := q.isLt; have := e.isLt; omega
  have hrow : (⟨50000 * q.val + e.val, hlt⟩ : Fin 100000) = Cert.Spec.nodeRow q e :=
    Fin.ext (by show 50000 * q.val + e.val = q.val * 50000 + e.val; omega)
  unfold sumsTerm
  rw [dif_pos hlt, hrow]

/-- The same for the counts term. -/
theorem countsTerm_node (c : Dev nD) (g : Fin 1024) (q : Fin 2) (e : Fin 50000) :
    countsTerm V c g (50000 * q.val + e.val)
      = Cert.Spec.oh ((V c main_v79 : S100000x1.Idx → BitVec 32) (ix2 (Cert.Spec.nodeRow q e) (0 : Fin 1))) g * 1 := by
  have hlt : 50000 * q.val + e.val < 100000 := by have := q.isLt; have := e.isLt; omega
  have hrow : (⟨50000 * q.val + e.val, hlt⟩ : Fin 100000) = Cert.Spec.nodeRow q e :=
    Fin.ext (by show 50000 * q.val + e.val = q.val * 50000 + e.val; omega)
  unfold countsTerm
  rw [dif_pos hlt, hrow]

/-- What a write-back of the sums writes is the point's slab of the per-half product. -/
theorem sums_flushed (c : Dev nD) (t : Fin cfg3.N) (hf : (cfg3.win 5).flush t = true) :
    (dat3 (F := Ideal) V c).flushed 5 t = ((cfg3.win 5).blk t).view.read (Elt Ideal)
      (Cert.Spec.poolSums (V c main_v78) (V c main_v63) (V c main_v62) (V c main_v79) (V c main_v80)) := by
  have hN : cfg3.N = 50 := N_3
  have hi := (slabIndex t).1
  have h24 := (flush3_5 t).mp hf
  obtain ⟨tv, ht⟩ := t
  obtain ⟨q, rfl⟩ : ∃ q, tv = 25 * q + 24 := ⟨tv / 25, by dsimp only at h24; omega⟩
  have hq : q < 2 := by omega
  show (cfg3.win 5).cut (grid3.coords ⟨25 * q + 24, ht⟩) ((dat3 (F := Ideal) V c).after 5 ⟨25 * q + 24, ht⟩) = _
  rw [after3_5]
  generalize hG : Cert.Spec.poolSums (V c main_v78) (V c main_v63) (V c main_v62) (V c main_v79) (V c main_v80) = G
  funext y
  obtain ⟨u, g, o, rfl⟩ : ∃ (u : Fin 1) (g : Fin 1024) (o : Fin 64), y = ix3 u g o := ⟨y 0, y 1, y 2, eq_ix3 y⟩
  obtain rfl : u = 0 := Subsingleton.elim _ _
  rw [View.read_apply]
  have hemb : ((cfg3.win 5).blk ⟨25 * q + 24, ht⟩).view.emb (ix3 (0 : Fin 1) g o) = (ix3 (⟨q, hq⟩ : Fin 2) g o : S2x1024x64.Idx) := by
    funext a
    apply Fin.ext
    match a with
    | ⟨0, _⟩ => show win3_5.index ⟨25 * q + 24, ht⟩ 0 * win3_5.size 0 + 1 * 0 = q; rw [hi.1.1]; dsimp only; omega
    | ⟨1, _⟩ => show win3_5.index ⟨25 * q + 24, ht⟩ 1 * win3_5.size 1 + 1 * g.val = g.val; rw [hi.2.1.1]; omega
    | ⟨2, _⟩ => show win3_5.index ⟨25 * q + 24, ht⟩ 2 * win3_5.size 2 + 1 * o.val = o.val; rw [hi.2.2.1]; omega
  show (outsAt3 V c (25 * q + 24) ht).1 (ix3 (0 : Fin 1) g o)
    = G (((cfg3.win 5).blk ⟨25 * q + 24, ht⟩).view.emb (ix3 (0 : Fin 1) g o))
  rw [hemb, sums_last V c q ht g o, ← hG]
  unfold Cert.Spec.poolSums
  exact Finset.sum_congr rfl fun e _ => sumsTerm_node V c g o ⟨q, hq⟩ e

/-- What a write-back of the counts writes is the point's slab of the per-half count. -/
theorem counts_flushed (c : Dev nD) (t : Fin cfg3.N) (hf : (cfg3.win 6).flush t = true) :
    (dat3 (F := Ideal) V c).flushed 6 t = ((cfg3.win 6).blk t).view.read (Elt Ideal)
      (Cert.Spec.poolCounts (V c main_v79)) := by
  have hN : cfg3.N = 50 := N_3
  have hi := (slabIndex t).2
  have h24 := (flush3_6 t).mp hf
  obtain ⟨tv, ht⟩ := t
  obtain ⟨q, rfl⟩ : ∃ q, tv = 25 * q + 24 := ⟨tv / 25, by dsimp only at h24; omega⟩
  have hq : q < 2 := by omega
  show (cfg3.win 6).cut (grid3.coords ⟨25 * q + 24, ht⟩) ((dat3 (F := Ideal) V c).after 6 ⟨25 * q + 24, ht⟩) = _
  rw [after3_6]
  generalize hG : Cert.Spec.poolCounts (V c main_v79) = G
  funext y
  obtain ⟨u, g, z, rfl⟩ : ∃ (u : Fin 1) (g : Fin 1024) (z : Fin 1), y = ix3 u g z := ⟨y 0, y 1, y 2, eq_ix3 y⟩
  obtain rfl : u = 0 := Subsingleton.elim _ _
  rw [View.read_apply]
  have hemb : ((cfg3.win 6).blk ⟨25 * q + 24, ht⟩).view.emb (ix3 (0 : Fin 1) g z) = (ix3 (⟨q, hq⟩ : Fin 2) g z : S2x1024x1.Idx) := by
    funext a
    apply Fin.ext
    match a with
    | ⟨0, _⟩ => show win3_6.index ⟨25 * q + 24, ht⟩ 0 * win3_6.size 0 + 1 * 0 = q; rw [hi.1.1]; dsimp only; omega
    | ⟨1, _⟩ => show win3_6.index ⟨25 * q + 24, ht⟩ 1 * win3_6.size 1 + 1 * g.val = g.val; rw [hi.2.1.1]; omega
    | ⟨2, _⟩ => show win3_6.index ⟨25 * q + 24, ht⟩ 2 * win3_6.size 2 + 1 * z.val = z.val; rw [hi.2.2.1]; omega
  show (outsAt3 V c (25 * q + 24) ht).2 (ix3 (0 : Fin 1) g z)
    = G (((cfg3.win 6).blk ⟨25 * q + 24, ht⟩).view.emb (ix3 (0 : Fin 1) g z))
  rw [hemb, counts_last V c q ht g z, ← hG]
  unfold Cert.Spec.poolCounts
  exact Finset.sum_congr rfl fun e _ => countsTerm_node V c g ⟨q, hq⟩ e

/-- Slab q of the sums array is the block written back at point 25·q + 24. -/
theorem sums_cover (i : S2x1024x64.Idx) :
    ∃ t : Fin cfg3.N, (cfg3.win 5).flush t = true ∧ i ∈ ((cfg3.win 5).blk t).view.set := by
  have hN : cfg3.N = 50 := N_3
  have h0 : (i 0 : Nat) < 2 := (i 0).isLt
  have h1 : (i 1 : Nat) < 1024 := (i 1).isLt
  have h2 : (i 2 : Nat) < 64 := (i 2).isLt
  have ht : 25 * (i 0 : Nat) + 24 < cfg3.N := by omega
  have hi := (slabIndex ⟨25 * (i 0 : Nat) + 24, ht⟩).1
  refine ⟨⟨25 * (i 0 : Nat) + 24, ht⟩, (flush3_5 _).mpr (by dsimp only; omega), ?_⟩
  show i ∈ ((View.whole main_v81_0).slice (win3_5.rect ⟨25 * (i 0 : Nat) + 24, ht⟩)).set
  rw [View.set_slice_whole, Rect.mem_set_unit]
  intro a
  match a with
  | ⟨0, _⟩ =>
    show win3_5.index ⟨25 * (i 0 : Nat) + 24, ht⟩ 0 * win3_5.size 0 ≤ (i 0 : Nat) ∧ (i 0 : Nat) < win3_5.index ⟨25 * (i 0 : Nat) + 24, ht⟩ 0 * win3_5.size 0 + win3_5.xsize (grid3.coords ⟨25 * (i 0 : Nat) + 24, ht⟩) 0
    rw [hi.1.1, hi.1.2]; dsimp only; omega
  | ⟨1, _⟩ =>
    show win3_5.index ⟨25 * (i 0 : Nat) + 24, ht⟩ 1 * win3_5.size 1 ≤ (i 1 : Nat) ∧ (i 1 : Nat) < win3_5.index ⟨25 * (i 0 : Nat) + 24, ht⟩ 1 * win3_5.size 1 + win3_5.xsize (grid3.coords ⟨25 * (i 0 : Nat) + 24, ht⟩) 1
    rw [hi.2.1.1, hi.2.1.2]; omega
  | ⟨2, _⟩ =>
    show win3_5.index ⟨25 * (i 0 : Nat) + 24, ht⟩ 2 * win3_5.size 2 ≤ (i 2 : Nat) ∧ (i 2 : Nat) < win3_5.index ⟨25 * (i 0 : Nat) + 24, ht⟩ 2 * win3_5.size 2 + win3_5.xsize (grid3.coords ⟨25 * (i 0 : Nat) + 24, ht⟩) 2
    rw [hi.2.2.1, hi.2.2.2]; omega

/-- Slab q of the counts array is the block written back at point 25·q + 24. -/
theorem counts_cover (i : S2x1024x1.Idx) :
    ∃ t : Fin cfg3.N, (cfg3.win 6).flush t = true ∧ i ∈ ((cfg3.win 6).blk t).view.set := by
  have hN : cfg3.N = 50 := N_3
  have h0 : (i 0 : Nat) < 2 := (i 0).isLt
  have h1 : (i 1 : Nat) < 1024 := (i 1).isLt
  have h2 : (i 2 : Nat) < 1 := (i 2).isLt
  have ht : 25 * (i 0 : Nat) + 24 < cfg3.N := by omega
  have hi := (slabIndex ⟨25 * (i 0 : Nat) + 24, ht⟩).2
  refine ⟨⟨25 * (i 0 : Nat) + 24, ht⟩, (flush3_6 _).mpr (by dsimp only; omega), ?_⟩
  show i ∈ ((View.whole main_v81_1).slice (win3_6.rect ⟨25 * (i 0 : Nat) + 24, ht⟩)).set
  rw [View.set_slice_whole, Rect.mem_set_unit]
  intro a
  match a with
  | ⟨0, _⟩ =>
    show win3_6.index ⟨25 * (i 0 : Nat) + 24, ht⟩ 0 * win3_6.size 0 ≤ (i 0 : Nat) ∧ (i 0 : Nat) < win3_6.index ⟨25 * (i 0 : Nat) + 24, ht⟩ 0 * win3_6.size 0 + win3_6.xsize (grid3.coords ⟨25 * (i 0 : Nat) + 24, ht⟩) 0
    rw [hi.1.1, hi.1.2]; dsimp only; omega
  | ⟨1, _⟩ =>
    show win3_6.index ⟨25 * (i 0 : Nat) + 24, ht⟩ 1 * win3_6.size 1 ≤ (i 1 : Nat) ∧ (i 1 : Nat) < win3_6.index ⟨25 * (i 0 : Nat) + 24, ht⟩ 1 * win3_6.size 1 + win3_6.xsize (grid3.coords ⟨25 * (i 0 : Nat) + 24, ht⟩) 1
    rw [hi.2.1.1, hi.2.1.2]; omega
  | ⟨2, _⟩ =>
    show win3_6.index ⟨25 * (i 0 : Nat) + 24, ht⟩ 2 * win3_6.size 2 ≤ (i 2 : Nat) ∧ (i 2 : Nat) < win3_6.index ⟨25 * (i 0 : Nat) + 24, ht⟩ 2 * win3_6.size 2 + win3_6.xsize (grid3.coords ⟨25 * (i 0 : Nat) + 24, ht⟩) 2
    rw [hi.2.2.1, hi.2.2.2]; omega

end Final

/-- The sums array after the region: per half, the 0/1 matrix times the activated rows. -/
theorem pool3_sums_final (c : Dev nD) :
    (dat3 (F := Ideal) V c).arrAt 5 cfg3.N
      = Cert.Spec.poolSums (V c main_v78) (V c main_v63) (V c main_v62) (V c main_v79) (V c main_v80) :=
  (dat3 (F := Ideal) V c).arrAt_eq_of_cover 5
    (Cert.Spec.poolSums (V c main_v78) (V c main_v63) (V c main_v62) (V c main_v79) (V c main_v80))
    (sums_flushed V c) sums_cover

/-- The counts array after the region: per half, the 0/1 matrix times a column of ones. -/
theorem pool3_counts_final (c : Dev nD) :
    (dat3 (F := Ideal) V c).arrAt 6 cfg3.N = Cert.Spec.poolCounts (V c main_v79) :=
  (dat3 (F := Ideal) V c).arrAt_eq_of_cover 6 (Cert.Spec.poolCounts (V c main_v79)) (counts_flushed V c) counts_cover

end Cert.KernelIdeal.PoolB

end
-- ==== Proof.MlpK.lean ====
/-
  The classifier region: one grid point, every operand one whole block.  Its body is four matrix products with a bias
  row added and a cut at zero between them, and the logistic function at the end; the result array after the one
  write-back is `Cert.Spec.mlp` of the nine operand arrays.
-/
import proofs.«408358_j51376398795254_3_alg».proof.Proof.Gen.KernelIdeal.Frame
import proofs.«408358_j51376398795254_3_alg».proof.Proof.Spec
import proofs.«408358_j51376398795254_3_alg».proof.Proof.LibRowTile
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.MlpK

open Idealize.ShloMosaic Idealize.ShloMosaic.TcCoe Idealize.ShloMosaic.ValueIdx Idealize.SL.Sem
open Idealize.ShloMosaic.Pipeline (Dat)
open Cert.KernelIdeal Cert.KernelIdeal.Gen
variable (V : (c : Dev nD) → (b : Ref sig .tc) → Buf (Elt Ideal) ((c : Thread nD τ).loc b))

/-! ## One layer, and the cut at zero, as functions of whole tables -/

/-- A product of 1024 rows into a zero table, with the bias row spread over the rows, is the dense layer of the
    specification: the contraction is the plain one, the change of number format is the identity on extended reals,
    and row r of the spread bias is the bias row itself. -/
theorem dense_eq {K n : Nat} (d : DotDims ⟨2, ![1024, K]⟩ ⟨2, ![K, n]⟩ ⟨2, ![1024, n]⟩) (hd : Cert.Lib.IsPlain d)
    (h : FVec Ideal ⟨2, ![1024, K]⟩ .f32) (W : FVec Ideal ⟨2, ![K, n]⟩ .f32) (b : FVec Ideal ⟨2, ![1, n]⟩ .f32)
    (hlt : FTy.bf16.bits < FTy.f32.bits)
    (hs : (⟨2, ![1, n]⟩ : Shape).ShapeCasts ⟨2, ![1, n]⟩) (hb : (⟨2, ![1, n]⟩ : Shape).Broadcasts ⟨2, ![1024, n]⟩) :
    addf (matmul d none (truncf .bf16 h hlt) (truncf .bf16 W hlt) (constant (F := Ideal) ⟨2, ![1024, n]⟩ .f32 0x00000000#32))
      (broadcastTo ⟨2, ![1024, n]⟩ (shapeCast ⟨2, ![1, n]⟩ b hs) hb) = Cert.Spec.dense h W b := by
  funext j
  rw [addf_apply, shapeCast_self]
  refine congrArg₂ (· + ·) ((Ideal.matmul_constant_zero_apply d none _ _ j).trans ?_) ?_
  · exact hd.sum_eq h W j
  · refine broadcastTo_apply b hb j (ix2 (0 : Fin 1) (j 1)) fun a => ?_
    match a with
    | ⟨0, _⟩ => exact (if_pos rfl).symm
    | ⟨1, _⟩ =>
      show (j 1).val = if n = 1 then 0 else (j 1).val
      by_cases hn : n = 1
      · rw [if_pos hn]
        have hlt : (j 1).val < n := (j 1).isLt
        omega
      · rw [if_neg hn]

/-- The maximum against a table of the zero word is the cut at zero. -/
theorem relu_eq {s : Shape} (y : FVec Ideal s .f32) :
    maximumf y (broadcast s (Scalar.ofBits (F := Ideal) .f32 0x00000000#32)) = Cert.Spec.relu y := by
  funext j
  rw [maximumf_apply, broadcast_apply]
  show max (y j) (Ideal.ofBits .f32 0x00000000#32) = max (y j) 0
  rw [Ideal.ofBits_zero_f32]

/-! ## The four contractions are plain -/

theorem plain1 : Cert.Lib.IsPlain dot_S1024x128_S128x64_S1024x64_1_0_0_1_n_n := ⟨rfl, rfl, rfl, rfl, rfl, rfl, rfl, rfl⟩
theorem plain2 : Cert.Lib.IsPlain dot_S1024x64_S64x32_S1024x32_1_0_0_1_n_n := ⟨rfl, rfl, rfl, rfl, rfl, rfl, rfl, rfl⟩
theorem plain3 : Cert.Lib.IsPlain dot_S1024x32_S32x16_S1024x16_1_0_0_1_n_n := ⟨rfl, rfl, rfl, rfl, rfl, rfl, rfl, rfl⟩
theorem plain4 : Cert.Lib.IsPlain dot_S1024x16_S16x1_S1024x1_1_0_0_1_n_n := ⟨rfl, rfl, rfl, rfl, rfl, rfl, rfl, rfl⟩

/-! ## The body's value -/

/-- What the body stores, as a function of the nine tables it loads: the four-layer classifier. -/
theorem pay_eq (x0 : Vec Ideal S1024x128 .f32) (x1 : Vec Ideal S128x64 .f32) (x2 : Vec Ideal S1x64 .f32)
    (x3 : Vec Ideal S64x32 .f32) (x4 : Vec Ideal S1x32 .f32) (x5 : Vec Ideal S32x16 .f32) (x6 : Vec Ideal S1x16 .f32)
    (x7 : Vec Ideal S16x1 .f32) (x8 : Vec Ideal S1x1 .f32) :
    k4_pay1 (F := Ideal) (k4_pay2 x0 x1 x2 x3 x4 x5 x6 x7) x8 = Cert.Spec.mlp x0 x1 x2 x3 x4 x5 x6 x7 x8 := by
  have c0 : shapeCast S1024x128 x0 shapeCasts_S1024x128_S1024x128 = x0 := shapeCast_self x0 _
  have e1 := dense_eq dot_S1024x128_S128x64_S1024x64_1_0_0_1_n_n plain1 x0 x1 x2 bitsLt_bf16_f32
    shapeCasts_S1x64_S1x64 broadcasts_S1x64_S1024x64
  have r1 := relu_eq (Cert.Spec.dense x0 x1 x2)
  have e2 := dense_eq dot_S1024x64_S64x32_S1024x32_1_0_0_1_n_n plain2 (Cert.Spec.relu (Cert.Spec.dense x0 x1 x2)) x3 x4
    bitsLt_bf16_f32 shapeCasts_S1x32_S1x32 broadcasts_S1x32_S1024x32
  have r2 := relu_eq (Cert.Spec.dense (Cert.Spec.relu (Cert.Spec.dense x0 x1 x2)) x3 x4)
  have e3 := dense_eq dot_S1024x32_S32x16_S1024x16_1_0_0_1_n_n plain3
    (Cert.Spec.relu (Cert.Spec.dense (Cert.Spec.relu (Cert.Spec.dense x0 x1 x2)) x3 x4)) x5 x6
    bitsLt_bf16_f32 shapeCasts_S1x16_S1x16 broadcasts_S1x16_S1024x16
  have r3 := relu_eq (Cert.Spec.dense (Cert.Spec.relu (Cert.Spec.dense (Cert.Spec.relu (Cert.Spec.dense x0 x1 x2)) x3 x4)) x5 x6)
  have e4 := dense_eq dot_S1024x16_S16x1_S1024x1_1_0_0_1_n_n plain4
    (Cert.Spec.relu (Cert.Spec.dense (Cert.Spec.relu (Cert.Spec.dense (Cert.Spec.relu (Cert.Spec.dense x0 x1 x2)) x3 x4)) x5 x6)) x7 x8
    bitsLt_bf16_f32 shapeCasts_S1x1_S1x1 broadcasts_S1x1_S1024x1
  unfold k4_pay1 k4_pay2
  dsimp only
  rw [c0, e1, r1, e2, r2, e3, r3, e4]
  rfl

/-! ## Every block is its whole table

The grid has one point and every index map is constantly (0, 0): a window's block, read off a table of the window's
array, is the table. -/

theorem hz : (![0, 0] : Fin 2 → Nat) = fun _ => 0 := funext fun a => by fin_cases a <;> rfl

theorem blk_read0 (c : Dev nD) (t : Fin cfg4.N) (G : Buf (Elt Ideal) ((c : Thread nD τ).loc main_v96)) :
    ((cfg4.win 0).blk t).view.read (Elt Ideal) G = G := by
  have hz' : (fun a => win4_0.index t a * main_v96.ty.shape.size a) = fun _ => 0 := funext fun a => by fin_cases a <;> rfl
  exact Memref.read_access_unit_zero (Elt Ideal) main_v96 hz' (fun a => by rw [congrFun hz' a]; simp) G

theorem blk_read1 (c : Dev nD) (t : Fin cfg4.N) (G : Buf (Elt Ideal) ((c : Thread nD τ).loc main_arg8)) :
    ((cfg4.win 1).blk t).view.read (Elt Ideal) G = G := by
  have hz' : (fun a => win4_1.index t a * main_arg8.ty.shape.size a) = fun _ => 0 := funext fun a => by fin_cases a <;> rfl
  exact Memref.read_access_unit_zero (Elt Ideal) main_arg8 hz' (fun a => by rw [congrFun hz' a]; simp) G

theorem blk_read2 (c : Dev nD) (t : Fin cfg4.N) (G : Buf (Elt Ideal) ((c : Thread nD τ).loc main_v97)) :
    ((cfg4.win 2).blk t).view.read (Elt Ideal) G = G := by
  have hz' : (fun a => win4_2.index t a * main_v97.ty.shape.size a) = fun _ => 0 := funext fun a => by fin_cases a <;> rfl
  exact Memref.read_access_unit_zero (Elt Ideal) main_v97 hz' (fun a => by rw [congrFun hz' a]; simp) G

theorem blk_read3 (c : Dev nD) (t : Fin cfg4.N) (G : Buf (Elt Ideal) ((c : Thread nD τ).loc main_arg10)) :
    ((cfg4.win 3).blk t).view.read (Elt Ideal) G = G := by
  have hz' : (fun a => win4_3.index t a * main_arg10.ty.shape.size a) = fun _ => 0 := funext fun a => by fin_cases a <;> rfl
  exact Memref.read_access_unit_zero (Elt Ideal) main_arg10 hz' (fun a => by rw [congrFun hz' a]; simp) G

theorem blk_read4 (c : Dev nD) (t : Fin cfg4.N) (G : Buf (Elt Ideal) ((c : Thread nD τ).loc main_v98)) :
    ((cfg4.win 4).blk t).view.read (Elt Ideal) G = G := by
  have hz' : (fun a => win4_4.index t a * main_v98.ty.shape.size a) = fun _ => 0 := funext fun a => by fin_cases a <;> rfl
  exact Memref.read_access_unit_zero (Elt Ideal) main_v98 hz' (fun a => by rw [congrFun hz' a]; simp) G

theorem blk_read5 (c : Dev nD) (t : Fin cfg4.N) (G : Buf (Elt Ideal) ((c : Thread nD τ).loc main_arg12)) :
    ((cfg4.win 5).blk t).view.read (Elt Ideal) G = G := by
  have hz' : (fun a => win4_5.index t a * main_arg12.ty.shape.size a) = fun _ => 0 := funext fun a => by fin_cases a <;> rfl
  exact Memref.read_access_unit_zero (Elt Ideal) main_arg12 hz' (fun a => by rw [congrFun hz' a]; simp) G

theorem blk_read6 (c : Dev nD) (t : Fin cfg4.N) (G : Buf (Elt Ideal) ((c : Thread nD τ).loc main_v99)) :
    ((cfg4.win 6).blk t).view.read (Elt Ideal) G = G := by
  have hz' : (fun a => win4_6.index t a * main_v99.ty.shape.size a) = fun _ => 0 := funext fun a => by fin_cases a <;> rfl
  exact Memref.read_access_unit_zero (Elt Ideal) main_v99 hz' (fun a => by rw [congrFun hz' a]; simp) G

theorem blk_read7 (c : Dev nD) (t : Fin cfg4.N) (G : Buf (Elt Ideal) ((c : Thread nD τ).loc main_arg14)) :
    ((cfg4.win 7).blk t).view.read (Elt Ideal) G = G := by
  have hz' : (fun a => win4_7.index t a * main_arg14.ty.shape.size a) = fun _ => 0 := funext fun a => by fin_cases a <;> rfl
  exact Memref.read_access_unit_zero (Elt Ideal) main_arg14 hz' (fun a => by rw [congrFun hz' a]; simp) G

theorem blk_read8 (c : Dev nD) (t : Fin cfg4.N) (G : Buf (Elt Ideal) ((c : Thread nD τ).loc main_v100)) :
    ((cfg4.win 8).blk t).view.read (Elt Ideal) G = G := by
  have hz' : (fun a => win4_8.index t a * main_v100.ty.shape.size a) = fun _ => 0 := funext fun a => by fin_cases a <;> rfl
  exact Memref.read_access_unit_zero (Elt Ideal) main_v100 hz' (fun a => by rw [congrFun hz' a]; simp) G

theorem blk_read9 (c : Dev nD) (t : Fin cfg4.N) (G : Buf (Elt Ideal) ((c : Thread nD τ).loc main_v101)) :
    ((cfg4.win 9).blk t).view.read (Elt Ideal) G = G := by
  have hz' : (fun a => win4_9.index t a * main_v101.ty.shape.size a) = fun _ => 0 := funext fun a => by fin_cases a <;> rfl
  exact Memref.read_access_unit_zero (Elt Ideal) main_v101 hz' (fun a => by rw [congrFun hz' a]; simp) G

/-! ## The operand blocks the body finds are the operand tables -/

theorem iblk_0 (c : Dev nD) (t : Fin cfg4.N) : iblk4 (F := Ideal) V c 0 t = V c main_v96 := by
  unfold iblk4
  exact blk_read0 c t _

theorem iblk_1 (c : Dev nD) (t : Fin cfg4.N) : iblk4 (F := Ideal) V c 1 t = V c main_arg8 := by
  unfold iblk4
  exact blk_read1 c t _

theorem iblk_2 (c : Dev nD) (t : Fin cfg4.N) : iblk4 (F := Ideal) V c 2 t = V c main_v97 := by
  unfold iblk4
  exact blk_read2 c t _

theorem iblk_3 (c : Dev nD) (t : Fin cfg4.N) : iblk4 (F := Ideal) V c 3 t = V c main_arg10 := by
  unfold iblk4
  exact blk_read3 c t _

theorem iblk_4 (c : Dev nD) (t : Fin cfg4.N) : iblk4 (F := Ideal) V c 4 t = V c main_v98 := by
  unfold iblk4
  exact blk_read4 c t _

theorem iblk_5 (c : Dev nD) (t : Fin cfg4.N) : iblk4 (F := Ideal) V c 5 t = V c main_arg12 := by
  unfold iblk4
  exact blk_read5 c t _

theorem iblk_6 (c : Dev nD) (t : Fin cfg4.N) : iblk4 (F := Ideal) V c 6 t = V c main_v99 := by
  unfold iblk4
  exact blk_read6 c t _

theorem iblk_7 (c : Dev nD) (t : Fin cfg4.N) : iblk4 (F := Ideal) V c 7 t = V c main_arg14 := by
  unfold iblk4
  exact blk_read7 c t _

theorem iblk_8 (c : Dev nD) (t : Fin cfg4.N) : iblk4 (F := Ideal) V c 8 t = V c main_v100 := by
  unfold iblk4
  exact blk_read8 c t _

/-! ## The one write-back, and the result array -/

/-- What the one point writes back is the block of the classifier's table: the body's one store covers its whole
    buffer, every load reads a whole buffer, and every block is its whole table. -/
theorem flushed_eq (c : Dev nD) (t : Fin cfg4.N) (hf : (cfg4.win 9).flush t = true) :
    (dat4 (F := Ideal) V c).flushed 9 t
      = ((cfg4.win 9).blk t).view.read (Elt Ideal)
          (Cert.Spec.mlp (V c main_v96) (V c main_arg8) (V c main_v97) (V c main_arg10) (V c main_v98)
            (V c main_arg12) (V c main_v99) (V c main_arg14) (V c main_v100)) := by
  show (cfg4.win 9).cut (grid4.coords t) ((dat4 (F := Ideal) V c).after 9 t) = _
  rw [after4_9, blk_read9 c t]
  unfold out4_9
  rw [View.canon_unit_zero hz]
  simp only [View.ld_unit_zero (S := S1024x128) hz, View.ld_unit_zero (S := S128x64) hz, View.ld_unit_zero (S := S1x64) hz,
    View.ld_unit_zero (S := S64x32) hz, View.ld_unit_zero (S := S1x32) hz, View.ld_unit_zero (S := S32x16) hz,
    View.ld_unit_zero (S := S1x16) hz, View.ld_unit_zero (S := S16x1) hz, View.ld_unit_zero (S := S1x1) hz]
  show k4_pay1 (F := Ideal) (k4_pay2 (iblk4 V c 0 t) (iblk4 V c 1 t) (iblk4 V c 2 t) (iblk4 V c 3 t) (iblk4 V c 4 t)
    (iblk4 V c 5 t) (iblk4 V c 6 t) (iblk4 V c 7 t)) (iblk4 V c 8 t) = _
  rw [iblk_0 V c t, iblk_1 V c t, iblk_2 V c t, iblk_3 V c t, iblk_4 V c t, iblk_5 V c t, iblk_6 V c t, iblk_7 V c t,
    iblk_8 V c t]
  exact pay_eq (V c main_v96) (V c main_arg8) (V c main_v97) (V c main_arg10) (V c main_v98) (V c main_arg12)
    (V c main_v99) (V c main_arg14) (V c main_v100)

/-- After the region its result array holds the four-layer classifier of its operand arrays. -/
theorem mlp4_final (c : Dev nD) :
    (dat4 (F := Ideal) V c).arrAt 9 cfg4.N
      = Cert.Spec.mlp (V c main_v96) (V c main_arg8) (V c main_v97) (V c main_arg10) (V c main_v98)
          (V c main_arg12) (V c main_v99) (V c main_arg14) (V c main_v100) :=
  (dat4 (F := Ideal) V c).arrAt_eq_of_cover 9
    (Cert.Spec.mlp (V c main_v96) (V c main_arg8) (V c main_v97) (V c main_arg10) (V c main_v98)
      (V c main_arg12) (V c main_v99) (V c main_arg14) (V c main_v100))
    (flushed_eq V c) fun i =>
    ⟨t4_0, flush4_9 t4_0, by
      show i ∈ ((View.whole main_v101).slice (win4_9.rect t4_0)).set
      rw [View.set_slice_whole, Rect.mem_set_unit]
      intro a
      have h0 : (i 0 : Nat) < 1024 := (i 0).isLt
      have h1 : (i 1 : Nat) < 1 := (i 1).isLt
      match a with
      | ⟨0, _⟩ =>
        show win4_9.index t4_0 0 * win4_9.size 0 ≤ (i 0 : Nat)
          ∧ (i 0 : Nat) < win4_9.index t4_0 0 * win4_9.size 0 + win4_9.xsize (grid4.coords t4_0) 0
        rw [show win4_9.index t4_0 0 * win4_9.size 0 = 0 from by decide +kernel,
          show win4_9.xsize (grid4.coords t4_0) 0 = 1024 from by decide +kernel]
        omega
      | ⟨1, _⟩ =>
        show win4_9.index t4_0 1 * win4_9.size 1 ≤ (i 1 : Nat)
          ∧ (i 1 : Nat) < win4_9.index t4_0 1 * win4_9.size 1 + win4_9.xsize (grid4.coords t4_0) 1
        rw [show win4_9.index t4_0 1 * win4_9.size 1 = 0 from by decide +kernel,
          show win4_9.xsize (grid4.coords t4_0) 1 = 1 from by decide +kernel]
        omega⟩

end Cert.KernelIdeal.MlpK

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.LibTrailingAxis.lean ====
/-
  Layout operations around a trailing axis, read at an index: the forms an "unpack each word into its fields" computation
  meets.

  A matrix `[a, b]` is given a trailing unit axis and broadcast along it to `[a, b, c]` (every field of a word sees the
  word); a vector `[c]` is placed under two leading unit axes and broadcast to `[a, b, c]` (every word sees the same
  per-field vector); an `[a, 1]` column is flattened to a vector; and an `[a, 8, 8]` array is flattened to `[a, 64]`, column
  `k` being field `k % 8` of group `k / 8`.  A cast reads the operand at the index with the same row-major position, a
  broadcast at the index with the unit axes at zero.  Every statement but the last holds at any extents.
-/
import Idealize.ShloMosaic.Lib.ValueIdx
import Idealize.ShloMosaic.Lib.Pipeline.Value

noncomputable section

namespace Idealize.ShloMosaic.ValueIdx

open Idealize.ShloMosaic

variable {α : Type}

/-- An `[a, 1]` column cast to `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, b]` matrix cast to `[a, b, 1]` reads, at `(p, g, u)`, the matrix at `(p, g)`. -/
theorem shapeCast_ab_ab1_apply {a b : ℕ} (x : (⟨2, ![a, b]⟩ : Shape).Idx → α)
    (h : (⟨2, ![a, b]⟩ : Shape).ShapeCasts ⟨3, ![a, b, 1]⟩) (p : Fin a) (g : Fin b) (u : Fin 1) :
    shapeCast ⟨3, ![a, b, 1]⟩ x h (ix3 p g u) = x (ix2 p g) :=
  shapeCast_apply x h _ _ (by
    have hu : u.val = 0 := by omega
    rw [Shape.rowMajor_val_three, Shape.rowMajor_val_two]
    show p.val * b + g.val = (p.val * b + g.val) * 1 + u.val
    rw [hu, Nat.mul_one, Nat.add_zero])

/-- An `[a, b, 1]` array broadcast to `[a, b, c]` reads, at `(p, g, v)`, the operand at `(p, g, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (g : Fin b) (v : Fin c) :
    broadcastTo ⟨3, ![a, b, c]⟩ x h (ix3 p g v) = x (ix3 p g (0 : Fin 1)) := by
  refine broadcastTo_apply x h (ix3 p g v) (ix3 p g (0 : Fin 1)) fun ax => ?_
  match ax with
  | ⟨0, _⟩ =>
    show p.val = if a = 1 then 0 else p.val
    split
    · have := p.isLt; omega
    · rfl
  | ⟨1, _⟩ =>
    show g.val = if b = 1 then 0 else g.val
    split
    · have := g.isLt; omega
    · rfl
  | ⟨2, _⟩ => rfl

/-- A `[c]` vector cast to `[1, 1, c]` reads, at `(u, w, v)`, the vector at `v`. -/
theorem shapeCast_c_11c_apply {c : ℕ} (x : (⟨1, ![c]⟩ : Shape).Idx → α)
    (h : (⟨1, ![c]⟩ : Shape).ShapeCasts ⟨3, ![1, 1, c]⟩) (u w : Fin 1) (v : Fin c) :
    shapeCast ⟨3, ![1, 1, c]⟩ x h (ix3 u w v) = x (ix1 v) :=
  shapeCast_apply x h _ _ (by
    have hu : u.val = 0 := by omega
    have hw : w.val = 0 := by omega
    rw [Shape.rowMajor_val_three, Shape.rowMajor_val_one]
    show v.val = (u.val * 1 + w.val) * c + v.val
    rw [hu, hw]
    simp only [Nat.zero_mul, Nat.zero_add])

/-- A `[1, 1, c]` array broadcast to `[a, b, c]` reads, at `(p, g, v)`, the operand at `(0, 0, v)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (g : Fin b) (v : Fin c) :
    broadcastTo ⟨3, ![a, b, c]⟩ x h (ix3 p g v) = x (ix3 (0 : Fin 1) (0 : Fin 1) v) := by
  refine broadcastTo_apply x h (ix3 p g v) (ix3 (0 : Fin 1) (0 : Fin 1) v) fun ax => ?_
  match ax with
  | ⟨0, _⟩ => rfl
  | ⟨1, _⟩ => rfl
  | ⟨2, _⟩ =>
    show v.val = if c = 1 then 0 else v.val
    split
    · have := v.isLt; omega
    · rfl

/-- An `[a, 8, 8]` array flattened to `[a, 64]` reads, at `(p, k)`, the operand at group `k / 8`, field `k % 8` of row `p`. -/
theorem shapeCast_a88_a64_apply {a : ℕ} (x : (⟨3, ![a, 8, 8]⟩ : Shape).Idx → α)
    (h : (⟨3, ![a, 8, 8]⟩ : Shape).ShapeCasts ⟨2, ![a, 64]⟩) (p : Fin a) (k : Fin 64) :
    shapeCast ⟨2, ![a, 64]⟩ x h (ix2 p k)
      = x (ix3 p (⟨k.val / 8, by have := k.isLt; omega⟩ : Fin 8) (⟨k.val % 8, by omega⟩ : Fin 8)) :=
  shapeCast_apply x h _ _ (by
    have hk := k.isLt
    rw [Shape.rowMajor_val_three, Shape.rowMajor_val_two]
    show (p.val * 8 + k.val / 8) * 8 + k.val % 8 = p.val * 64 + k.val
    omega)

end Idealize.ShloMosaic.ValueIdx

end
-- ==== Proof.LibConcatPair.lean ====
/-
  A concatenation of two equal-shaped pieces read at coordinates.

  `concatenate` of two rank-2 arrays of shape [n, c] along the rows is the first piece on rows below `n` and the second,
  `n` rows up, from there on; along the columns likewise; and of two rank-1 arrays of length `n` the same on the one
  axis. Stated over any extents (the result's extent `N` with `N = n + n` as a hypothesis, so that a literal result
  shape matches as it stands) and over the program's own shape relation `h`.
-/
import Idealize.ShloMosaic.Lib.Pipeline.Value
import Idealize.ShloMosaic.Lib.ValueIdx

noncomputable section

namespace Cert.Lib

open Idealize.ShloMosaic Idealize.ShloMosaic.ValueIdx

variable {α : Type}

/-- Two [n, c] pieces stacked along the rows, read at row `k` and column `l`. -/
theorem concat_rows_apply (N n c : Nat) (hN : N = n + n) (X Y : (⟨2, ![n, c]⟩ : Shape).Idx → α)
    (h : Shape.Concatenates [(⟨2, ![n, c]⟩ : Shape), ⟨2, ![n, c]⟩] ⟨2, ![N, c]⟩ (0 : Fin 2)) (k : Fin N) (l : Fin c) :
    concatenate ⟨2, ![N, c]⟩ (0 : Fin 2) [⟨⟨2, ![n, c]⟩, X⟩, ⟨⟨2, ![n, c]⟩, Y⟩] h (ix2 k l)
      = if hk : k.val < n then X (ix2 ⟨k.val, hk⟩ l) else Y (ix2 ⟨k.val - n, by have := k.isLt; omega⟩ l) := by
  by_cases hk : k.val < n
  · rw [dif_pos hk]
    exact concatenate_pair_apply_left (0 : Fin 2) X Y h (ix2 k l) rfl (ix2 ⟨k.val, hk⟩ l)
      (fun b => by match b with | ⟨0, _⟩ => rfl | ⟨1, _⟩ => rfl)
  · rw [dif_neg hk]
    exact concatenate_pair_apply_right (0 : Fin 2) X Y h (ix2 k l) rfl rfl (ix2 ⟨k.val - n, by have := k.isLt; omega⟩ l)
      (fun b hb => by match b with | ⟨0, _⟩ => exact absurd rfl hb | ⟨1, _⟩ => rfl)
      (by show k.val - n + n = k.val; omega)

/-- Two [n, c] pieces set side by side along the columns, read at row `k` and column `l`. -/
theorem concat_cols_apply (C n c : Nat) (hC : C = c + c) (X Y : (⟨2, ![n, c]⟩ : Shape).Idx → α)
    (h : Shape.Concatenates [(⟨2, ![n, c]⟩ : Shape), ⟨2, ![n, c]⟩] ⟨2, ![n, C]⟩ (1 : Fin 2)) (k : Fin n) (l : Fin C) :
    concatenate ⟨2, ![n, C]⟩ (1 : Fin 2) [⟨⟨2, ![n, c]⟩, X⟩, ⟨⟨2, ![n, c]⟩, Y⟩] h (ix2 k l)
      = if hl : l.val < c then X (ix2 k ⟨l.val, hl⟩) else Y (ix2 k ⟨l.val - c, by have := l.isLt; omega⟩) := by
  by_cases hl : l.val < c
  · rw [dif_pos hl]
    exact concatenate_pair_apply_left (1 : Fin 2) X Y h (ix2 k l) rfl (ix2 k ⟨l.val, hl⟩)
      (fun b => by match b with | ⟨0, _⟩ => rfl | ⟨1, _⟩ => rfl)
  · rw [dif_neg hl]
    exact concatenate_pair_apply_right (1 : Fin 2) X Y h (ix2 k l) rfl rfl (ix2 k ⟨l.val - c, by have := l.isLt; omega⟩)
      (fun b hb => by match b with | ⟨0, _⟩ => rfl | ⟨1, _⟩ => exact absurd rfl hb)
      (by show l.val - c + c = l.val; omega)

/-- Two length-`n` vectors joined end to end, read at position `k`. -/
theorem concat_vec_apply (N n : Nat) (hN : N = n + n) (X Y : (⟨1, ![n]⟩ : Shape).Idx → α)
    (h : Shape.Concatenates [(⟨1, ![n]⟩ : Shape), ⟨1, ![n]⟩] ⟨1, ![N]⟩ (0 : Fin 1)) (k : Fin N) :
    concatenate ⟨1, ![N]⟩ (0 : Fin 1) [⟨⟨1, ![n]⟩, X⟩, ⟨⟨1, ![n]⟩, Y⟩] h (ix1 k)
      = if hk : k.val < n then X (ix1 ⟨k.val, hk⟩) else Y (ix1 ⟨k.val - n, by have := k.isLt; omega⟩) := by
  by_cases hk : k.val < n
  · rw [dif_pos hk]
    exact concatenate_pair_apply_left (0 : Fin 1) X Y h (ix1 k) rfl (ix1 ⟨k.val, hk⟩)
      (fun b => by match b with | ⟨0, _⟩ => rfl)
  · rw [dif_neg hk]
    exact concatenate_pair_apply_right (0 : Fin 1) X Y h (ix1 k) rfl rfl (ix1 ⟨k.val - n, by have := k.isLt; omega⟩)
      (fun b hb => by match b with | ⟨0, _⟩ => exact absurd rfl hb)
      (by show k.val - n + n = k.val; omega)

end Cert.Lib

end
-- ==== Proof.KHost.lean ====
/-
  The kernel program's host operations between its regions, each as one function of what it reads, and what that function
  is index by index.

  • The edge sum: the source words are wrapped when negative, each edge gathers its (clamped) source row of the scaled
    dense layer, and the rows are added at the rows the destination words read — `Cert.Spec.aggK`.
  • The pooled table: slab 0 and slab 1 of the sums are added, likewise the counts, the counts cut below at one and
    spread along the columns, and the quotient taken — `Cert.Spec.pooledK`.
  • Two pooled tables joined along the columns — `Cert.Spec.sideBySide`.
  • A vector reshaped to one column or one row — `Cert.Spec.col`, `Cert.Spec.row`.
-/
import proofs.«408358_j51376398795254_3_alg».proof.Proof.Gen.KernelIdeal
import proofs.«408358_j51376398795254_3_alg».proof.Proof.Spec
import proofs.«408358_j51376398795254_3_alg».proof.Proof.LibScatterAdd
import proofs.«408358_j51376398795254_3_alg».proof.Proof.LibGatherRows
import proofs.«408358_j51376398795254_3_alg».proof.Proof.LibLayoutColumn
import proofs.«408358_j51376398795254_3_alg».proof.Proof.LibTrailingAxis
import proofs.«408358_j51376398795254_3_alg».proof.Proof.LibConcatPair
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.KHost

open Idealize.ShloMosaic Idealize.ShloMosaic.TcCoe Idealize.ShloMosaic.ValueIdx Idealize.SL.Sem
open Idealize.ShloMosaic.Pipeline (Dat)
open Cert.KernelIdeal Cert.KernelIdeal.Gen

/-! ## Casts and slabs of these shapes read at coordinates -/

/-- A `[c]` vector cast to a `[1, c]` row reads, at `(u, p)`, the vector at `p`. -/
theorem shapeCast_c_1c_apply {α : Type} {c : ℕ} (x : (⟨1, ![c]⟩ : Shape).Idx → α)
    (h : (⟨1, ![c]⟩ : Shape).ShapeCasts ⟨2, ![1, c]⟩) (u : Fin 1) (p : Fin c) :
    shapeCast ⟨2, ![1, c]⟩ x h (ix2 u p) = x (ix1 p) :=
  shapeCast_apply x h _ _ (by
    have hu : u.val = 0 := by omega
    rw [Shape.rowMajor_val_two, Shape.rowMajor_val_one]
    show p.val = u.val * c + p.val
    rw [hu, Nat.zero_mul, Nat.zero_add])

/-- A `[1, c]` row cast to a `[c]` vector reads, at `p`, the row at `(0, p)`. -/
theorem shapeCast_1c_c_apply {α : Type} {c : ℕ} (x : (⟨2, ![1, c]⟩ : Shape).Idx → α)
    (h : (⟨2, ![1, c]⟩ : Shape).ShapeCasts ⟨1, ![c]⟩) (p : Fin c) :
    shapeCast ⟨1, ![c]⟩ x h (ix1 p) = x (ix2 (0 : Fin 1) p) :=
  shapeCast_apply x h _ _ (by
    rw [Shape.rowMajor_val_two, Shape.rowMajor_val_one]
    show 0 * c + p.val = p.val
    rw [Nat.zero_mul, Nat.zero_add])

/-- A `[1, a, b]` array cast to `[a, b]` reads, at `(p, q)`, the operand at `(0, p, q)`. -/
theorem shapeCast_1ab_ab_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  shapeCast_apply x h _ _ (by
    rw [Shape.rowMajor_val_three, Shape.rowMajor_val_two]
    show (0 * a + p.val) * b + q.val = p.val * b + q.val
    rw [Nat.zero_mul, Nat.zero_add])

/-- Slab `c` of a `[2, a, b]` array, cut out along the leading axis and cast to `[a, b]`, reads, at `(p, q)`, the array
    at `(c, p, q)`. -/
theorem slab_apply {α : Type} {a b : ℕ} (c : ℕ) (hc : c < 2) (x : (⟨3, ![2, a, b]⟩ : Shape).Idx → α)
    (hs : (⟨3, ![2, a, b]⟩ : Shape).Slices ![c, 0, 0] ⟨3, ![1, a, b]⟩)
    (h : (⟨3, ![1, a, b]⟩ : Shape).ShapeCasts ⟨2, ![a, b]⟩) (p : Fin a) (q : Fin b) :
    shapeCast ⟨2, ![a, b]⟩ (extractStridedSlice ⟨3, ![1, a, b]⟩ ![c, 0, 0] x hs) h (ix2 p q) = x (ix3 (⟨c, hc⟩ : Fin 2) p q) :=
  (shapeCast_1ab_ab_apply _ h p q).trans
    (extractStridedSlice_apply ![c, 0, 0] x hs (ix3 (0 : Fin 1) p q) (ix3 (⟨c, hc⟩ : Fin 2) p q) (fun ax => match ax with
      | ⟨0, _⟩ => by show c = c + 0; rfl
      | ⟨1, _⟩ => by show p.val = 0 + p.val; omega
      | ⟨2, _⟩ => by show q.val = 0 + q.val; omega))

/-- Row `c` of a `[2, n]` table, cut out, flattened to a vector and set up as an `[n, 1]` column, reads, at `(e, u)`,
    the table at `(c, e)`. -/
theorem tableRow_col_apply {α : Type} {n : ℕ} (hn : n ≠ 1) (c : ℕ) (hc : c < 2) (x : (⟨2, ![2, n]⟩ : Shape).Idx → α)
    (hs : (⟨2, ![2, n]⟩ : Shape).Slices ![c, 0] ⟨2, ![1, n]⟩)
    (h : (⟨2, ![1, n]⟩ : Shape).ShapeCasts ⟨1, ![n]⟩)
    (hb : (⟨1, ![n]⟩ : Shape).BroadcastsInDim ⟨2, ![n, 1]⟩ ![0]) (e : Fin n) (u : Fin 1) :
    broadcastInDim ⟨2, ![n, 1]⟩ ![0] hb (shapeCast ⟨1, ![n]⟩ (extractStridedSlice ⟨2, ![1, n]⟩ ![c, 0] x hs) h) (ix2 e u)
      = x (ix2 (⟨c, hc⟩ : Fin 2) e) :=
  (broadcastInDim_apply ![0] hb _ (ix2 e u) (ix1 e) (fun ax => match ax with
      | ⟨0, _⟩ => by show e.val = if n = 1 then 0 else e.val; rw [if_neg hn])).trans
    ((shapeCast_1c_c_apply _ h e).trans
      (extractStridedSlice_apply ![c, 0] x hs (ix2 (0 : Fin 1) e) (ix2 (⟨c, hc⟩ : Fin 2) e) (fun ax => match ax with
        | ⟨0, _⟩ => by show c = c + 0; rfl
        | ⟨1, _⟩ => by show e.val = 0 + e.val; omega)))

/-- The source words of the edges, wrapped when negative, as the column of start indices the gather reads. -/
def srcIdxT (ei : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (shapeCast _ (extractStridedSlice S1x1600000 ![0, 0] ei slices_S2x1600000_S1x1600000_0_0) shapeCasts_S1x1600000_S1600000)
        (broadcastInDim S1600000 ![] bcast_S_S1600000 (constantI S_ 32 0#32)))
      (addi (shapeCast _ (extractStridedSlice S1x1600000 ![0, 0] ei slices_S2x1600000_S1x1600000_0_0) shapeCasts_S1x1600000_S1600000)
        (broadcastInDim S1600000 ![] bcast_S_S1600000 (constantI S_ 32 100000#32)))
      (shapeCast _ (extractStridedSlice S1x1600000 ![0, 0] ei slices_S2x1600000_S1x1600000_0_0) shapeCasts_S1x1600000_S1600000))

/-- The destination words of the edges as the column of positions the scatter-add reads. -/
def dstIdxT (ei : (⟨S2x1600000, .i32⟩ : BufTy).Contents (Elt Ideal)) : (⟨S1600000x1, .i32⟩ : BufTy).Contents (Elt Ideal) :=
  broadcastInDim S1600000x1 ![0] bcast_S1600000_S1600000x1_0
    (shapeCast _ (extractStridedSlice S1x1600000 ![1, 0] ei slices_S2x1600000_S1x1600000_1_0) shapeCasts_S1x1600000_S1600000)

/-- The column of destination positions reads, at edge `e`, the edge table's destination word. -/
theorem dstIdxT_apply (ei : (⟨S2x1600000, .i32⟩ : BufTy).Contents (Elt Ideal)) (e : Fin 1600000) (u : Fin 1) :
    dstIdxT ei (ix2 e u) = Cert.Spec.dstW ei e :=
  tableRow_col_apply (by decide) 1 (by decide) ei slices_S2x1600000_S1x1600000_1_0 shapeCasts_S1x1600000_S1600000
    bcast_S1600000_S1600000x1_0 e u

/-- The column of start indices reads, at edge `e`, the edge table's source word, wrapped when negative. -/
theorem srcIdxT_apply (ei : (⟨S2x1600000, .i32⟩ : BufTy).Contents (Elt Ideal)) (e : Fin 1600000) (u : Fin 1) :
    srcIdxT ei (ix2 e u) = Cert.Spec.wrapW (Cert.Spec.srcW ei e) := by
  unfold srcIdxT
  refine (broadcastInDim_apply ![0] bcast_S1600000_S1600000x1_0 _ (ix2 e u) (ix1 e) (fun ax => match ax with
      | ⟨0, _⟩ => by show e.val = if (1600000 : ℕ) = 1 then 0 else e.val; rw [if_neg (by decide)])).trans ?_
  -- the comparison, the sum and the selection act entry by entry; the two constants read their words everywhere
  show Scalar.select (IntOp.cmpi .slt (shapeCast _ _ shapeCasts_S1x1600000_S1600000 (ix1 e)) 0#32)
      (IntOp.addi (shapeCast _ _ shapeCasts_S1x1600000_S1600000 (ix1 e)) 100000#32)
      (shapeCast _ _ shapeCasts_S1x1600000_S1600000 (ix1 e)) = _
  have hw : shapeCast S1600000 (extractStridedSlice S1x1600000 ![0, 0] ei slices_S2x1600000_S1x1600000_0_0)
      shapeCasts_S1x1600000_S1600000 (ix1 e) = Cert.Spec.srcW ei e :=
    (shapeCast_1c_c_apply _ shapeCasts_S1x1600000_S1600000 e).trans
      (extractStridedSlice_apply ![0, 0] ei slices_S2x1600000_S1x1600000_0_0 (ix2 (0 : Fin 1) e) (ix2 (0 : Fin 2) e)
        (fun ax => match ax with
          | ⟨0, _⟩ => by show 0 = 0 + 0; rfl
          | ⟨1, _⟩ => by show e.val = 0 + e.val; omega))
  rw [hw]
  rfl

/-- At the extended reals the host's accumulating scatter is, at any shapes, the exact sum of the updates that land on each entry. -/
theorem scatterAdd_ideal {s si su : Shape} {φ : FTy} {w : Nat} (d : ScatterDims s si su) (x : FVec Ideal s φ) (idx : IVec si w)
    (upd : FVec Ideal su φ) : Host.scatterAdd (F := Ideal) d x idx upd = Ideal.hostScatterAdd d x idx upd := rfl

/-- The program's scatter dimension numbers are those of a scatter of whole rows. -/
theorem scatterRec_eq : scatter_S100000x64_S1600000x1_S1600000x64_1_0_0_1
    = Cert.Lib.rowScatterDims 100000 64 1600000 scatter_S100000x64_S1600000x1_S1600000x64_1_0_0_1_wf := rfl

/-- The program's gather dimension numbers are those of a gather of whole rows. -/
theorem gatherRec_eq : gather_S100000x64_S1600000x1_S1600000x64_1_0_n_n_0_1_164
    = Cert.Lib.rowGatherDims 100000 64 1600000 gather_S100000x64_S1600000x1_S1600000x64_1_0_n_n_0_1_164_wf := rfl

/-- A start word read signed and clamped into [0, 100000 − 1] is the row `rowOf` names. -/
theorem clampRow_eq (w : BitVec 32) (h : min w.toInt.toNat (100000 - 1) < 100000) :
    (⟨min w.toInt.toNat (100000 - 1), h⟩ : Fin 100000) = Cert.Spec.rowOf w := rfl

/-- The row gather of the dense layer reads, at edge `e` and column `o`, the row its start word names: the word read
    signed and clamped into [0, 99999]. -/
theorem gatherRow_apply (hp : (⟨S100000x64, .bf16⟩ : BufTy).Contents (Elt Ideal)) (idx : (⟨S1600000x1, .i32⟩ : BufTy).Contents (Elt Ideal))
    (e : Fin 1600000) (o : Fin 64) :
    Host.gather gather_S100000x64_S1600000x1_S1600000x64_1_0_n_n_0_1_164 hp idx (ix2 e o)
      = hp (ix2 (Cert.Spec.rowOf (idx (ix2 e (0 : Fin 1)))) o) := by
  rw [gatherRec_eq, Cert.Lib.gather_rows_apply (N := 100000) (C := 64) (E := 1600000) (by decide)
    gather_S100000x64_S1600000x1_S1600000x64_1_0_n_n_0_1_164_wf hp idx e o, clampRow_eq]

/-- The edge sum as the program's host operations form it from the edge table and the scaled dense layer. -/
def aggT (ei : (⟨S2x1600000, .i32⟩ : BufTy).Contents (Elt Ideal)) (hp : (⟨S100000x64, .bf16⟩ : BufTy).Contents (Elt Ideal)) : (⟨S100000x64, .f32⟩ : BufTy).Contents (Elt Ideal) :=
  Host.scatterAdd (F := Ideal) scatter_S100000x64_S1600000x1_S1600000x64_1_0_0_1
    (broadcastInDim S100000x64 ![] bcast_S_S100000x64 (constant (F := Ideal) S_ .f32 0x00000000#32))
    (dstIdxT ei)
    (extf .f32 (Host.gather gather_S100000x64_S1600000x1_S1600000x64_1_0_n_n_0_1_164 hp (srcIdxT ei)) bitsLt_bf16_f32)

/-- The program's scatter-add of whole rows read at `(r, o)`: the operand's entry plus entry `o` of the update rows whose
    position word reads exactly `r`. -/
theorem scatterRows_apply (x : FVec Ideal S100000x64 .f32) (idx : IVec S1600000x1 32) (upd : FVec Ideal S1600000x64 .f32)
    (r : Fin 100000) (o : Fin 64) :
    Host.scatterAdd (F := Ideal) (φ := .f32) scatter_S100000x64_S1600000x1_S1600000x64_1_0_0_1 x idx upd (ix2 r o)
      = x (ix2 r o) + ∑ e : Fin 1600000, if (idx (ix2 e (0 : Fin 1))).toInt = (r.val : Int) then upd (ix2 e o) else 0 := by
  rw [scatterAdd_ideal, scatterRec_eq]
  exact Cert.Lib.scatterAdd_rows_apply scatter_S100000x64_S1600000x1_S1600000x64_1_0_0_1_wf x idx upd r o

/-- The scatter-add's operand reads the start word everywhere. -/
theorem startT_apply (j : S100000x64.Idx) :
    broadcastInDim S100000x64 ![] bcast_S_S100000x64 (constant (F := Ideal) S_ .f32 0x00000000#32) j
      = Ideal.ofBits .f32 0x00000000#32 :=
  (broadcastInDim_scalar_apply bcast_S_S100000x64 (constant (F := Ideal) S_ .f32 0x00000000#32) j).trans
    (constant_apply _ _)

/-- Edge `e`'s term of the sum at `(r, o)`: where its destination word reads `r`, entry `o` of the row its wrapped,
    clamped source word reads. -/
theorem edgeTerm_apply (ei : (⟨S2x1600000, .i32⟩ : BufTy).Contents (Elt Ideal)) (hp : (⟨S100000x64, .bf16⟩ : BufTy).Contents (Elt Ideal))
    (r : Fin 100000) (o : Fin 64) (e : Fin 1600000) :
    (if (dstIdxT ei (ix2 e (0 : Fin 1))).toInt = (r.val : Int)
      then (extf .f32 (Host.gather gather_S100000x64_S1600000x1_S1600000x64_1_0_n_n_0_1_164 hp (srcIdxT ei)) bitsLt_bf16_f32 :
        FVec Ideal S1600000x64 .f32) (ix2 e o) else 0)
      = if (Cert.Spec.dstW ei e).toInt = (r.val : Int) then hp (ix2 (Cert.Spec.rowOf (Cert.Spec.wrapW (Cert.Spec.srcW ei e))) o) else 0 := by
  rw [dstIdxT_apply, extf_apply, gatherRow_apply, srcIdxT_apply]

/-- The specification's edge sum read at `(r, o)`. -/
theorem aggK_apply (z : EReal) (sW dW : Fin 1600000 → BitVec 32) (hp : (⟨2, ![100000, 64]⟩ : Shape).Idx → EReal)
    (r : Fin 100000) (o : Fin 64) :
    Cert.Spec.aggK z sW dW hp (ix2 r o)
      = z + ∑ e : Fin 1600000, if (dW e).toInt = (r.val : Int) then hp (ix2 (Cert.Spec.rowOf (Cert.Spec.wrapW (sW e))) o) else 0 := rfl

/-- The edge sum, index by index. -/
theorem aggT_eq (ei : (⟨S2x1600000, .i32⟩ : BufTy).Contents (Elt Ideal)) (hp : (⟨S100000x64, .bf16⟩ : BufTy).Contents (Elt Ideal)) :
    aggT ei hp = Cert.Spec.aggK (Ideal.ofBits .f32 0x00000000#32) (Cert.Spec.srcW ei) (Cert.Spec.dstW ei) hp := by
  funext j
  obtain ⟨r, o, rfl⟩ : ∃ (r : Fin 100000) (o : Fin 64), j = ix2 r o := ⟨j 0, j 1, eq_ix2 j⟩
  unfold aggT
  rw [scatterRows_apply, startT_apply, aggK_apply]
  exact congrArg (fun s : EReal => Ideal.ofBits .f32 0x00000000#32 + s)
    (Finset.sum_congr rfl (fun e _ => edgeTerm_apply ei hp r o e))

/-- The pooled table as the program's host operations form it from the pooling region's two result arrays. -/
def pooledT (sums : (⟨S2x1024x64, .f32⟩ : BufTy).Contents (Elt Ideal)) (cnts : (⟨S2x1024x1, .f32⟩ : BufTy).Contents (Elt Ideal)) : (⟨S1024x64, .f32⟩ : BufTy).Contents (Elt Ideal) :=
  Host.divf (F := Ideal)
    (addf (shapeCast _ (extractStridedSlice S1x1024x64 ![0, 0, 0] sums slices_S2x1024x64_S1x1024x64_0_0_0) shapeCasts_S1x1024x64_S1024x64)
          (shapeCast _ (extractStridedSlice S1x1024x64 ![1, 0, 0] sums slices_S2x1024x64_S1x1024x64_1_0_0) shapeCasts_S1x1024x64_S1024x64))
    (broadcastInDim S1024x64 ![0, 1] bcast_S1024x1_S1024x64_0_1
      (maximumf
        (addf (shapeCast _ (extractStridedSlice S1x1024x1 ![0, 0, 0] cnts slices_S2x1024x1_S1x1024x1_0_0_0) shapeCasts_S1x1024x1_S1024x1)
              (shapeCast _ (extractStridedSlice S1x1024x1 ![1, 0, 0] cnts slices_S2x1024x1_S1x1024x1_1_0_0) shapeCasts_S1x1024x1_S1024x1))
        (broadcastInDim S1024x1 ![] bcast_S_S1024x1 (constant (F := Ideal) S_ .f32 0x3F800000#32))))

/-- The pooled table, index by index. -/
theorem pooledT_eq (sums : (⟨S2x1024x64, .f32⟩ : BufTy).Contents (Elt Ideal)) (cnts : (⟨S2x1024x1, .f32⟩ : BufTy).Contents (Elt Ideal)) :
    pooledT sums cnts = Cert.Spec.pooledK (Ideal.ofBits .f32 0x3F800000#32) sums cnts := by
  funext j
  obtain ⟨g, o, rfl⟩ : ∃ (g : Fin 1024) (o : Fin 64), j = ix2 g o := ⟨j 0, j 1, eq_ix2 j⟩
  unfold pooledT
  rw [hostDivf_apply, addf_apply,
    slab_apply 0 (by decide) sums slices_S2x1024x64_S1x1024x64_0_0_0 shapeCasts_S1x1024x64_S1024x64 g o,
    slab_apply 1 (by decide) sums slices_S2x1024x64_S1x1024x64_1_0_0 shapeCasts_S1x1024x64_S1024x64 g o]
  -- the counts' column spread along the columns reads the column at row g
  rw [broadcastInDim_apply ![0, 1] bcast_S1024x1_S1024x64_0_1 _ (ix2 g o) (ix2 g (0 : Fin 1)) (fun ax => match ax with
      | ⟨0, _⟩ => by show g.val = if (1024 : ℕ) = 1 then 0 else g.val; rw [if_neg (by decide)]
      | ⟨1, _⟩ => by show 0 = if (1 : ℕ) = 1 then 0 else o.val; rw [if_pos rfl])]
  rw [maximumf_apply, addf_apply,
    slab_apply 0 (by decide) cnts slices_S2x1024x1_S1x1024x1_0_0_0 shapeCasts_S1x1024x1_S1024x1 g (0 : Fin 1),
    slab_apply 1 (by decide) cnts slices_S2x1024x1_S1x1024x1_1_0_0 shapeCasts_S1x1024x1_S1024x1 g (0 : Fin 1)]
  rfl

/-- Two pooled tables joined along the columns are the two tables side by side. -/
theorem join_eq (p q : (⟨S1024x64, .f32⟩ : BufTy).Contents (Elt Ideal)) :
    concatenate S1024x128 1 [⟨S1024x64, p⟩, ⟨S1024x64, q⟩] concatenates_S1024x64_S1024x64_S1024x128_d1 = Cert.Spec.sideBySide p q := by
  funext j
  obtain ⟨k, l, rfl⟩ : ∃ (k : Fin 1024) (l : Fin 128), j = ix2 k l := ⟨j 0, j 1, eq_ix2 j⟩
  exact Cert.Lib.concat_cols_apply 128 1024 64 rfl p q concatenates_S1024x64_S1024x64_S1024x128_d1 k l

/-- A vector of 100000 float entries reshaped to one column. -/
theorem col_f32_eq (v : (⟨S100000, .f32⟩ : BufTy).Contents (Elt Ideal)) : shapeCast S100000x1 v shapeCasts_S100000_S100000x1 = Cert.Spec.col v := by
  funext j
  obtain ⟨p, u, rfl⟩ : ∃ (p : Fin 100000) (u : Fin 1), j = ix2 p u := ⟨j 0, j 1, eq_ix2 j⟩
  exact shapeCast_a_a1_apply v shapeCasts_S100000_S100000x1 p u

/-- A vector of 100000 index words reshaped to one column. -/
theorem col_i32_eq (v : (⟨S100000, .i32⟩ : BufTy).Contents (Elt Ideal)) : shapeCast S100000x1 v shapeCasts_S100000_S100000x1 = Cert.Spec.col v := by
  funext j
  obtain ⟨p, u, rfl⟩ : ∃ (p : Fin 100000) (u : Fin 1), j = ix2 p u := ⟨j 0, j 1, eq_ix2 j⟩
  exact shapeCast_a_a1_apply v shapeCasts_S100000_S100000x1 p u

/-- A vector of 64 entries reshaped to one row. -/
theorem row64_eq (v : (⟨S64, .f32⟩ : BufTy).Contents (Elt Ideal)) : shapeCast S1x64 v shapeCasts_S64_S1x64 = Cert.Spec.row v := by
  funext j
  obtain ⟨u, p, rfl⟩ : ∃ (u : Fin 1) (p : Fin 64), j = ix2 u p := ⟨j 0, j 1, eq_ix2 j⟩
  exact shapeCast_c_1c_apply v shapeCasts_S64_S1x64 u p

/-- A vector of 32 entries reshaped to one row. -/
theorem row32_eq (v : (⟨S32, .f32⟩ : BufTy).Contents (Elt Ideal)) : shapeCast S1x32 v shapeCasts_S32_S1x32 = Cert.Spec.row v := by
  funext j
  obtain ⟨u, p, rfl⟩ : ∃ (u : Fin 1) (p : Fin 32), j = ix2 u p := ⟨j 0, j 1, eq_ix2 j⟩
  exact shapeCast_c_1c_apply v shapeCasts_S32_S1x32 u p

/-- A vector of 16 entries reshaped to one row. -/
theorem row16_eq (v : (⟨S16, .f32⟩ : BufTy).Contents (Elt Ideal)) : shapeCast S1x16 v shapeCasts_S16_S1x16 = Cert.Spec.row v := by
  funext j
  obtain ⟨u, p, rfl⟩ : ∃ (u : Fin 1) (p : Fin 16), j = ix2 u p := ⟨j 0, j 1, eq_ix2 j⟩
  exact shapeCast_c_1c_apply v shapeCasts_S16_S1x16 u p

/-- A vector of one entry reshaped to one row. -/
theorem row1_eq (v : (⟨S1, .f32⟩ : BufTy).Contents (Elt Ideal)) : shapeCast S1x1 v shapeCasts_S1_S1x1 = Cert.Spec.row v := by
  funext j
  obtain ⟨u, p, rfl⟩ : ∃ (u : Fin 1) (p : Fin 1), j = ix2 u p := ⟨j 0, j 1, eq_ix2 j⟩
  exact shapeCast_c_1c_apply v shapeCasts_S1_S1x1 u p

end Cert.KernelIdeal.KHost

end
-- ==== Proof.KFold.lean ====
/-
  The idealized kernel program's result as one function of its argument arrays.

  The run leaves the result array at the contents the last of the fourteen segment boundaries assigns it.  Reading that
  boundary back: the classifier region's result is the classifier of its operand arrays; its first operand is the two
  graphs' pooled tables side by side; each pooled table is the pooling region's two result arrays, halves added and
  divided; the pooling region reads the edge sum of the scaled dense layer, the scaled dense layer itself, the inverse
  root degree column, the graph ids as a column and the bias as a row; and every argument array is, at every boundary,
  what it was at launch.
-/
import proofs.«408358_j51376398795254_3_alg».proof.Proof.Gen.KernelIdeal.Frame
import proofs.«408358_j51376398795254_3_alg».proof.Proof.Spec
import proofs.«408358_j51376398795254_3_alg».proof.Proof.FeatA
import proofs.«408358_j51376398795254_3_alg».proof.Proof.FeatB
import proofs.«408358_j51376398795254_3_alg».proof.Proof.PoolA
import proofs.«408358_j51376398795254_3_alg».proof.Proof.PoolB
import proofs.«408358_j51376398795254_3_alg».proof.Proof.MlpK
import proofs.«408358_j51376398795254_3_alg».proof.Proof.KHost
import proofs.«408358_j51376398795254_3_alg».proof.Proof.LibScatterAdd
import proofs.«408358_j51376398795254_3_alg».proof.Proof.LibGatherRows
import proofs.«408358_j51376398795254_3_alg».proof.Proof.LibLayoutColumn
import proofs.«408358_j51376398795254_3_alg».proof.Proof.LibTrailingAxis
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.KernelIdeal.Fold

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The in-degrees counted with a self-loop, as the program's host operations add them up: a one for every entry of the
    destination row followed by the node numbers, added at the entry the word reads. -/
def degK (ei : (⟨S2x1600000, .i32⟩ : BufTy).Contents (Elt Ideal)) : (⟨S100000, .f32⟩ : BufTy).Contents (Elt Ideal) :=
  Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0
      (concatenate S1700000 0 [⟨S1600000, shapeCast _ (extractStridedSlice S1x1600000 ![1, 0] ei slices_S2x1600000_S1x1600000_1_0) shapeCasts_S1x1600000_S1600000⟩,
        ⟨S100000, iotaInDim S100000 32 0⟩] concatenates_S1600000_S100000_S1700000_d0))
    (broadcastInDim S1700000 ![] bcast_S_S1700000 (constant (F := Ideal) S_ .f32 0x3F800000#32))

/-- The inverse root degrees as the program's host operations compute them from the edge table. -/
def dinvK (ei : (⟨S2x1600000, .i32⟩ : BufTy).Contents (Elt Ideal)) : (⟨S100000, .f32⟩ : BufTy).Contents (Elt Ideal) :=
  select (cmpf (F := Ideal) .ogt (degK ei) (broadcastInDim S100000 ![] bcast_S_S100000 (constant (F := Ideal) S_ .f32 0x00000000#32)))
    (Host.rsqrt (F := Ideal) (maximumf (degK ei) (broadcastInDim S100000 ![] bcast_S_S100000 (constant (F := Ideal) S_ .f32 0x2B8CBCCC#32))))
    (broadcastInDim S100000 ![] bcast_S_S100000 (id (constant (F := Ideal) S_ .f32 0x00000000#32)))

section Boundaries

/-- A buffer that no operation of a host stretch writes keeps its contents across the stretch. -/
local macro "host_keep" : tactic => `(tactic| (
  refine StableHlo.after_of_forall_not_mem _ _ (List.forall_iff_forall_mem.mp ?_)
  simp only [hostOps0, hostOps0_1, hostOps0_2, hostOps1, hostOps2, hostOps2_1, hostOps2_2, hostOps3, hostOps4,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (c : Dev nD)

/-- Reads a buffer after a host stretch one operation at a time: at the buffer an operation writes, its function of
    what it reads; at any other buffer, what was there before. It also reaches the operands of a concatenation. -/
local macro "results_rw" : tactic => `(tactic| (
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))))

set_option quotPrecheck false in
local notation "rf" b:max => Proc.devRef .tc b
set_option quotPrecheck false in
local notation "argAt" b:max => m ((c.tc : Thread nD τ).loc b)
set_option quotPrecheck false in
local notation "zeroK" => Ideal.ofBits .f32 0x00000000#32
set_option quotPrecheck false in
local notation "oneK" => Ideal.ofBits .f32 0x3F800000#32

/-! ## Graph 1: the inverse root degrees (the first three host stretches) -/

theorem W1_v9 : W1 (F := Ideal) m ρ c (Proc.devRef .tc main_v9)
    = cmpf (F := Ideal) .ogt (degK (m ((c.tc : Thread nD τ).loc main_arg1))) (broadcastInDim S100000 ![] bcast_S_S100000 (constant (F := Ideal) S_ .f32 0x00000000#32)) := by
  show StableHlo.after hostOps0 (W0 m ρ c) (Proc.devRef .tc main_v9) = _
  after_results
  rfl
theorem W1_v12 : W1 (F := Ideal) m ρ c (Proc.devRef .tc main_v12)
    = Host.rsqrt (F := Ideal) (maximumf (degK (m ((c.tc : Thread nD τ).loc main_arg1))) (broadcastInDim S100000 ![] bcast_S_S100000 (constant (F := Ideal) S_ .f32 0x2B8CBCCC#32))) := by
  show StableHlo.after hostOps0 (W0 m ρ c) (Proc.devRef .tc main_v12) = _
  after_results
  rfl
theorem W1_cst3 : W1 (F := Ideal) m ρ c (Proc.devRef .tc main_cst_3) = constant (F := Ideal) S_ .f32 0x00000000#32 := by
  show StableHlo.after hostOps0 (W0 m ρ c) (Proc.devRef .tc main_cst_3) = _
  after_results
theorem W2_v13 : W2 (F := Ideal) m ρ c (Proc.devRef .tc main_v13) = dinvK (m ((c.tc : Thread nD τ).loc main_arg1)) := by
  have h9 := W1_v9 m ρ c; have h12 := W1_v12 m ρ c; have h3 := W1_cst3 m ρ c
  show StableHlo.after hostOps0_1 (W1 m ρ c) (Proc.devRef .tc main_v13) = _
  generalize W1 (F := Ideal) m ρ c = V1 at h9 h12 h3 ⊢
  after_results
  simp only [StableHlo.TRef.ofBuf, StableHlo.TRef.toBuf, cast_eq]
  rw [h9, h12, h3]; rfl
theorem W3_v14 : W3 (F := Ideal) m ρ c (Proc.devRef .tc main_v14) = Cert.Spec.col (dinvK (m ((c.tc : Thread nD τ).loc main_arg1))) := by
  have h13 := W2_v13 m ρ c
  show StableHlo.after hostOps0_2 (W2 m ρ c) (Proc.devRef .tc main_v14) = _
  generalize W2 (F := Ideal) m ρ c = V2 at h13 ⊢
  after_results
  rw [h13]
  exact KHost.col_f32_eq _

/-! ## The arguments of graph 1 at the boundaries where they are read

No host operation and no region writes an argument: across a host stretch it keeps its contents, across a region it
is bypassed or read through an input window. -/

theorem W1_arg0 : W1 m ρ c (rf main_arg0) = argAt main_arg0 := by host_keep
theorem W2_arg0 : W2 m ρ c (rf main_arg0) = argAt main_arg0 :=
  (by host_keep : _ = W1 m ρ c (rf main_arg0)).trans (W1_arg0 m ρ c)
theorem W3_arg0 : W3 m ρ c (rf main_arg0) = argAt main_arg0 :=
  (by host_keep : _ = W2 m ρ c (rf main_arg0)).trans (W2_arg0 m ρ c)

theorem W1_arg1 : W1 m ρ c (rf main_arg1) = argAt main_arg1 := by host_keep
theorem W2_arg1 : W2 m ρ c (rf main_arg1) = argAt main_arg1 :=
  (by host_keep : _ = W1 m ρ c (rf main_arg1)).trans (W1_arg1 m ρ c)
theorem W3_arg1 : W3 m ρ c (rf main_arg1) = argAt main_arg1 :=
  (by host_keep : _ = W2 m ρ c (rf main_arg1)).trans (W2_arg1 m ρ c)
theorem W4_arg1 : W4 m ρ c (rf main_arg1) = argAt main_arg1 :=
  (W4_of_ne m ρ c main_arg1 (by decide)).trans (W3_arg1 m ρ c)

theorem W1_arg2 : W1 m ρ c (rf main_arg2) = argAt main_arg2 := by host_keep
theorem W2_arg2 : W2 m ρ c (rf main_arg2) = argAt main_arg2 :=
  (by host_keep : _ = W1 m ρ c (rf main_arg2)).trans (W1_arg2 m ρ c)
theorem W3_arg2 : W3 m ρ c (rf main_arg2) = argAt main_arg2 :=
  (by host_keep : _ = W2 m ρ c (rf main_arg2)).trans (W2_arg2 m ρ c)
theorem W4_arg2 : W4 m ρ c (rf main_arg2) = argAt main_arg2 :=
  (W4_of_ne m ρ c main_arg2 (by decide)).trans (W3_arg2 m ρ c)

theorem W1_arg6 : W1 m ρ c (rf main_arg6) = argAt main_arg6 := by host_keep
theorem W2_arg6 : W2 m ρ c (rf main_arg6) = argAt main_arg6 :=
  (by host_keep : _ = W1 m ρ c (rf main_arg6)).trans (W1_arg6 m ρ c)
theorem W3_arg6 : W3 m ρ c (rf main_arg6) = argAt main_arg6 :=
  (by host_keep : _ = W2 m ρ c (rf main_arg6)).trans (W2_arg6 m ρ c)

theorem W1_arg7 : W1 m ρ c (rf main_arg7) = argAt main_arg7 := by host_keep
theorem W2_arg7 : W2 m ρ c (rf main_arg7) = argAt main_arg7 :=
  (by host_keep : _ = W1 m ρ c (rf main_arg7)).trans (W1_arg7 m ρ c)
theorem W3_arg7 : W3 m ρ c (rf main_arg7) = argAt main_arg7 :=
  (by host_keep : _ = W2 m ρ c (rf main_arg7)).trans (W2_arg7 m ρ c)
theorem W4_arg7 : W4 m ρ c (rf main_arg7) = argAt main_arg7 :=
  (W4_of_ne m ρ c main_arg7 (by decide)).trans (W3_arg7 m ρ c)

/-! ## Graph 1: the scaled dense layer, the edge sum, the pooling region, the pooled table -/

set_option quotPrecheck false in
local notation "dv1" => dinvK (argAt main_arg1)
set_option quotPrecheck false in
local notation "ft1" => Cert.Spec.feat (argAt main_arg0) (argAt main_arg6) (Cert.Spec.col dv1)
set_option quotPrecheck false in
local notation "ag1" => Cert.Spec.aggK zeroK (Cert.Spec.srcW (argAt main_arg1)) (Cert.Spec.dstW (argAt main_arg1)) ft1

/-- Region 0's result array: the dense layer with row i scaled by the inverse root degree of node i. -/
theorem W4_v15 : W4 m ρ c (rf main_v15) = ft1 := by
  refine (W4_arr m ρ c 3).trans ((FeatA.feat0_final (V3 m ρ) c).trans ?_)
  rw [show V3 m ρ c main_arg0 = _ from W3_arg0 m ρ c, show V3 m ρ c main_arg6 = _ from W3_arg6 m ρ c,
    show V3 m ρ c main_v14 = _ from W3_v14 m ρ c]
/-- Region 0 reads the inverse root degree column through an input window and leaves it. -/
theorem W4_v14 : W4 m ρ c (rf main_v14) = Cert.Spec.col dv1 :=
  (W4_arr m ρ c 2).trans ((((dat0 (V3 m ρ) c).arrAt_in 2 rfl _).trans (A_eq0 (V3 m ρ) c 2)).trans (W3_v14 m ρ c))

/-- The edge sum of the scaled dense layer. -/
theorem W5_v30 : W5 m ρ c (rf main_v30) = ag1 := by
  have h1 := W4_arg1 m ρ c; have h15 := W4_v15 m ρ c
  show StableHlo.after hostOps1 (W4 m ρ c) (rf main_v30) = _
  generalize W4 m ρ c = X at h1 h15 ⊢
  after_results_simp
  rw [h1, h15]
  exact KHost.aggT_eq (argAt main_arg1) ft1
theorem W5_v31 : W5 m ρ c (rf main_v31) = Cert.Spec.col (argAt main_arg2) := by
  have h2 := W4_arg2 m ρ c
  show StableHlo.after hostOps1 (W4 m ρ c) (rf main_v31) = _
  generalize W4 m ρ c = X at h2 ⊢
  after_results_simp
  rw [h2]
  exact KHost.col_i32_eq _
theorem W5_v32 : W5 m ρ c (rf main_v32) = Cert.Spec.row (argAt main_arg7) := by
  have h7 := W4_arg7 m ρ c
  show StableHlo.after hostOps1 (W4 m ρ c) (rf main_v32) = _
  generalize W4 m ρ c = X at h7 ⊢
  after_results_simp
  rw [h7]
  exact KHost.row64_eq _
theorem W5_v15 : W5 m ρ c (rf main_v15) = ft1 :=
  (by host_keep : _ = W4 m ρ c (rf main_v15)).trans (W4_v15 m ρ c)
theorem W5_v14 : W5 m ρ c (rf main_v14) = Cert.Spec.col dv1 :=
  (by host_keep : _ = W4 m ρ c (rf main_v14)).trans (W4_v14 m ρ c)

/-- Region 1's two result arrays: per half, the 0/1 matrix times the activated rows, and times a column of ones. -/
theorem W6_v33_0 : W6 m ρ c (rf main_v33_0)
    = Cert.Spec.poolSums ag1 ft1 (Cert.Spec.col dv1) (Cert.Spec.col (argAt main_arg2)) (Cert.Spec.row (argAt main_arg7)) := by
  refine (W6_arr m ρ c 5).trans ((PoolA.pool1_sums_final (V5 m ρ) c).trans ?_)
  rw [show V5 m ρ c main_v30 = _ from W5_v30 m ρ c, show V5 m ρ c main_v15 = _ from W5_v15 m ρ c,
    show V5 m ρ c main_v14 = _ from W5_v14 m ρ c, show V5 m ρ c main_v31 = _ from W5_v31 m ρ c,
    show V5 m ρ c main_v32 = _ from W5_v32 m ρ c]
theorem W6_v33_1 : W6 m ρ c (rf main_v33_1) = Cert.Spec.poolCounts (Cert.Spec.col (argAt main_arg2)) := by
  refine (W6_arr m ρ c 6).trans ((PoolA.pool1_counts_final (V5 m ρ) c).trans ?_)
  rw [show V5 m ρ c main_v31 = _ from W5_v31 m ρ c]

/-- Graph 1's pooled table. -/
theorem W7_v47 : W7 m ρ c (rf main_v47)
    = Cert.Spec.poolOfK zeroK oneK (argAt main_arg0) (argAt main_arg1) dv1 (argAt main_arg2) (argAt main_arg6) (argAt main_arg7) := by
  have h0 := W6_v33_0 m ρ c; have h1 := W6_v33_1 m ρ c
  show StableHlo.after hostOps2 (W6 m ρ c) (rf main_v47) = _
  generalize W6 m ρ c = X at h0 h1 ⊢
  after_results_simp
  rw [h0, h1]
  exact KHost.pooledT_eq _ _

/-! ## The arguments read after region 1, at the boundaries where they are read

Each ends the run as launched (the generated `W14_main_arg…`); walking back from the last boundary, every step is
again a host stretch that does not write it, a region that bypasses it, or a region that reads it through an input
window. -/

theorem W13_arg3 : W13 m ρ c (rf main_arg3) = argAt main_arg3 :=
  (W14_of_ne m ρ c main_arg3 (by decide)).symm.trans (W14_main_arg3 m ρ c)
theorem W12_arg3 : W12 m ρ c (rf main_arg3) = argAt main_arg3 :=
  (by host_keep : W13 m ρ c (rf main_arg3) = W12 m ρ c (rf main_arg3)).symm.trans (W13_arg3 m ρ c)
theorem W11_arg3 : W11 m ρ c (rf main_arg3) = argAt main_arg3 :=
  (W12_of_ne m ρ c main_arg3 (by decide)).symm.trans (W12_arg3 m ρ c)
theorem W10_arg3 : W10 m ρ c (rf main_arg3) = argAt main_arg3 :=
  (by host_keep : W11 m ρ c (rf main_arg3) = W10 m ρ c (rf main_arg3)).symm.trans (W11_arg3 m ρ c)
theorem W9_arg3 : W9 m ρ c (rf main_arg3) = argAt main_arg3 :=
  ((W10_arr m ρ c 0).trans (((dat2 (V9 m ρ) c).arrAt_in 0 rfl _).trans (A_eq2 (V9 m ρ) c 0))).symm.trans (W10_arg3 m ρ c)

theorem W13_arg6 : W13 m ρ c (rf main_arg6) = argAt main_arg6 :=
  (W14_of_ne m ρ c main_arg6 (by decide)).symm.trans (W14_main_arg6 m ρ c)
theorem W12_arg6 : W12 m ρ c (rf main_arg6) = argAt main_arg6 :=
  (by host_keep : W13 m ρ c (rf main_arg6) = W12 m ρ c (rf main_arg6)).symm.trans (W13_arg6 m ρ c)
theorem W11_arg6 : W11 m ρ c (rf main_arg6) = argAt main_arg6 :=
  (W12_of_ne m ρ c main_arg6 (by decide)).symm.trans (W12_arg6 m ρ c)
theorem W10_arg6 : W10 m ρ c (rf main_arg6) = argAt main_arg6 :=
  (by host_keep : W11 m ρ c (rf main_arg6) = W10 m ρ c (rf main_arg6)).symm.trans (W11_arg6 m ρ c)
theorem W9_arg6 : W9 m ρ c (rf main_arg6) = argAt main_arg6 :=
  ((W10_arr m ρ c 1).trans (((dat2 (V9 m ρ) c).arrAt_in 1 rfl _).trans (A_eq2 (V9 m ρ) c 1))).symm.trans (W10_arg6 m ρ c)

theorem W13_arg5 : W13 m ρ c (rf main_arg5) = argAt main_arg5 :=
  (W14_of_ne m ρ c main_arg5 (by decide)).symm.trans (W14_main_arg5 m ρ c)
theorem W12_arg5 : W12 m ρ c (rf main_arg5) = argAt main_arg5 :=
  (by host_keep : W13 m ρ c (rf main_arg5) = W12 m ρ c (rf main_arg5)).symm.trans (W13_arg5 m ρ c)
theorem W11_arg5 : W11 m ρ c (rf main_arg5) = argAt main_arg5 :=
  (W12_of_ne m ρ c main_arg5 (by decide)).symm.trans (W12_arg5 m ρ c)
theorem W10_arg5 : W10 m ρ c (rf main_arg5) = argAt main_arg5 :=
  (by host_keep : W11 m ρ c (rf main_arg5) = W10 m ρ c (rf main_arg5)).symm.trans (W11_arg5 m ρ c)

theorem W13_arg7 : W13 m ρ c (rf main_arg7) = argAt main_arg7 :=
  (W14_of_ne m ρ c main_arg7 (by decide)).symm.trans (W14_main_arg7 m ρ c)
theorem W12_arg7 : W12 m ρ c (rf main_arg7) = argAt main_arg7 :=
  (by host_keep : W13 m ρ c (rf main_arg7) = W12 m ρ c (rf main_arg7)).symm.trans (W13_arg7 m ρ c)
theorem W11_arg7 : W11 m ρ c (rf main_arg7) = argAt main_arg7 :=
  (W12_of_ne m ρ c main_arg7 (by decide)).symm.trans (W12_arg7 m ρ c)
theorem W10_arg7 : W10 m ρ c (rf main_arg7) = argAt main_arg7 :=
  (by host_keep : W11 m ρ c (rf main_arg7) = W10 m ρ c (rf main_arg7)).symm.trans (W11_arg7 m ρ c)

theorem W13_arg4 : W13 m ρ c (rf main_arg4) = argAt main_arg4 :=
  (W14_of_ne m ρ c main_arg4 (by decide)).symm.trans (W14_main_arg4 m ρ c)
theorem W12_arg4 : W12 m ρ c (rf main_arg4) = argAt main_arg4 :=
  (by host_keep : W13 m ρ c (rf main_arg4) = W12 m ρ c (rf main_arg4)).symm.trans (W13_arg4 m ρ c)
theorem W11_arg4 : W11 m ρ c (rf main_arg4) = argAt main_arg4 :=
  (W12_of_ne m ρ c main_arg4 (by decide)).symm.trans (W12_arg4 m ρ c)
theorem W10_arg4 : W10 m ρ c (rf main_arg4) = argAt main_arg4 :=
  (by host_keep : W11 m ρ c (rf main_arg4) = W10 m ρ c (rf main_arg4)).symm.trans (W11_arg4 m ρ c)
theorem W9_arg4 : W9 m ρ c (rf main_arg4) = argAt main_arg4 :=
  (W10_of_ne m ρ c main_arg4 (by decide)).symm.trans (W10_arg4 m ρ c)
theorem W8_arg4 : W8 m ρ c (rf main_arg4) = argAt main_arg4 :=
  (by host_keep : W9 m ρ c (rf main_arg4) = W8 m ρ c (rf main_arg4)).symm.trans (W9_arg4 m ρ c)
theorem W7_arg4 : W7 m ρ c (rf main_arg4) = argAt main_arg4 :=
  (by host_keep : W8 m ρ c (rf main_arg4) = W7 m ρ c (rf main_arg4)).symm.trans (W8_arg4 m ρ c)
theorem W6_arg4 : W6 m ρ c (rf main_arg4) = argAt main_arg4 :=
  (by host_keep : W7 m ρ c (rf main_arg4) = W6 m ρ c (rf main_arg4)).symm.trans (W7_arg4 m ρ c)

/-! ## Graph 2: the inverse root degrees, the scaled dense layer, the edge sum, the pooling region -/

set_option maxHeartbeats 4000000 in
theorem W7_v57 : W7 m ρ c (rf main_v57)
    = cmpf (F := Ideal) .ogt (degK (argAt main_arg4)) (broadcastInDim S100000 ![] bcast_S_S100000 (constant (F := Ideal) S_ .f32 0x00000000#32)) := by
  have h4 := W6_arg4 m ρ c
  show StableHlo.after hostOps2 (W6 m ρ c) (rf main_v57) = _
  generalize W6 m ρ c = X at h4 ⊢
  after_results_simp
  results_rw
  rw [h4]; rfl
set_option maxHeartbeats 4000000 in
theorem W7_v60 : W7 m ρ c (rf main_v60)
    = Host.rsqrt (F := Ideal) (maximumf (degK (argAt main_arg4)) (broadcastInDim S100000 ![] bcast_S_S100000 (constant (F := Ideal) S_ .f32 0x2B8CBCCC#32))) := by
  have h4 := W6_arg4 m ρ c
  show StableHlo.after hostOps2 (W6 m ρ c) (rf main_v60) = _
  generalize W6 m ρ c = X at h4 ⊢
  after_results_simp
  results_rw
  rw [h4]; rfl
theorem W7_cst11 : W7 m ρ c (rf main_cst_11) = constant (F := Ideal) S_ .f32 0x00000000#32 := by
  show StableHlo.after hostOps2 (W6 m ρ c) (rf main_cst_11) = _
  generalize W6 m ρ c = X
  after_results
theorem W8_v61 : W8 m ρ c (rf main_v61) = dinvK (argAt main_arg4) := by
  have h57 := W7_v57 m ρ c; have h60 := W7_v60 m ρ c; have h11 := W7_cst11 m ρ c
  show StableHlo.after hostOps2_1 (W7 m ρ c) (rf main_v61) = _
  generalize W7 m ρ c = X at h57 h60 h11 ⊢
  after_results
  simp only [StableHlo.TRef.ofBuf, StableHlo.TRef.toBuf, cast_eq]
  rw [h57, h60, h11]; rfl
theorem W9_v62 : W9 m ρ c (rf main_v62) = Cert.Spec.col (dinvK (argAt main_arg4)) := by
  have h61 := W8_v61 m ρ c
  show StableHlo.after hostOps2_2 (W8 m ρ c) (rf main_v62) = _
  generalize W8 m ρ c = X at h61 ⊢
  after_results
  rw [h61]
  exact KHost.col_f32_eq _

set_option quotPrecheck false in
local notation "dv2" => dinvK (argAt main_arg4)
set_option quotPrecheck false in
local notation "ft2" => Cert.Spec.feat (argAt main_arg3) (argAt main_arg6) (Cert.Spec.col dv2)
set_option quotPrecheck false in
local notation "ag2" => Cert.Spec.aggK zeroK (Cert.Spec.srcW (argAt main_arg4)) (Cert.Spec.dstW (argAt main_arg4)) ft2
set_option quotPrecheck false in
local notation "pool1" => Cert.Spec.poolOfK zeroK oneK (argAt main_arg0) (argAt main_arg1) dv1 (argAt main_arg2) (argAt main_arg6) (argAt main_arg7)
set_option quotPrecheck false in
local notation "pool2" => Cert.Spec.poolOfK zeroK oneK (argAt main_arg3) (argAt main_arg4) dv2 (argAt main_arg5) (argAt main_arg6) (argAt main_arg7)

/-- Region 2's result array. -/
theorem W10_v63 : W10 m ρ c (rf main_v63) = ft2 := by
  refine (W10_arr m ρ c 3).trans ((FeatB.feat2_final (V9 m ρ) c).trans ?_)
  rw [show V9 m ρ c main_arg3 = _ from W9_arg3 m ρ c, show V9 m ρ c main_arg6 = _ from W9_arg6 m ρ c,
    show V9 m ρ c main_v62 = _ from W9_v62 m ρ c]
theorem W10_v62 : W10 m ρ c (rf main_v62) = Cert.Spec.col dv2 :=
  (W10_arr m ρ c 2).trans ((((dat2 (V9 m ρ) c).arrAt_in 2 rfl _).trans (A_eq2 (V9 m ρ) c 2)).trans (W9_v62 m ρ c))

theorem W11_v78 : W11 m ρ c (rf main_v78) = ag2 := by
  have h4 := W10_arg4 m ρ c; have h63 := W10_v63 m ρ c
  show StableHlo.after hostOps3 (W10 m ρ c) (rf main_v78) = _
  generalize W10 m ρ c = X at h4 h63 ⊢
  after_results_simp
  rw [h4, h63]
  exact KHost.aggT_eq (argAt main_arg4) ft2
theorem W11_v79 : W11 m ρ c (rf main_v79) = Cert.Spec.col (argAt main_arg5) := by
  have h5 := W10_arg5 m ρ c
  show StableHlo.after hostOps3 (W10 m ρ c) (rf main_v79) = _
  generalize W10 m ρ c = X at h5 ⊢
  after_results_simp
  rw [h5]
  exact KHost.col_i32_eq _
theorem W11_v80 : W11 m ρ c (rf main_v80) = Cert.Spec.row (argAt main_arg7) := by
  have h7 := W10_arg7 m ρ c
  show StableHlo.after hostOps3 (W10 m ρ c) (rf main_v80) = _
  generalize W10 m ρ c = X at h7 ⊢
  after_results_simp
  rw [h7]
  exact KHost.row64_eq _
theorem W11_v63 : W11 m ρ c (rf main_v63) = ft2 :=
  (by host_keep : _ = W10 m ρ c (rf main_v63)).trans (W10_v63 m ρ c)
theorem W11_v62 : W11 m ρ c (rf main_v62) = Cert.Spec.col dv2 :=
  (by host_keep : _ = W10 m ρ c (rf main_v62)).trans (W10_v62 m ρ c)

/-- Region 3's two result arrays. -/
theorem W12_v81_0 : W12 m ρ c (rf main_v81_0)
    = Cert.Spec.poolSums ag2 ft2 (Cert.Spec.col dv2) (Cert.Spec.col (argAt main_arg5)) (Cert.Spec.row (argAt main_arg7)) := by
  refine (W12_arr m ρ c 5).trans ((PoolB.pool3_sums_final (V11 m ρ) c).trans ?_)
  rw [show V11 m ρ c main_v78 = _ from W11_v78 m ρ c, show V11 m ρ c main_v63 = _ from W11_v63 m ρ c,
    show V11 m ρ c main_v62 = _ from W11_v62 m ρ c, show V11 m ρ c main_v79 = _ from W11_v79 m ρ c,
    show V11 m ρ c main_v80 = _ from W11_v80 m ρ c]
theorem W12_v81_1 : W12 m ρ c (rf main_v81_1) = Cert.Spec.poolCounts (Cert.Spec.col (argAt main_arg5)) := by
  refine (W12_arr m ρ c 6).trans ((PoolB.pool3_counts_final (V11 m ρ) c).trans ?_)
  rw [show V11 m ρ c main_v79 = _ from W11_v79 m ρ c]

/-! ## Graph 1's pooled table carried to the classifier's entry -/

theorem W8_v47 : W8 m ρ c (rf main_v47) = pool1 :=
  (by host_keep : _ = W7 m ρ c (rf main_v47)).trans (W7_v47 m ρ c)
theorem W9_v47 : W9 m ρ c (rf main_v47) = pool1 :=
  (by host_keep : _ = W8 m ρ c (rf main_v47)).trans (W8_v47 m ρ c)
theorem W10_v47 : W10 m ρ c (rf main_v47) = pool1 :=
  (W10_of_ne m ρ c main_v47 (by decide)).trans (W9_v47 m ρ c)
theorem W11_v47 : W11 m ρ c (rf main_v47) = pool1 :=
  (by host_keep : _ = W10 m ρ c (rf main_v47)).trans (W10_v47 m ρ c)
theorem W12_v47 : W12 m ρ c (rf main_v47) = pool1 :=
  (W12_of_ne m ρ c main_v47 (by decide)).trans (W11_v47 m ρ c)

/-! ## The classifier's operands -/

theorem W13_arg8 : W13 m ρ c (rf main_arg8) = argAt main_arg8 :=
  ((W14_arr m ρ c 1).trans (((dat4 (V13 m ρ) c).arrAt_in 1 rfl _).trans (A_eq4 (V13 m ρ) c 1))).symm.trans (W14_main_arg8 m ρ c)
theorem W13_arg10 : W13 m ρ c (rf main_arg10) = argAt main_arg10 :=
  ((W14_arr m ρ c 3).trans (((dat4 (V13 m ρ) c).arrAt_in 3 rfl _).trans (A_eq4 (V13 m ρ) c 3))).symm.trans (W14_main_arg10 m ρ c)
theorem W13_arg12 : W13 m ρ c (rf main_arg12) = argAt main_arg12 :=
  ((W14_arr m ρ c 5).trans (((dat4 (V13 m ρ) c).arrAt_in 5 rfl _).trans (A_eq4 (V13 m ρ) c 5))).symm.trans (W14_main_arg12 m ρ c)
theorem W13_arg14 : W13 m ρ c (rf main_arg14) = argAt main_arg14 :=
  ((W14_arr m ρ c 7).trans (((dat4 (V13 m ρ) c).arrAt_in 7 rfl _).trans (A_eq4 (V13 m ρ) c 7))).symm.trans (W14_main_arg14 m ρ c)

theorem W13_arg9 : W13 m ρ c (rf main_arg9) = argAt main_arg9 :=
  (W14_of_ne m ρ c main_arg9 (by decide)).symm.trans (W14_main_arg9 m ρ c)
theorem W12_arg9 : W12 m ρ c (rf main_arg9) = argAt main_arg9 :=
  (by host_keep : W13 m ρ c (rf main_arg9) = W12 m ρ c (rf main_arg9)).symm.trans (W13_arg9 m ρ c)
theorem W13_arg11 : W13 m ρ c (rf main_arg11) = argAt main_arg11 :=
  (W14_of_ne m ρ c main_arg11 (by decide)).symm.trans (W14_main_arg11 m ρ c)
theorem W12_arg11 : W12 m ρ c (rf main_arg11) = argAt main_arg11 :=
  (by host_keep : W13 m ρ c (rf main_arg11) = W12 m ρ c (rf main_arg11)).symm.trans (W13_arg11 m ρ c)
theorem W13_arg13 : W13 m ρ c (rf main_arg13) = argAt main_arg13 :=
  (W14_of_ne m ρ c main_arg13 (by decide)).symm.trans (W14_main_arg13 m ρ c)
theorem W12_arg13 : W12 m ρ c (rf main_arg13) = argAt main_arg13 :=
  (by host_keep : W13 m ρ c (rf main_arg13) = W12 m ρ c (rf main_arg13)).symm.trans (W13_arg13 m ρ c)
theorem W13_arg15 : W13 m ρ c (rf main_arg15) = argAt main_arg15 :=
  (W14_of_ne m ρ c main_arg15 (by decide)).symm.trans (W14_main_arg15 m ρ c)
theorem W12_arg15 : W12 m ρ c (rf main_arg15) = argAt main_arg15 :=
  (by host_keep : W13 m ρ c (rf main_arg15) = W12 m ρ c (rf main_arg15)).symm.trans (W13_arg15 m ρ c)

set_option maxHeartbeats 4000000 in
/-- The two pooled tables side by side. -/
theorem W13_v96 : W13 m ρ c (rf main_v96) = Cert.Spec.sideBySide pool1 pool2 := by
  have h47 := W12_v47 m ρ c; have h0 := W12_v81_0 m ρ c; have h1 := W12_v81_1 m ρ c
  show StableHlo.after hostOps4 (W12 m ρ c) (rf main_v96) = _
  generalize W12 m ρ c = X at h47 h0 h1 ⊢
  after_results_simp
  results_rw
  rw [h47, h0, h1]
  exact (KHost.join_eq _ (KHost.pooledT _ _)).trans (congrArg (Cert.Spec.sideBySide _) (KHost.pooledT_eq _ _))
theorem W13_v97 : W13 m ρ c (rf main_v97) = Cert.Spec.row (argAt main_arg9) := by
  have h := W12_arg9 m ρ c
  show StableHlo.after hostOps4 (W12 m ρ c) (rf main_v97) = _
  generalize W12 m ρ c = X at h ⊢
  after_results_simp
  rw [h]
  exact KHost.row64_eq _
theorem W13_v98 : W13 m ρ c (rf main_v98) = Cert.Spec.row (argAt main_arg11) := by
  have h := W12_arg11 m ρ c
  show StableHlo.after hostOps4 (W12 m ρ c) (rf main_v98) = _
  generalize W12 m ρ c = X at h ⊢
  after_results_simp
  rw [h]
  exact KHost.row32_eq _
theorem W13_v99 : W13 m ρ c (rf main_v99) = Cert.Spec.row (argAt main_arg13) := by
  have h := W12_arg13 m ρ c
  show StableHlo.after hostOps4 (W12 m ρ c) (rf main_v99) = _
  generalize W12 m ρ c = X at h ⊢
  after_results_simp
  rw [h]
  exact KHost.row16_eq _
theorem W13_v100 : W13 m ρ c (rf main_v100) = Cert.Spec.row (argAt main_arg15) := by
  have h := W12_arg15 m ρ c
  show StableHlo.after hostOps4 (W12 m ρ c) (rf main_v100) = _
  generalize W12 m ρ c = X at h ⊢
  after_results_simp
  rw [h]
  exact KHost.row1_eq _

end Boundaries

/-- THE RESULT: at the last boundary the result array is the classifier of the two graphs' pooled tables side by side
    and the eight classifier parameters, each pooled table `Cert.Spec.poolOfK` of that graph's arguments. -/
theorem kernel_result (c : Dev nD) :
    W14 (F := Ideal) m ρ c (Proc.devRef .tc main_v101)
      = Cert.Spec.mlp
          (Cert.Spec.sideBySide
            (Cert.Spec.poolOfK (Ideal.ofBits .f32 0x00000000#32) (Ideal.ofBits .f32 0x3F800000#32) (m ((c.tc : Thread nD τ).loc main_arg0)) (m ((c.tc : Thread nD τ).loc main_arg1)) (dinvK (m ((c.tc : Thread nD τ).loc main_arg1))) (m ((c.tc : Thread nD τ).loc main_arg2)) (m ((c.tc : Thread nD τ).loc main_arg6)) (m ((c.tc : Thread nD τ).loc main_arg7)))
            (Cert.Spec.poolOfK (Ideal.ofBits .f32 0x00000000#32) (Ideal.ofBits .f32 0x3F800000#32) (m ((c.tc : Thread nD τ).loc main_arg3)) (m ((c.tc : Thread nD τ).loc main_arg4)) (dinvK (m ((c.tc : Thread nD τ).loc main_arg4))) (m ((c.tc : Thread nD τ).loc main_arg5)) (m ((c.tc : Thread nD τ).loc main_arg6)) (m ((c.tc : Thread nD τ).loc main_arg7))))
          (m ((c.tc : Thread nD τ).loc main_arg8)) (Cert.Spec.row (m ((c.tc : Thread nD τ).loc main_arg9))) (m ((c.tc : Thread nD τ).loc main_arg10)) (Cert.Spec.row (m ((c.tc : Thread nD τ).loc main_arg11)))
          (m ((c.tc : Thread nD τ).loc main_arg12)) (Cert.Spec.row (m ((c.tc : Thread nD τ).loc main_arg13))) (m ((c.tc : Thread nD τ).loc main_arg14)) (Cert.Spec.row (m ((c.tc : Thread nD τ).loc main_arg15))) := by
  refine (W14_arr m ρ c 9).trans ((MlpK.mlp4_final (V13 m ρ) c).trans ?_)
  rw [show V13 m ρ c main_v96 = _ from W13_v96 m ρ c, show V13 m ρ c main_arg8 = _ from W13_arg8 m ρ c,
    show V13 m ρ c main_v97 = _ from W13_v97 m ρ c, show V13 m ρ c main_arg10 = _ from W13_arg10 m ρ c,
    show V13 m ρ c main_v98 = _ from W13_v98 m ρ c, show V13 m ρ c main_arg12 = _ from W13_arg12 m ρ c,
    show V13 m ρ c main_v99 = _ from W13_v99 m ρ c, show V13 m ρ c main_arg14 = _ from W13_arg14 m ρ c,
    show V13 m ρ c main_v100 = _ from W13_v100 m ρ c]

end Cert.KernelIdeal.Fold

end
-- ==== Proof.RefChunks.lean ====
import proofs.«408358_j51376398795254_3_alg».proof.Proof.RefOpsP
import Idealize.ShloMosaic.Lib.StableHlo.Run
import Idealize.ShloMosaic.Lib.Pipeline.Frame

set_option maxRecDepth 8192

noncomputable section

namespace Cert.ReferenceIdeal.Chunks

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- Operations 0 to 2 of the reference program, in order. -/
abbrev c0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000 ]

/-- Operations 3 to 5 of the reference program, in order. -/
abbrev c1 : List (HloOp τ sig (Elt F)) :=
  [ binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000 ]

/-- Operations 6 to 84 of the reference program, in order. -/
abbrev c2 : List (HloOp τ sig (Elt F)) :=
  [ binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg6 main_v32 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x64 ![0, 1] bcast_S1700000x1_S1700000x64_0_1 : (⟨S1700000x1, .f32⟩ : BufTy).Contents (Elt F) → (⟨S1700000x64, .f32⟩ : BufTy).Contents (Elt F)),
    binary main_v39 main_v41 main_v42 (mulf : (⟨S1700000x64, .f32⟩ : BufTy).Contents (Elt F) → (⟨S1700000x64, .f32⟩ : BufTy).Contents (Elt F) → (⟨S1700000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    nullary main_cst_10 (constant S_ .f32 0x00000000#32),
    unary main_cst_10 main_v50 (broadcastInDim S1024x64 ![] bcast_S_S1024x64 : (⟨S_, .f32⟩ : BufTy).Contents (Elt F) → (⟨S1024x64, .f32⟩ : BufTy).Contents (Elt F)),
    unary main_arg2 main_v51 (broadcastInDim S100000x1 ![0] bcast_S100000_S100000x1_0 : (⟨S100000, .i32⟩ : BufTy).Contents (Elt F) → (⟨S100000x1, .i32⟩ : BufTy).Contents (Elt F)),
    ternary main_v50 main_v51 main_v49 main_v52 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    nullary main_cst_11 (constant S_ .f32 0x3F800000#32),
    unary main_cst_11 main_v53 (broadcastInDim S100000 ![] bcast_S_S100000 : (⟨S_, .f32⟩ : BufTy).Contents (Elt F) → (⟨S100000, .f32⟩ : BufTy).Contents (Elt F)),
    nullary main_cst_12 (constant S_ .f32 0x00000000#32),
    unary main_cst_12 main_v54 (broadcastInDim S1024 ![] bcast_S_S1024 : (⟨S_, .f32⟩ : BufTy).Contents (Elt F) → (⟨S1024, .f32⟩ : BufTy).Contents (Elt F)),
    unary main_arg2 main_v55 (broadcastInDim S100000x1 ![0] bcast_S100000_S100000x1_0 : (⟨S100000, .i32⟩ : BufTy).Contents (Elt F) → (⟨S100000x1, .i32⟩ : BufTy).Contents (Elt F)),
    ternary main_v54 main_v55 main_v53 main_v56 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_13 (constant S_ .f32 0x3F800000#32),
    unary main_cst_13 main_v57 (broadcastInDim S1024 ![] bcast_S_S1024 : (⟨S_, .f32⟩ : BufTy).Contents (Elt F) → (⟨S1024, .f32⟩ : BufTy).Contents (Elt F)),
    binary main_v56 main_v57 main_v58 (maximumf : (⟨S1024, .f32⟩ : BufTy).Contents (Elt F) → (⟨S1024, .f32⟩ : BufTy).Contents (Elt F) → (⟨S1024, .f32⟩ : BufTy).Contents (Elt F)),
    unary main_v58 main_v59 (broadcastInDim S1024x1 ![0] bcast_S1024_S1024x1_0 : (⟨S1024, .f32⟩ : BufTy).Contents (Elt F) → (⟨S1024x1, .f32⟩ : BufTy).Contents (Elt F)),
    unary main_v59 main_v60 (broadcastInDim S1024x64 ![0, 1] bcast_S1024x1_S1024x64_0_1 : (⟨S1024x1, .f32⟩ : BufTy).Contents (Elt F) → (⟨S1024x64, .f32⟩ : BufTy).Contents (Elt F)),
    binary main_v52 main_v60 main_v61 (Host.divf : (⟨S1024x64, .f32⟩ : BufTy).Contents (Elt F) → (⟨S1024x64, .f32⟩ : BufTy).Contents (Elt F) → (⟨S1024x64, .f32⟩ : BufTy).Contents (Elt F)),
    nullary main_v62 (iotaInDim S100000 32 0),
    unary main_arg4 main_v63 ((extractStridedSlice S1x1600000 ![0, 0] · slices_S2x1600000_S1x1600000_0_0) : (⟨S2x1600000, .i32⟩ : BufTy).Contents (Elt F) → (⟨S1x1600000, .i32⟩ : BufTy).Contents (Elt F)),
    reshape main_v63 main_v64 rfl shapeCasts_S1x1600000_S1600000 ]

/-- Operations 85 to 87 of the reference program, in order. -/
abbrev c3 : List (HloOp τ sig (Elt F)) :=
  [ binary main_v64 main_v62 main_v65 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg4 main_v66 ((extractStridedSlice S1x1600000 ![1, 0] · slices_S2x1600000_S1x1600000_1_0) : (⟨S2x1600000, .i32⟩ : BufTy).Contents (Elt F) → (⟨S1x1600000, .i32⟩ : BufTy).Contents (Elt F)),
    reshape main_v66 main_v67 rfl shapeCasts_S1x1600000_S1600000 ]

/-- Operations 88 to 163 of the reference program, in order. -/
abbrev c4 : List (HloOp τ sig (Elt F)) :=
  [ binary main_v67 main_v62 main_v68 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_14 (constant S_ .f32 0x3F800000#32),
    unary main_cst_14 main_v69 (broadcastInDim S1700000 ![] bcast_S_S1700000 : (⟨S_, .f32⟩ : BufTy).Contents (Elt F) → (⟨S1700000, .f32⟩ : BufTy).Contents (Elt F)),
    nullary main_cst_15 (constant S_ .f32 0x00000000#32),
    unary main_cst_15 main_v70 (broadcastInDim S100000 ![] bcast_S_S100000 : (⟨S_, .f32⟩ : BufTy).Contents (Elt F) → (⟨S100000, .f32⟩ : BufTy).Contents (Elt F)),
    unary main_v68 main_v71 (broadcastInDim S1700000x1 ![0] bcast_S1700000_S1700000x1_0 : (⟨S1700000, .i32⟩ : BufTy).Contents (Elt F) → (⟨S1700000x1, .i32⟩ : BufTy).Contents (Elt F)),
    ternary main_v70 main_v71 main_v69 main_v72 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_16 (constant S_ .f32 0x00000000#32),
    unary main_cst_16 main_v73 (broadcastInDim S100000 ![] bcast_S_S100000 : (⟨S_, .f32⟩ : BufTy).Contents (Elt F) → (⟨S100000, .f32⟩ : BufTy).Contents (Elt F)),
    binary main_v72 main_v73 main_v74 (cmpf .ogt : (⟨S100000, .f32⟩ : BufTy).Contents (Elt F) → (⟨S100000, .f32⟩ : BufTy).Contents (Elt F) → (⟨S100000, .i1⟩ : BufTy).Contents (Elt F)),
    nullary main_cst_17 (constant S_ .f32 0x2B8CBCCC#32),
    unary main_cst_17 main_v75 (broadcastInDim S100000 ![] bcast_S_S100000 : (⟨S_, .f32⟩ : BufTy).Contents (Elt F) → (⟨S100000, .f32⟩ : BufTy).Contents (Elt F)),
    binary main_v72 main_v75 main_v76 (maximumf : (⟨S100000, .f32⟩ : BufTy).Contents (Elt F) → (⟨S100000, .f32⟩ : BufTy).Contents (Elt F) → (⟨S100000, .f32⟩ : BufTy).Contents (Elt F)),
    unary main_v76 main_v77 (Host.rsqrt : (⟨S100000, .f32⟩ : BufTy).Contents (Elt F) → (⟨S100000, .f32⟩ : BufTy).Contents (Elt F)),
    nullary main_cst_18 (constant S_ .f32 0x00000000#32),
    TRef.unary (TRef.of (T := ⟨S_, .f32⟩) main_cst_18) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v74) (TRef.of (T := ⟨S100000, .f32⟩) main_v77) (TRef.of (T := ⟨S100000, .f32⟩) main_call2_v1) (TRef.of (T := ⟨S100000, .f32⟩) main_v78) select,
    nullary main_c_19 (constantI S_ 32 0#32),
    unary main_c_19 main_v79 (broadcastInDim S1700000 ![] bcast_S_S1700000 : (⟨S_, .i32⟩ : BufTy).Contents (Elt F) → (⟨S1700000, .i32⟩ : BufTy).Contents (Elt F)),
    binary main_v65 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v81 (broadcastInDim S1700000 ![] bcast_S_S1700000 : (⟨S_, .i32⟩ : BufTy).Contents (Elt F) → (⟨S1700000, .i32⟩ : BufTy).Contents (Elt F)),
    binary main_v65 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v65 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_21 (constantI S_ 32 0#32),
    unary main_c_21 main_v86 (broadcastInDim S1700000 ![] bcast_S_S1700000 : (⟨S_, .i32⟩ : BufTy).Contents (Elt F) → (⟨S1700000, .i32⟩ : BufTy).Contents (Elt F)),
    binary main_v68 main_v86 main_v87 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v88 (broadcastInDim S1700000 ![] bcast_S_S1700000 : (⟨S_, .i32⟩ : BufTy).Contents (Elt F) → (⟨S1700000, .i32⟩ : BufTy).Contents (Elt F)),
    binary main_v68 main_v88 main_v89 (addi : (⟨S1700000, .i32⟩ : BufTy).Contents (Elt F) → (⟨S1700000, .i32⟩ : BufTy).Contents (Elt F) → (⟨S1700000, .i32⟩ : BufTy).Contents (Elt F)),
    ternary main_v87 main_v89 main_v68 main_v90 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v90 main_v91 (broadcastInDim S1700000x1 ![0] bcast_S1700000_S1700000x1_0 : (⟨S1700000, .i32⟩ : BufTy).Contents (Elt F) → (⟨S1700000x1, .i32⟩ : BufTy).Contents (Elt F)),
    binary main_v78 main_v91 main_v92 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v85 main_v92 main_v93 (mulf : (⟨S1700000, .f32⟩ : BufTy).Contents (Elt F) → (⟨S1700000, .f32⟩ : BufTy).Contents (Elt F) → (⟨S1700000, .f32⟩ : BufTy).Contents (Elt F)),
    binary main_arg3 main_arg6 main_v94 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    nullary main_c_23 (constantI S_ 32 0#32),
    unary main_c_23 main_v95 (broadcastInDim S1700000 ![] bcast_S_S1700000 : (⟨S_, .i32⟩ : BufTy).Contents (Elt F) → (⟨S1700000, .i32⟩ : BufTy).Contents (Elt F)),
    binary main_v65 main_v95 main_v96 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v97 (broadcastInDim S1700000 ![] bcast_S_S1700000 : (⟨S_, .i32⟩ : BufTy).Contents (Elt F) → (⟨S1700000, .i32⟩ : BufTy).Contents (Elt F)),
    binary main_v65 main_v97 main_v98 (addi : (⟨S1700000, .i32⟩ : BufTy).Contents (Elt F) → (⟨S1700000, .i32⟩ : BufTy).Contents (Elt F) → (⟨S1700000, .i32⟩ : BufTy).Contents (Elt F)),
    ternary main_v96 main_v98 main_v65 main_v99 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v99 main_v100 (broadcastInDim S1700000x1 ![0] bcast_S1700000_S1700000x1_0 : (⟨S1700000, .i32⟩ : BufTy).Contents (Elt F) → (⟨S1700000x1, .i32⟩ : BufTy).Contents (Elt F)),
    binary main_v94 main_v100 main_v101 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v93 main_v102 (broadcastInDim S1700000x1 ![0] bcast_S1700000_S1700000x1_0 : (⟨S1700000, .f32⟩ : BufTy).Contents (Elt F) → (⟨S1700000x1, .f32⟩ : BufTy).Contents (Elt F)),
    unary main_v102 main_v103 (broadcastInDim S1700000x64 ![0, 1] bcast_S1700000x1_S1700000x64_0_1 : (⟨S1700000x1, .f32⟩ : BufTy).Contents (Elt F) → (⟨S1700000x64, .f32⟩ : BufTy).Contents (Elt F)),
    binary main_v101 main_v103 main_v104 (mulf : (⟨S1700000x64, .f32⟩ : BufTy).Contents (Elt F) → (⟨S1700000x64, .f32⟩ : BufTy).Contents (Elt F) → (⟨S1700000x64, .f32⟩ : BufTy).Contents (Elt F)),
    nullary main_cst_25 (constant S_ .f32 0x00000000#32),
    unary main_cst_25 main_v105 (broadcastInDim S100000x64 ![] bcast_S_S100000x64 : (⟨S_, .f32⟩ : BufTy).Contents (Elt F) → (⟨S100000x64, .f32⟩ : BufTy).Contents (Elt F)),
    unary main_v68 main_v106 (broadcastInDim S1700000x1 ![0] bcast_S1700000_S1700000x1_0 : (⟨S1700000, .i32⟩ : BufTy).Contents (Elt F) → (⟨S1700000x1, .i32⟩ : BufTy).Contents (Elt F)),
    ternary main_v105 main_v106 main_v104 main_v107 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v108 (broadcastInDim S1x64 ![1] bcast_S64_S1x64_1 : (⟨S64, .f32⟩ : BufTy).Contents (Elt F) → (⟨S1x64, .f32⟩ : BufTy).Contents (Elt F)),
    unary main_v108 main_v109 (broadcastInDim S100000x64 ![0, 1] bcast_S1x64_S100000x64_0_1 : (⟨S1x64, .f32⟩ : BufTy).Contents (Elt F) → (⟨S100000x64, .f32⟩ : BufTy).Contents (Elt F)),
    binary main_v107 main_v109 main_v110 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v110) (TRef.of (T := ⟨S100000x64, .f32⟩) main_call3_v0) (TRef.of (T := ⟨S100000x64, .f32⟩) main_v111) maximumf,
    nullary main_cst_26 (constant S_ .f32 0x00000000#32),
    unary main_cst_26 main_v112 (broadcastInDim S1024x64 ![] bcast_S_S1024x64 : (⟨S_, .f32⟩ : BufTy).Contents (Elt F) → (⟨S1024x64, .f32⟩ : BufTy).Contents (Elt F)),
    unary main_arg5 main_v113 (broadcastInDim S100000x1 ![0] bcast_S100000_S100000x1_0 : (⟨S100000, .i32⟩ : BufTy).Contents (Elt F) → (⟨S100000x1, .i32⟩ : BufTy).Contents (Elt F)),
    ternary main_v112 main_v113 main_v111 main_v114 ((fun x i u => Host.scatterAdd scatter_S1024x64_S100000x1_S100000x64_1_0_0_1 x i u) : (⟨S1024x64, .f32⟩ : BufTy).Contents (Elt F) → (⟨S100000x1, .i32⟩ : BufTy).Contents (Elt F) → (⟨S100000x64, .f32⟩ : BufTy).Contents (Elt F) → (⟨S1024x64, .f32⟩ : BufTy).Contents (Elt F)),
    nullary main_cst_27 (constant S_ .f32 0x3F800000#32),
    unary main_cst_27 main_v115 (broadcastInDim S100000 ![] bcast_S_S100000 : (⟨S_, .f32⟩ : BufTy).Contents (Elt F) → (⟨S100000, .f32⟩ : BufTy).Contents (Elt F)),
    nullary main_cst_28 (constant S_ .f32 0x00000000#32),
    unary main_cst_28 main_v116 (broadcastInDim S1024 ![] bcast_S_S1024 : (⟨S_, .f32⟩ : BufTy).Contents (Elt F) → (⟨S1024, .f32⟩ : BufTy).Contents (Elt F)),
    unary main_arg5 main_v117 (broadcastInDim S100000x1 ![0] bcast_S100000_S100000x1_0 : (⟨S100000, .i32⟩ : BufTy).Contents (Elt F) → (⟨S100000x1, .i32⟩ : BufTy).Contents (Elt F)),
    ternary main_v116 main_v117 main_v115 main_v118 ((fun x i u => Host.scatterAdd scatter_S1024_S100000x1_S100000_n_0_0_1 x i u) : (⟨S1024, .f32⟩ : BufTy).Contents (Elt F) → (⟨S100000x1, .i32⟩ : BufTy).Contents (Elt F) → (⟨S100000, .f32⟩ : BufTy).Contents (Elt F) → (⟨S1024, .f32⟩ : BufTy).Contents (Elt F)),
    nullary main_cst_29 (constant S_ .f32 0x3F800000#32),
    unary main_cst_29 main_v119 (broadcastInDim S1024 ![] bcast_S_S1024 : (⟨S_, .f32⟩ : BufTy).Contents (Elt F) → (⟨S1024, .f32⟩ : BufTy).Contents (Elt F)),
    binary main_v118 main_v119 main_v120 (maximumf : (⟨S1024, .f32⟩ : BufTy).Contents (Elt F) → (⟨S1024, .f32⟩ : BufTy).Contents (Elt F) → (⟨S1024, .f32⟩ : BufTy).Contents (Elt F)),
    unary main_v120 main_v121 (broadcastInDim S1024x1 ![0] bcast_S1024_S1024x1_0 : (⟨S1024, .f32⟩ : BufTy).Contents (Elt F) → (⟨S1024x1, .f32⟩ : BufTy).Contents (Elt F)),
    unary main_v121 main_v122 (broadcastInDim S1024x64 ![0, 1] bcast_S1024x1_S1024x64_0_1 : (⟨S1024x1, .f32⟩ : BufTy).Contents (Elt F) → (⟨S1024x64, .f32⟩ : BufTy).Contents (Elt F)),
    binary main_v114 main_v122 main_v123 (Host.divf : (⟨S1024x64, .f32⟩ : BufTy).Contents (Elt F) → (⟨S1024x64, .f32⟩ : BufTy).Contents (Elt F) → (⟨S1024x64, .f32⟩ : BufTy).Contents (Elt F)) ]

/-- Operations 164 to 197 of the reference program, in order. -/
abbrev c5 : List (HloOp τ sig (Elt F)) :=
  [ binary main_v61 main_v123 main_v124 ((fun a b => concatenate S1024x128 1 [⟨S1024x64, a⟩, ⟨S1024x64, b⟩] concatenates_S1024x64_S1024x64_S1024x128_d1) : (⟨S1024x64, .f32⟩ : BufTy).Contents (Elt F) → (⟨S1024x64, .f32⟩ : BufTy).Contents (Elt F) → (⟨S1024x128, .f32⟩ : BufTy).Contents (Elt F)),
    binary main_v124 main_arg8 main_v125 ((fun l r => Host.dotGeneral dot_S1024x128_S128x64_S1024x64_1_0_0_1_n_n none l r) : (⟨S1024x128, .f32⟩ : BufTy).Contents (Elt F) → (⟨S128x64, .f32⟩ : BufTy).Contents (Elt F) → (⟨S1024x64, .f32⟩ : BufTy).Contents (Elt F)),
    unary main_arg9 main_v126 (broadcastInDim S1x64 ![1] bcast_S64_S1x64_1 : (⟨S64, .f32⟩ : BufTy).Contents (Elt F) → (⟨S1x64, .f32⟩ : BufTy).Contents (Elt F)),
    unary main_v126 main_v127 (broadcastInDim S1024x64 ![0, 1] bcast_S1x64_S1024x64_0_1 : (⟨S1x64, .f32⟩ : BufTy).Contents (Elt F) → (⟨S1024x64, .f32⟩ : BufTy).Contents (Elt F)),
    binary main_v125 main_v127 main_v128 (addf : (⟨S1024x64, .f32⟩ : BufTy).Contents (Elt F) → (⟨S1024x64, .f32⟩ : BufTy).Contents (Elt F) → (⟨S1024x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1024x64, .f32⟩) main_call4_v0) (broadcastInDim S1024x64 ![] bcast_S_S1024x64),
    TRef.binary (TRef.of (T := ⟨S1024x64, .f32⟩) main_v128) (TRef.of (T := ⟨S1024x64, .f32⟩) main_call4_v0) (TRef.of (T := ⟨S1024x64, .f32⟩) main_v129) maximumf,
    binary main_v129 main_arg10 main_v130 ((fun l r => Host.dotGeneral dot_S1024x64_S64x32_S1024x32_1_0_0_1_n_n none l r) : (⟨S1024x64, .f32⟩ : BufTy).Contents (Elt F) → (⟨S64x32, .f32⟩ : BufTy).Contents (Elt F) → (⟨S1024x32, .f32⟩ : BufTy).Contents (Elt F)),
    unary main_arg11 main_v131 (broadcastInDim S1x32 ![1] bcast_S32_S1x32_1 : (⟨S32, .f32⟩ : BufTy).Contents (Elt F) → (⟨S1x32, .f32⟩ : BufTy).Contents (Elt F)),
    unary main_v131 main_v132 (broadcastInDim S1024x32 ![0, 1] bcast_S1x32_S1024x32_0_1 : (⟨S1x32, .f32⟩ : BufTy).Contents (Elt F) → (⟨S1024x32, .f32⟩ : BufTy).Contents (Elt F)),
    binary main_v130 main_v132 main_v133 (addf : (⟨S1024x32, .f32⟩ : BufTy).Contents (Elt F) → (⟨S1024x32, .f32⟩ : BufTy).Contents (Elt F) → (⟨S1024x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1024x32, .f32⟩) main_call5_v0) (broadcastInDim S1024x32 ![] bcast_S_S1024x32),
    TRef.binary (TRef.of (T := ⟨S1024x32, .f32⟩) main_v133) (TRef.of (T := ⟨S1024x32, .f32⟩) main_call5_v0) (TRef.of (T := ⟨S1024x32, .f32⟩) main_v134) maximumf,
    binary main_v134 main_arg12 main_v135 ((fun l r => Host.dotGeneral dot_S1024x32_S32x16_S1024x16_1_0_0_1_n_n none l r) : (⟨S1024x32, .f32⟩ : BufTy).Contents (Elt F) → (⟨S32x16, .f32⟩ : BufTy).Contents (Elt F) → (⟨S1024x16, .f32⟩ : BufTy).Contents (Elt F)),
    unary main_arg13 main_v136 (broadcastInDim S1x16 ![1] bcast_S16_S1x16_1 : (⟨S16, .f32⟩ : BufTy).Contents (Elt F) → (⟨S1x16, .f32⟩ : BufTy).Contents (Elt F)),
    unary main_v136 main_v137 (broadcastInDim S1024x16 ![0, 1] bcast_S1x16_S1024x16_0_1 : (⟨S1x16, .f32⟩ : BufTy).Contents (Elt F) → (⟨S1024x16, .f32⟩ : BufTy).Contents (Elt F)),
    binary main_v135 main_v137 main_v138 (addf : (⟨S1024x16, .f32⟩ : BufTy).Contents (Elt F) → (⟨S1024x16, .f32⟩ : BufTy).Contents (Elt F) → (⟨S1024x16, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x16, .f32⟩) main_call6_v0) (broadcastInDim S1024x16 ![] bcast_S_S1024x16),
    TRef.binary (TRef.of (T := ⟨S1024x16, .f32⟩) main_v138) (TRef.of (T := ⟨S1024x16, .f32⟩) main_call6_v0) (TRef.of (T := ⟨S1024x16, .f32⟩) main_v139) maximumf,
    binary main_v139 main_arg14 main_v140 ((fun l r => Host.dotGeneral dot_S1024x16_S16x1_S1024x1_1_0_0_1_n_n none l r) : (⟨S1024x16, .f32⟩ : BufTy).Contents (Elt F) → (⟨S16x1, .f32⟩ : BufTy).Contents (Elt F) → (⟨S1024x1, .f32⟩ : BufTy).Contents (Elt F)),
    unary main_arg15 main_v141 (broadcastInDim S1x1 ![1] bcast_S1_S1x1_1 : (⟨S1, .f32⟩ : BufTy).Contents (Elt F) → (⟨S1x1, .f32⟩ : BufTy).Contents (Elt F)),
    unary main_v141 main_v142 (broadcastInDim S1024x1 ![0, 1] bcast_S1x1_S1024x1_0_1 : (⟨S1x1, .f32⟩ : BufTy).Contents (Elt F) → (⟨S1024x1, .f32⟩ : BufTy).Contents (Elt F)),
    binary main_v140 main_v142 main_v143 (addf : (⟨S1024x1, .f32⟩ : BufTy).Contents (Elt F) → (⟨S1024x1, .f32⟩ : BufTy).Contents (Elt F) → (⟨S1024x1, .f32⟩ : BufTy).Contents (Elt F)),
    unary main_v143 main_v144 (Host.negf : (⟨S1024x1, .f32⟩ : BufTy).Contents (Elt F) → (⟨S1024x1, .f32⟩ : BufTy).Contents (Elt F)),
    unary main_v144 main_v145 (Host.exp : (⟨S1024x1, .f32⟩ : BufTy).Contents (Elt F) → (⟨S1024x1, .f32⟩ : BufTy).Contents (Elt F)),
    nullary main_cst_30 (constant S_ .f32 0x3F800000#32),
    unary main_cst_30 main_v146 (broadcastInDim S1024x1 ![] bcast_S_S1024x1 : (⟨S_, .f32⟩ : BufTy).Contents (Elt F) → (⟨S1024x1, .f32⟩ : BufTy).Contents (Elt F)),
    binary main_v146 main_v145 main_v147 (addf : (⟨S1024x1, .f32⟩ : BufTy).Contents (Elt F) → (⟨S1024x1, .f32⟩ : BufTy).Contents (Elt F) → (⟨S1024x1, .f32⟩ : BufTy).Contents (Elt F)),
    nullary main_cst_31 (constant S_ .f32 0x3F800000#32),
    unary main_cst_31 main_v148 (broadcastInDim S1024x1 ![] bcast_S_S1024x1 : (⟨S_, .f32⟩ : BufTy).Contents (Elt F) → (⟨S1024x1, .f32⟩ : BufTy).Contents (Elt F)),
    binary main_v148 main_v147 main_v149 (Host.divf : (⟨S1024x1, .f32⟩ : BufTy).Contents (Elt F) → (⟨S1024x1, .f32⟩ : BufTy).Contents (Elt F) → (⟨S1024x1, .f32⟩ : BufTy).Contents (Elt F)) ]

/-- The program's operation list is the six chunks in order. -/
theorem ops_split : (ops : List (HloOp τ sig (Elt F))) = c0 ++ (c1 ++ (c2 ++ (c3 ++ (c4 ++ c5)))) := rfl

/-- No operation of chunk 0 writes main_arg0. -/
theorem keep0_main_arg0 (V : Valuation τ sig (Elt F)) : after (c0 (F := F)) V (Proc.devRef .tc main_arg0) = V (Proc.devRef .tc main_arg0) := by
  after_results_simp

/-- No operation of chunk 0 writes main_arg1. -/
theorem keep0_main_arg1 (V : Valuation τ sig (Elt F)) : after (c0 (F := F)) V (Proc.devRef .tc main_arg1) = V (Proc.devRef .tc main_arg1) := by
  after_results_simp

/-- No operation of chunk 0 writes main_arg2. -/
theorem keep0_main_arg2 (V : Valuation τ sig (Elt F)) : after (c0 (F := F)) V (Proc.devRef .tc main_arg2) = V (Proc.devRef .tc main_arg2) := by
  after_results_simp

/-- No operation of chunk 0 writes main_arg3. -/
theorem keep0_main_arg3 (V : Valuation τ sig (Elt F)) : after (c0 (F := F)) V (Proc.devRef .tc main_arg3) = V (Proc.devRef .tc main_arg3) := by
  after_results_simp

/-- No operation of chunk 0 writes main_arg4. -/
theorem keep0_main_arg4 (V : Valuation τ sig (Elt F)) : after (c0 (F := F)) V (Proc.devRef .tc main_arg4) = V (Proc.devRef .tc main_arg4) := by
  after_results_simp

/-- No operation of chunk 0 writes main_arg5. -/
theorem keep0_main_arg5 (V : Valuation τ sig (Elt F)) : after (c0 (F := F)) V (Proc.devRef .tc main_arg5) = V (Proc.devRef .tc main_arg5) := by
  after_results_simp

/-- No operation of chunk 0 writes main_arg6. -/
theorem keep0_main_arg6 (V : Valuation τ sig (Elt F)) : after (c0 (F := F)) V (Proc.devRef .tc main_arg6) = V (Proc.devRef .tc main_arg6) := by
  after_results_simp

/-- No operation of chunk 0 writes main_arg7. -/
theorem keep0_main_arg7 (V : Valuation τ sig (Elt F)) : after (c0 (F := F)) V (Proc.devRef .tc main_arg7) = V (Proc.devRef .tc main_arg7) := by
  after_results_simp

/-- No operation of chunk 0 writes main_arg8. -/
theorem keep0_main_arg8 (V : Valuation τ sig (Elt F)) : after (c0 (F := F)) V (Proc.devRef .tc main_arg8) = V (Proc.devRef .tc main_arg8) := by
  after_results_simp

/-- No operation of chunk 0 writes main_arg9. -/
theorem keep0_main_arg9 (V : Valuation τ sig (Elt F)) : after (c0 (F := F)) V (Proc.devRef .tc main_arg9) = V (Proc.devRef .tc main_arg9) := by
  after_results_simp

/-- No operation of chunk 0 writes main_arg10. -/
theorem keep0_main_arg10 (V : Valuation τ sig (Elt F)) : after (c0 (F := F)) V (Proc.devRef .tc main_arg10) = V (Proc.devRef .tc main_arg10) := by
  after_results_simp

/-- No operation of chunk 0 writes main_arg11. -/
theorem keep0_main_arg11 (V : Valuation τ sig (Elt F)) : after (c0 (F := F)) V (Proc.devRef .tc main_arg11) = V (Proc.devRef .tc main_arg11) := by
  after_results_simp

/-- No operation of chunk 0 writes main_arg12. -/
theorem keep0_main_arg12 (V : Valuation τ sig (Elt F)) : after (c0 (F := F)) V (Proc.devRef .tc main_arg12) = V (Proc.devRef .tc main_arg12) := by
  after_results_simp

/-- No operation of chunk 0 writes main_arg13. -/
theorem keep0_main_arg13 (V : Valuation τ sig (Elt F)) : after (c0 (F := F)) V (Proc.devRef .tc main_arg13) = V (Proc.devRef .tc main_arg13) := by
  after_results_simp

/-- No operation of chunk 0 writes main_arg14. -/
theorem keep0_main_arg14 (V : Valuation τ sig (Elt F)) : after (c0 (F := F)) V (Proc.devRef .tc main_arg14) = V (Proc.devRef .tc main_arg14) := by
  after_results_simp

/-- No operation of chunk 0 writes main_arg15. -/
theorem keep0_main_arg15 (V : Valuation τ sig (Elt F)) : after (c0 (F := F)) V (Proc.devRef .tc main_arg15) = V (Proc.devRef .tc main_arg15) := by
  after_results_simp

/-- No operation of chunk 1 writes main_arg0. -/
theorem keep1_main_arg0 (V : Valuation τ sig (Elt F)) : after (c1 (F := F)) V (Proc.devRef .tc main_arg0) = V (Proc.devRef .tc main_arg0) := by
  after_results_simp

/-- No operation of chunk 1 writes main_arg1. -/
theorem keep1_main_arg1 (V : Valuation τ sig (Elt F)) : after (c1 (F := F)) V (Proc.devRef .tc main_arg1) = V (Proc.devRef .tc main_arg1) := by
  after_results_simp

/-- No operation of chunk 1 writes main_arg2. -/
theorem keep1_main_arg2 (V : Valuation τ sig (Elt F)) : after (c1 (F := F)) V (Proc.devRef .tc main_arg2) = V (Proc.devRef .tc main_arg2) := by
  after_results_simp

/-- No operation of chunk 1 writes main_arg3. -/
theorem keep1_main_arg3 (V : Valuation τ sig (Elt F)) : after (c1 (F := F)) V (Proc.devRef .tc main_arg3) = V (Proc.devRef .tc main_arg3) := by
  after_results_simp

/-- No operation of chunk 1 writes main_arg4. -/
theorem keep1_main_arg4 (V : Valuation τ sig (Elt F)) : after (c1 (F := F)) V (Proc.devRef .tc main_arg4) = V (Proc.devRef .tc main_arg4) := by
  after_results_simp

/-- No operation of chunk 1 writes main_arg5. -/
theorem keep1_main_arg5 (V : Valuation τ sig (Elt F)) : after (c1 (F := F)) V (Proc.devRef .tc main_arg5) = V (Proc.devRef .tc main_arg5) := by
  after_results_simp

/-- No operation of chunk 1 writes main_arg6. -/
theorem keep1_main_arg6 (V : Valuation τ sig (Elt F)) : after (c1 (F := F)) V (Proc.devRef .tc main_arg6) = V (Proc.devRef .tc main_arg6) := by
  after_results_simp

/-- No operation of chunk 1 writes main_arg7. -/
theorem keep1_main_arg7 (V : Valuation τ sig (Elt F)) : after (c1 (F := F)) V (Proc.devRef .tc main_arg7) = V (Proc.devRef .tc main_arg7) := by
  after_results_simp

/-- No operation of chunk 1 writes main_arg8. -/
theorem keep1_main_arg8 (V : Valuation τ sig (Elt F)) : after (c1 (F := F)) V (Proc.devRef .tc main_arg8) = V (Proc.devRef .tc main_arg8) := by
  after_results_simp

/-- No operation of chunk 1 writes main_arg9. -/
theorem keep1_main_arg9 (V : Valuation τ sig (Elt F)) : after (c1 (F := F)) V (Proc.devRef .tc main_arg9) = V (Proc.devRef .tc main_arg9) := by
  after_results_simp

/-- No operation of chunk 1 writes main_arg10. -/
theorem keep1_main_arg10 (V : Valuation τ sig (Elt F)) : after (c1 (F := F)) V (Proc.devRef .tc main_arg10) = V (Proc.devRef .tc main_arg10) := by
  after_results_simp

/-- No operation of chunk 1 writes main_arg11. -/
theorem keep1_main_arg11 (V : Valuation τ sig (Elt F)) : after (c1 (F := F)) V (Proc.devRef .tc main_arg11) = V (Proc.devRef .tc main_arg11) := by
  after_results_simp

/-- No operation of chunk 1 writes main_arg12. -/
theorem keep1_main_arg12 (V : Valuation τ sig (Elt F)) : after (c1 (F := F)) V (Proc.devRef .tc main_arg12) = V (Proc.devRef .tc main_arg12) := by
  after_results_simp

/-- No operation of chunk 1 writes main_arg13. -/
theorem keep1_main_arg13 (V : Valuation τ sig (Elt F)) : after (c1 (F := F)) V (Proc.devRef .tc main_arg13) = V (Proc.devRef .tc main_arg13) := by
  after_results_simp

/-- No operation of chunk 1 writes main_arg14. -/
theorem keep1_main_arg14 (V : Valuation τ sig (Elt F)) : after (c1 (F := F)) V (Proc.devRef .tc main_arg14) = V (Proc.devRef .tc main_arg14) := by
  after_results_simp

/-- No operation of chunk 1 writes main_arg15. -/
theorem keep1_main_arg15 (V : Valuation τ sig (Elt F)) : after (c1 (F := F)) V (Proc.devRef .tc main_arg15) = V (Proc.devRef .tc main_arg15) := by
  after_results_simp

/-- No operation of chunk 1 writes main_v0. -/
theorem keep1_main_v0 (V : Valuation τ sig (Elt F)) : after (c1 (F := F)) V (Proc.devRef .tc main_v0) = V (Proc.devRef .tc main_v0) := by
  after_results_simp

/-- No operation of chunk 2 writes main_arg0. -/
theorem keep2_main_arg0 (V : Valuation τ sig (Elt F)) : after (c2 (F := F)) V (Proc.devRef .tc main_arg0) = V (Proc.devRef .tc main_arg0) := by
  after_results_simp

/-- No operation of chunk 2 writes main_arg1. -/
theorem keep2_main_arg1 (V : Valuation τ sig (Elt F)) : after (c2 (F := F)) V (Proc.devRef .tc main_arg1) = V (Proc.devRef .tc main_arg1) := by
  after_results_simp

/-- No operation of chunk 2 writes main_arg2. -/
theorem keep2_main_arg2 (V : Valuation τ sig (Elt F)) : after (c2 (F := F)) V (Proc.devRef .tc main_arg2) = V (Proc.devRef .tc main_arg2) := by
  after_results_simp

/-- No operation of chunk 2 writes main_arg3. -/
theorem keep2_main_arg3 (V : Valuation τ sig (Elt F)) : after (c2 (F := F)) V (Proc.devRef .tc main_arg3) = V (Proc.devRef .tc main_arg3) := by
  after_results_simp

/-- No operation of chunk 2 writes main_arg4. -/
theorem keep2_main_arg4 (V : Valuation τ sig (Elt F)) : after (c2 (F := F)) V (Proc.devRef .tc main_arg4) = V (Proc.devRef .tc main_arg4) := by
  after_results_simp

/-- No operation of chunk 2 writes main_arg5. -/
theorem keep2_main_arg5 (V : Valuation τ sig (Elt F)) : after (c2 (F := F)) V (Proc.devRef .tc main_arg5) = V (Proc.devRef .tc main_arg5) := by
  after_results_simp

/-- No operation of chunk 2 writes main_arg6. -/
theorem keep2_main_arg6 (V : Valuation τ sig (Elt F)) : after (c2 (F := F)) V (Proc.devRef .tc main_arg6) = V (Proc.devRef .tc main_arg6) := by
  after_results_simp

/-- No operation of chunk 2 writes main_arg7. -/
theorem keep2_main_arg7 (V : Valuation τ sig (Elt F)) : after (c2 (F := F)) V (Proc.devRef .tc main_arg7) = V (Proc.devRef .tc main_arg7) := by
  after_results_simp

/-- No operation of chunk 2 writes main_arg8. -/
theorem keep2_main_arg8 (V : Valuation τ sig (Elt F)) : after (c2 (F := F)) V (Proc.devRef .tc main_arg8) = V (Proc.devRef .tc main_arg8) := by
  after_results_simp

/-- No operation of chunk 2 writes main_arg9. -/
theorem keep2_main_arg9 (V : Valuation τ sig (Elt F)) : after (c2 (F := F)) V (Proc.devRef .tc main_arg9) = V (Proc.devRef .tc main_arg9) := by
  after_results_simp

/-- No operation of chunk 2 writes main_arg10. -/
theorem keep2_main_arg10 (V : Valuation τ sig (Elt F)) : after (c2 (F := F)) V (Proc.devRef .tc main_arg10) = V (Proc.devRef .tc main_arg10) := by
  after_results_simp

/-- No operation of chunk 2 writes main_arg11. -/
theorem keep2_main_arg11 (V : Valuation τ sig (Elt F)) : after (c2 (F := F)) V (Proc.devRef .tc main_arg11) = V (Proc.devRef .tc main_arg11) := by
  after_results_simp

/-- No operation of chunk 2 writes main_arg12. -/
theorem keep2_main_arg12 (V : Valuation τ sig (Elt F)) : after (c2 (F := F)) V (Proc.devRef .tc main_arg12) = V (Proc.devRef .tc main_arg12) := by
  after_results_simp

/-- No operation of chunk 2 writes main_arg13. -/
theorem keep2_main_arg13 (V : Valuation τ sig (Elt F)) : after (c2 (F := F)) V (Proc.devRef .tc main_arg13) = V (Proc.devRef .tc main_arg13) := by
  after_results_simp

/-- No operation of chunk 2 writes main_arg14. -/
theorem keep2_main_arg14 (V : Valuation τ sig (Elt F)) : after (c2 (F := F)) V (Proc.devRef .tc main_arg14) = V (Proc.devRef .tc main_arg14) := by
  after_results_simp

/-- No operation of chunk 2 writes main_arg15. -/
theorem keep2_main_arg15 (V : Valuation τ sig (Elt F)) : after (c2 (F := F)) V (Proc.devRef .tc main_arg15) = V (Proc.devRef .tc main_arg15) := by
  after_results_simp

/-- No operation of chunk 3 writes main_arg0. -/
theorem keep3_main_arg0 (V : Valuation τ sig (Elt F)) : after (c3 (F := F)) V (Proc.devRef .tc main_arg0) = V (Proc.devRef .tc main_arg0) := by
  after_results_simp

/-- No operation of chunk 3 writes main_arg1. -/
theorem keep3_main_arg1 (V : Valuation τ sig (Elt F)) : after (c3 (F := F)) V (Proc.devRef .tc main_arg1) = V (Proc.devRef .tc main_arg1) := by
  after_results_simp

/-- No operation of chunk 3 writes main_arg2. -/
theorem keep3_main_arg2 (V : Valuation τ sig (Elt F)) : after (c3 (F := F)) V (Proc.devRef .tc main_arg2) = V (Proc.devRef .tc main_arg2) := by
  after_results_simp

/-- No operation of chunk 3 writes main_arg3. -/
theorem keep3_main_arg3 (V : Valuation τ sig (Elt F)) : after (c3 (F := F)) V (Proc.devRef .tc main_arg3) = V (Proc.devRef .tc main_arg3) := by
  after_results_simp

/-- No operation of chunk 3 writes main_arg4. -/
theorem keep3_main_arg4 (V : Valuation τ sig (Elt F)) : after (c3 (F := F)) V (Proc.devRef .tc main_arg4) = V (Proc.devRef .tc main_arg4) := by
  after_results_simp

/-- No operation of chunk 3 writes main_arg5. -/
theorem keep3_main_arg5 (V : Valuation τ sig (Elt F)) : after (c3 (F := F)) V (Proc.devRef .tc main_arg5) = V (Proc.devRef .tc main_arg5) := by
  after_results_simp

/-- No operation of chunk 3 writes main_arg6. -/
theorem keep3_main_arg6 (V : Valuation τ sig (Elt F)) : after (c3 (F := F)) V (Proc.devRef .tc main_arg6) = V (Proc.devRef .tc main_arg6) := by
  after_results_simp

/-- No operation of chunk 3 writes main_arg7. -/
theorem keep3_main_arg7 (V : Valuation τ sig (Elt F)) : after (c3 (F := F)) V (Proc.devRef .tc main_arg7) = V (Proc.devRef .tc main_arg7) := by
  after_results_simp

/-- No operation of chunk 3 writes main_arg8. -/
theorem keep3_main_arg8 (V : Valuation τ sig (Elt F)) : after (c3 (F := F)) V (Proc.devRef .tc main_arg8) = V (Proc.devRef .tc main_arg8) := by
  after_results_simp

/-- No operation of chunk 3 writes main_arg9. -/
theorem keep3_main_arg9 (V : Valuation τ sig (Elt F)) : after (c3 (F := F)) V (Proc.devRef .tc main_arg9) = V (Proc.devRef .tc main_arg9) := by
  after_results_simp

/-- No operation of chunk 3 writes main_arg10. -/
theorem keep3_main_arg10 (V : Valuation τ sig (Elt F)) : after (c3 (F := F)) V (Proc.devRef .tc main_arg10) = V (Proc.devRef .tc main_arg10) := by
  after_results_simp

/-- No operation of chunk 3 writes main_arg11. -/
theorem keep3_main_arg11 (V : Valuation τ sig (Elt F)) : after (c3 (F := F)) V (Proc.devRef .tc main_arg11) = V (Proc.devRef .tc main_arg11) := by
  after_results_simp

/-- No operation of chunk 3 writes main_arg12. -/
theorem keep3_main_arg12 (V : Valuation τ sig (Elt F)) : after (c3 (F := F)) V (Proc.devRef .tc main_arg12) = V (Proc.devRef .tc main_arg12) := by
  after_results_simp

/-- No operation of chunk 3 writes main_arg13. -/
theorem keep3_main_arg13 (V : Valuation τ sig (Elt F)) : after (c3 (F := F)) V (Proc.devRef .tc main_arg13) = V (Proc.devRef .tc main_arg13) := by
  after_results_simp

/-- No operation of chunk 3 writes main_arg14. -/
theorem keep3_main_arg14 (V : Valuation τ sig (Elt F)) : after (c3 (F := F)) V (Proc.devRef .tc main_arg14) = V (Proc.devRef .tc main_arg14) := by
  after_results_simp

/-- No operation of chunk 3 writes main_arg15. -/
theorem keep3_main_arg15 (V : Valuation τ sig (Elt F)) : after (c3 (F := F)) V (Proc.devRef .tc main_arg15) = V (Proc.devRef .tc main_arg15) := by
  after_results_simp

/-- No operation of chunk 3 writes main_v61. -/
theorem keep3_main_v61 (V : Valuation τ sig (Elt F)) : after (c3 (F := F)) V (Proc.devRef .tc main_v61) = V (Proc.devRef .tc main_v61) := by
  after_results_simp

/-- No operation of chunk 3 writes main_v62. -/
theorem keep3_main_v62 (V : Valuation τ sig (Elt F)) : after (c3 (F := F)) V (Proc.devRef .tc main_v62) = V (Proc.devRef .tc main_v62) := by
  after_results_simp

/-- No operation of chunk 4 writes main_arg0. -/
theorem keep4_main_arg0 (V : Valuation τ sig (Elt F)) : after (c4 (F := F)) V (Proc.devRef .tc main_arg0) = V (Proc.devRef .tc main_arg0) := by
  after_results_simp

/-- No operation of chunk 4 writes main_arg1. -/
theorem keep4_main_arg1 (V : Valuation τ sig (Elt F)) : after (c4 (F := F)) V (Proc.devRef .tc main_arg1) = V (Proc.devRef .tc main_arg1) := by
  after_results_simp

/-- No operation of chunk 4 writes main_arg2. -/
theorem keep4_main_arg2 (V : Valuation τ sig (Elt F)) : after (c4 (F := F)) V (Proc.devRef .tc main_arg2) = V (Proc.devRef .tc main_arg2) := by
  after_results_simp

/-- No operation of chunk 4 writes main_arg3. -/
theorem keep4_main_arg3 (V : Valuation τ sig (Elt F)) : after (c4 (F := F)) V (Proc.devRef .tc main_arg3) = V (Proc.devRef .tc main_arg3) := by
  after_results_simp

/-- No operation of chunk 4 writes main_arg4. -/
theorem keep4_main_arg4 (V : Valuation τ sig (Elt F)) : after (c4 (F := F)) V (Proc.devRef .tc main_arg4) = V (Proc.devRef .tc main_arg4) := by
  after_results_simp

/-- No operation of chunk 4 writes main_arg5. -/
theorem keep4_main_arg5 (V : Valuation τ sig (Elt F)) : after (c4 (F := F)) V (Proc.devRef .tc main_arg5) = V (Proc.devRef .tc main_arg5) := by
  after_results_simp

/-- No operation of chunk 4 writes main_arg6. -/
theorem keep4_main_arg6 (V : Valuation τ sig (Elt F)) : after (c4 (F := F)) V (Proc.devRef .tc main_arg6) = V (Proc.devRef .tc main_arg6) := by
  after_results_simp

/-- No operation of chunk 4 writes main_arg7. -/
theorem keep4_main_arg7 (V : Valuation τ sig (Elt F)) : after (c4 (F := F)) V (Proc.devRef .tc main_arg7) = V (Proc.devRef .tc main_arg7) := by
  after_results_simp

/-- No operation of chunk 4 writes main_arg8. -/
theorem keep4_main_arg8 (V : Valuation τ sig (Elt F)) : after (c4 (F := F)) V (Proc.devRef .tc main_arg8) = V (Proc.devRef .tc main_arg8) := by
  after_results_simp

/-- No operation of chunk 4 writes main_arg9. -/
theorem keep4_main_arg9 (V : Valuation τ sig (Elt F)) : after (c4 (F := F)) V (Proc.devRef .tc main_arg9) = V (Proc.devRef .tc main_arg9) := by
  after_results_simp

/-- No operation of chunk 4 writes main_arg10. -/
theorem keep4_main_arg10 (V : Valuation τ sig (Elt F)) : after (c4 (F := F)) V (Proc.devRef .tc main_arg10) = V (Proc.devRef .tc main_arg10) := by
  after_results_simp

/-- No operation of chunk 4 writes main_arg11. -/
theorem keep4_main_arg11 (V : Valuation τ sig (Elt F)) : after (c4 (F := F)) V (Proc.devRef .tc main_arg11) = V (Proc.devRef .tc main_arg11) := by
  after_results_simp

/-- No operation of chunk 4 writes main_arg12. -/
theorem keep4_main_arg12 (V : Valuation τ sig (Elt F)) : after (c4 (F := F)) V (Proc.devRef .tc main_arg12) = V (Proc.devRef .tc main_arg12) := by
  after_results_simp

/-- No operation of chunk 4 writes main_arg13. -/
theorem keep4_main_arg13 (V : Valuation τ sig (Elt F)) : after (c4 (F := F)) V (Proc.devRef .tc main_arg13) = V (Proc.devRef .tc main_arg13) := by
  after_results_simp

/-- No operation of chunk 4 writes main_arg14. -/
theorem keep4_main_arg14 (V : Valuation τ sig (Elt F)) : after (c4 (F := F)) V (Proc.devRef .tc main_arg14) = V (Proc.devRef .tc main_arg14) := by
  after_results_simp

/-- No operation of chunk 4 writes main_arg15. -/
theorem keep4_main_arg15 (V : Valuation τ sig (Elt F)) : after (c4 (F := F)) V (Proc.devRef .tc main_arg15) = V (Proc.devRef .tc main_arg15) := by
  after_results_simp

/-- No operation of chunk 4 writes main_v61. -/
theorem keep4_main_v61 (V : Valuation τ sig (Elt F)) : after (c4 (F := F)) V (Proc.devRef .tc main_v61) = V (Proc.devRef .tc main_v61) := by
  after_results_simp

/-- No operation of chunk 5 writes main_arg0. -/
theorem keep5_main_arg0 (V : Valuation τ sig (Elt F)) : after (c5 (F := F)) V (Proc.devRef .tc main_arg0) = V (Proc.devRef .tc main_arg0) := by
  after_results_simp

/-- No operation of chunk 5 writes main_arg1. -/
theorem keep5_main_arg1 (V : Valuation τ sig (Elt F)) : after (c5 (F := F)) V (Proc.devRef .tc main_arg1) = V (Proc.devRef .tc main_arg1) := by
  after_results_simp

/-- No operation of chunk 5 writes main_arg2. -/
theorem keep5_main_arg2 (V : Valuation τ sig (Elt F)) : after (c5 (F := F)) V (Proc.devRef .tc main_arg2) = V (Proc.devRef .tc main_arg2) := by
  after_results_simp

/-- No operation of chunk 5 writes main_arg3. -/
theorem keep5_main_arg3 (V : Valuation τ sig (Elt F)) : after (c5 (F := F)) V (Proc.devRef .tc main_arg3) = V (Proc.devRef .tc main_arg3) := by
  after_results_simp

/-- No operation of chunk 5 writes main_arg4. -/
theorem keep5_main_arg4 (V : Valuation τ sig (Elt F)) : after (c5 (F := F)) V (Proc.devRef .tc main_arg4) = V (Proc.devRef .tc main_arg4) := by
  after_results_simp

/-- No operation of chunk 5 writes main_arg5. -/
theorem keep5_main_arg5 (V : Valuation τ sig (Elt F)) : after (c5 (F := F)) V (Proc.devRef .tc main_arg5) = V (Proc.devRef .tc main_arg5) := by
  after_results_simp

/-- No operation of chunk 5 writes main_arg6. -/
theorem keep5_main_arg6 (V : Valuation τ sig (Elt F)) : after (c5 (F := F)) V (Proc.devRef .tc main_arg6) = V (Proc.devRef .tc main_arg6) := by
  after_results_simp

/-- No operation of chunk 5 writes main_arg7. -/
theorem keep5_main_arg7 (V : Valuation τ sig (Elt F)) : after (c5 (F := F)) V (Proc.devRef .tc main_arg7) = V (Proc.devRef .tc main_arg7) := by
  after_results_simp

/-- No operation of chunk 5 writes main_arg8. -/
theorem keep5_main_arg8 (V : Valuation τ sig (Elt F)) : after (c5 (F := F)) V (Proc.devRef .tc main_arg8) = V (Proc.devRef .tc main_arg8) := by
  after_results_simp

/-- No operation of chunk 5 writes main_arg9. -/
theorem keep5_main_arg9 (V : Valuation τ sig (Elt F)) : after (c5 (F := F)) V (Proc.devRef .tc main_arg9) = V (Proc.devRef .tc main_arg9) := by
  after_results_simp

/-- No operation of chunk 5 writes main_arg10. -/
theorem keep5_main_arg10 (V : Valuation τ sig (Elt F)) : after (c5 (F := F)) V (Proc.devRef .tc main_arg10) = V (Proc.devRef .tc main_arg10) := by
  after_results_simp

/-- No operation of chunk 5 writes main_arg11. -/
theorem keep5_main_arg11 (V : Valuation τ sig (Elt F)) : after (c5 (F := F)) V (Proc.devRef .tc main_arg11) = V (Proc.devRef .tc main_arg11) := by
  after_results_simp

/-- No operation of chunk 5 writes main_arg12. -/
theorem keep5_main_arg12 (V : Valuation τ sig (Elt F)) : after (c5 (F := F)) V (Proc.devRef .tc main_arg12) = V (Proc.devRef .tc main_arg12) := by
  after_results_simp

/-- No operation of chunk 5 writes main_arg13. -/
theorem keep5_main_arg13 (V : Valuation τ sig (Elt F)) : after (c5 (F := F)) V (Proc.devRef .tc main_arg13) = V (Proc.devRef .tc main_arg13) := by
  after_results_simp

/-- No operation of chunk 5 writes main_arg14. -/
theorem keep5_main_arg14 (V : Valuation τ sig (Elt F)) : after (c5 (F := F)) V (Proc.devRef .tc main_arg14) = V (Proc.devRef .tc main_arg14) := by
  after_results_simp

/-- No operation of chunk 5 writes main_arg15. -/
theorem keep5_main_arg15 (V : Valuation τ sig (Elt F)) : after (c5 (F := F)) V (Proc.devRef .tc main_arg15) = V (Proc.devRef .tc main_arg15) := by
  after_results_simp

/-! ## The contents after chunks 0 … k from the launch contents, and the arguments there -/

section Chain

variable (m : (ℓ : Loc nD τ sig) → Buf (Elt F) ℓ) (c : Dev nD)

abbrev U1 : Valuation τ sig (Elt F) := after (c0 (F := F)) (launchContents m c)
abbrev U2 : Valuation τ sig (Elt F) := after (c1 (F := F)) (U1 m c)
abbrev U3 : Valuation τ sig (Elt F) := after (c2 (F := F)) (U2 m c)
abbrev U4 : Valuation τ sig (Elt F) := after (c3 (F := F)) (U3 m c)
abbrev U5 : Valuation τ sig (Elt F) := after (c4 (F := F)) (U4 m c)

/-- The whole fold is the six chunks' folds in order. -/
theorem after_ops (b : DevRef τ sig) :
    after (ops (F := F)) (launchContents m c) b = after (c5 (F := F)) (U5 m c) b := by
  rw [ops_split, StableHlo.after_append, StableHlo.after_append, StableHlo.after_append, StableHlo.after_append, StableHlo.after_append]

theorem U1_arg0 : U1 m c (Proc.devRef .tc main_arg0) = (m ((c.tc : Thread nD τ).loc main_arg0)) := keep0_main_arg0 _
theorem U2_arg0 : U2 m c (Proc.devRef .tc main_arg0) = (m ((c.tc : Thread nD τ).loc main_arg0)) := (keep1_main_arg0 _).trans (U1_arg0 m c)
theorem U3_arg0 : U3 m c (Proc.devRef .tc main_arg0) = (m ((c.tc : Thread nD τ).loc main_arg0)) := (keep2_main_arg0 _).trans (U2_arg0 m c)
theorem U4_arg0 : U4 m c (Proc.devRef .tc main_arg0) = (m ((c.tc : Thread nD τ).loc main_arg0)) := (keep3_main_arg0 _).trans (U3_arg0 m c)
theorem U5_arg0 : U5 m c (Proc.devRef .tc main_arg0) = (m ((c.tc : Thread nD τ).loc main_arg0)) := (keep4_main_arg0 _).trans (U4_arg0 m c)
/-- Argument 0 is as launched after all 198 operations. -/
theorem arg0_eq : after (ops (F := F)) (launchContents m c) (Proc.devRef .tc main_arg0) = (m ((c.tc : Thread nD τ).loc main_arg0)) :=
  (after_ops m c _).trans ((keep5_main_arg0 _).trans (U5_arg0 m c))
theorem U1_arg1 : U1 m c (Proc.devRef .tc main_arg1) = (m ((c.tc : Thread nD τ).loc main_arg1)) := keep0_main_arg1 _
theorem U2_arg1 : U2 m c (Proc.devRef .tc main_arg1) = (m ((c.tc : Thread nD τ).loc main_arg1)) := (keep1_main_arg1 _).trans (U1_arg1 m c)
theorem U3_arg1 : U3 m c (Proc.devRef .tc main_arg1) = (m ((c.tc : Thread nD τ).loc main_arg1)) := (keep2_main_arg1 _).trans (U2_arg1 m c)
theorem U4_arg1 : U4 m c (Proc.devRef .tc main_arg1) = (m ((c.tc : Thread nD τ).loc main_arg1)) := (keep3_main_arg1 _).trans (U3_arg1 m c)
theorem U5_arg1 : U5 m c (Proc.devRef .tc main_arg1) = (m ((c.tc : Thread nD τ).loc main_arg1)) := (keep4_main_arg1 _).trans (U4_arg1 m c)
/-- Argument 1 is as launched after all 198 operations. -/
theorem arg1_eq : after (ops (F := F)) (launchContents m c) (Proc.devRef .tc main_arg1) = (m ((c.tc : Thread nD τ).loc main_arg1)) :=
  (after_ops m c _).trans ((keep5_main_arg1 _).trans (U5_arg1 m c))
theorem U1_arg2 : U1 m c (Proc.devRef .tc main_arg2) = (m ((c.tc : Thread nD τ).loc main_arg2)) := keep0_main_arg2 _
theorem U2_arg2 : U2 m c (Proc.devRef .tc main_arg2) = (m ((c.tc : Thread nD τ).loc main_arg2)) := (keep1_main_arg2 _).trans (U1_arg2 m c)
theorem U3_arg2 : U3 m c (Proc.devRef .tc main_arg2) = (m ((c.tc : Thread nD τ).loc main_arg2)) := (keep2_main_arg2 _).trans (U2_arg2 m c)
theorem U4_arg2 : U4 m c (Proc.devRef .tc main_arg2) = (m ((c.tc : Thread nD τ).loc main_arg2)) := (keep3_main_arg2 _).trans (U3_arg2 m c)
theorem U5_arg2 : U5 m c (Proc.devRef .tc main_arg2) = (m ((c.tc : Thread nD τ).loc main_arg2)) := (keep4_main_arg2 _).trans (U4_arg2 m c)
/-- Argument 2 is as launched after all 198 operations. -/
theorem arg2_eq : after (ops (F := F)) (launchContents m c) (Proc.devRef .tc main_arg2) = (m ((c.tc : Thread nD τ).loc main_arg2)) :=
  (after_ops m c _).trans ((keep5_main_arg2 _).trans (U5_arg2 m c))
theorem U1_arg3 : U1 m c (Proc.devRef .tc main_arg3) = (m ((c.tc : Thread nD τ).loc main_arg3)) := keep0_main_arg3 _
theorem U2_arg3 : U2 m c (Proc.devRef .tc main_arg3) = (m ((c.tc : Thread nD τ).loc main_arg3)) := (keep1_main_arg3 _).trans (U1_arg3 m c)
theorem U3_arg3 : U3 m c (Proc.devRef .tc main_arg3) = (m ((c.tc : Thread nD τ).loc main_arg3)) := (keep2_main_arg3 _).trans (U2_arg3 m c)
theorem U4_arg3 : U4 m c (Proc.devRef .tc main_arg3) = (m ((c.tc : Thread nD τ).loc main_arg3)) := (keep3_main_arg3 _).trans (U3_arg3 m c)
theorem U5_arg3 : U5 m c (Proc.devRef .tc main_arg3) = (m ((c.tc : Thread nD τ).loc main_arg3)) := (keep4_main_arg3 _).trans (U4_arg3 m c)
/-- Argument 3 is as launched after all 198 operations. -/
theorem arg3_eq : after (ops (F := F)) (launchContents m c) (Proc.devRef .tc main_arg3) = (m ((c.tc : Thread nD τ).loc main_arg3)) :=
  (after_ops m c _).trans ((keep5_main_arg3 _).trans (U5_arg3 m c))
theorem U1_arg4 : U1 m c (Proc.devRef .tc main_arg4) = (m ((c.tc : Thread nD τ).loc main_arg4)) := keep0_main_arg4 _
theorem U2_arg4 : U2 m c (Proc.devRef .tc main_arg4) = (m ((c.tc : Thread nD τ).loc main_arg4)) := (keep1_main_arg4 _).trans (U1_arg4 m c)
theorem U3_arg4 : U3 m c (Proc.devRef .tc main_arg4) = (m ((c.tc : Thread nD τ).loc main_arg4)) := (keep2_main_arg4 _).trans (U2_arg4 m c)
theorem U4_arg4 : U4 m c (Proc.devRef .tc main_arg4) = (m ((c.tc : Thread nD τ).loc main_arg4)) := (keep3_main_arg4 _).trans (U3_arg4 m c)
theorem U5_arg4 : U5 m c (Proc.devRef .tc main_arg4) = (m ((c.tc : Thread nD τ).loc main_arg4)) := (keep4_main_arg4 _).trans (U4_arg4 m c)
/-- Argument 4 is as launched after all 198 operations. -/
theorem arg4_eq : after (ops (F := F)) (launchContents m c) (Proc.devRef .tc main_arg4) = (m ((c.tc : Thread nD τ).loc main_arg4)) :=
  (after_ops m c _).trans ((keep5_main_arg4 _).trans (U5_arg4 m c))
theorem U1_arg5 : U1 m c (Proc.devRef .tc main_arg5) = (m ((c.tc : Thread nD τ).loc main_arg5)) := keep0_main_arg5 _
theorem U2_arg5 : U2 m c (Proc.devRef .tc main_arg5) = (m ((c.tc : Thread nD τ).loc main_arg5)) := (keep1_main_arg5 _).trans (U1_arg5 m c)
theorem U3_arg5 : U3 m c (Proc.devRef .tc main_arg5) = (m ((c.tc : Thread nD τ).loc main_arg5)) := (keep2_main_arg5 _).trans (U2_arg5 m c)
theorem U4_arg5 : U4 m c (Proc.devRef .tc main_arg5) = (m ((c.tc : Thread nD τ).loc main_arg5)) := (keep3_main_arg5 _).trans (U3_arg5 m c)
theorem U5_arg5 : U5 m c (Proc.devRef .tc main_arg5) = (m ((c.tc : Thread nD τ).loc main_arg5)) := (keep4_main_arg5 _).trans (U4_arg5 m c)
/-- Argument 5 is as launched after all 198 operations. -/
theorem arg5_eq : after (ops (F := F)) (launchContents m c) (Proc.devRef .tc main_arg5) = (m ((c.tc : Thread nD τ).loc main_arg5)) :=
  (after_ops m c _).trans ((keep5_main_arg5 _).trans (U5_arg5 m c))
theorem U1_arg6 : U1 m c (Proc.devRef .tc main_arg6) = (m ((c.tc : Thread nD τ).loc main_arg6)) := keep0_main_arg6 _
theorem U2_arg6 : U2 m c (Proc.devRef .tc main_arg6) = (m ((c.tc : Thread nD τ).loc main_arg6)) := (keep1_main_arg6 _).trans (U1_arg6 m c)
theorem U3_arg6 : U3 m c (Proc.devRef .tc main_arg6) = (m ((c.tc : Thread nD τ).loc main_arg6)) := (keep2_main_arg6 _).trans (U2_arg6 m c)
theorem U4_arg6 : U4 m c (Proc.devRef .tc main_arg6) = (m ((c.tc : Thread nD τ).loc main_arg6)) := (keep3_main_arg6 _).trans (U3_arg6 m c)
theorem U5_arg6 : U5 m c (Proc.devRef .tc main_arg6) = (m ((c.tc : Thread nD τ).loc main_arg6)) := (keep4_main_arg6 _).trans (U4_arg6 m c)
/-- Argument 6 is as launched after all 198 operations. -/
theorem arg6_eq : after (ops (F := F)) (launchContents m c) (Proc.devRef .tc main_arg6) = (m ((c.tc : Thread nD τ).loc main_arg6)) :=
  (after_ops m c _).trans ((keep5_main_arg6 _).trans (U5_arg6 m c))
theorem U1_arg7 : U1 m c (Proc.devRef .tc main_arg7) = (m ((c.tc : Thread nD τ).loc main_arg7)) := keep0_main_arg7 _
theorem U2_arg7 : U2 m c (Proc.devRef .tc main_arg7) = (m ((c.tc : Thread nD τ).loc main_arg7)) := (keep1_main_arg7 _).trans (U1_arg7 m c)
theorem U3_arg7 : U3 m c (Proc.devRef .tc main_arg7) = (m ((c.tc : Thread nD τ).loc main_arg7)) := (keep2_main_arg7 _).trans (U2_arg7 m c)
theorem U4_arg7 : U4 m c (Proc.devRef .tc main_arg7) = (m ((c.tc : Thread nD τ).loc main_arg7)) := (keep3_main_arg7 _).trans (U3_arg7 m c)
theorem U5_arg7 : U5 m c (Proc.devRef .tc main_arg7) = (m ((c.tc : Thread nD τ).loc main_arg7)) := (keep4_main_arg7 _).trans (U4_arg7 m c)
/-- Argument 7 is as launched after all 198 operations. -/
theorem arg7_eq : after (ops (F := F)) (launchContents m c) (Proc.devRef .tc main_arg7) = (m ((c.tc : Thread nD τ).loc main_arg7)) :=
  (after_ops m c _).trans ((keep5_main_arg7 _).trans (U5_arg7 m c))
theorem U1_arg8 : U1 m c (Proc.devRef .tc main_arg8) = (m ((c.tc : Thread nD τ).loc main_arg8)) := keep0_main_arg8 _
theorem U2_arg8 : U2 m c (Proc.devRef .tc main_arg8) = (m ((c.tc : Thread nD τ).loc main_arg8)) := (keep1_main_arg8 _).trans (U1_arg8 m c)
theorem U3_arg8 : U3 m c (Proc.devRef .tc main_arg8) = (m ((c.tc : Thread nD τ).loc main_arg8)) := (keep2_main_arg8 _).trans (U2_arg8 m c)
theorem U4_arg8 : U4 m c (Proc.devRef .tc main_arg8) = (m ((c.tc : Thread nD τ).loc main_arg8)) := (keep3_main_arg8 _).trans (U3_arg8 m c)
theorem U5_arg8 : U5 m c (Proc.devRef .tc main_arg8) = (m ((c.tc : Thread nD τ).loc main_arg8)) := (keep4_main_arg8 _).trans (U4_arg8 m c)
/-- Argument 8 is as launched after all 198 operations. -/
theorem arg8_eq : after (ops (F := F)) (launchContents m c) (Proc.devRef .tc main_arg8) = (m ((c.tc : Thread nD τ).loc main_arg8)) :=
  (after_ops m c _).trans ((keep5_main_arg8 _).trans (U5_arg8 m c))
theorem U1_arg9 : U1 m c (Proc.devRef .tc main_arg9) = (m ((c.tc : Thread nD τ).loc main_arg9)) := keep0_main_arg9 _
theorem U2_arg9 : U2 m c (Proc.devRef .tc main_arg9) = (m ((c.tc : Thread nD τ).loc main_arg9)) := (keep1_main_arg9 _).trans (U1_arg9 m c)
theorem U3_arg9 : U3 m c (Proc.devRef .tc main_arg9) = (m ((c.tc : Thread nD τ).loc main_arg9)) := (keep2_main_arg9 _).trans (U2_arg9 m c)
theorem U4_arg9 : U4 m c (Proc.devRef .tc main_arg9) = (m ((c.tc : Thread nD τ).loc main_arg9)) := (keep3_main_arg9 _).trans (U3_arg9 m c)
theorem U5_arg9 : U5 m c (Proc.devRef .tc main_arg9) = (m ((c.tc : Thread nD τ).loc main_arg9)) := (keep4_main_arg9 _).trans (U4_arg9 m c)
/-- Argument 9 is as launched after all 198 operations. -/
theorem arg9_eq : after (ops (F := F)) (launchContents m c) (Proc.devRef .tc main_arg9) = (m ((c.tc : Thread nD τ).loc main_arg9)) :=
  (after_ops m c _).trans ((keep5_main_arg9 _).trans (U5_arg9 m c))
theorem U1_arg10 : U1 m c (Proc.devRef .tc main_arg10) = (m ((c.tc : Thread nD τ).loc main_arg10)) := keep0_main_arg10 _
theorem U2_arg10 : U2 m c (Proc.devRef .tc main_arg10) = (m ((c.tc : Thread nD τ).loc main_arg10)) := (keep1_main_arg10 _).trans (U1_arg10 m c)
theorem U3_arg10 : U3 m c (Proc.devRef .tc main_arg10) = (m ((c.tc : Thread nD τ).loc main_arg10)) := (keep2_main_arg10 _).trans (U2_arg10 m c)
theorem U4_arg10 : U4 m c (Proc.devRef .tc main_arg10) = (m ((c.tc : Thread nD τ).loc main_arg10)) := (keep3_main_arg10 _).trans (U3_arg10 m c)
theorem U5_arg10 : U5 m c (Proc.devRef .tc main_arg10) = (m ((c.tc : Thread nD τ).loc main_arg10)) := (keep4_main_arg10 _).trans (U4_arg10 m c)
/-- Argument 10 is as launched after all 198 operations. -/
theorem arg10_eq : after (ops (F := F)) (launchContents m c) (Proc.devRef .tc main_arg10) = (m ((c.tc : Thread nD τ).loc main_arg10)) :=
  (after_ops m c _).trans ((keep5_main_arg10 _).trans (U5_arg10 m c))
theorem U1_arg11 : U1 m c (Proc.devRef .tc main_arg11) = (m ((c.tc : Thread nD τ).loc main_arg11)) := keep0_main_arg11 _
theorem U2_arg11 : U2 m c (Proc.devRef .tc main_arg11) = (m ((c.tc : Thread nD τ).loc main_arg11)) := (keep1_main_arg11 _).trans (U1_arg11 m c)
theorem U3_arg11 : U3 m c (Proc.devRef .tc main_arg11) = (m ((c.tc : Thread nD τ).loc main_arg11)) := (keep2_main_arg11 _).trans (U2_arg11 m c)
theorem U4_arg11 : U4 m c (Proc.devRef .tc main_arg11) = (m ((c.tc : Thread nD τ).loc main_arg11)) := (keep3_main_arg11 _).trans (U3_arg11 m c)
theorem U5_arg11 : U5 m c (Proc.devRef .tc main_arg11) = (m ((c.tc : Thread nD τ).loc main_arg11)) := (keep4_main_arg11 _).trans (U4_arg11 m c)
/-- Argument 11 is as launched after all 198 operations. -/
theorem arg11_eq : after (ops (F := F)) (launchContents m c) (Proc.devRef .tc main_arg11) = (m ((c.tc : Thread nD τ).loc main_arg11)) :=
  (after_ops m c _).trans ((keep5_main_arg11 _).trans (U5_arg11 m c))
theorem U1_arg12 : U1 m c (Proc.devRef .tc main_arg12) = (m ((c.tc : Thread nD τ).loc main_arg12)) := keep0_main_arg12 _
theorem U2_arg12 : U2 m c (Proc.devRef .tc main_arg12) = (m ((c.tc : Thread nD τ).loc main_arg12)) := (keep1_main_arg12 _).trans (U1_arg12 m c)
theorem U3_arg12 : U3 m c (Proc.devRef .tc main_arg12) = (m ((c.tc : Thread nD τ).loc main_arg12)) := (keep2_main_arg12 _).trans (U2_arg12 m c)
theorem U4_arg12 : U4 m c (Proc.devRef .tc main_arg12) = (m ((c.tc : Thread nD τ).loc main_arg12)) := (keep3_main_arg12 _).trans (U3_arg12 m c)
theorem U5_arg12 : U5 m c (Proc.devRef .tc main_arg12) = (m ((c.tc : Thread nD τ).loc main_arg12)) := (keep4_main_arg12 _).trans (U4_arg12 m c)
/-- Argument 12 is as launched after all 198 operations. -/
theorem arg12_eq : after (ops (F := F)) (launchContents m c) (Proc.devRef .tc main_arg12) = (m ((c.tc : Thread nD τ).loc main_arg12)) :=
  (after_ops m c _).trans ((keep5_main_arg12 _).trans (U5_arg12 m c))
theorem U1_arg13 : U1 m c (Proc.devRef .tc main_arg13) = (m ((c.tc : Thread nD τ).loc main_arg13)) := keep0_main_arg13 _
theorem U2_arg13 : U2 m c (Proc.devRef .tc main_arg13) = (m ((c.tc : Thread nD τ).loc main_arg13)) := (keep1_main_arg13 _).trans (U1_arg13 m c)
theorem U3_arg13 : U3 m c (Proc.devRef .tc main_arg13) = (m ((c.tc : Thread nD τ).loc main_arg13)) := (keep2_main_arg13 _).trans (U2_arg13 m c)
theorem U4_arg13 : U4 m c (Proc.devRef .tc main_arg13) = (m ((c.tc : Thread nD τ).loc main_arg13)) := (keep3_main_arg13 _).trans (U3_arg13 m c)
theorem U5_arg13 : U5 m c (Proc.devRef .tc main_arg13) = (m ((c.tc : Thread nD τ).loc main_arg13)) := (keep4_main_arg13 _).trans (U4_arg13 m c)
/-- Argument 13 is as launched after all 198 operations. -/
theorem arg13_eq : after (ops (F := F)) (launchContents m c) (Proc.devRef .tc main_arg13) = (m ((c.tc : Thread nD τ).loc main_arg13)) :=
  (after_ops m c _).trans ((keep5_main_arg13 _).trans (U5_arg13 m c))
theorem U1_arg14 : U1 m c (Proc.devRef .tc main_arg14) = (m ((c.tc : Thread nD τ).loc main_arg14)) := keep0_main_arg14 _
theorem U2_arg14 : U2 m c (Proc.devRef .tc main_arg14) = (m ((c.tc : Thread nD τ).loc main_arg14)) := (keep1_main_arg14 _).trans (U1_arg14 m c)
theorem U3_arg14 : U3 m c (Proc.devRef .tc main_arg14) = (m ((c.tc : Thread nD τ).loc main_arg14)) := (keep2_main_arg14 _).trans (U2_arg14 m c)
theorem U4_arg14 : U4 m c (Proc.devRef .tc main_arg14) = (m ((c.tc : Thread nD τ).loc main_arg14)) := (keep3_main_arg14 _).trans (U3_arg14 m c)
theorem U5_arg14 : U5 m c (Proc.devRef .tc main_arg14) = (m ((c.tc : Thread nD τ).loc main_arg14)) := (keep4_main_arg14 _).trans (U4_arg14 m c)
/-- Argument 14 is as launched after all 198 operations. -/
theorem arg14_eq : after (ops (F := F)) (launchContents m c) (Proc.devRef .tc main_arg14) = (m ((c.tc : Thread nD τ).loc main_arg14)) :=
  (after_ops m c _).trans ((keep5_main_arg14 _).trans (U5_arg14 m c))
theorem U1_arg15 : U1 m c (Proc.devRef .tc main_arg15) = (m ((c.tc : Thread nD τ).loc main_arg15)) := keep0_main_arg15 _
theorem U2_arg15 : U2 m c (Proc.devRef .tc main_arg15) = (m ((c.tc : Thread nD τ).loc main_arg15)) := (keep1_main_arg15 _).trans (U1_arg15 m c)
theorem U3_arg15 : U3 m c (Proc.devRef .tc main_arg15) = (m ((c.tc : Thread nD τ).loc main_arg15)) := (keep2_main_arg15 _).trans (U2_arg15 m c)
theorem U4_arg15 : U4 m c (Proc.devRef .tc main_arg15) = (m ((c.tc : Thread nD τ).loc main_arg15)) := (keep3_main_arg15 _).trans (U3_arg15 m c)
theorem U5_arg15 : U5 m c (Proc.devRef .tc main_arg15) = (m ((c.tc : Thread nD τ).loc main_arg15)) := (keep4_main_arg15 _).trans (U4_arg15 m c)
/-- Argument 15 is as launched after all 198 operations. -/
theorem arg15_eq : after (ops (F := F)) (launchContents m c) (Proc.devRef .tc main_arg15) = (m ((c.tc : Thread nD τ).loc main_arg15)) :=
  (after_ops m c _).trans ((keep5_main_arg15 _).trans (U5_arg15 m c))

end Chain

end Cert.ReferenceIdeal.Chunks

end
-- ==== Proof.RefRunV.lean ====
/-
  The reference program's run, read back to its result stage.

  The program is a straight line of 198 host operations.  Its result buffer after the run holds the fold of the operations'
  results over the launch contents.  That fold is read in six consecutive chunks, cut before each of the five joins of
  two arrays: within a chunk every buffer a later operation reads is either written earlier in the same chunk or is one of a
  handful of buffers the chunk finds at its entry — an argument array, or a stage an earlier chunk wrote.  So for an
  ARBITRARY entry valuation that holds the right stages at those few buffers, the chunk leaves the stages it writes at
  their own functions of the arguments; chaining the six chunks from the launch contents gives the result stage, and no
  chunk writes an argument array.
-/
import proofs.«408358_j51376398795254_3_alg».proof.Proof.RefChunks
import proofs.«408358_j51376398795254_3_alg».proof.Proof.RefReadP
import Idealize.ShloMosaic.Lib.StableHlo.Run
import Idealize.ShloMosaic.Lib.Pipeline.Frame

set_option maxRecDepth 8192

noncomputable section

namespace Cert.ReferenceIdeal.RunV

open Cert.ReferenceIdeal Cert.ReferenceIdeal.Gen Cert.ReferenceIdeal.Value Cert.ReferenceIdeal.Chunks Cert.ReferenceIdeal.Read
open Idealize.ShloMosaic Idealize.ShloMosaic.TcCoe Idealize.SL.Sem Idealize.ShloMosaic.StableHlo

variable {F : FTy → Type} [FloatOps F]

/-! ## Each chunk, from any entry valuation holding the stages it reads -/

theorem c0_v0 (V : Valuation τ sig (Elt F)) : after (c0 (F := F)) V (Proc.devRef .tc main_v0) = val_main_v0 (F := F) := by
  after_results_simp
  (try simp only [TRef.ofBuf, TRef.toBuf, cast_eq])
  rfl

theorem c0_v2 (V : Valuation τ sig (Elt F)) (x1 : (⟨S2x1600000, .i32⟩ : BufTy).Contents (Elt F)) (h1 : V (Proc.devRef .tc main_arg1) = x1) :
    after (c0 (F := F)) V (Proc.devRef .tc main_v2) = val_main_v2 (F := F) x1 := by
  after_results_simp
  (try simp only [TRef.ofBuf, TRef.toBuf, cast_eq])
  rw [h1]; rfl

theorem c1_v3 (V : Valuation τ sig (Elt F)) (x1 : (⟨S2x1600000, .i32⟩ : BufTy).Contents (Elt F)) (h0 : V (Proc.devRef .tc main_v0) = val_main_v0 (F := F)) (h2 : V (Proc.devRef .tc main_v2) = val_main_v2 (F := F) x1) :
    after (c1 (F := F)) V (Proc.devRef .tc main_v3) = val_main_v3 (F := F) x1 := by
  after_results_simp
  (try simp only [TRef.ofBuf, TRef.toBuf, cast_eq])
  rw [h0, h2]; rfl

theorem c1_v5 (V : Valuation τ sig (Elt F)) (x1 : (⟨S2x1600000, .i32⟩ : BufTy).Contents (Elt F)) (h1 : V (Proc.devRef .tc main_arg1) = x1) :
    after (c1 (F := F)) V (Proc.devRef .tc main_v5) = val_main_v5 (F := F) x1 := by
  after_results_simp
  (try simp only [TRef.ofBuf, TRef.toBuf, cast_eq])
  rw [h1]; rfl

set_option maxHeartbeats 4000000 in
theorem c2_v61 (V : Valuation τ sig (Elt F)) (x0 : (⟨S100000x32, .f32⟩ : BufTy).Contents (Elt F)) (x1 : (⟨S2x1600000, .i32⟩ : BufTy).Contents (Elt F)) (x2 : (⟨S100000, .i32⟩ : BufTy).Contents (Elt F)) (x6 : (⟨S32x64, .f32⟩ : BufTy).Contents (Elt F)) (x7 : (⟨S64, .f32⟩ : BufTy).Contents (Elt F))
    (h0 : V (Proc.devRef .tc main_v0) = val_main_v0 (F := F)) (h3 : V (Proc.devRef .tc main_v3) = val_main_v3 (F := F) x1) (h5 : V (Proc.devRef .tc main_v5) = val_main_v5 (F := F) x1)
    (a0 : V (Proc.devRef .tc main_arg0) = x0) (a2 : V (Proc.devRef .tc main_arg2) = x2) (a6 : V (Proc.devRef .tc main_arg6) = x6) (a7 : V (Proc.devRef .tc main_arg7) = x7) :
    after (c2 (F := F)) V (Proc.devRef .tc main_v61) = val_main_v61 (F := F) x0 x1 x2 x6 x7 := by
  after_results_simp
  (try simp only [TRef.ofBuf, TRef.toBuf, cast_eq])
  rw [h0, h3, h5, a0, a2, a6, a7]
  rfl

theorem c2_v62 (V : Valuation τ sig (Elt F)) : after (c2 (F := F)) V (Proc.devRef .tc main_v62) = val_main_v62 (F := F) := by
  after_results_simp
  (try simp only [TRef.ofBuf, TRef.toBuf, cast_eq])
  rfl

theorem c2_v64 (V : Valuation τ sig (Elt F)) (x4 : (⟨S2x1600000, .i32⟩ : BufTy).Contents (Elt F)) (a4 : V (Proc.devRef .tc main_arg4) = x4) :
    after (c2 (F := F)) V (Proc.devRef .tc main_v64) = val_main_v64 (F := F) x4 := by
  after_results_simp
  (try simp only [TRef.ofBuf, TRef.toBuf, cast_eq])
  rw [a4]; rfl

theorem c3_v65 (V : Valuation τ sig (Elt F)) (x4 : (⟨S2x1600000, .i32⟩ : BufTy).Contents (Elt F)) (h62 : V (Proc.devRef .tc main_v62) = val_main_v62 (F := F)) (h64 : V (Proc.devRef .tc main_v64) = val_main_v64 (F := F) x4) :
    after (c3 (F := F)) V (Proc.devRef .tc main_v65) = val_main_v65 (F := F) x4 := by
  after_results_simp
  (try simp only [TRef.ofBuf, TRef.toBuf, cast_eq])
  rw [h62, h64]; rfl

theorem c3_v67 (V : Valuation τ sig (Elt F)) (x4 : (⟨S2x1600000, .i32⟩ : BufTy).Contents (Elt F)) (a4 : V (Proc.devRef .tc main_arg4) = x4) :
    after (c3 (F := F)) V (Proc.devRef .tc main_v67) = val_main_v67 (F := F) x4 := by
  after_results_simp
  (try simp only [TRef.ofBuf, TRef.toBuf, cast_eq])
  rw [a4]; rfl

set_option maxHeartbeats 4000000 in
theorem c4_v123 (V : Valuation τ sig (Elt F)) (x3 : (⟨S100000x32, .f32⟩ : BufTy).Contents (Elt F)) (x4 : (⟨S2x1600000, .i32⟩ : BufTy).Contents (Elt F)) (x5 : (⟨S100000, .i32⟩ : BufTy).Contents (Elt F)) (x6 : (⟨S32x64, .f32⟩ : BufTy).Contents (Elt F)) (x7 : (⟨S64, .f32⟩ : BufTy).Contents (Elt F))
    (h62 : V (Proc.devRef .tc main_v62) = val_main_v62 (F := F)) (h65 : V (Proc.devRef .tc main_v65) = val_main_v65 (F := F) x4) (h67 : V (Proc.devRef .tc main_v67) = val_main_v67 (F := F) x4)
    (a3 : V (Proc.devRef .tc main_arg3) = x3) (a5 : V (Proc.devRef .tc main_arg5) = x5) (a6 : V (Proc.devRef .tc main_arg6) = x6) (a7 : V (Proc.devRef .tc main_arg7) = x7) :
    after (c4 (F := F)) V (Proc.devRef .tc main_v123) = val_main_v123 (F := F) x3 x4 x5 x6 x7 := by
  after_results_simp
  (try simp only [TRef.ofBuf, TRef.toBuf, cast_eq])
  rw [h62, h65, h67, a3, a5, a6, a7]
  rfl

set_option maxHeartbeats 4000000 in
theorem c5_v149 (V : Valuation τ sig (Elt F)) (x0 : (⟨S100000x32, .f32⟩ : BufTy).Contents (Elt F)) (x1 : (⟨S2x1600000, .i32⟩ : BufTy).Contents (Elt F)) (x2 : (⟨S100000, .i32⟩ : BufTy).Contents (Elt F)) (x3 : (⟨S100000x32, .f32⟩ : BufTy).Contents (Elt F)) (x4 : (⟨S2x1600000, .i32⟩ : BufTy).Contents (Elt F)) (x5 : (⟨S100000, .i32⟩ : BufTy).Contents (Elt F)) (x6 : (⟨S32x64, .f32⟩ : BufTy).Contents (Elt F)) (x7 : (⟨S64, .f32⟩ : BufTy).Contents (Elt F)) (x8 : (⟨S128x64, .f32⟩ : BufTy).Contents (Elt F)) (x9 : (⟨S64, .f32⟩ : BufTy).Contents (Elt F)) (x10 : (⟨S64x32, .f32⟩ : BufTy).Contents (Elt F)) (x11 : (⟨S32, .f32⟩ : BufTy).Contents (Elt F)) (x12 : (⟨S32x16, .f32⟩ : BufTy).Contents (Elt F)) (x13 : (⟨S16, .f32⟩ : BufTy).Contents (Elt F)) (x14 : (⟨S16x1, .f32⟩ : BufTy).Contents (Elt F)) (x15 : (⟨S1, .f32⟩ : BufTy).Contents (Elt F))
    (h61 : V (Proc.devRef .tc main_v61) = val_main_v61 (F := F) x0 x1 x2 x6 x7) (h123 : V (Proc.devRef .tc main_v123) = val_main_v123 (F := F) x3 x4 x5 x6 x7)
    (a8 : V (Proc.devRef .tc main_arg8) = x8) (a9 : V (Proc.devRef .tc main_arg9) = x9) (a10 : V (Proc.devRef .tc main_arg10) = x10) (a11 : V (Proc.devRef .tc main_arg11) = x11) (a12 : V (Proc.devRef .tc main_arg12) = x12) (a13 : V (Proc.devRef .tc main_arg13) = x13) (a14 : V (Proc.devRef .tc main_arg14) = x14) (a15 : V (Proc.devRef .tc main_arg15) = x15) :
    after (c5 (F := F)) V (Proc.devRef .tc main_v149) = val_main_v149 (F := F) x0 x1 x2 x3 x4 x5 x6 x7 x8 x9 x10 x11 x12 x13 x14 x15 := by
  after_results_simp
  (try simp only [TRef.ofBuf, TRef.toBuf, cast_eq])
  rw [h61, h123, a8, a9, a10, a11, a12, a13, a14, a15]
  rfl

/-! ## The six chunks chained from the launch contents -/

section Chain

variable (m : (ℓ : Loc nD τ sig) → Buf (Elt F) ℓ) (c : Dev nD)

theorem U1_v0 : U1 m c (Proc.devRef .tc main_v0) = val_main_v0 (F := F) := c0_v0 _
theorem U1_v2 : U1 m c (Proc.devRef .tc main_v2) = val_main_v2 (F := F) (m ((c.tc : Thread nD τ).loc main_arg1)) := c0_v2 _ _ rfl
theorem U2_v0 : U2 m c (Proc.devRef .tc main_v0) = val_main_v0 (F := F) := (keep1_main_v0 _).trans (U1_v0 m c)
theorem U2_v3 : U2 m c (Proc.devRef .tc main_v3) = val_main_v3 (F := F) (m ((c.tc : Thread nD τ).loc main_arg1)) := c1_v3 _ _ (U1_v0 m c) (U1_v2 m c)
theorem U2_v5 : U2 m c (Proc.devRef .tc main_v5) = val_main_v5 (F := F) (m ((c.tc : Thread nD τ).loc main_arg1)) := c1_v5 _ _ (U1_arg1 m c)
theorem U3_v61 : U3 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) :=
  c2_v61 _ _ _ _ _ _ (U2_v0 m c) (U2_v3 m c) (U2_v5 m c) (U2_arg0 m c) (U2_arg2 m c) (U2_arg6 m c) (U2_arg7 m c)
theorem U3_v62 : U3 m c (Proc.devRef .tc main_v62) = val_main_v62 (F := F) := c2_v62 _
theorem U3_v64 : U3 m c (Proc.devRef .tc main_v64) = val_main_v64 (F := F) (m ((c.tc : Thread nD τ).loc main_arg4)) := c2_v64 _ _ (U2_arg4 m c)
theorem U4_v61 : U4 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) :=
  (keep3_main_v61 _).trans (U3_v61 m c)
theorem U4_v62 : U4 m c (Proc.devRef .tc main_v62) = val_main_v62 (F := F) := (keep3_main_v62 _).trans (U3_v62 m c)
theorem U4_v65 : U4 m c (Proc.devRef .tc main_v65) = val_main_v65 (F := F) (m ((c.tc : Thread nD τ).loc main_arg4)) := c3_v65 _ _ (U3_v62 m c) (U3_v64 m c)
theorem U4_v67 : U4 m c (Proc.devRef .tc main_v67) = val_main_v67 (F := F) (m ((c.tc : Thread nD τ).loc main_arg4)) := c3_v67 _ _ (U3_arg4 m c)
theorem U5_v61 : U5 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) :=
  (keep4_main_v61 _).trans (U4_v61 m c)
theorem U5_v123 : U5 m c (Proc.devRef .tc main_v123) = val_main_v123 (F := F) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  c4_v123 _ _ _ _ _ _ (U4_v62 m c) (U4_v65 m c) (U4_v67 m c) (U4_arg3 m c) (U4_arg5 m c) (U4_arg6 m c) (U4_arg7 m c)

/-- THE RESULT: after the 198 operations the result buffer holds the result stage of the launch's argument arrays. -/
theorem result_eq :
    after (ops (F := F)) (launchContents m c) (Proc.devRef .tc main_v149)
      = val_main_v149 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (after_ops m c _).trans
    (c5_v149 _ _ _ _ _ _ _ _ _ _ _ _ _ _ _ _ _ (U5_v61 m c) (U5_v123 m c)
      (U5_arg8 m c) (U5_arg9 m c) (U5_arg10 m c) (U5_arg11 m c) (U5_arg12 m c) (U5_arg13 m c) (U5_arg14 m c) (U5_arg15 m c))

end Chain

/-- THE RUN: on every device, from any memory with zero counters, every weakly fair execution of @main terminates with the
    result buffer at the result stage of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = val_main_v149 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15)) :=
  (θ_run defs _ _).mono (fun _ h c => ⟨(h c main_v149).trans (result_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c),
      (h c main_arg9).trans (arg9_eq m c),
      (h c main_arg10).trans (arg10_eq m c),
      (h c main_arg11).trans (arg11_eq m c),
      (h c main_arg12).trans (arg12_eq m c),
      (h c main_arg13).trans (arg13_eq m c),
      (h c main_arg14).trans (arg14_eq m c),
      (h c main_arg15).trans (arg15_eq m c)⟩)
    (run_seq scopedRefs_eq scopedSems_eq defs main (fun _ => ops) main_eq (fun _ => ops_sub) m ρ)

end Cert.ReferenceIdeal.RunV

end
-- ==== Proof.LibAdjacency.lean ====
/-
  The algebra that joins a dense normalized adjacency matrix to the edge list it was scattered from.

  A graph convolution sums, into each node i, the features of the sources of the edges into i, each scaled by the
  edge's weight. One program does it edge by edge: gather the source rows, scale, scatter-add into the destination
  rows. Another first scatters the weights into a dense matrix A, A (i, j) the sum of the weights of the edges from
  j to i, and then multiplies A against the features. With nonnegative weights the two agree at the exact
  (extended-real) values whatever the features are, infinite ones included: multiplication distributes over a sum of
  nonnegative terms, 0 times anything is 0, and addition is commutative and associative, so the double sum over
  (node, edge) regroups by fibres.

  Here: that identity over finite index types; the host's accumulating scatters (of scalars at pairs of positions,
  of scalars at positions, of rows at positions) and gathers (of rows, of scalars) read at an index, also in the form
  they take when every position names an entry of its operand; and the signs: degrees, their inverse square roots
  and the edge weights are nonnegative.
-/
import Idealize.ShloMosaic.PureOps.Ideal
import Idealize.ShloMosaic.Lib.ValueIdx
import Idealize.ShloMosaic.Lib.ValueIdxRank1
import proofs.«408358_j51376398795254_3_alg».proof.Proof.LibScatterAdd
import proofs.«408358_j51376398795254_3_alg».proof.Proof.LibGatherRows
import Mathlib.Data.EReal.Operations
import Mathlib.Algebra.Order.BigOperators.Group.Finset

noncomputable section

namespace Cert.Lib

open Idealize.ShloMosaic Idealize.ShloMosaic.ValueIdx
open scoped BigOperators

/-! ## Sums of nonnegative extended reals against a factor -/

/-- A finite sum of nonnegative extended reals times a factor is the sum of the products: multiplication
    distributes over the sum of two nonnegative terms whatever the factor, and the partial sums stay nonnegative. -/
theorem sum_mul_of_nonneg {ι : Type*} (s : Finset ι) (f : ι → EReal) (hf : ∀ e ∈ s, 0 ≤ f e) (c : EReal) :
    (∑ e ∈ s, f e) * c = ∑ e ∈ s, f e * c := by
  classical
  induction s using Finset.induction_on with
  | empty => simp
  | insert a s ha ih =>
    rw [Finset.sum_insert ha, Finset.sum_insert ha,
      EReal.right_distrib_of_nonneg (hf a (Finset.mem_insert_self a s))
        (Finset.sum_nonneg (fun e he => hf e (Finset.mem_insert_of_mem he))),
      ih (fun e he => hf e (Finset.mem_insert_of_mem he))]

/-- THE DENSE MATRIX AGAINST A VECTOR IS THE EDGE SUM. Row i of the matrix whose entry (i, j) collects the
    nonnegative weights of the edges from j to i, against a vector h, is the sum over the edges into i of h at the
    edge's source times the edge's weight. The vector's entries are arbitrary extended reals. -/
theorem adj_matvec {E N : Nat} (w : Fin E → EReal) (hw : ∀ e, 0 ≤ w e) (sIdx dIdx : Fin E → Fin N)
    (h : Fin N → EReal) (i : Fin N) :
    ∑ j : Fin N, (∑ e : Fin E, if dIdx e = i ∧ sIdx e = j then w e else 0) * h j
      = ∑ e : Fin E, if dIdx e = i then h (sIdx e) * w e else 0 := by
  have h1 : ∀ j : Fin N, (∑ e : Fin E, if dIdx e = i ∧ sIdx e = j then w e else 0) * h j
      = ∑ e : Fin E, if dIdx e = i ∧ sIdx e = j then w e * h j else 0 := by
    intro j
    rw [sum_mul_of_nonneg _ _ (fun e _ => by split_ifs; exacts [hw e, le_rfl])]
    refine Finset.sum_congr rfl (fun e _ => ?_)
    split_ifs
    · rfl
    · exact zero_mul _
  rw [Finset.sum_congr rfl (fun j _ => h1 j), Finset.sum_comm]
  refine Finset.sum_congr rfl (fun e _ => ?_)
  by_cases hd : dIdx e = i
  · simp only [hd, true_and, if_true]
    rw [Finset.sum_ite_eq]
    simp only [Finset.mem_univ, if_true]
    exact mul_comm _ _
  · simp only [hd, false_and, if_false]
    exact Finset.sum_const_zero

/-- The same with both accumulations started from zero, as a scatter into a zero array reads. -/
theorem adj_matvec_zero_add {E N : Nat} (w : Fin E → EReal) (hw : ∀ e, 0 ≤ w e) (sIdx dIdx : Fin E → Fin N)
    (h : Fin N → EReal) (i : Fin N) :
    ∑ j : Fin N, (0 + ∑ e : Fin E, if dIdx e = i ∧ sIdx e = j then w e else 0) * h j
      = 0 + ∑ e : Fin E, if dIdx e = i then h (sIdx e) * w e else 0 := by
  simp only [zero_add]
  exact adj_matvec w hw sIdx dIdx h i

/-- The same over the fibres written as filtered sums. -/
theorem adj_matvec_filter {E N : Nat} (w : Fin E → EReal) (hw : ∀ e, 0 ≤ w e) (sIdx dIdx : Fin E → Fin N)
    (h : Fin N → EReal) (i : Fin N) :
    ∑ j : Fin N, (∑ e ∈ Finset.univ.filter (fun e => dIdx e = i ∧ sIdx e = j), w e) * h j
      = ∑ e ∈ Finset.univ.filter (fun e => dIdx e = i), h (sIdx e) * w e := by
  simp only [Finset.sum_filter]
  exact adj_matvec w hw sIdx dIdx h i

/-! ## A scatter of scalars at pairs of positions: operand [N, M], positions [E, 2], updates [E] -/

/-- The dimension numbers of a scatter of scalars into a matrix: operand [N, M], start indices [E, 2] (column 0 the
    row, column 1 the column), updates [E]; both operand axes inserted and named by the map. -/
abbrev pairScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On operand axis 0 the window of update j starts at column 0 of position j's index row, read signed. -/
theorem pair_start0 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (0 : Fin 2) = (idx (ix2 (j (0 : Fin 1)) (0 : Fin 2))).toInt := by
  unfold ScatterDims.start
  rw [dif_pos (show (0 : Fin 2) ∈ (pairScatterDims N M E wf).scatterDimsToOperandDims from by simp)]
  have hsi : (pairScatterDims N M E wf).siIdx j ⟨List.idxOf (0 : Fin 2) (pairScatterDims N M E wf).scatterDimsToOperandDims,
      List.idxOf_lt_length_iff.2 (by simp)⟩ = ix2 (j (0 : Fin 1)) (0 : Fin 2) := by
    funext b; refine Fin.ext ?_
    match b with
    | ⟨0, _⟩ => rfl
    | ⟨1, _⟩ => rfl
  rw [hsi]
  rfl

/-- On operand axis 1 it starts at column 1 of the index row. -/
theorem pair_start1 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (1 : Fin 2) = (idx (ix2 (j (0 : Fin 1)) (1 : Fin 2))).toInt := by
  unfold ScatterDims.start
  rw [dif_pos (show (1 : Fin 2) ∈ (pairScatterDims N M E wf).scatterDimsToOperandDims from by simp)]
  have hsi : (pairScatterDims N M E wf).siIdx j ⟨List.idxOf (1 : Fin 2) (pairScatterDims N M E wf).scatterDimsToOperandDims,
      List.idxOf_lt_length_iff.2 (by simp)⟩ = ix2 (j (0 : Fin 1)) (1 : Fin 2) := by
    funext b; refine Fin.ext ?_
    match b with
    | ⟨0, _⟩ => rfl
    | ⟨1, _⟩ => rfl
  rw [hsi]
  rfl

/-- Both operand axes are inserted: the window coordinate is 0 on each. -/
theorem pair_window {N M E : Nat} (wf : ScatterDims.WF ⟨2, ![N, M]⟩ ⟨2, ![E, 2]⟩ ⟨1, ![E]⟩ [] [0, 1] [0, 1] 1)
    (j : (⟨1, ![E]⟩ : Shape).Idx) (a : Fin 2) :
    (pairScatterDims N M E wf).window j a = 0 := by
  unfold ScatterDims.window
  rw [dif_neg]
  intro h
  match a with
  | ⟨0, _⟩ => simp [ScatterDims.sKept, Shape.kept] at h
  | ⟨1, _⟩ => simp [ScatterDims.sKept, Shape.kept] at h

/-- Update j lands on entry (r, c) exactly when its index row, read signed, is (r, c). -/
theorem pair_resultIdx {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) (r : Fin N) (c : Fin M) :
    (pairScatterDims N M E wf).resultIdx? j idx = some (ix2 r c)
      ↔ (idx (ix2 (j (0 : Fin 1)) (0 : Fin 2))).toInt = (r.val : Int)
        ∧ (idx (ix2 (j (0 : Fin 1)) (1 : Fin 2))).toInt = (c.val : Int) := by
  have hs0 := pair_start0 wf j idx
  have hs1 := pair_start1 wf j idx
  have hw0 := pair_window wf j (0 : Fin 2)
  have hw1 := pair_window wf j (1 : Fin 2)
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      have hc1 := hc (1 : Fin 2)
      simp only [hs0, hw0] at h0 hc0
      simp only [hs1, hw1] at h1 hc1
      change ((idx (ix2 (j (0 : Fin 1)) (0 : Fin 2))).toInt + ((0 : Nat) : Int)).toNat = r.val at h0
      change ((idx (ix2 (j (0 : Fin 1)) (1 : Fin 2))).toInt + ((0 : Nat) : Int)).toNat = c.val at h1
      exact ⟨by omega, by omega⟩
    · exact absurd h (by simp)
  · rintro ⟨h, hcol⟩
    have hc : ∀ a : Fin 2, 0 ≤ (pairScatterDims N M E wf).start j idx a + (pairScatterDims N M E wf).window j a ∧
        (pairScatterDims N M E wf).start j idx a + (pairScatterDims N M E wf).window j a < (⟨2, ![N, M]⟩ : Shape).size a := by
      intro a
      match a with
      | ⟨0, _⟩ =>
        show 0 ≤ (pairScatterDims N M E wf).start j idx (0 : Fin 2) + (pairScatterDims N M E wf).window j (0 : Fin 2) ∧
          (pairScatterDims N M E wf).start j idx (0 : Fin 2) + (pairScatterDims N M E wf).window j (0 : Fin 2) < (N : Int)
        rw [hs0, hw0, h]
        have := r.isLt
        omega
      | ⟨1, _⟩ =>
        show 0 ≤ (pairScatterDims N M E wf).start j idx (1 : Fin 2) + (pairScatterDims N M E wf).window j (1 : Fin 2) ∧
          (pairScatterDims N M E wf).start j idx (1 : Fin 2) + (pairScatterDims N M E wf).window j (1 : Fin 2) < (M : Int)
        rw [hs1, hw1, hcol]
        have := c.isLt
        omega
    rw [dif_pos hc]
    congr 1
    funext a
    refine Fin.ext ?_
    match a with
    | ⟨0, _⟩ =>
      show ((pairScatterDims N M E wf).start j idx (0 : Fin 2) + (pairScatterDims N M E wf).window j (0 : Fin 2)).toNat = r.val
      rw [hs0, hw0, h]
      omega
    | ⟨1, _⟩ =>
      show ((pairScatterDims N M E wf).start j idx (1 : Fin 2) + (pairScatterDims N M E wf).window j (1 : Fin 2)).toNat = c.val
      rw [hs1, hw1, hcol]
      omega

/-- THE PAIR SCATTER READ AT (r, c): the operand's entry plus the updates whose index row reads exactly (r, c). -/
theorem scatterAdd_pair_apply {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (r : Fin N) (c : Fin M) :
    Ideal.hostScatterAdd (pairScatterDims N M E wf) x idx upd (ix2 r c)
      = x (ix2 r c) + ∑ e : Fin E, if (idx (ix2 e (0 : Fin 2))).toInt = (r.val : Int) ∧ (idx (ix2 e (1 : Fin 2))).toInt = (c.val : Int)
          then upd (ix1 e) else 0 := by
  unfold Ideal.hostScatterAdd
  congr 1
  rw [Finset.sum_filter, ← Equiv.sum_comp (idxEquiv1 (n := E)).symm]
  refine Finset.sum_congr rfl (fun e _ => ?_)
  show (if (pairScatterDims N M E wf).resultIdx? (ix1 e) idx = some (ix2 r c) then upd (ix1 e) else 0) = _
  by_cases h : (idx (ix2 e (0 : Fin 2))).toInt = (r.val : Int) ∧ (idx (ix2 e (1 : Fin 2))).toInt = (c.val : Int)
  · rw [if_pos h, if_pos ((pair_resultIdx wf (ix1 e) idx r c).mpr h)]
  · rw [if_neg h, if_neg (fun h' => h ((pair_resultIdx wf (ix1 e) idx r c).mp h'))]

/-- The same when every index row names an entry of the operand: position e's row is (dIdx e, sIdx e). -/
theorem scatterAdd_pair_apply_fin {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (dIdx : Fin E → Fin N) (sIdx : Fin E → Fin M)
    (hd : ∀ e, (idx (ix2 e (0 : Fin 2))).toInt = ((dIdx e).val : Int))
    (hs : ∀ e, (idx (ix2 e (1 : Fin 2))).toInt = ((sIdx e).val : Int))
    (r : Fin N) (c : Fin M) :
    Ideal.hostScatterAdd (pairScatterDims N M E wf) x idx upd (ix2 r c)
      = x (ix2 r c) + ∑ e : Fin E, if dIdx e = r ∧ sIdx e = c then upd (ix1 e) else 0 := by
  rw [scatterAdd_pair_apply]
  congr 1
  refine Finset.sum_congr rfl (fun e _ => ?_)
  rw [hd e, hs e]
  simp only [Nat.cast_inj, Fin.val_inj]

/-! ## Reads when every position names an entry of the operand -/

/-- The row scatter read at (r, o) when position e names row dIdx e. -/
theorem scatterAdd_rows_apply_fin {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dIdx : Fin E → Fin N) (hd : ∀ e, (idx (ix2 e (0 : Fin 1))).toInt = ((dIdx e).val : Int))
    (r : Fin N) (o : Fin C) :
    Ideal.hostScatterAdd (rowScatterDims N C E wf) x idx upd (ix2 r o)
      = x (ix2 r o) + ∑ e : Fin E, if dIdx e = r then upd (ix2 e o) else 0 := by
  rw [scatterAdd_rows_apply]
  congr 1
  refine Finset.sum_congr rfl (fun e _ => ?_)
  rw [hd e]
  simp only [Nat.cast_inj, Fin.val_inj]

/-- The vector scatter read at r when position e names entry dIdx e. -/
theorem scatterAdd_vec_apply_fin {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (dIdx : Fin E → Fin N) (hd : ∀ e, (idx (ix2 e (0 : Fin 1))).toInt = ((dIdx e).val : Int)) (r : Fin N) :
    Ideal.hostScatterAdd (vecScatterDims N E wf) x idx upd (ix1 r)
      = x (ix1 r) + ∑ e : Fin E, if dIdx e = r then upd (ix1 e) else 0 := by
  rw [scatterAdd_vec_apply]
  congr 1
  refine Finset.sum_congr rfl (fun e _ => ?_)
  rw [hd e]
  simp only [Nat.cast_inj, Fin.val_inj]

/-- The row gather read at (e, o) when position e names row sIdx e: the clamp does nothing. -/
theorem gather_rows_apply_fin {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w)
    (sIdx : Fin E → Fin N) (hs : ∀ e, (idx (ix2 e (0 : Fin 1))).toInt = ((sIdx e).val : Int)) (e : Fin E) (o : Fin C) :
    Host.gather (rowGatherDims N C E wf) x idx (ix2 e o) = x (ix2 (sIdx e) o) := by
  have hN : 0 < N := Nat.lt_of_le_of_lt (Nat.zero_le _) (sIdx e).isLt
  rw [gather_rows_apply hN]
  congr 2
  refine Fin.ext ?_
  show min (idx (ix2 e (0 : Fin 1))).toInt.toNat (N - 1) = (sIdx e).val
  rw [hs e]
  have := (sIdx e).isLt
  omega

/-! ## A gather of scalars from a vector: operand [N], positions [E, 1], result [E] -/

/-- The dimension numbers of a gather of scalars from a vector: operand [N], start indices [E, 1], result [E]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at position e's start index read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The vector gather read at e when position e names entry sIdx e: the clamp does nothing. -/
theorem gather_vec_apply_fin {α : Type} {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w)
    (sIdx : Fin E → Fin N) (hs : ∀ e, (idx (ix2 e (0 : Fin 1))).toInt = ((sIdx e).val : Int)) (e : Fin E) :
    Host.gather (vecGatherDims N E wf) x idx (ix1 e) = x (ix1 (sIdx e)) := by
  have hN : 0 < N := Nat.lt_of_le_of_lt (Nat.zero_le _) (sIdx e).isLt
  rw [gather_vec_apply hN]
  congr 2
  refine Fin.ext ?_
  show min (idx (ix2 e (0 : Fin 1))).toInt.toNat (N - 1) = (sIdx e).val
  rw [hs e]
  have := (sIdx e).isLt
  omega

/-! ## Signs: degrees, their inverse square roots, and the edge weights -/

/-- The exact inverse square root of a nonnegative extended real is nonnegative (it is ⊤ at 0 and 0 at ⊤). -/
theorem rsqrt_nonneg {x : EReal} (hx : 0 ≤ x) : 0 ≤ Ideal.rsqrt x := by
  induction x using EReal.rec with
  | bot => exact absurd hx (by simp)
  | top => simp
  | coe r =>
    have hr : 0 ≤ r := by exact_mod_cast hx
    rw [Ideal.rsqrt_coe, if_neg (not_lt.mpr hr)]
    split_ifs
    · exact le_top
    · exact_mod_cast inv_nonneg.mpr (Real.sqrt_nonneg r)

/-- A product of two such roots is nonnegative. -/
theorem rsqrt_mul_rsqrt_nonneg {x y : EReal} (hx : 0 ≤ x) (hy : 0 ≤ y) : 0 ≤ Ideal.rsqrt x * Ideal.rsqrt y :=
  mul_nonneg (rsqrt_nonneg hx) (rsqrt_nonneg hy)

/-- A sum of nonnegative terms over a condition, started from zero, is nonnegative. -/
theorem zero_add_sum_ite_nonneg {ι : Type*} [Fintype ι] (P : ι → Prop) [DecidablePred P] (f : ι → EReal)
    (hf : ∀ e, 0 ≤ f e) : (0 : EReal) ≤ 0 + ∑ e : ι, if P e then f e else 0 := by
  rw [zero_add]
  exact Finset.sum_nonneg (fun e _ => by split_ifs; exacts [hf e, le_rfl])

/-- An accumulating scatter of nonnegative updates into a nonnegative operand is nonnegative at every entry,
    whatever its dimension numbers and positions. -/
theorem hostScatterAdd_nonneg {s si su : Shape} (d : ScatterDims s si su) {w : Nat} (x : s.Idx → EReal)
    (hx : ∀ i, 0 ≤ x i) (idx : IVec si w) (upd : su.Idx → EReal) (hu : ∀ j, 0 ≤ upd j) (i : s.Idx) :
    0 ≤ Ideal.hostScatterAdd d x idx upd i := by
  unfold Ideal.hostScatterAdd
  exact add_nonneg (hx i) (Finset.sum_nonneg (fun j _ => hu j))

/-- A gather only reads entries of its operand: of a nonnegative operand it is nonnegative. -/
theorem gather_nonneg {s si t : Shape} (d : GatherDims s si t) {w : Nat} (x : s.Idx → EReal) (hx : ∀ i, 0 ≤ x i)
    (idx : IVec si w) (j : t.Idx) : 0 ≤ Host.gather d x idx j := by
  unfold Host.gather
  exact hx _

/-- THE EDGE WEIGHTS ARE NONNEGATIVE. With the degrees an accumulating scatter of nonnegative updates into a
    nonnegative array, the weight of an edge, the product of the inverse square roots of two gathered degrees, is
    nonnegative: whatever the dimension numbers and whatever the positions scattered to and gathered from. -/
theorem norm_nonneg {s si su gi t : Shape} {w w' : Nat} (sd : ScatterDims s si su) (gd : GatherDims s gi t)
    (x : s.Idx → EReal) (hx : ∀ i, 0 ≤ x i) (didx : IVec si w) (upd : su.Idx → EReal) (hu : ∀ j, 0 ≤ upd j)
    (i1 i2 : IVec gi w') (j : t.Idx) :
    0 ≤ Host.gather gd (fun r => Ideal.rsqrt (Ideal.hostScatterAdd sd x didx upd r)) i1 j
        * Host.gather gd (fun r => Ideal.rsqrt (Ideal.hostScatterAdd sd x didx upd r)) i2 j :=
  mul_nonneg
    (gather_nonneg gd _ (fun r => rsqrt_nonneg (hostScatterAdd_nonneg sd x hx didx upd hu r)) i1 j)
    (gather_nonneg gd _ (fun r => rsqrt_nonneg (hostScatterAdd_nonneg sd x hx didx upd hu r)) i2 j)

/-- The same over the host operations as a program prints them, at the exact instance: the degrees
    `Host.scatterAdd`, their roots `Host.rsqrt`, the two gathers and the product `mulf`. -/
theorem norm_nonneg_printed {φ : FTy} {s si su gi t : Shape} {w w' : Nat} (sd : ScatterDims s si su) (gd : GatherDims s gi t)
    (x : FVec Ideal s φ) (hx : ∀ i, (0 : EReal) ≤ x i) (didx : IVec si w) (upd : FVec Ideal su φ) (hu : ∀ j, (0 : EReal) ≤ upd j)
    (i1 i2 : IVec gi w') (j : t.Idx) :
    (0 : EReal) ≤ mulf (Host.gather gd (Host.rsqrt (Host.scatterAdd sd x didx upd)) i1)
        (Host.gather gd (Host.rsqrt (Host.scatterAdd sd x didx upd)) i2) j :=
  norm_nonneg sd gd x hx didx upd hu i1 i2 j

end Cert.Lib

end
-- ==== Proof.RefPool.lean ====
/-
  The reference program's pooled table of one graph, index by index.

  Its stages: the degree vector is a scatter-add of ones at the destination words followed by the node numbers; the
  inverse root degree is the inverse square root of the degree cut below, where the degree is positive; every one of the
  1700000 edge-and-self-loop positions gathers its source row of x · W (the start word wrapped when negative, then
  clamped) and multiplies it by the two gathered inverse root degrees; a scatter-add at the destination words, the bias,
  a cut at zero; a scatter-add of the rows at the graph id words and of ones at the same words; a division by the count
  cut below at one.  Reading every stage at an index gives `Cert.Spec.poolOfR` of the arguments and the inverse root
  degree vector.  The degree is a finite sum of ones from zero, so the inverse root degree is a real number.
-/
import proofs.«408358_j51376398795254_3_alg».proof.Proof.RefReadP
import proofs.«408358_j51376398795254_3_alg».proof.Proof.Spec
import proofs.«408358_j51376398795254_3_alg».proof.Proof.LibScatterAdd
import proofs.«408358_j51376398795254_3_alg».proof.Proof.LibGatherRows
import proofs.«408358_j51376398795254_3_alg».proof.Proof.LibAdjacency
import proofs.«408358_j51376398795254_3_alg».proof.Proof.LibRowTile
import proofs.«408358_j51376398795254_3_alg».proof.Proof.LibLayoutColumn
import proofs.«408358_j51376398795254_3_alg».proof.Proof.LibTrailingAxis
import proofs.«408358_j51376398795254_3_alg».proof.Proof.LibPropagate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.ReferenceIdeal.RefPool

open Idealize.ShloMosaic Idealize.ShloMosaic.TcCoe Idealize.ShloMosaic.ValueIdx Idealize.SL.Sem
open Idealize.ShloMosaic.Pipeline (Dat)
open Cert.ReferenceIdeal Cert.ReferenceIdeal.Read

/-! ## The two index columns -/

/-- The source column at position e': the edge's source word, or the node number past the edges. -/
theorem srcCol_apply (x1 : (⟨S2x1600000, .i32⟩ : BufTy).Contents (Elt Ideal)) (e' : Fin 1700000) :
    val_main_v3 (F := Ideal) x1 (ix1 e') = Cert.Spec.loopW (Cert.Spec.srcW x1) e' := by
  unfold Cert.Spec.loopW
  by_cases h : e'.val < 1600000
  · rw [dif_pos h]
    unfold val_main_v3
    refine (concatenate_pair_apply_left (t := S1700000) (s₁ := S1600000) (s₂ := S100000) _ _ _ _ (ix1 e') rfl (ix1 (⟨e'.val, h⟩ : Fin 1600000))
      (fun b => by match b with | ⟨0, _⟩ => rfl)).trans ?_
    rw [val_main_v2_apply, val_main_v1_apply]
    unfold Cert.Spec.srcW
    congr 1
    funext a
    refine Fin.ext ?_
    match a with
    | ⟨0, _⟩ => rfl
    | ⟨1, _⟩ => exact Nat.mod_eq_of_lt h
  · rw [dif_neg h]
    unfold val_main_v3
    refine (concatenate_pair_apply_right (t := S1700000) (s₁ := S1600000) (s₂ := S100000) _ _ _ _ (ix1 e') rfl rfl
      (ix1 (⟨e'.val - 1600000, by have := e'.isLt; omega⟩ : Fin 100000))
      (fun b hb => by match b with | ⟨0, _⟩ => exact absurd rfl hb)
      (by show e'.val - 1600000 + 1600000 = e'.val; omega)).trans ?_
    rfl

/-- The destination column at position e': the edge's destination word, or the node number past the edges. -/
theorem dstCol_apply (x1 : (⟨S2x1600000, .i32⟩ : BufTy).Contents (Elt Ideal)) (e' : Fin 1700000) :
    val_main_v6 (F := Ideal) x1 (ix1 e') = Cert.Spec.loopW (Cert.Spec.dstW x1) e' := by
  unfold Cert.Spec.loopW
  by_cases h : e'.val < 1600000
  · rw [dif_pos h]
    unfold val_main_v6
    refine (concatenate_pair_apply_left (t := S1700000) (s₁ := S1600000) (s₂ := S100000) _ _ _ _ (ix1 e') rfl
      (ix1 (⟨e'.val, h⟩ : Fin 1600000)) (fun b => by match b with | ⟨0, _⟩ => rfl)).trans ?_
    rw [val_main_v5_apply, val_main_v4_apply]
    unfold Cert.Spec.dstW
    congr 1
    funext a
    refine Fin.ext ?_
    match a with
    | ⟨0, _⟩ => rfl
    | ⟨1, _⟩ => exact Nat.mod_eq_of_lt h
  · rw [dif_neg h]
    unfold val_main_v6
    refine (concatenate_pair_apply_right (t := S1700000) (s₁ := S1600000) (s₂ := S100000) _ _ _ _ (ix1 e') rfl rfl
      (ix1 (⟨e'.val - 1600000, by have := e'.isLt; omega⟩ : Fin 100000))
      (fun b hb => by match b with | ⟨0, _⟩ => exact absurd rfl hb)
      (by show e'.val - 1600000 + 1600000 = e'.val; omega)).trans ?_
    rfl

/-! ## The host's accumulating scatter and its gathers at this program's shapes, read at an index

Each read holds for arbitrary operands: an entry of the result is the operand's entry plus the updates landing on it (a
scatter), or the operand's entry at the clamped start word (a gather). -/

/-- At the exact values the host's accumulating scatter is the exact sum (over any shapes). -/
theorem scatterAdd_ideal {s si su : Shape} {φ : FTy} {w : Nat} (d : ScatterDims s si su) (x : FVec Ideal s φ)
    (idx : IVec si w) (upd : FVec Ideal su φ) :
    Host.scatterAdd (F := Ideal) d x idx upd = Ideal.hostScatterAdd d x idx upd := rfl

/-- The printed record of the scatter into the degree vector is the vector scatter's, at 100000 entries and 1700000 positions. -/
theorem vecScatterE_eq : scatter_S100000_S1700000x1_S1700000_n_0_0_1
    = Cert.Lib.vecScatterDims 100000 1700000 Facts₀.scatter_S100000_S1700000x1_S1700000_n_0_0_1_wf := rfl

/-- The printed record of the scatter of the messages is the row scatter's, at 100000 rows of 64 and 1700000 positions. -/
theorem rowScatterE_eq : scatter_S100000x64_S1700000x1_S1700000x64_1_0_0_1
    = Cert.Lib.rowScatterDims 100000 64 1700000 Facts₀.scatter_S100000x64_S1700000x1_S1700000x64_1_0_0_1_wf := rfl

/-- The printed record of the pooling scatter is the row scatter's, at 1024 rows of 64 and 100000 positions. -/
theorem rowScatterG_eq : scatter_S1024x64_S100000x1_S100000x64_1_0_0_1
    = Cert.Lib.rowScatterDims 1024 64 100000 Facts₀.scatter_S1024x64_S100000x1_S100000x64_1_0_0_1_wf := rfl

/-- The printed record of the counting scatter is the vector scatter's, at 1024 entries and 100000 positions. -/
theorem vecScatterG_eq : scatter_S1024_S100000x1_S100000_n_0_0_1
    = Cert.Lib.vecScatterDims 1024 100000 Facts₀.scatter_S1024_S100000x1_S100000_n_0_0_1_wf := rfl

/-- The printed record of the gather from the inverse root degree vector is the vector gather's. -/
theorem vecGatherE_eq : gather_S100000_S1700000x1_S1700000_n_0_n_n_0_1_1
    = Cert.Lib.vecGatherDims 100000 1700000 Facts₀.gather_S100000_S1700000x1_S1700000_n_0_n_n_0_1_1_wf := rfl

/-- The printed record of the gather of the dense product's rows is the row gather's. -/
theorem rowGatherE_eq : gather_S100000x64_S1700000x1_S1700000x64_1_0_n_n_0_1_164
    = Cert.Lib.rowGatherDims 100000 64 1700000 Facts₀.gather_S100000x64_S1700000x1_S1700000x64_1_0_n_n_0_1_164_wf := rfl

/-- A start word read signed and clamped into [0, 100000 − 1] is the row that Cert.Spec.rowOf names. -/
theorem rowOf_eq (w : BitVec 32) (h : min w.toInt.toNat (100000 - 1) < 100000) :
    (⟨min w.toInt.toNat (100000 - 1), h⟩ : Fin 100000) = Cert.Spec.rowOf w := Fin.ext rfl

/-- The scatter of a vector of 1700000 updates into a vector of 100000, read at i. -/
theorem vecScatterE_read (x : FVec Ideal S100000 .f32) (idx : IVec S1700000x1 32) (upd : FVec Ideal S1700000 .f32) (i : Fin 100000) :
    Host.scatterAdd (F := Ideal) scatter_S100000_S1700000x1_S1700000_n_0_0_1 x idx upd (ix1 i)
      = x (ix1 i) + ∑ e : Fin 1700000, if (idx (ix2 e (0 : Fin 1))).toInt = ((i.val : Nat) : Int) then upd (ix1 e) else 0 := by
  rw [scatterAdd_ideal, vecScatterE_eq, Cert.Lib.scatterAdd_vec_apply]

/-- The scatter of 1700000 rows into a table of 100000 rows, read at (i, o). -/
theorem rowScatterE_read (x : FVec Ideal S100000x64 .f32) (idx : IVec S1700000x1 32) (upd : FVec Ideal S1700000x64 .f32)
    (i : Fin 100000) (o : Fin 64) :
    Host.scatterAdd (F := Ideal) scatter_S100000x64_S1700000x1_S1700000x64_1_0_0_1 x idx upd (ix2 i o)
      = x (ix2 i o) + ∑ e : Fin 1700000, if (idx (ix2 e (0 : Fin 1))).toInt = ((i.val : Nat) : Int) then upd (ix2 e o) else 0 := by
  rw [scatterAdd_ideal, rowScatterE_eq, Cert.Lib.scatterAdd_rows_apply]

/-- The scatter of 100000 rows into a table of 1024 rows, read at (g, o). -/
theorem rowScatterG_read (x : FVec Ideal S1024x64 .f32) (idx : IVec S100000x1 32) (upd : FVec Ideal S100000x64 .f32)
    (g : Fin 1024) (o : Fin 64) :
    Host.scatterAdd (F := Ideal) scatter_S1024x64_S100000x1_S100000x64_1_0_0_1 x idx upd (ix2 g o)
      = x (ix2 g o) + ∑ i : Fin 100000, if (idx (ix2 i (0 : Fin 1))).toInt = ((g.val : Nat) : Int) then upd (ix2 i o) else 0 := by
  rw [scatterAdd_ideal, rowScatterG_eq, Cert.Lib.scatterAdd_rows_apply]

/-- The scatter of a vector of 100000 updates into a vector of 1024, read at g. -/
theorem vecScatterG_read (x : FVec Ideal S1024 .f32) (idx : IVec S100000x1 32) (upd : FVec Ideal S100000 .f32) (g : Fin 1024) :
    Host.scatterAdd (F := Ideal) scatter_S1024_S100000x1_S100000_n_0_0_1 x idx upd (ix1 g)
      = x (ix1 g) + ∑ i : Fin 100000, if (idx (ix2 i (0 : Fin 1))).toInt = ((g.val : Nat) : Int) then upd (ix1 i) else 0 := by
  rw [scatterAdd_ideal, vecScatterG_eq, Cert.Lib.scatterAdd_vec_apply]

/-- The gather of 1700000 entries of a vector of 100000, read at e. -/
theorem vecGatherE_read (x : FVec Ideal S100000 .f32) (idx : IVec S1700000x1 32) (e : Fin 1700000) :
    Host.gather gather_S100000_S1700000x1_S1700000_n_0_n_n_0_1_1 x idx (ix1 e)
      = x (ix1 (Cert.Spec.rowOf (idx (ix2 e (0 : Fin 1))))) := by
  rw [vecGatherE_eq, Cert.Lib.gather_vec_apply (Nat.succ_pos _), rowOf_eq]

/-- The gather of 1700000 rows of a table of 100000 rows, read at (e, o). -/
theorem rowGatherE_read (x : FVec Ideal S100000x64 .f32) (idx : IVec S1700000x1 32) (e : Fin 1700000) (o : Fin 64) :
    Host.gather gather_S100000x64_S1700000x1_S1700000x64_1_0_n_n_0_1_164 x idx (ix2 e o)
      = x (ix2 (Cert.Spec.rowOf (idx (ix2 e (0 : Fin 1)))) o) := by
  rw [rowGatherE_eq, Cert.Lib.gather_rows_apply (Nat.succ_pos _), rowOf_eq]

/-! ## The degree and its inverse root -/

/-- The degree of node i: from the start word, one for every position whose destination word reads exactly i. -/
theorem deg_apply (x1 : (⟨S2x1600000, .i32⟩ : BufTy).Contents (Elt Ideal)) (i : Fin 100000) :
    val_main_v10 (F := Ideal) x1 (ix1 i)
      = Ideal.ofBits .f32 0x00000000#32 + ∑ e' : Fin 1700000,
          if (Cert.Spec.loopW (Cert.Spec.dstW x1) e').toInt = ((i.val : Nat) : Int) then Ideal.ofBits .f32 0x3F800000#32 else 0 := by
  unfold val_main_v10
  rw [vecScatterE_read, val_main_v8_apply, val_main_cst_0_apply, Ideal.ofBits_def]
  refine congrArg _ (Finset.sum_congr rfl fun e' _ => ?_)
  rw [val_main_v9_apply, show idx_main_v9 (ix2 e' (0 : Fin 1)) = ix1 e' from funext fun a => by match a with | ⟨0, _⟩ => rfl,
    dstCol_apply, val_main_v7_apply, val_main_cst_apply, Ideal.ofBits_def]

/-- The degree is a real number: the start word is zero and every term is one or zero. -/
theorem deg_real (x1 : (⟨S2x1600000, .i32⟩ : BufTy).Contents (Elt Ideal)) (i : Fin 100000) :
    ∃ r : ℝ, val_main_v10 (F := Ideal) x1 (ix1 i) = (r : EReal) := by
  rw [deg_apply, Ideal.ofBits_zero_f32, Ideal.ofBits_one_f32]
  refine Cert.Lib.Propagate.add_real ⟨0, EReal.coe_zero.symm⟩ (Cert.Lib.Propagate.sum_real _ fun e' => ?_)
  by_cases h : (Cert.Spec.loopW (Cert.Spec.dstW x1) e').toInt = ((i.val : Nat) : Int)
  · rw [if_pos h]; exact ⟨1, EReal.coe_one.symm⟩
  · rw [if_neg h]; exact ⟨0, EReal.coe_zero.symm⟩

/-- The inverse root degree of node i is Cert.Spec.dinvOf of its degree, with zero for the word zero. -/
theorem dinv_apply (x1 : (⟨S2x1600000, .i32⟩ : BufTy).Contents (Elt Ideal)) (i : Fin 100000) :
    val_main_v16 (F := Ideal) x1 (ix1 i)
      = Cert.Spec.dinvOf 0 (Ideal.ofBits .f32 0x2B8CBCCC#32) (val_main_v10 (F := Ideal) x1 (ix1 i)) := by
  unfold Cert.Spec.dinvOf
  rw [val_main_v16_apply, val_main_v12_apply, val_main_v15_apply, val_main_v14_apply, val_main_call0_v1_apply,
    val_main_call0_v0_apply, val_main_cst_3_apply, val_main_v11_apply, val_main_cst_1_apply, val_main_v13_apply,
    val_main_cst_2_apply]
  simp only [Ideal.cmpf_def, Ideal.maximumf_def, Ideal.hostUnary_rsqrt_def, Ideal.ofBits_def, Ideal.ofBits_zero_f32]

/-- The inverse square root of a positive real number is a real number. -/
theorem rsqrt_real_of_pos (m : ℝ) (hm : 0 < m) : ∃ r : ℝ, Ideal.rsqrt (m : EReal) = (r : EReal) :=
  ⟨(Real.sqrt m)⁻¹, by rw [Ideal.rsqrt_coe, if_neg (not_lt.mpr hm.le), if_neg hm.ne']⟩

/-- The inverse root of a real degree is real: where the degree is positive, the cut from below keeps it positive
    (a real number, or the top, whose inverse root is zero); elsewhere the value is zero. -/
theorem dinvOf_real (c : EReal) (d : ℝ) : ∃ r : ℝ, Cert.Spec.dinvOf 0 c (d : EReal) = (r : EReal) := by
  unfold Cert.Spec.dinvOf Scalar.select
  have hcmp : Ideal.cmp .ogt (d : EReal) 0 = BitVec.ofBool (decide ((0 : EReal) < (d : EReal))) := rfl
  rw [hcmp]
  by_cases hd : (0 : EReal) < (d : EReal)
  · rw [decide_eq_true hd, if_pos (show BitVec.ofBool true = (1 : BitVec 1) from rfl)]
    have hd' : 0 < d := EReal.coe_pos.mp hd
    induction c using EReal.rec with
    | bot => rw [max_bot_right]; exact rsqrt_real_of_pos d hd'
    | coe c => rw [← EReal.coe_strictMono.monotone.map_max]; exact rsqrt_real_of_pos _ (lt_max_of_lt_left hd')
    | top => rw [max_top_right, Ideal.rsqrt_top]; exact ⟨0, EReal.coe_zero.symm⟩
  · rw [decide_eq_false hd, if_neg (by decide : ¬ BitVec.ofBool false = (1 : BitVec 1))]
    exact ⟨0, EReal.coe_zero.symm⟩

/-- Every inverse root degree of the first graph is a real number. -/
theorem dinv1_real (x1 : (⟨S2x1600000, .i32⟩ : BufTy).Contents (Elt Ideal)) (i : S100000.Idx) :
    ∃ r : ℝ, val_main_v16 (F := Ideal) x1 i = (r : EReal) := by
  obtain ⟨p, rfl⟩ : ∃ p : Fin 100000, i = ix1 p := ⟨i 0, eq_ix1 i⟩
  obtain ⟨d, hd⟩ := deg_real x1 p
  rw [dinv_apply, hd]
  exact dinvOf_real _ d

/-! ## The wrapped start words, the edge weights and the messages -/

/-- The wrapped source column feeding the gather of inverse root degrees, at position e'. -/
theorem srcWrapD_apply (x1 : (⟨S2x1600000, .i32⟩ : BufTy).Contents (Elt Ideal)) (e' : Fin 1700000) :
    val_main_v22 (F := Ideal) x1 (ix2 e' (0 : Fin 1)) = Cert.Spec.wrapW (Cert.Spec.loopW (Cert.Spec.srcW x1) e') := by
  unfold Cert.Spec.wrapW
  rw [val_main_v22_apply, show idx_main_v22 (ix2 e' (0 : Fin 1)) = ix1 e' from funext fun a => by match a with | ⟨0, _⟩ => rfl,
    val_main_v21_apply, val_main_v18_apply, val_main_v20_apply, val_main_v17_apply, val_main_v19_apply, val_main_c_apply,
    val_main_c_4_apply, srcCol_apply]

/-- The wrapped destination column feeding the gather of inverse root degrees, at position e'. -/
theorem dstWrapD_apply (x1 : (⟨S2x1600000, .i32⟩ : BufTy).Contents (Elt Ideal)) (e' : Fin 1700000) :
    val_main_v29 (F := Ideal) x1 (ix2 e' (0 : Fin 1)) = Cert.Spec.wrapW (Cert.Spec.loopW (Cert.Spec.dstW x1) e') := by
  unfold Cert.Spec.wrapW
  rw [val_main_v29_apply, show idx_main_v29 (ix2 e' (0 : Fin 1)) = ix1 e' from funext fun a => by match a with | ⟨0, _⟩ => rfl,
    val_main_v28_apply, val_main_v25_apply, val_main_v27_apply, val_main_v24_apply, val_main_v26_apply, val_main_c_5_apply,
    val_main_c_6_apply, dstCol_apply]

/-- The wrapped source column feeding the gather of rows, at position e'. -/
theorem srcWrapH_apply (x1 : (⟨S2x1600000, .i32⟩ : BufTy).Contents (Elt Ideal)) (e' : Fin 1700000) :
    val_main_v38 (F := Ideal) x1 (ix2 e' (0 : Fin 1)) = Cert.Spec.wrapW (Cert.Spec.loopW (Cert.Spec.srcW x1) e') := by
  unfold Cert.Spec.wrapW
  rw [val_main_v38_apply, show idx_main_v38 (ix2 e' (0 : Fin 1)) = ix1 e' from funext fun a => by match a with | ⟨0, _⟩ => rfl,
    val_main_v37_apply, val_main_v34_apply, val_main_v36_apply, val_main_v33_apply, val_main_v35_apply, val_main_c_7_apply,
    val_main_c_8_apply, srcCol_apply]

/-- The weight of position e': the inverse root degrees at its source row and at its destination row, multiplied. -/
theorem weight_apply (x1 : (⟨S2x1600000, .i32⟩ : BufTy).Contents (Elt Ideal)) (e' : Fin 1700000) :
    val_main_v31 (F := Ideal) x1 (ix1 e')
      = val_main_v16 (F := Ideal) x1 (ix1 (Cert.Spec.rowOf (Cert.Spec.wrapW (Cert.Spec.loopW (Cert.Spec.srcW x1) e'))))
        * val_main_v16 (F := Ideal) x1 (ix1 (Cert.Spec.rowOf (Cert.Spec.wrapW (Cert.Spec.loopW (Cert.Spec.dstW x1) e')))) := by
  rw [val_main_v31_apply]
  unfold val_main_v23 val_main_v30
  rw [vecGatherE_read, vecGatherE_read, srcWrapD_apply, dstWrapD_apply, Ideal.mulf_def]

/-- Entry (r, o) of the dense layer's product is Cert.Spec.hmat. -/
theorem dense_apply (x0 : (⟨S100000x32, .f32⟩ : BufTy).Contents (Elt Ideal)) (x6 : (⟨S32x64, .f32⟩ : BufTy).Contents (Elt Ideal))
    (r : Fin 100000) (o : Fin 64) :
    val_main_v32 (F := Ideal) x0 x6 (ix2 r o) = Cert.Spec.hmat x0 x6 r o := by
  rw [val_main_v32_apply]
  unfold Cert.Spec.hmat
  refine Finset.sum_congr rfl fun k _ => ?_
  rw [show lidx_main_v32 (ix2 r o) k = ix2 r k from funext fun a => by match a with | ⟨0, _⟩ => rfl | ⟨1, _⟩ => rfl,
    show ridx_main_v32 (ix2 r o) k = ix2 k o from funext fun a => by match a with | ⟨0, _⟩ => rfl | ⟨1, _⟩ => rfl]

/-- The message of position e' at column o: its source row of the dense product times its weight. -/
theorem msg_apply (x0 : (⟨S100000x32, .f32⟩ : BufTy).Contents (Elt Ideal)) (x1 : (⟨S2x1600000, .i32⟩ : BufTy).Contents (Elt Ideal))
    (x6 : (⟨S32x64, .f32⟩ : BufTy).Contents (Elt Ideal)) (e' : Fin 1700000) (o : Fin 64) :
    val_main_v42 (F := Ideal) x0 x1 x6 (ix2 e' o)
      = Cert.Spec.hmat x0 x6 (Cert.Spec.rowOf (Cert.Spec.wrapW (Cert.Spec.loopW (Cert.Spec.srcW x1) e'))) o
        * (val_main_v16 (F := Ideal) x1 (ix1 (Cert.Spec.rowOf (Cert.Spec.wrapW (Cert.Spec.loopW (Cert.Spec.srcW x1) e'))))
          * val_main_v16 (F := Ideal) x1 (ix1 (Cert.Spec.rowOf (Cert.Spec.wrapW (Cert.Spec.loopW (Cert.Spec.dstW x1) e'))))) := by
  rw [val_main_v42_apply, val_main_v41_apply,
    show idx_main_v41 (ix2 e' o) = ix2 e' (0 : Fin 1) from funext fun a => by match a with | ⟨0, _⟩ => rfl | ⟨1, _⟩ => rfl,
    val_main_v40_apply, show idx_main_v40 (ix2 e' (0 : Fin 1)) = ix1 e' from funext fun a => by match a with | ⟨0, _⟩ => rfl,
    weight_apply]
  unfold val_main_v39
  rw [rowGatherE_read, srcWrapH_apply, dense_apply, Ideal.mulf_def]

/-! ## The sum over the positions, the bias and the cut at zero -/

/-- The activated entry (i, o): Cert.Spec.outR of the arguments and the inverse root degree vector, cut at zero. -/
theorem act_apply (x0 : (⟨S100000x32, .f32⟩ : BufTy).Contents (Elt Ideal)) (x1 : (⟨S2x1600000, .i32⟩ : BufTy).Contents (Elt Ideal))
    (x6 : (⟨S32x64, .f32⟩ : BufTy).Contents (Elt Ideal)) (x7 : (⟨S64, .f32⟩ : BufTy).Contents (Elt Ideal)) (i : Fin 100000) (o : Fin 64) :
    val_main_v49 (F := Ideal) x0 x1 x6 x7 (ix2 i o)
      = max (Cert.Spec.outR (Ideal.ofBits .f32 0x00000000#32) (Cert.Spec.srcW x1) (Cert.Spec.dstW x1) (Cert.Spec.hmat x0 x6)
          (fun i => val_main_v16 (F := Ideal) x1 (ix1 i)) (fun o => x7 (ix1 o)) i o) 0 := by
  unfold Cert.Spec.outR
  rw [val_main_v49_apply, val_main_v48_apply, val_main_call1_v0_apply, val_main_call1_cst_apply, val_main_v47_apply,
    show idx_main_v47 (ix2 i o) = ix2 (0 : Fin 1) o from funext fun a => by match a with | ⟨0, _⟩ => rfl | ⟨1, _⟩ => rfl,
    val_main_v46_apply, show idx_main_v46 (ix2 (0 : Fin 1) o) = ix1 o from funext fun a => by match a with | ⟨0, _⟩ => rfl,
    Ideal.maximumf_def, Ideal.addf_def, Ideal.ofBits_def, Ideal.ofBits_zero_f32]
  unfold val_main_v45
  rw [rowScatterE_read, val_main_v43_apply, val_main_cst_9_apply, Ideal.ofBits_def, Ideal.ofBits_zero_f32]
  refine congrArg (fun t => max (0 + t + x7 (ix1 o)) 0) (Finset.sum_congr rfl fun e' _ => ?_)
  rw [val_main_v44_apply, show idx_main_v44 (ix2 e' (0 : Fin 1)) = ix1 e' from funext fun a => by match a with | ⟨0, _⟩ => rfl,
    dstCol_apply, msg_apply]

/-! ## The pooling: each node's row added into its graph's row, and the count -/

/-- The pooled sums at (g, o): from the start word, the activated row entries of the nodes whose graph id word reads g. -/
theorem sums_apply (x0 : (⟨S100000x32, .f32⟩ : BufTy).Contents (Elt Ideal)) (x1 : (⟨S2x1600000, .i32⟩ : BufTy).Contents (Elt Ideal))
    (x2 : (⟨S100000, .i32⟩ : BufTy).Contents (Elt Ideal)) (x6 : (⟨S32x64, .f32⟩ : BufTy).Contents (Elt Ideal))
    (x7 : (⟨S64, .f32⟩ : BufTy).Contents (Elt Ideal)) (g : Fin 1024) (o : Fin 64) :
    val_main_v52 (F := Ideal) x0 x1 x2 x6 x7 (ix2 g o)
      = Ideal.ofBits .f32 0x00000000#32 + ∑ i : Fin 100000,
          if (x2 (ix1 i)).toInt = ((g.val : Nat) : Int) then val_main_v49 (F := Ideal) x0 x1 x6 x7 (ix2 i o) else 0 := by
  unfold val_main_v52
  rw [rowScatterG_read, val_main_v50_apply, val_main_cst_10_apply, Ideal.ofBits_def]
  refine congrArg _ (Finset.sum_congr rfl fun i _ => ?_)
  rw [val_main_v51_apply, show idx_main_v51 (ix2 i (0 : Fin 1)) = ix1 i from funext fun a => by match a with | ⟨0, _⟩ => rfl]

/-- The count at g: from the start word, the word one for every node whose graph id word reads g. -/
theorem count_apply (x2 : (⟨S100000, .i32⟩ : BufTy).Contents (Elt Ideal)) (g : Fin 1024) :
    val_main_v56 (F := Ideal) x2 (ix1 g)
      = Ideal.ofBits .f32 0x00000000#32 + ∑ i : Fin 100000,
          if (x2 (ix1 i)).toInt = ((g.val : Nat) : Int) then Ideal.ofBits .f32 0x3F800000#32 else 0 := by
  unfold val_main_v56
  rw [vecScatterG_read, val_main_v54_apply, val_main_cst_12_apply, Ideal.ofBits_def]
  refine congrArg _ (Finset.sum_congr rfl fun i _ => ?_)
  rw [val_main_v55_apply, show idx_main_v55 (ix2 i (0 : Fin 1)) = ix1 i from funext fun a => by match a with | ⟨0, _⟩ => rfl,
    val_main_v53_apply, val_main_cst_11_apply, Ideal.ofBits_def]

/-- The divisor at (g, o): the count cut below at the word one. -/
theorem divisor_apply (x2 : (⟨S100000, .i32⟩ : BufTy).Contents (Elt Ideal)) (g : Fin 1024) (o : Fin 64) :
    val_main_v60 (F := Ideal) x2 (ix2 g o)
      = max (val_main_v56 (F := Ideal) x2 (ix1 g)) (Ideal.ofBits .f32 0x3F800000#32) := by
  rw [val_main_v60_apply, show idx_main_v60 (ix2 g o) = ix2 g (0 : Fin 1) from funext fun a => by match a with | ⟨0, _⟩ => rfl | ⟨1, _⟩ => rfl,
    val_main_v59_apply, show idx_main_v59 (ix2 g (0 : Fin 1)) = ix1 g from funext fun a => by match a with | ⟨0, _⟩ => rfl,
    val_main_v58_apply, val_main_v57_apply, val_main_cst_13_apply, Ideal.maximumf_def, Ideal.ofBits_def]

/-- Cert.Spec.poolOfR read at (g, o): the pooled sums over the count cut below, with the activated entries spelt out. -/
theorem poolOfR_apply (z one : EReal) (x : (⟨2, ![100000, 32]⟩ : Shape).Idx → EReal) (ei : (⟨2, ![2, 1600000]⟩ : Shape).Idx → BitVec 32)
    (dvec : (⟨1, ![100000]⟩ : Shape).Idx → EReal) (bt : (⟨1, ![100000]⟩ : Shape).Idx → BitVec 32)
    (W : (⟨2, ![32, 64]⟩ : Shape).Idx → EReal) (b : (⟨1, ![64]⟩ : Shape).Idx → EReal) (g : Fin 1024) (o : Fin 64) :
    Cert.Spec.poolOfR z one x ei dvec bt W b (ix2 g o)
      = Ideal.div (z + ∑ i : Fin 100000, if (bt (ix1 i)).toInt = ((g.val : Nat) : Int)
            then max (Cert.Spec.outR z (Cert.Spec.srcW ei) (Cert.Spec.dstW ei) (Cert.Spec.hmat x W) (fun i => dvec (ix1 i))
              (fun o => b (ix1 o)) i o) 0 else 0)
          (max (z + ∑ i : Fin 100000, if (bt (ix1 i)).toInt = ((g.val : Nat) : Int) then one else 0) one) := rfl

/-- The first graph's pooled table is `Cert.Spec.poolOfR` of its arguments and its inverse root degree vector. -/
theorem pooled1_eq (x0 : (⟨S100000x32, .f32⟩ : BufTy).Contents (Elt Ideal)) (x1 : (⟨S2x1600000, .i32⟩ : BufTy).Contents (Elt Ideal)) (x2 : (⟨S100000, .i32⟩ : BufTy).Contents (Elt Ideal))
    (x6 : (⟨S32x64, .f32⟩ : BufTy).Contents (Elt Ideal)) (x7 : (⟨S64, .f32⟩ : BufTy).Contents (Elt Ideal)) :
    val_main_v61 (F := Ideal) x0 x1 x2 x6 x7
      = Cert.Spec.poolOfR (Ideal.ofBits .f32 0x00000000#32) (Ideal.ofBits .f32 0x3F800000#32) x0 x1 (val_main_v16 (F := Ideal) x1) x2 x6 x7 := by
  funext j
  obtain ⟨g, o, rfl⟩ : ∃ (g : Fin 1024) (o : Fin 64), j = ix2 g o := ⟨j 0, j 1, eq_ix2 j⟩
  have hsum : (∑ i : Fin 100000, if (x2 (ix1 i)).toInt = ((g.val : Nat) : Int)
        then val_main_v49 (F := Ideal) x0 x1 x6 x7 (ix2 i o) else 0)
      = ∑ i : Fin 100000, if (x2 (ix1 i)).toInt = ((g.val : Nat) : Int)
        then max (Cert.Spec.outR (Ideal.ofBits .f32 0x00000000#32) (Cert.Spec.srcW x1) (Cert.Spec.dstW x1) (Cert.Spec.hmat x0 x6)
          (fun i => val_main_v16 (F := Ideal) x1 (ix1 i)) (fun o => x7 (ix1 o)) i o) 0 else 0 :=
    Finset.sum_congr rfl fun i _ => by rw [act_apply]
  rw [val_main_v61_apply, sums_apply, divisor_apply, count_apply, Ideal.hostDivf_def, poolOfR_apply, hsum]

end Cert.ReferenceIdeal.RefPool

end
-- ==== Proof.RefPool2.lean ====
/-
  The reference program's pooled table of one graph, index by index.

  Its stages: the degree vector is a scatter-add of ones at the destination words followed by the node numbers; the
  inverse root degree is the inverse square root of the degree cut below, where the degree is positive; every one of the
  1700000 edge-and-self-loop positions gathers its source row of x · W (the start word wrapped when negative, then
  clamped) and multiplies it by the two gathered inverse root degrees; a scatter-add at the destination words, the bias,
  a cut at zero; a scatter-add of the rows at the graph id words and of ones at the same words; a division by the count
  cut below at one.  Reading every stage at an index gives `Cert.Spec.poolOfR` of the arguments and the inverse root
  degree vector.  The degree is a finite sum of ones from zero, so the inverse root degree is a real number.
-/
import proofs.«408358_j51376398795254_3_alg».proof.Proof.RefReadP
import proofs.«408358_j51376398795254_3_alg».proof.Proof.Spec
import proofs.«408358_j51376398795254_3_alg».proof.Proof.LibScatterAdd
import proofs.«408358_j51376398795254_3_alg».proof.Proof.LibGatherRows
import proofs.«408358_j51376398795254_3_alg».proof.Proof.LibAdjacency
import proofs.«408358_j51376398795254_3_alg».proof.Proof.LibRowTile
import proofs.«408358_j51376398795254_3_alg».proof.Proof.LibLayoutColumn
import proofs.«408358_j51376398795254_3_alg».proof.Proof.LibTrailingAxis
import proofs.«408358_j51376398795254_3_alg».proof.Proof.LibPropagate
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.ReferenceIdeal.RefPool2

open Idealize.ShloMosaic Idealize.ShloMosaic.TcCoe Idealize.ShloMosaic.ValueIdx Idealize.SL.Sem
open Idealize.ShloMosaic.Pipeline (Dat)
open Cert.ReferenceIdeal Cert.ReferenceIdeal.Read

/-! ## The two index columns -/

/-- The source column at position e': the edge's source word, or the node number past the edges. -/
theorem srcCol_apply (x4 : (⟨S2x1600000, .i32⟩ : BufTy).Contents (Elt Ideal)) (e' : Fin 1700000) :
    val_main_v65 (F := Ideal) x4 (ix1 e') = Cert.Spec.loopW (Cert.Spec.srcW x4) e' := by
  unfold Cert.Spec.loopW
  by_cases h : e'.val < 1600000
  · rw [dif_pos h]
    unfold val_main_v65
    refine (concatenate_pair_apply_left (t := S1700000) (s₁ := S1600000) (s₂ := S100000) _ _ _ _ (ix1 e') rfl (ix1 (⟨e'.val, h⟩ : Fin 1600000))
      (fun b => by match b with | ⟨0, _⟩ => rfl)).trans ?_
    rw [val_main_v64_apply, val_main_v63_apply]
    unfold Cert.Spec.srcW
    congr 1
    funext a
    refine Fin.ext ?_
    match a with
    | ⟨0, _⟩ => rfl
    | ⟨1, _⟩ => exact Nat.mod_eq_of_lt h
  · rw [dif_neg h]
    unfold val_main_v65
    refine (concatenate_pair_apply_right (t := S1700000) (s₁ := S1600000) (s₂ := S100000) _ _ _ _ (ix1 e') rfl rfl
      (ix1 (⟨e'.val - 1600000, by have := e'.isLt; omega⟩ : Fin 100000))
      (fun b hb => by match b with | ⟨0, _⟩ => exact absurd rfl hb)
      (by show e'.val - 1600000 + 1600000 = e'.val; omega)).trans ?_
    rfl

/-- The destination column at position e': the edge's destination word, or the node number past the edges. -/
theorem dstCol_apply (x4 : (⟨S2x1600000, .i32⟩ : BufTy).Contents (Elt Ideal)) (e' : Fin 1700000) :
    val_main_v68 (F := Ideal) x4 (ix1 e') = Cert.Spec.loopW (Cert.Spec.dstW x4) e' := by
  unfold Cert.Spec.loopW
  by_cases h : e'.val < 1600000
  · rw [dif_pos h]
    unfold val_main_v68
    refine (concatenate_pair_apply_left (t := S1700000) (s₁ := S1600000) (s₂ := S100000) _ _ _ _ (ix1 e') rfl
      (ix1 (⟨e'.val, h⟩ : Fin 1600000)) (fun b => by match b with | ⟨0, _⟩ => rfl)).trans ?_
    rw [val_main_v67_apply, val_main_v66_apply]
    unfold Cert.Spec.dstW
    congr 1
    funext a
    refine Fin.ext ?_
    match a with
    | ⟨0, _⟩ => rfl
    | ⟨1, _⟩ => exact Nat.mod_eq_of_lt h
  · rw [dif_neg h]
    unfold val_main_v68
    refine (concatenate_pair_apply_right (t := S1700000) (s₁ := S1600000) (s₂ := S100000) _ _ _ _ (ix1 e') rfl rfl
      (ix1 (⟨e'.val - 1600000, by have := e'.isLt; omega⟩ : Fin 100000))
      (fun b hb => by match b with | ⟨0, _⟩ => exact absurd rfl hb)
      (by show e'.val - 1600000 + 1600000 = e'.val; omega)).trans ?_
    rfl

/-! ## The host's accumulating scatter and its gathers at this program's shapes, read at an index

Each read holds for arbitrary operands: an entry of the result is the operand's entry plus the updates landing on it (a
scatter), or the operand's entry at the clamped start word (a gather). -/

/-- At the exact values the host's accumulating scatter is the exact sum (over any shapes). -/
theorem scatterAdd_ideal {s si su : Shape} {φ : FTy} {w : Nat} (d : ScatterDims s si su) (x : FVec Ideal s φ)
    (idx : IVec si w) (upd : FVec Ideal su φ) :
    Host.scatterAdd (F := Ideal) d x idx upd = Ideal.hostScatterAdd d x idx upd := rfl

/-- The printed record of the scatter into the degree vector is the vector scatter's, at 100000 entries and 1700000 positions. -/
theorem vecScatterE_eq : scatter_S100000_S1700000x1_S1700000_n_0_0_1
    = Cert.Lib.vecScatterDims 100000 1700000 Facts₀.scatter_S100000_S1700000x1_S1700000_n_0_0_1_wf := rfl

/-- The printed record of the scatter of the messages is the row scatter's, at 100000 rows of 64 and 1700000 positions. -/
theorem rowScatterE_eq : scatter_S100000x64_S1700000x1_S1700000x64_1_0_0_1
    = Cert.Lib.rowScatterDims 100000 64 1700000 Facts₀.scatter_S100000x64_S1700000x1_S1700000x64_1_0_0_1_wf := rfl

/-- The printed record of the pooling scatter is the row scatter's, at 1024 rows of 64 and 100000 positions. -/
theorem rowScatterG_eq : scatter_S1024x64_S100000x1_S100000x64_1_0_0_1
    = Cert.Lib.rowScatterDims 1024 64 100000 Facts₀.scatter_S1024x64_S100000x1_S100000x64_1_0_0_1_wf := rfl

/-- The printed record of the counting scatter is the vector scatter's, at 1024 entries and 100000 positions. -/
theorem vecScatterG_eq : scatter_S1024_S100000x1_S100000_n_0_0_1
    = Cert.Lib.vecScatterDims 1024 100000 Facts₀.scatter_S1024_S100000x1_S100000_n_0_0_1_wf := rfl

/-- The printed record of the gather from the inverse root degree vector is the vector gather's. -/
theorem vecGatherE_eq : gather_S100000_S1700000x1_S1700000_n_0_n_n_0_1_1
    = Cert.Lib.vecGatherDims 100000 1700000 Facts₀.gather_S100000_S1700000x1_S1700000_n_0_n_n_0_1_1_wf := rfl

/-- The printed record of the gather of the dense product's rows is the row gather's. -/
theorem rowGatherE_eq : gather_S100000x64_S1700000x1_S1700000x64_1_0_n_n_0_1_164
    = Cert.Lib.rowGatherDims 100000 64 1700000 Facts₀.gather_S100000x64_S1700000x1_S1700000x64_1_0_n_n_0_1_164_wf := rfl

/-- A start word read signed and clamped into [0, 100000 − 1] is the row that Cert.Spec.rowOf names. -/
theorem rowOf_eq (w : BitVec 32) (h : min w.toInt.toNat (100000 - 1) < 100000) :
    (⟨min w.toInt.toNat (100000 - 1), h⟩ : Fin 100000) = Cert.Spec.rowOf w := Fin.ext rfl

/-- The scatter of a vector of 1700000 updates into a vector of 100000, read at i. -/
theorem vecScatterE_read (x : FVec Ideal S100000 .f32) (idx : IVec S1700000x1 32) (upd : FVec Ideal S1700000 .f32) (i : Fin 100000) :
    Host.scatterAdd (F := Ideal) scatter_S100000_S1700000x1_S1700000_n_0_0_1 x idx upd (ix1 i)
      = x (ix1 i) + ∑ e : Fin 1700000, if (idx (ix2 e (0 : Fin 1))).toInt = ((i.val : Nat) : Int) then upd (ix1 e) else 0 := by
  rw [scatterAdd_ideal, vecScatterE_eq, Cert.Lib.scatterAdd_vec_apply]

/-- The scatter of 1700000 rows into a table of 100000 rows, read at (i, o). -/
theorem rowScatterE_read (x : FVec Ideal S100000x64 .f32) (idx : IVec S1700000x1 32) (upd : FVec Ideal S1700000x64 .f32)
    (i : Fin 100000) (o : Fin 64) :
    Host.scatterAdd (F := Ideal) scatter_S100000x64_S1700000x1_S1700000x64_1_0_0_1 x idx upd (ix2 i o)
      = x (ix2 i o) + ∑ e : Fin 1700000, if (idx (ix2 e (0 : Fin 1))).toInt = ((i.val : Nat) : Int) then upd (ix2 e o) else 0 := by
  rw [scatterAdd_ideal, rowScatterE_eq, Cert.Lib.scatterAdd_rows_apply]

/-- The scatter of 100000 rows into a table of 1024 rows, read at (g, o). -/
theorem rowScatterG_read (x : FVec Ideal S1024x64 .f32) (idx : IVec S100000x1 32) (upd : FVec Ideal S100000x64 .f32)
    (g : Fin 1024) (o : Fin 64) :
    Host.scatterAdd (F := Ideal) scatter_S1024x64_S100000x1_S100000x64_1_0_0_1 x idx upd (ix2 g o)
      = x (ix2 g o) + ∑ i : Fin 100000, if (idx (ix2 i (0 : Fin 1))).toInt = ((g.val : Nat) : Int) then upd (ix2 i o) else 0 := by
  rw [scatterAdd_ideal, rowScatterG_eq, Cert.Lib.scatterAdd_rows_apply]

/-- The scatter of a vector of 100000 updates into a vector of 1024, read at g. -/
theorem vecScatterG_read (x : FVec Ideal S1024 .f32) (idx : IVec S100000x1 32) (upd : FVec Ideal S100000 .f32) (g : Fin 1024) :
    Host.scatterAdd (F := Ideal) scatter_S1024_S100000x1_S100000_n_0_0_1 x idx upd (ix1 g)
      = x (ix1 g) + ∑ i : Fin 100000, if (idx (ix2 i (0 : Fin 1))).toInt = ((g.val : Nat) : Int) then upd (ix1 i) else 0 := by
  rw [scatterAdd_ideal, vecScatterG_eq, Cert.Lib.scatterAdd_vec_apply]

/-- The gather of 1700000 entries of a vector of 100000, read at e. -/
theorem vecGatherE_read (x : FVec Ideal S100000 .f32) (idx : IVec S1700000x1 32) (e : Fin 1700000) :
    Host.gather gather_S100000_S1700000x1_S1700000_n_0_n_n_0_1_1 x idx (ix1 e)
      = x (ix1 (Cert.Spec.rowOf (idx (ix2 e (0 : Fin 1))))) := by
  rw [vecGatherE_eq, Cert.Lib.gather_vec_apply (Nat.succ_pos _), rowOf_eq]

/-- The gather of 1700000 rows of a table of 100000 rows, read at (e, o). -/
theorem rowGatherE_read (x : FVec Ideal S100000x64 .f32) (idx : IVec S1700000x1 32) (e : Fin 1700000) (o : Fin 64) :
    Host.gather gather_S100000x64_S1700000x1_S1700000x64_1_0_n_n_0_1_164 x idx (ix2 e o)
      = x (ix2 (Cert.Spec.rowOf (idx (ix2 e (0 : Fin 1)))) o) := by
  rw [rowGatherE_eq, Cert.Lib.gather_rows_apply (Nat.succ_pos _), rowOf_eq]

/-! ## The degree and its inverse root -/

/-- The degree of node i: from the start word, one for every position whose destination word reads exactly i. -/
theorem deg_apply (x4 : (⟨S2x1600000, .i32⟩ : BufTy).Contents (Elt Ideal)) (i : Fin 100000) :
    val_main_v72 (F := Ideal) x4 (ix1 i)
      = Ideal.ofBits .f32 0x00000000#32 + ∑ e' : Fin 1700000,
          if (Cert.Spec.loopW (Cert.Spec.dstW x4) e').toInt = ((i.val : Nat) : Int) then Ideal.ofBits .f32 0x3F800000#32 else 0 := by
  unfold val_main_v72
  rw [vecScatterE_read, val_main_v70_apply, val_main_cst_15_apply, Ideal.ofBits_def]
  refine congrArg _ (Finset.sum_congr rfl fun e' _ => ?_)
  rw [val_main_v71_apply, show idx_main_v71 (ix2 e' (0 : Fin 1)) = ix1 e' from funext fun a => by match a with | ⟨0, _⟩ => rfl,
    dstCol_apply, val_main_v69_apply, val_main_cst_14_apply, Ideal.ofBits_def]

/-- The degree is a real number: the start word is zero and every term is one or zero. -/
theorem deg_real (x4 : (⟨S2x1600000, .i32⟩ : BufTy).Contents (Elt Ideal)) (i : Fin 100000) :
    ∃ r : ℝ, val_main_v72 (F := Ideal) x4 (ix1 i) = (r : EReal) := by
  rw [deg_apply, Ideal.ofBits_zero_f32, Ideal.ofBits_one_f32]
  refine Cert.Lib.Propagate.add_real ⟨0, EReal.coe_zero.symm⟩ (Cert.Lib.Propagate.sum_real _ fun e' => ?_)
  by_cases h : (Cert.Spec.loopW (Cert.Spec.dstW x4) e').toInt = ((i.val : Nat) : Int)
  · rw [if_pos h]; exact ⟨1, EReal.coe_one.symm⟩
  · rw [if_neg h]; exact ⟨0, EReal.coe_zero.symm⟩

/-- The inverse root degree of node i is Cert.Spec.dinvOf of its degree, with zero for the word zero. -/
theorem dinv_apply (x4 : (⟨S2x1600000, .i32⟩ : BufTy).Contents (Elt Ideal)) (i : Fin 100000) :
    val_main_v78 (F := Ideal) x4 (ix1 i)
      = Cert.Spec.dinvOf 0 (Ideal.ofBits .f32 0x2B8CBCCC#32) (val_main_v72 (F := Ideal) x4 (ix1 i)) := by
  unfold Cert.Spec.dinvOf
  rw [val_main_v78_apply, val_main_v74_apply, val_main_v77_apply, val_main_v76_apply, val_main_call2_v1_apply,
    val_main_call2_v0_apply, val_main_cst_18_apply, val_main_v73_apply, val_main_cst_16_apply, val_main_v75_apply,
    val_main_cst_17_apply]
  simp only [Ideal.cmpf_def, Ideal.maximumf_def, Ideal.hostUnary_rsqrt_def, Ideal.ofBits_def, Ideal.ofBits_zero_f32]

/-- The inverse square root of a positive real number is a real number. -/
theorem rsqrt_real_of_pos (m : ℝ) (hm : 0 < m) : ∃ r : ℝ, Ideal.rsqrt (m : EReal) = (r : EReal) :=
  ⟨(Real.sqrt m)⁻¹, by rw [Ideal.rsqrt_coe, if_neg (not_lt.mpr hm.le), if_neg hm.ne']⟩

/-- The inverse root of a real degree is real: where the degree is positive, the cut from below keeps it positive
    (a real number, or the top, whose inverse root is zero); elsewhere the value is zero. -/
theorem dinvOf_real (c : EReal) (d : ℝ) : ∃ r : ℝ, Cert.Spec.dinvOf 0 c (d : EReal) = (r : EReal) := by
  unfold Cert.Spec.dinvOf Scalar.select
  have hcmp : Ideal.cmp .ogt (d : EReal) 0 = BitVec.ofBool (decide ((0 : EReal) < (d : EReal))) := rfl
  rw [hcmp]
  by_cases hd : (0 : EReal) < (d : EReal)
  · rw [decide_eq_true hd, if_pos (show BitVec.ofBool true = (1 : BitVec 1) from rfl)]
    have hd' : 0 < d := EReal.coe_pos.mp hd
    induction c using EReal.rec with
    | bot => rw [max_bot_right]; exact rsqrt_real_of_pos d hd'
    | coe c => rw [← EReal.coe_strictMono.monotone.map_max]; exact rsqrt_real_of_pos _ (lt_max_of_lt_left hd')
    | top => rw [max_top_right, Ideal.rsqrt_top]; exact ⟨0, EReal.coe_zero.symm⟩
  · rw [decide_eq_false hd, if_neg (by decide : ¬ BitVec.ofBool false = (1 : BitVec 1))]
    exact ⟨0, EReal.coe_zero.symm⟩

/-- Every inverse root degree of the second graph is a real number. -/
theorem dinv2_real (x4 : (⟨S2x1600000, .i32⟩ : BufTy).Contents (Elt Ideal)) (i : S100000.Idx) :
    ∃ r : ℝ, val_main_v78 (F := Ideal) x4 i = (r : EReal) := by
  obtain ⟨p, rfl⟩ : ∃ p : Fin 100000, i = ix1 p := ⟨i 0, eq_ix1 i⟩
  obtain ⟨d, hd⟩ := deg_real x4 p
  rw [dinv_apply, hd]
  exact dinvOf_real _ d

/-! ## The wrapped start words, the edge weights and the messages -/

/-- The wrapped source column feeding the gather of inverse root degrees, at position e'. -/
theorem srcWrapD_apply (x4 : (⟨S2x1600000, .i32⟩ : BufTy).Contents (Elt Ideal)) (e' : Fin 1700000) :
    val_main_v84 (F := Ideal) x4 (ix2 e' (0 : Fin 1)) = Cert.Spec.wrapW (Cert.Spec.loopW (Cert.Spec.srcW x4) e') := by
  unfold Cert.Spec.wrapW
  rw [val_main_v84_apply, show idx_main_v84 (ix2 e' (0 : Fin 1)) = ix1 e' from funext fun a => by match a with | ⟨0, _⟩ => rfl,
    val_main_v83_apply, val_main_v80_apply, val_main_v82_apply, val_main_v79_apply, val_main_v81_apply, val_main_c_19_apply,
    val_main_c_20_apply, srcCol_apply]

/-- The wrapped destination column feeding the gather of inverse root degrees, at position e'. -/
theorem dstWrapD_apply (x4 : (⟨S2x1600000, .i32⟩ : BufTy).Contents (Elt Ideal)) (e' : Fin 1700000) :
    val_main_v91 (F := Ideal) x4 (ix2 e' (0 : Fin 1)) = Cert.Spec.wrapW (Cert.Spec.loopW (Cert.Spec.dstW x4) e') := by
  unfold Cert.Spec.wrapW
  rw [val_main_v91_apply, show idx_main_v91 (ix2 e' (0 : Fin 1)) = ix1 e' from funext fun a => by match a with | ⟨0, _⟩ => rfl,
    val_main_v90_apply, val_main_v87_apply, val_main_v89_apply, val_main_v86_apply, val_main_v88_apply, val_main_c_21_apply,
    val_main_c_22_apply, dstCol_apply]

/-- The wrapped source column feeding the gather of rows, at position e'. -/
theorem srcWrapH_apply (x4 : (⟨S2x1600000, .i32⟩ : BufTy).Contents (Elt Ideal)) (e' : Fin 1700000) :
    val_main_v100 (F := Ideal) x4 (ix2 e' (0 : Fin 1)) = Cert.Spec.wrapW (Cert.Spec.loopW (Cert.Spec.srcW x4) e') := by
  unfold Cert.Spec.wrapW
  rw [val_main_v100_apply, show idx_main_v100 (ix2 e' (0 : Fin 1)) = ix1 e' from funext fun a => by match a with | ⟨0, _⟩ => rfl,
    val_main_v99_apply, val_main_v96_apply, val_main_v98_apply, val_main_v95_apply, val_main_v97_apply, val_main_c_23_apply,
    val_main_c_24_apply, srcCol_apply]

/-- The weight of position e': the inverse root degrees at its source row and at its destination row, multiplied. -/
theorem weight_apply (x4 : (⟨S2x1600000, .i32⟩ : BufTy).Contents (Elt Ideal)) (e' : Fin 1700000) :
    val_main_v93 (F := Ideal) x4 (ix1 e')
      = val_main_v78 (F := Ideal) x4 (ix1 (Cert.Spec.rowOf (Cert.Spec.wrapW (Cert.Spec.loopW (Cert.Spec.srcW x4) e'))))
        * val_main_v78 (F := Ideal) x4 (ix1 (Cert.Spec.rowOf (Cert.Spec.wrapW (Cert.Spec.loopW (Cert.Spec.dstW x4) e')))) := by
  rw [val_main_v93_apply]
  unfold val_main_v85 val_main_v92
  rw [vecGatherE_read, vecGatherE_read, srcWrapD_apply, dstWrapD_apply, Ideal.mulf_def]

/-- Entry (r, o) of the dense layer's product is Cert.Spec.hmat. -/
theorem dense_apply (x3 : (⟨S100000x32, .f32⟩ : BufTy).Contents (Elt Ideal)) (x6 : (⟨S32x64, .f32⟩ : BufTy).Contents (Elt Ideal))
    (r : Fin 100000) (o : Fin 64) :
    val_main_v94 (F := Ideal) x3 x6 (ix2 r o) = Cert.Spec.hmat x3 x6 r o := by
  rw [val_main_v94_apply]
  unfold Cert.Spec.hmat
  refine Finset.sum_congr rfl fun k _ => ?_
  rw [show lidx_main_v94 (ix2 r o) k = ix2 r k from funext fun a => by match a with | ⟨0, _⟩ => rfl | ⟨1, _⟩ => rfl,
    show ridx_main_v94 (ix2 r o) k = ix2 k o from funext fun a => by match a with | ⟨0, _⟩ => rfl | ⟨1, _⟩ => rfl]

/-- The message of position e' at column o: its source row of the dense product times its weight. -/
theorem msg_apply (x3 : (⟨S100000x32, .f32⟩ : BufTy).Contents (Elt Ideal)) (x4 : (⟨S2x1600000, .i32⟩ : BufTy).Contents (Elt Ideal))
    (x6 : (⟨S32x64, .f32⟩ : BufTy).Contents (Elt Ideal)) (e' : Fin 1700000) (o : Fin 64) :
    val_main_v104 (F := Ideal) x3 x4 x6 (ix2 e' o)
      = Cert.Spec.hmat x3 x6 (Cert.Spec.rowOf (Cert.Spec.wrapW (Cert.Spec.loopW (Cert.Spec.srcW x4) e'))) o
        * (val_main_v78 (F := Ideal) x4 (ix1 (Cert.Spec.rowOf (Cert.Spec.wrapW (Cert.Spec.loopW (Cert.Spec.srcW x4) e'))))
          * val_main_v78 (F := Ideal) x4 (ix1 (Cert.Spec.rowOf (Cert.Spec.wrapW (Cert.Spec.loopW (Cert.Spec.dstW x4) e'))))) := by
  rw [val_main_v104_apply, val_main_v103_apply,
    show idx_main_v103 (ix2 e' o) = ix2 e' (0 : Fin 1) from funext fun a => by match a with | ⟨0, _⟩ => rfl | ⟨1, _⟩ => rfl,
    val_main_v102_apply, show idx_main_v102 (ix2 e' (0 : Fin 1)) = ix1 e' from funext fun a => by match a with | ⟨0, _⟩ => rfl,
    weight_apply]
  unfold val_main_v101
  rw [rowGatherE_read, srcWrapH_apply, dense_apply, Ideal.mulf_def]

/-! ## The sum over the positions, the bias and the cut at zero -/

/-- The activated entry (i, o): Cert.Spec.outR of the arguments and the inverse root degree vector, cut at zero. -/
theorem act_apply (x3 : (⟨S100000x32, .f32⟩ : BufTy).Contents (Elt Ideal)) (x4 : (⟨S2x1600000, .i32⟩ : BufTy).Contents (Elt Ideal))
    (x6 : (⟨S32x64, .f32⟩ : BufTy).Contents (Elt Ideal)) (x7 : (⟨S64, .f32⟩ : BufTy).Contents (Elt Ideal)) (i : Fin 100000) (o : Fin 64) :
    val_main_v111 (F := Ideal) x3 x4 x6 x7 (ix2 i o)
      = max (Cert.Spec.outR (Ideal.ofBits .f32 0x00000000#32) (Cert.Spec.srcW x4) (Cert.Spec.dstW x4) (Cert.Spec.hmat x3 x6)
          (fun i => val_main_v78 (F := Ideal) x4 (ix1 i)) (fun o => x7 (ix1 o)) i o) 0 := by
  unfold Cert.Spec.outR
  rw [val_main_v111_apply, val_main_v110_apply, val_main_call3_v0_apply, val_main_call3_cst_apply, val_main_v109_apply,
    show idx_main_v109 (ix2 i o) = ix2 (0 : Fin 1) o from funext fun a => by match a with | ⟨0, _⟩ => rfl | ⟨1, _⟩ => rfl,
    val_main_v108_apply, show idx_main_v108 (ix2 (0 : Fin 1) o) = ix1 o from funext fun a => by match a with | ⟨0, _⟩ => rfl,
    Ideal.maximumf_def, Ideal.addf_def, Ideal.ofBits_def, Ideal.ofBits_zero_f32]
  unfold val_main_v107
  rw [rowScatterE_read, val_main_v105_apply, val_main_cst_25_apply, Ideal.ofBits_def, Ideal.ofBits_zero_f32]
  refine congrArg (fun t => max (0 + t + x7 (ix1 o)) 0) (Finset.sum_congr rfl fun e' _ => ?_)
  rw [val_main_v106_apply, show idx_main_v106 (ix2 e' (0 : Fin 1)) = ix1 e' from funext fun a => by match a with | ⟨0, _⟩ => rfl,
    dstCol_apply, msg_apply]

/-! ## The pooling: each node's row added into its graph's row, and the count -/

/-- The pooled sums at (g, o): from the start word, the activated row entries of the nodes whose graph id word reads g. -/
theorem sums_apply (x3 : (⟨S100000x32, .f32⟩ : BufTy).Contents (Elt Ideal)) (x4 : (⟨S2x1600000, .i32⟩ : BufTy).Contents (Elt Ideal))
    (x5 : (⟨S100000, .i32⟩ : BufTy).Contents (Elt Ideal)) (x6 : (⟨S32x64, .f32⟩ : BufTy).Contents (Elt Ideal))
    (x7 : (⟨S64, .f32⟩ : BufTy).Contents (Elt Ideal)) (g : Fin 1024) (o : Fin 64) :
    val_main_v114 (F := Ideal) x3 x4 x5 x6 x7 (ix2 g o)
      = Ideal.ofBits .f32 0x00000000#32 + ∑ i : Fin 100000,
          if (x5 (ix1 i)).toInt = ((g.val : Nat) : Int) then val_main_v111 (F := Ideal) x3 x4 x6 x7 (ix2 i o) else 0 := by
  unfold val_main_v114
  rw [rowScatterG_read, val_main_v112_apply, val_main_cst_26_apply, Ideal.ofBits_def]
  refine congrArg _ (Finset.sum_congr rfl fun i _ => ?_)
  rw [val_main_v113_apply, show idx_main_v113 (ix2 i (0 : Fin 1)) = ix1 i from funext fun a => by match a with | ⟨0, _⟩ => rfl]

/-- The count at g: from the start word, the word one for every node whose graph id word reads g. -/
theorem count_apply (x5 : (⟨S100000, .i32⟩ : BufTy).Contents (Elt Ideal)) (g : Fin 1024) :
    val_main_v118 (F := Ideal) x5 (ix1 g)
      = Ideal.ofBits .f32 0x00000000#32 + ∑ i : Fin 100000,
          if (x5 (ix1 i)).toInt = ((g.val : Nat) : Int) then Ideal.ofBits .f32 0x3F800000#32 else 0 := by
  unfold val_main_v118
  rw [vecScatterG_read, val_main_v116_apply, val_main_cst_28_apply, Ideal.ofBits_def]
  refine congrArg _ (Finset.sum_congr rfl fun i _ => ?_)
  rw [val_main_v117_apply, show idx_main_v117 (ix2 i (0 : Fin 1)) = ix1 i from funext fun a => by match a with | ⟨0, _⟩ => rfl,
    val_main_v115_apply, val_main_cst_27_apply, Ideal.ofBits_def]

/-- The divisor at (g, o): the count cut below at the word one. -/
theorem divisor_apply (x5 : (⟨S100000, .i32⟩ : BufTy).Contents (Elt Ideal)) (g : Fin 1024) (o : Fin 64) :
    val_main_v122 (F := Ideal) x5 (ix2 g o)
      = max (val_main_v118 (F := Ideal) x5 (ix1 g)) (Ideal.ofBits .f32 0x3F800000#32) := by
  rw [val_main_v122_apply, show idx_main_v122 (ix2 g o) = ix2 g (0 : Fin 1) from funext fun a => by match a with | ⟨0, _⟩ => rfl | ⟨1, _⟩ => rfl,
    val_main_v121_apply, show idx_main_v121 (ix2 g (0 : Fin 1)) = ix1 g from funext fun a => by match a with | ⟨0, _⟩ => rfl,
    val_main_v120_apply, val_main_v119_apply, val_main_cst_29_apply, Ideal.maximumf_def, Ideal.ofBits_def]

/-- Cert.Spec.poolOfR read at (g, o): the pooled sums over the count cut below, with the activated entries spelt out. -/
theorem poolOfR_apply (z one : EReal) (x : (⟨2, ![100000, 32]⟩ : Shape).Idx → EReal) (ei : (⟨2, ![2, 1600000]⟩ : Shape).Idx → BitVec 32)
    (dvec : (⟨1, ![100000]⟩ : Shape).Idx → EReal) (bt : (⟨1, ![100000]⟩ : Shape).Idx → BitVec 32)
    (W : (⟨2, ![32, 64]⟩ : Shape).Idx → EReal) (b : (⟨1, ![64]⟩ : Shape).Idx → EReal) (g : Fin 1024) (o : Fin 64) :
    Cert.Spec.poolOfR z one x ei dvec bt W b (ix2 g o)
      = Ideal.div (z + ∑ i : Fin 100000, if (bt (ix1 i)).toInt = ((g.val : Nat) : Int)
            then max (Cert.Spec.outR z (Cert.Spec.srcW ei) (Cert.Spec.dstW ei) (Cert.Spec.hmat x W) (fun i => dvec (ix1 i))
              (fun o => b (ix1 o)) i o) 0 else 0)
          (max (z + ∑ i : Fin 100000, if (bt (ix1 i)).toInt = ((g.val : Nat) : Int) then one else 0) one) := rfl

/-- The second graph's pooled table is `Cert.Spec.poolOfR` of its arguments and its inverse root degree vector. -/
theorem pooled2_eq (x3 : (⟨S100000x32, .f32⟩ : BufTy).Contents (Elt Ideal)) (x4 : (⟨S2x1600000, .i32⟩ : BufTy).Contents (Elt Ideal)) (x5 : (⟨S100000, .i32⟩ : BufTy).Contents (Elt Ideal))
    (x6 : (⟨S32x64, .f32⟩ : BufTy).Contents (Elt Ideal)) (x7 : (⟨S64, .f32⟩ : BufTy).Contents (Elt Ideal)) :
    val_main_v123 (F := Ideal) x3 x4 x5 x6 x7
      = Cert.Spec.poolOfR (Ideal.ofBits .f32 0x00000000#32) (Ideal.ofBits .f32 0x3F800000#32) x3 x4 (val_main_v78 (F := Ideal) x4) x5 x6 x7 := by
  funext j
  obtain ⟨g, o, rfl⟩ : ∃ (g : Fin 1024) (o : Fin 64), j = ix2 g o := ⟨j 0, j 1, eq_ix2 j⟩
  have hsum : (∑ i : Fin 100000, if (x5 (ix1 i)).toInt = ((g.val : Nat) : Int)
        then val_main_v111 (F := Ideal) x3 x4 x6 x7 (ix2 i o) else 0)
      = ∑ i : Fin 100000, if (x5 (ix1 i)).toInt = ((g.val : Nat) : Int)
        then max (Cert.Spec.outR (Ideal.ofBits .f32 0x00000000#32) (Cert.Spec.srcW x4) (Cert.Spec.dstW x4) (Cert.Spec.hmat x3 x6)
          (fun i => val_main_v78 (F := Ideal) x4 (ix1 i)) (fun o => x7 (ix1 o)) i o) 0 else 0 :=
    Finset.sum_congr rfl fun i _ => by rw [act_apply]
  rw [val_main_v123_apply, sums_apply, divisor_apply, count_apply, Ideal.hostDivf_def, poolOfR_apply, hsum]

end Cert.ReferenceIdeal.RefPool2

end
-- ==== Proof.RefHead.lean ====
/-
  The reference program's classifier head over the two pooled tables.

  The two pooled tables are joined along the columns; then four times a matrix product, a bias row added, and (three
  times) a cut at zero; at the end 1 / (1 + exp(−y)), which at exact arithmetic is the logistic function by its
  definition.  Read at an index the whole head is `Cert.Spec.mlp` of the two tables side by side.
-/
import proofs.«408358_j51376398795254_3_alg».proof.Proof.RefReadP
import proofs.«408358_j51376398795254_3_alg».proof.Proof.Spec
import proofs.«408358_j51376398795254_3_alg».proof.Proof.LibRowTile
import proofs.«408358_j51376398795254_3_alg».proof.Proof.LibConcatPair
import proofs.«408358_j51376398795254_3_alg».proof.Proof.LibLayoutColumn
import proofs.«408358_j51376398795254_3_alg».proof.Proof.LibTrailingAxis
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Tactic

set_option maxRecDepth 16384

open scoped BigOperators

noncomputable section

namespace Cert.ReferenceIdeal.RefHead

open Idealize.ShloMosaic Idealize.ShloMosaic.TcCoe Idealize.ShloMosaic.ValueIdx Idealize.SL.Sem
open Idealize.ShloMosaic.Pipeline (Dat)
open Cert.ReferenceIdeal Cert.ReferenceIdeal.Read

section Stages

variable (x0 : (⟨S100000x32, .f32⟩ : BufTy).Contents (Elt Ideal)) (x1 : (⟨S2x1600000, .i32⟩ : BufTy).Contents (Elt Ideal)) (x2 : (⟨S100000, .i32⟩ : BufTy).Contents (Elt Ideal)) (x3 : (⟨S100000x32, .f32⟩ : BufTy).Contents (Elt Ideal)) (x4 : (⟨S2x1600000, .i32⟩ : BufTy).Contents (Elt Ideal)) (x5 : (⟨S100000, .i32⟩ : BufTy).Contents (Elt Ideal)) (x6 : (⟨S32x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x16, .f32⟩ : BufTy).Contents (Elt Ideal)) (x13 : (⟨S16, .f32⟩ : BufTy).Contents (Elt Ideal)) (x14 : (⟨S16x1, .f32⟩ : BufTy).Contents (Elt Ideal)) (x15 : (⟨S1, .f32⟩ : BufTy).Contents (Elt Ideal))

/-! ## The two pooled tables joined along the columns -/

/-- The joined table is the two pooled tables side by side. -/
theorem v124_eq :
    val_main_v124 (F := Ideal) x0 x1 x2 x3 x4 x5 x6 x7
      = Cert.Spec.sideBySide (val_main_v61 (F := Ideal) x0 x1 x2 x6 x7) (val_main_v123 (F := Ideal) x3 x4 x5 x6 x7) := by
  funext j
  obtain ⟨r, c, rfl⟩ : ∃ (r : Fin 1024) (c : Fin 128), j = ix2 r c := ⟨j 0, j 1, eq_ix2 j⟩
  unfold val_main_v124
  exact Cert.Lib.concat_cols_apply 128 1024 64 rfl _ _ _ r c

/-! ## The four layers: each generated index map is a pair of coordinates, and each layer is `Cert.Spec.dense` -/

theorem lidx125 (r : Fin 1024) (c : Fin 64) (k : Fin 128) : lidx_main_v125 (ix2 r c) k = ix2 r k :=
  funext fun a => Fin.ext (by match a with | ⟨0, _⟩ => rfl | ⟨1, _⟩ => rfl)
theorem ridx125 (r : Fin 1024) (c : Fin 64) (k : Fin 128) : ridx_main_v125 (ix2 r c) k = ix2 k c :=
  funext fun a => Fin.ext (by match a with | ⟨0, _⟩ => rfl | ⟨1, _⟩ => rfl)
theorem bidx127 (r : Fin 1024) (c : Fin 64) : idx_main_v126 (idx_main_v127 (ix2 r c)) = ix1 c :=
  funext fun a => Fin.ext (by match a with | ⟨0, _⟩ => rfl)

/-- The first layer before its cut: the joined table times the first matrix, plus the first bias row. -/
theorem v128_eq :
    val_main_v128 (F := Ideal) x0 x1 x2 x3 x4 x5 x6 x7 x8 x9
      = Cert.Spec.dense (val_main_v124 (F := Ideal) x0 x1 x2 x3 x4 x5 x6 x7) x8 (Cert.Spec.row x9) := by
  funext j
  obtain ⟨r, c, rfl⟩ : ∃ (r : Fin 1024) (c : Fin 64), j = ix2 r c := ⟨j 0, j 1, eq_ix2 j⟩
  rw [val_main_v128_apply, val_main_v125_apply, val_main_v127_apply, val_main_v126_apply]
  simp only [lidx125, ridx125, bidx127]
  rfl

/-- The first cut at zero. -/
theorem v129_eq :
    val_main_v129 (F := Ideal) x0 x1 x2 x3 x4 x5 x6 x7 x8 x9
      = Cert.Spec.relu (val_main_v128 (F := Ideal) x0 x1 x2 x3 x4 x5 x6 x7 x8 x9) := by
  funext j
  rw [val_main_v129_apply, val_main_call4_v0_apply, val_main_call4_cst_apply]
  show max _ (Ideal.ofBits .f32 0x00000000#32) = max _ 0
  rw [Ideal.ofBits_zero_f32]

theorem lidx130 (r : Fin 1024) (c : Fin 32) (k : Fin 64) : lidx_main_v130 (ix2 r c) k = ix2 r k :=
  funext fun a => Fin.ext (by match a with | ⟨0, _⟩ => rfl | ⟨1, _⟩ => rfl)
theorem ridx130 (r : Fin 1024) (c : Fin 32) (k : Fin 64) : ridx_main_v130 (ix2 r c) k = ix2 k c :=
  funext fun a => Fin.ext (by match a with | ⟨0, _⟩ => rfl | ⟨1, _⟩ => rfl)
theorem bidx132 (r : Fin 1024) (c : Fin 32) : idx_main_v131 (idx_main_v132 (ix2 r c)) = ix1 c :=
  funext fun a => Fin.ext (by match a with | ⟨0, _⟩ => rfl)

/-- The second layer before its cut. -/
theorem v133_eq :
    val_main_v133 (F := Ideal) x0 x1 x2 x3 x4 x5 x6 x7 x8 x9 x10 x11
      = Cert.Spec.dense (val_main_v129 (F := Ideal) x0 x1 x2 x3 x4 x5 x6 x7 x8 x9) x10 (Cert.Spec.row x11) := by
  funext j
  obtain ⟨r, c, rfl⟩ : ∃ (r : Fin 1024) (c : Fin 32), j = ix2 r c := ⟨j 0, j 1, eq_ix2 j⟩
  rw [val_main_v133_apply, val_main_v130_apply, val_main_v132_apply, val_main_v131_apply]
  simp only [lidx130, ridx130, bidx132]
  rfl

/-- The second cut at zero. -/
theorem v134_eq :
    val_main_v134 (F := Ideal) x0 x1 x2 x3 x4 x5 x6 x7 x8 x9 x10 x11
      = Cert.Spec.relu (val_main_v133 (F := Ideal) x0 x1 x2 x3 x4 x5 x6 x7 x8 x9 x10 x11) := by
  funext j
  rw [val_main_v134_apply, val_main_call5_v0_apply, val_main_call5_cst_apply]
  show max _ (Ideal.ofBits .f32 0x00000000#32) = max _ 0
  rw [Ideal.ofBits_zero_f32]

theorem lidx135 (r : Fin 1024) (c : Fin 16) (k : Fin 32) : lidx_main_v135 (ix2 r c) k = ix2 r k :=
  funext fun a => Fin.ext (by match a with | ⟨0, _⟩ => rfl | ⟨1, _⟩ => rfl)
theorem ridx135 (r : Fin 1024) (c : Fin 16) (k : Fin 32) : ridx_main_v135 (ix2 r c) k = ix2 k c :=
  funext fun a => Fin.ext (by match a with | ⟨0, _⟩ => rfl | ⟨1, _⟩ => rfl)
theorem bidx137 (r : Fin 1024) (c : Fin 16) : idx_main_v136 (idx_main_v137 (ix2 r c)) = ix1 c :=
  funext fun a => Fin.ext (by match a with | ⟨0, _⟩ => rfl)

/-- The third layer before its cut. -/
theorem v138_eq :
    val_main_v138 (F := Ideal) x0 x1 x2 x3 x4 x5 x6 x7 x8 x9 x10 x11 x12 x13
      = Cert.Spec.dense (val_main_v134 (F := Ideal) x0 x1 x2 x3 x4 x5 x6 x7 x8 x9 x10 x11) x12 (Cert.Spec.row x13) := by
  funext j
  obtain ⟨r, c, rfl⟩ : ∃ (r : Fin 1024) (c : Fin 16), j = ix2 r c := ⟨j 0, j 1, eq_ix2 j⟩
  rw [val_main_v138_apply, val_main_v135_apply, val_main_v137_apply, val_main_v136_apply]
  simp only [lidx135, ridx135, bidx137]
  rfl

/-- The third cut at zero. -/
theorem v139_eq :
    val_main_v139 (F := Ideal) x0 x1 x2 x3 x4 x5 x6 x7 x8 x9 x10 x11 x12 x13
      = Cert.Spec.relu (val_main_v138 (F := Ideal) x0 x1 x2 x3 x4 x5 x6 x7 x8 x9 x10 x11 x12 x13) := by
  funext j
  rw [val_main_v139_apply, val_main_call6_v0_apply, val_main_call6_cst_apply]
  show max _ (Ideal.ofBits .f32 0x00000000#32) = max _ 0
  rw [Ideal.ofBits_zero_f32]

theorem lidx140 (r : Fin 1024) (c : Fin 1) (k : Fin 16) : lidx_main_v140 (ix2 r c) k = ix2 r k :=
  funext fun a => Fin.ext (by match a with | ⟨0, _⟩ => rfl | ⟨1, _⟩ => rfl)
theorem ridx140 (r : Fin 1024) (c : Fin 1) (k : Fin 16) : ridx_main_v140 (ix2 r c) k = ix2 k c :=
  funext fun a => Fin.ext (by match a with | ⟨0, _⟩ => rfl | ⟨1, _⟩ => rfl)
theorem bidx142 (r : Fin 1024) (c : Fin 1) : idx_main_v141 (idx_main_v142 (ix2 r c)) = ix1 c :=
  funext fun a => Fin.ext (by match a with | ⟨0, _⟩ => show (0 : Nat) = c.val; omega)

/-- The fourth layer: one column. -/
theorem v143_eq :
    val_main_v143 (F := Ideal) x0 x1 x2 x3 x4 x5 x6 x7 x8 x9 x10 x11 x12 x13 x14 x15
      = Cert.Spec.dense (val_main_v139 (F := Ideal) x0 x1 x2 x3 x4 x5 x6 x7 x8 x9 x10 x11 x12 x13) x14 (Cert.Spec.row x15) := by
  funext j
  obtain ⟨r, c, rfl⟩ : ∃ (r : Fin 1024) (c : Fin 1), j = ix2 r c := ⟨j 0, j 1, eq_ix2 j⟩
  rw [val_main_v143_apply, val_main_v140_apply, val_main_v142_apply, val_main_v141_apply]
  simp only [lidx140, ridx140, bidx142]
  rfl

/-! ## The end: 1 / (1 + exp(−y)) is the logistic function -/

/-- The last four stages read at an index: the logistic function of the fourth layer's entry. -/
theorem v149_apply (j : S1024x1.Idx) :
    val_main_v149 (F := Ideal) x0 x1 x2 x3 x4 x5 x6 x7 x8 x9 x10 x11 x12 x13 x14 x15 j
      = Ideal.logistic (val_main_v143 (F := Ideal) x0 x1 x2 x3 x4 x5 x6 x7 x8 x9 x10 x11 x12 x13 x14 x15 j) := by
  rw [val_main_v149_apply, val_main_v148_apply, val_main_cst_31_apply, val_main_v147_apply, val_main_v146_apply,
    val_main_cst_30_apply, val_main_v145_apply, val_main_v144_apply]
  simp only [Ideal.hostDivf_def, Ideal.hostUnary_exp_def, Ideal.hostNegf_def, Ideal.negf_def, Ideal.addf_def, Ideal.ofBits_def,
    Ideal.ofBits_one_f32]
  rfl

end Stages

/-- The reference's result is the classifier of its two pooled tables side by side and the eight parameters. -/
theorem head_eq (x0 : (⟨S100000x32, .f32⟩ : BufTy).Contents (Elt Ideal)) (x1 : (⟨S2x1600000, .i32⟩ : BufTy).Contents (Elt Ideal)) (x2 : (⟨S100000, .i32⟩ : BufTy).Contents (Elt Ideal)) (x3 : (⟨S100000x32, .f32⟩ : BufTy).Contents (Elt Ideal)) (x4 : (⟨S2x1600000, .i32⟩ : BufTy).Contents (Elt Ideal)) (x5 : (⟨S100000, .i32⟩ : BufTy).Contents (Elt Ideal)) (x6 : (⟨S32x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64x32, .f32⟩ : BufTy).Contents (Elt Ideal)) (x11 : (⟨S32, .f32⟩ : BufTy).Contents (Elt Ideal)) (x12 : (⟨S32x16, .f32⟩ : BufTy).Contents (Elt Ideal)) (x13 : (⟨S16, .f32⟩ : BufTy).Contents (Elt Ideal)) (x14 : (⟨S16x1, .f32⟩ : BufTy).Contents (Elt Ideal)) (x15 : (⟨S1, .f32⟩ : BufTy).Contents (Elt Ideal)) :
    val_main_v149 (F := Ideal) x0 x1 x2 x3 x4 x5 x6 x7 x8 x9 x10 x11 x12 x13 x14 x15
      = Cert.Spec.mlp (Cert.Spec.sideBySide (val_main_v61 (F := Ideal) x0 x1 x2 x6 x7) (val_main_v123 (F := Ideal) x3 x4 x5 x6 x7))
          x8 (Cert.Spec.row x9) x10 (Cert.Spec.row x11) x12 (Cert.Spec.row x13) x14 (Cert.Spec.row x15) := by
  funext j
  rw [v149_apply, v143_eq, v139_eq, v138_eq, v134_eq, v133_eq, v129_eq, v128_eq, v124_eq]
  rfl

end Cert.ReferenceIdeal.RefHead

end
-- ==== Proof.Bridge.lean ====
/-
  The two ways of pooling a graph convolution give one table, over the extended reals, when x, W and the inverse root
  degrees are real numbers.

  Convolution.  Fix a node i and an output o.  Summing at once over the 1700000 positions (the 1600000 edges, then the
  node numbers as self-loops) whose destination word reads i, each term is h(src) · (d(src) · d(dst)); a position that
  lands at i has destination row i, and the only self-loop position that lands at i is i's own, whose source row is i.
  So the sum is  ∑_{edges into i} h(src) · (d(src) · d(i))  +  h(i) · (d(i) · d(i)),  which for real entries is
  ( ∑_{edges into i} h(src) · d(src)  +  h(i) · d(i) ) · d(i)  by distributivity: scale the rows first, sum, add the
  node's own scaled row, scale once more.  The start value of both sums is the float word zero, which is 0.

  Pooling.  A 0/1 factor times any extended real is that number or 0, so the 0/1 matrix product over a half's 50000
  nodes is the sum of the rows of the half's nodes in graph g; the two halves together are all 100000 nodes; and a
  graph id word equals the column number g < 1024 exactly when it reads g as a signed integer.  The counts are the same
  sums of ones, the float word one being 1.
-/
import proofs.«408358_j51376398795254_3_alg».proof.Proof.Spec
import proofs.«408358_j51376398795254_3_alg».proof.Proof.LibPropagate
import proofs.«408358_j51376398795254_3_alg».proof.Proof.LibTileSum
import Idealize.ShloMosaic.PureOps.Ideal.Laws
import Idealize.ShloMosaic.Lib.IdealHost
import Mathlib.Data.EReal.Operations
import Mathlib.Algebra.BigOperators.Ring.Finset
import Mathlib.Algebra.BigOperators.Fin
import Mathlib.Tactic.Ring

open scoped BigOperators

noncomputable section

namespace Cert.Bridge

open Idealize.ShloMosaic Idealize.ShloMosaic.ValueIdx Cert.Spec
open Cert.Lib Cert.Lib.Propagate

/-! ## Index words -/

/-- A natural below 2³¹ written as a 32-bit word reads back as itself, signed. -/
theorem toInt_ofNat_small (j : Nat) (hj : j < 2147483648) : (BitVec.ofNat 32 j).toInt = (j : Int) := by
  rw [BitVec.toInt_eq_toNat_cond, BitVec.toNat_ofNat]
  have h1 : j % 2 ^ 32 = j := Nat.mod_eq_of_lt (by omega)
  rw [h1, if_pos (by omega)]

/-- A word that is not negative is left alone by the wrap. -/
theorem wrapW_of_nonneg (w : BitVec 32) (h : 0 ≤ w.toInt) : wrapW w = w := by
  have hs : BitVec.slt w 0#32 = false := by
    rw [BitVec.slt, BitVec.toInt_zero]
    exact decide_eq_false (by omega)
  unfold wrapW Scalar.select IntOp.cmpi
  simp only [hs]
  rw [if_neg (by decide)]

/-- A word that reads the node number i, signed, looks up row i. -/
theorem rowOf_of_toInt (w : BitVec 32) (i : Fin 100000) (h : w.toInt = ((i.val : Nat) : Int)) : rowOf w = i := by
  apply Fin.ext
  show min w.toInt.toNat 99999 = i.val
  rw [h, Int.toNat_natCast]
  have := i.isLt
  omega

/-- A word that reads the node number i, signed, is not wrapped and looks up row i. -/
theorem rowOf_wrapW_of_toInt (w : BitVec 32) (i : Fin 100000) (h : w.toInt = ((i.val : Nat) : Int)) :
    rowOf (wrapW w) = i := by
  rw [wrapW_of_nonneg w (by rw [h]; exact Int.natCast_nonneg _)]
  exact rowOf_of_toInt w i h

/-- The word of a node number looks up that node's row. -/
theorem rowOf_wrapW_ofNat (j : Fin 100000) : rowOf (wrapW (BitVec.ofNat 32 j.val)) = j :=
  rowOf_wrapW_of_toInt _ j (toInt_ofNat_small j.val (by have := j.isLt; omega))

/-- A word is the column number g < 1024 exactly when it reads g, signed. -/
theorem eq_ofNat_iff_toInt (w : BitVec 32) (g : Fin 1024) :
    w = BitVec.ofNat 32 g.val ↔ w.toInt = ((g.val : Nat) : Int) := by
  have hg : (BitVec.ofNat 32 g.val).toInt = ((g.val : Nat) : Int) :=
    toInt_ofNat_small g.val (by have := g.isLt; omega)
  constructor
  · intro h; rw [h, hg]
  · intro h; exact BitVec.eq_of_toInt_eq (by rw [h, hg])

/-! ## The 1700000 positions: the edges, then the self-loops -/

/-- Position e < 1600000 of the lengthened column is edge e. -/
theorem loopW_edge (c : Fin 1600000 → BitVec 32) (e : Fin 1600000) (h : e.val < 1700000) :
    loopW c ⟨e.val, h⟩ = c e := by
  unfold loopW
  rw [dif_pos e.isLt]

/-- Position 1600000 + j of the lengthened column is the word j. -/
theorem loopW_self (c : Fin 1600000 → BitVec 32) (j : Fin 100000) (h : 1600000 + j.val < 1700000) :
    loopW c ⟨1600000 + j.val, h⟩ = BitVec.ofNat 32 j.val := by
  unfold loopW
  rw [dif_neg (by show ¬ (1600000 + j.val < 1600000); omega)]
  show BitVec.ofNat 32 (1600000 + j.val - 1600000) = BitVec.ofNat 32 j.val
  rw [Nat.add_sub_cancel_left]

/-- A sum over the 1700000 positions is the sum over the 1600000 edges plus the sum over the 100000 self-loops. -/
theorem sum_positions {M : Type} [AddCommMonoid M] (f : Fin 1700000 → M) :
    ∑ e' : Fin 1700000, f e'
      = (∑ e : Fin 1600000, f ⟨e.val, by have := e.isLt; omega⟩)
        + ∑ j : Fin 100000, f ⟨1600000 + j.val, by have := j.isLt; omega⟩ :=
  Fin.sum_univ_add (a := 1600000) (b := 100000) f

/-! ## The two halves of the nodes -/

/-- The nodes of half 0 followed by the nodes of half 1 are all 100000 nodes. -/
theorem sum_halves {M : Type} [AddCommMonoid M] (F : Fin 100000 → M) :
    (∑ r : Fin 50000, F (nodeRow 0 r)) + (∑ r : Fin 50000, F (nodeRow 1 r)) = ∑ i : Fin 100000, F i := by
  rw [Fin.sum_univ_add (a := 50000) (b := 50000) F]
  refine congrArg₂ (· + ·) ?_ ?_
  · refine Finset.sum_congr rfl fun r _ => congrArg F (Fin.ext ?_)
    show (0 : Fin 2).val * 50000 + r.val = r.val
    simp
  · refine Finset.sum_congr rfl fun r _ => congrArg F (Fin.ext ?_)
    show (1 : Fin 2).val * 50000 + r.val = 50000 + r.val
    simp

/-! ## A 0/1 factor -/

/-- The 0/1 entry times any extended real y is y where the graph id word reads g, and 0 elsewhere. -/
theorem oh_mul (w : BitVec 32) (g : Fin 1024) (y : EReal) :
    oh w g * y = if w.toInt = ((g.val : Nat) : Int) then y else 0 :=
  indicator_mul (eq_ofNat_iff_toInt w g) y

/-- The 0/1 matrix product over the two halves is the sum, over all nodes whose graph id word reads g, of the node's
    entry. -/
theorem pool_halves (w : Fin 100000 → BitVec 32) (y : Fin 100000 → EReal) (g : Fin 1024) :
    (∑ r : Fin 50000, oh (w (nodeRow 0 r)) g * y (nodeRow 0 r))
        + (∑ r : Fin 50000, oh (w (nodeRow 1 r)) g * y (nodeRow 1 r))
      = ∑ i : Fin 100000, if (w i).toInt = ((g.val : Nat) : Int) then y i else 0 := by
  rw [← sum_halves (fun i => if (w i).toInt = ((g.val : Nat) : Int) then y i else 0)]
  exact congrArg₂ (· + ·) (Finset.sum_congr rfl fun r _ => oh_mul _ g _) (Finset.sum_congr rfl fun r _ => oh_mul _ g _)

/-! ## The convolution at a node -/

/-- The coercion from ℝ commutes with a choice between a real and 0. -/
theorem coe_ite_zero (c : Prop) [Decidable c] (r : ℝ) :
    ((if c then r else 0 : ℝ) : EReal) = if c then (r : EReal) else 0 := by
  by_cases h : c
  · rw [if_pos h, if_pos h]
  · rw [if_neg h, if_neg h, EReal.coe_zero]

/-- Over ℝ: the weight di taken out of every selected term and out of the node's own term. -/
theorem conv_real {E : Type} [Fintype E] (c : E → Prop) [DecidablePred c] (u v : E → ℝ) (hi di : ℝ) :
    0 + ((∑ e, if c e then u e * (v e * di) else 0) + hi * (di * di))
      = ((0 + ∑ e, if c e then u e * v e else 0) + hi * di) * di := by
  rw [zero_add, zero_add, add_mul, Finset.sum_mul]
  refine congrArg₂ (· + ·) (Finset.sum_congr rfl fun e _ => ?_) (by ring)
  by_cases h : c e
  · rw [if_pos h, if_pos h]; ring
  · rw [if_neg h, if_neg h, zero_mul]

/-- The same over the extended reals when every entry is a real number: choose the real witnesses, move the coercion
    outside both sides, and use the identity over ℝ. -/
theorem conv_ereal {E : Type} [Fintype E] (c : E → Prop) [DecidablePred c] (U V : E → EReal) (Hi Di : EReal)
    (hU : ∀ e, ∃ r : ℝ, U e = (r : EReal)) (hV : ∀ e, ∃ r : ℝ, V e = (r : EReal))
    (hHi : ∃ r : ℝ, Hi = (r : EReal)) (hDi : ∃ r : ℝ, Di = (r : EReal)) :
    0 + ((∑ e, if c e then U e * (V e * Di) else 0) + Hi * (Di * Di))
      = ((0 + ∑ e, if c e then U e * V e else 0) + Hi * Di) * Di := by
  choose u hu using hU
  choose v hv using hV
  obtain ⟨hi, rfl⟩ := hHi
  obtain ⟨di, rfl⟩ := hDi
  have hl : (0 : EReal) + ((∑ e, if c e then U e * (V e * (di : EReal)) else 0) + (hi : EReal) * ((di : EReal) * (di : EReal)))
      = ((0 + ((∑ e, if c e then u e * (v e * di) else 0) + hi * (di * di)) : ℝ) : EReal) := by
    simp only [hu, hv, EReal.coe_add, EReal.coe_mul, EReal.coe_zero, coe_finsetSum, coe_ite_zero]
  have hr : (((0 : EReal) + ∑ e, if c e then U e * V e else 0) + (hi : EReal) * (di : EReal)) * (di : EReal)
      = ((((0 + ∑ e, if c e then u e * v e else 0) + hi * di) * di : ℝ) : EReal) := by
    simp only [hu, hv, EReal.coe_add, EReal.coe_mul, EReal.coe_zero, coe_finsetSum, coe_ite_zero]
  rw [hl, hr, conv_real]

/-- An edge position's term: where the destination word reads i, the destination row is i. -/
theorem term_edge (h : Fin 100000 → Fin 64 → EReal) (d : Fin 100000 → EReal) (sW dW : Fin 1600000 → BitVec 32)
    (i : Fin 100000) (o : Fin 64) (e : Fin 1600000) (he : e.val < 1700000) :
    (if (loopW dW ⟨e.val, he⟩).toInt = ((i.val : Nat) : Int)
        then h (rowOf (wrapW (loopW sW ⟨e.val, he⟩))) o
          * (d (rowOf (wrapW (loopW sW ⟨e.val, he⟩))) * d (rowOf (wrapW (loopW dW ⟨e.val, he⟩)))) else 0)
      = if (dW e).toInt = ((i.val : Nat) : Int)
          then h (rowOf (wrapW (sW e))) o * (d (rowOf (wrapW (sW e))) * d i) else 0 := by
  rw [loopW_edge, loopW_edge]
  by_cases hc : (dW e).toInt = ((i.val : Nat) : Int)
  · rw [if_pos hc, if_pos hc, rowOf_wrapW_of_toInt (dW e) i hc]
  · rw [if_neg hc, if_neg hc]

/-- A self-loop position's term: the word j reads i only for j = i, and both its rows are j. -/
theorem term_self (h : Fin 100000 → Fin 64 → EReal) (d : Fin 100000 → EReal) (sW dW : Fin 1600000 → BitVec 32)
    (i : Fin 100000) (o : Fin 64) (j : Fin 100000) (hj : 1600000 + j.val < 1700000) :
    (if (loopW dW ⟨1600000 + j.val, hj⟩).toInt = ((i.val : Nat) : Int)
        then h (rowOf (wrapW (loopW sW ⟨1600000 + j.val, hj⟩))) o
          * (d (rowOf (wrapW (loopW sW ⟨1600000 + j.val, hj⟩))) * d (rowOf (wrapW (loopW dW ⟨1600000 + j.val, hj⟩)))) else 0)
      = if j = i then h j o * (d j * d j) else 0 := by
  rw [loopW_self, loopW_self, rowOf_wrapW_ofNat, toInt_ofNat_small j.val (by have := j.isLt; omega)]
  by_cases hji : j = i
  · rw [if_pos hji, if_pos (by rw [hji])]
  · rw [if_neg hji, if_neg (fun hc => hji (Fin.ext (by omega)))]

/-- The convolution's sum over the 1700000 positions at once, with both inverse root degrees on every term, is the sum
    of the scaled rows over the edges plus the node's own scaled row, scaled once more. -/
theorem conv_node (h : Fin 100000 → Fin 64 → EReal) (d : Fin 100000 → EReal) (sW dW : Fin 1600000 → BitVec 32)
    (hh : ∀ i o, ∃ r : ℝ, h i o = (r : EReal)) (hd : ∀ i, ∃ r : ℝ, d i = (r : EReal)) (i : Fin 100000) (o : Fin 64) :
    (0 : EReal) + ∑ e' : Fin 1700000, (if (loopW dW e').toInt = ((i.val : Nat) : Int)
        then h (rowOf (wrapW (loopW sW e'))) o
          * (d (rowOf (wrapW (loopW sW e'))) * d (rowOf (wrapW (loopW dW e')))) else 0)
      = ((0 + ∑ e : Fin 1600000, if (dW e).toInt = ((i.val : Nat) : Int)
            then h (rowOf (wrapW (sW e))) o * d (rowOf (wrapW (sW e))) else 0) + h i o * d i) * d i := by
  rw [sum_positions]
  simp only [term_edge, term_self]
  rw [Finset.sum_ite_eq', if_pos (Finset.mem_univ i)]
  exact conv_ereal (fun e => (dW e).toInt = ((i.val : Nat) : Int)) (fun e => h (rowOf (wrapW (sW e))) o)
    (fun e => d (rowOf (wrapW (sW e)))) (h i o) (d i) (fun e => hh _ o) (fun e => hd _) (hh i o) (hd i)

/-! ## The two poolings -/

/-- Entry (i, o) of x · W is a real number when x and W have real entries. -/
theorem hmat_real (x : (⟨2, ![100000, 32]⟩ : Shape).Idx → EReal) (W : (⟨2, ![32, 64]⟩ : Shape).Idx → EReal)
    (hx : ∀ j, ∃ r : ℝ, x j = (r : EReal)) (hW : ∀ j, ∃ r : ℝ, W j = (r : EReal)) (i : Fin 100000) (o : Fin 64) :
    ∃ r : ℝ, hmat x W i o = (r : EReal) :=
  sum_real _ fun k => mul_real (hx (ix2 i k)) (hW (ix2 k o))

/-- The activated entry of the program that scales the rows first is the at-once convolution cut at zero. The bias is
    any extended real: it is added to two equal numbers. -/
theorem act_eq (x : (⟨2, ![100000, 32]⟩ : Shape).Idx → EReal) (ei : (⟨2, ![2, 1600000]⟩ : Shape).Idx → BitVec 32)
    (dvec : (⟨1, ![100000]⟩ : Shape).Idx → EReal) (W : (⟨2, ![32, 64]⟩ : Shape).Idx → EReal)
    (b : (⟨1, ![64]⟩ : Shape).Idx → EReal)
    (hx : ∀ j, ∃ r : ℝ, x j = (r : EReal)) (hW : ∀ j, ∃ r : ℝ, W j = (r : EReal)) (hd : ∀ j, ∃ r : ℝ, dvec j = (r : EReal))
    (i : Fin 100000) (o : Fin 64) :
    act (aggK 0 (srcW ei) (dstW ei) (feat x W (col dvec))) (feat x W (col dvec)) (col dvec) (row b) i o
      = max (outR 0 (srcW ei) (dstW ei) (hmat x W) (fun i => dvec (ix1 i)) (fun o => b (ix1 o)) i o) 0 :=
  congrArg (fun t => max (t + b (ix1 o)) 0)
    (conv_node (hmat x W) (fun i => dvec (ix1 i)) (srcW ei) (dstW ei) (hmat_real x W hx hW) (fun i => hd (ix1 i)) i o).symm

/-- The two poolings agree when x, W and the inverse root degrees are real; the bias and the graph ids are arbitrary. -/
theorem pool_bridge (x : (⟨2, ![100000, 32]⟩ : Shape).Idx → EReal) (ei : (⟨2, ![2, 1600000]⟩ : Shape).Idx → BitVec 32)
    (dvec : (⟨1, ![100000]⟩ : Shape).Idx → EReal) (bt : (⟨1, ![100000]⟩ : Shape).Idx → BitVec 32)
    (W : (⟨2, ![32, 64]⟩ : Shape).Idx → EReal) (b : (⟨1, ![64]⟩ : Shape).Idx → EReal)
    (hx : ∀ j, ∃ r : ℝ, x j = (r : EReal)) (hW : ∀ j, ∃ r : ℝ, W j = (r : EReal)) (hd : ∀ j, ∃ r : ℝ, dvec j = (r : EReal)) :
    poolOfK (Ideal.ofBits .f32 0x00000000#32) (Ideal.ofBits .f32 0x3F800000#32) x ei dvec bt W b = poolOfR (Ideal.ofBits .f32 0x00000000#32) (Ideal.ofBits .f32 0x3F800000#32) x ei dvec bt W b := by
  rw [Ideal.ofBits_zero_f32, Ideal.ofBits_one_f32]
  funext j
  obtain ⟨g, o, rfl⟩ : ∃ (g : Fin 1024) (o : Fin 64), j = ix2 g o := ⟨j 0, j 1, eq_ix2 j⟩
  have hnum :
      (∑ r : Fin 50000, oh (bt (ix1 (nodeRow 0 r))) g
          * act (aggK 0 (srcW ei) (dstW ei) (feat x W (col dvec))) (feat x W (col dvec)) (col dvec) (row b) (nodeRow 0 r) o)
        + (∑ r : Fin 50000, oh (bt (ix1 (nodeRow 1 r))) g
          * act (aggK 0 (srcW ei) (dstW ei) (feat x W (col dvec))) (feat x W (col dvec)) (col dvec) (row b) (nodeRow 1 r) o)
      = 0 + ∑ i : Fin 100000, if (bt (ix1 i)).toInt = ((g.val : Nat) : Int)
          then max (outR 0 (srcW ei) (dstW ei) (hmat x W) (fun i => dvec (ix1 i)) (fun o => b (ix1 o)) i o) 0 else 0 := by
    rw [zero_add, pool_halves (fun i => bt (ix1 i))
      (fun i => act (aggK 0 (srcW ei) (dstW ei) (feat x W (col dvec))) (feat x W (col dvec)) (col dvec) (row b) i o) g]
    exact Finset.sum_congr rfl fun i _ => by rw [act_eq x ei dvec W b hx hW hd i o]
  have hden :
      (∑ r : Fin 50000, oh (bt (ix1 (nodeRow 0 r))) g * 1) + (∑ r : Fin 50000, oh (bt (ix1 (nodeRow 1 r))) g * 1)
      = 0 + ∑ i : Fin 100000, if (bt (ix1 i)).toInt = ((g.val : Nat) : Int) then (1 : EReal) else 0 := by
    rw [zero_add]
    exact pool_halves (fun i => bt (ix1 i)) (fun _ => 1) g
  unfold poolOfK poolOfR pooledK pooledR poolSums poolCounts
  exact congrArg₂ (fun a c => Ideal.div a (max c 1)) hnum hden

end Cert.Bridge

end
-- ==== Proof.Finite.lean ====
/-
  From the precondition to real numbers.  The precondition is the conjunction, over the float argument arrays, of
  "every entry's absolute value is below +∞"; its first three conjuncts are the two feature tables and the convolution's
  weight table.  An extended real whose absolute value is below +∞ is a real number.
-/
import proofs.«408358_j51376398795254_3_alg».proof.Pre_finite_inputs
import proofs.«408358_j51376398795254_3_alg».proof.Proof.Gen.Pre_finite_inputs
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

/-- The result of the precondition has one index. -/
instance : Subsingleton S_.Idx := ⟨fun a b => funext fun d => d.elim0⟩

/-- An extended real whose absolute value max x (−x) is below the float word +∞ is a real number: +∞ and −∞ both have
    absolute value +∞. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  have hlt : max x (-x) < ⊤ := by
    by_contra hc
    simp [Ideal.cmp, hc] at h
  induction x using EReal.rec with
  | bot => simp at hlt
  | coe r => exact ⟨r, rfl⟩
  | top => simp at hlt

/-- Under the precondition the two feature tables and the convolution's weight table have real entries. -/
theorem real_of_pre (x0 : FVec Ideal S100000x32 .f32) (x1 : IVec S2x1600000 32) (x2 : IVec S100000 32) (x3 : FVec Ideal S100000x32 .f32) (x4 : IVec S2x1600000 32) (x5 : IVec S100000 32) (x6 : FVec Ideal S32x64 .f32) (x7 : FVec Ideal S64 .f32) (x8 : FVec Ideal S128x64 .f32) (x9 : FVec Ideal S64 .f32) (x10 : FVec Ideal S64x32 .f32) (x11 : FVec Ideal S32 .f32) (x12 : FVec Ideal S32x16 .f32) (x13 : FVec Ideal S16 .f32) (x14 : FVec Ideal S16x1 .f32) (x15 : FVec Ideal S1 .f32)
    (h : Cert.Pre_finite_inputs.fn (F := Ideal) x0 x1 x2 x3 x4 x5 x6 x7 x8 x9 x10 x11 x12 x13 x14 x15 = (fun _ => 1#1)) :
    (∀ j, ∃ r : ℝ, x0 j = (r : EReal)) ∧ (∀ j, ∃ r : ℝ, x3 j = (r : EReal)) ∧ (∀ j, ∃ r : ℝ, x6 j = (r : EReal)) := by
  have e := congrFun h ValueIdx.ix0
  dsimp only [fn, fn_part1, fn_part2, fn_part3] at e
  have andi_ix : ∀ (a b : IVec S_ 1), andi a b ValueIdx.ix0 = IntOp.andi (a ValueIdx.ix0) (b ValueIdx.ix0) := fun _ _ => rfl
  simp only [andi_ix, IntOp.andi_eq_one] at e
  obtain ⟨⟨⟨⟨⟨⟨⟨⟨⟨⟨⟨h0, h3⟩, h6⟩, -⟩, -⟩, -⟩, -⟩, -⟩, -⟩, -⟩, -⟩, -⟩ := e
  refine ⟨fun j => ?_, fun j => ?_, fun j => ?_⟩
  · exact real_of_abs_lt _ (Host.reduce_andi_all _ _ _ _ ValueIdx.ix0 h0 j)
  · exact real_of_abs_lt _ (Host.reduce_andi_all _ _ _ _ ValueIdx.ix0 h3 j)
  · exact real_of_abs_lt _ (Host.reduce_andi_all _ _ _ _ ValueIdx.ix0 h6 j)

end Cert.Finite

end
-- ==== Proof.lean ====
/-
  The certificate of the graph-pair classifier: a tiled, fused program against its plain reference, over the extended reals.

  Both programs encode two graphs (100000 nodes, 1600000 edges each) by one graph convolution with a shared dense layer,
  cut the result at zero, average it over each of 1024 graphs, join the two tables and run a four-layer classifier with a
  logistic output.  The reference sums every edge and self-loop term h_src · (d_src · d_dst) at once; the tiled program
  scales the rows of the dense layer by d first, sums the scaled source rows over the real edges only, adds the node's own
  scaled row, scales by d once more, and pools with a 0/1 matrix product in two halves.  The frames are the generated ones
  (the reference's is its run with the result dropped); nothing was rewritten by the idealization, so it is preserved
  trivially; and the two results agree because

    • the kernel program's result, read back through its fourteen segment boundaries, is the classifier of the two graphs'
      pooled tables in the "scale, sum, add, scale" form (`KFold.kernel_result`),
    • the reference's result stage is the classifier of its two pooled tables in the "sum at once" form
      (`RefHead.head_eq`, `RefPool.pooled1_eq`, `RefPool2.pooled2_eq`),
    • both programs compute the inverse root degrees by the same operations on the same edge table (`dinv_agree`), and they are
      real numbers (`RefPool.dinv1_real`),
    • under the precondition x and W are real (`Finite.real_of_pre`), so the two forms are one number by distributivity
      (`Bridge.pool_bridge`).
-/
import proofs.«408358_j51376398795254_3_alg».proof.Defs
import proofs.«408358_j51376398795254_3_alg».proof.Proof.Gen.Kernel
import proofs.«408358_j51376398795254_3_alg».proof.Proof.Gen.Kernel.Frame
import proofs.«408358_j51376398795254_3_alg».proof.Proof.Gen.KernelIdeal
import proofs.«408358_j51376398795254_3_alg».proof.Proof.Gen.KernelIdeal.Frame
import proofs.«408358_j51376398795254_3_alg».proof.Proof.Gen.ReferenceIdeal
import proofs.«408358_j51376398795254_3_alg».proof.Proof.Gen.Pre_finite_inputs
import proofs.«408358_j51376398795254_3_alg».proof.Proof.KRun
import proofs.«408358_j51376398795254_3_alg».proof.Proof.KFold
import proofs.«408358_j51376398795254_3_alg».proof.Proof.RefRunV
import proofs.«408358_j51376398795254_3_alg».proof.Proof.RefPool
import proofs.«408358_j51376398795254_3_alg».proof.Proof.RefPool2
import proofs.«408358_j51376398795254_3_alg».proof.Proof.RefHead
import proofs.«408358_j51376398795254_3_alg».proof.Proof.Bridge
import proofs.«408358_j51376398795254_3_alg».proof.Proof.Finite
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunV.run (F := Ideal) m ρ)

theorem preserves : Cert.preserves_Kernel_KernelIdeal := trivial

/-- The two programs compute the first graph's inverse root degrees by the same operations on the edge table. -/
theorem dinv_agree1 (ei : (⟨Cert.KernelIdeal.S2x1600000, .i32⟩ : BufTy).Contents (Elt Ideal)) :
    Cert.KernelIdeal.Fold.dinvK ei = Cert.ReferenceIdeal.Read.val_main_v16 (F := Ideal) ei := rfl

/-- And the second graph's. -/
theorem dinv_agree2 (ei : (⟨Cert.KernelIdeal.S2x1600000, .i32⟩ : BufTy).Contents (Elt Ideal)) :
    Cert.KernelIdeal.Fold.dinvK ei = Cert.ReferenceIdeal.Read.val_main_v78 (F := Ideal) ei := rfl

/-- The two idealized programs end with equal results: both are the classifier of the two pooled tables, and the pooled
    tables agree by distributivity over the reals. -/
theorem algebraic : Cert.algebraic_KernelIdeal_ReferenceIdeal := by
  intro m ρ m' ρ' hpre hagree
  refine ⟨fun c => Cert.KernelIdeal.Gen.W14 (F := Ideal) m ρ c (Proc.devRef .tc Cert.KernelIdeal.main_v101),
    Cert.KernelIdeal.Run.run_result (F := Ideal) m ρ, ?_⟩
  refine (θ_run Cert.ReferenceIdeal.defs _ _).mono (fun _ h c => ⟨(h c).1.trans ?_, (h c).2⟩)
    (Cert.ReferenceIdeal.RunV.run (F := Ideal) m' ρ')
  obtain ⟨a0, a1, a2, a3, a4, a5, a6, a7, a8, a9, a10, a11, a12, a13, a14, a15⟩ := hagree c
  obtain ⟨hx0, hx3, hW⟩ := Cert.Finite.real_of_pre _ _ _ _ _ _ _ _ _ _ _ _ _ _ _ _ (hpre c)
  beta_reduce
  rw [Cert.ReferenceIdeal.RefHead.head_eq, Cert.ReferenceIdeal.RefPool.pooled1_eq,
    Cert.ReferenceIdeal.RefPool2.pooled2_eq, a0, a1, a2, a3, a4, a5, a6, a7, a8, a9, a10, a11, a12, a13, a14, a15,
    Cert.KernelIdeal.Fold.kernel_result, dinv_agree1, dinv_agree2,
    Cert.Bridge.pool_bridge _ _ _ _ _ _ hx0 hW (Cert.ReferenceIdeal.RefPool.dinv1_real _),
    Cert.Bridge.pool_bridge _ _ _ _ _ _ hx3 hW (Cert.ReferenceIdeal.RefPool2.dinv2_real _)]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
